-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  IdealRules.sign_bit.Statement Cert.KernelIdeal.S8000 .f32
  ∧ IdealRules.sign_bit.Statement Cert.KernelIdeal.S8000 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v47_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v47_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x72 : Shape := ⟨2, ![50000, 72]⟩
abbrev S50000x4 : Shape := ⟨2, ![50000, 4]⟩
abbrev S50000x8 : Shape := ⟨2, ![50000, 8]⟩
abbrev S2x1600000 : Shape := ⟨2, ![2, 1600000]⟩
abbrev S146x72 : Shape := ⟨2, ![146, 72]⟩
abbrev S72 : Shape := ⟨1, ![72]⟩
abbrev S72x72 : Shape := ⟨2, ![72, 72]⟩
abbrev S152x72 : Shape := ⟨2, ![152, 72]⟩
abbrev S72x1 : Shape := ⟨2, ![72, 1]⟩
abbrev S1 : Shape := ⟨1, ![1]⟩
abbrev S_ : Shape := ⟨0, ![]⟩

class Facts : Prop where
  bcast_S_S50000x72 : S_.BroadcastsInDim S50000x72 (![] : Fin 0 → Fin S50000x72.rank)
  reducesTo_S50000x72_S_d0_1 : S50000x72.ReducesTo [0, 1] S_
  h_S_ : 0 < S_.numel
  bcast_S_S50000x4 : S_.BroadcastsInDim S50000x4 (![] : Fin 0 → Fin S50000x4.rank)
  reducesTo_S50000x4_S_d0_1 : S50000x4.ReducesTo [0, 1] S_
  bcast_S_S50000x8 : S_.BroadcastsInDim S50000x8 (![] : Fin 0 → Fin S50000x8.rank)
  reducesTo_S50000x8_S_d0_1 : S50000x8.ReducesTo [0, 1] S_
  bcast_S_S146x72 : S_.BroadcastsInDim S146x72 (![] : Fin 0 → Fin S146x72.rank)
  reducesTo_S146x72_S_d0_1 : S146x72.ReducesTo [0, 1] S_
  bcast_S_S72 : S_.BroadcastsInDim S72 (![] : Fin 0 → Fin S72.rank)
  reducesTo_S72_S_d0 : S72.ReducesTo [0] S_
  bcast_S_S72x72 : S_.BroadcastsInDim S72x72 (![] : Fin 0 → Fin S72x72.rank)
  reducesTo_S72x72_S_d0_1 : S72x72.ReducesTo [0, 1] S_
  bcast_S_S152x72 : S_.BroadcastsInDim S152x72 (![] : Fin 0 → Fin S152x72.rank)
  reducesTo_S152x72_S_d0_1 : S152x72.ReducesTo [0, 1] S_
  bcast_S_S72x1 : S_.BroadcastsInDim S72x1 (![] : Fin 0 → Fin S72x1.rank)
  reducesTo_S72x1_S_d0_1 : S72x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S1 .f32) (main_v83 : IVec S_ 1) (main_v84 : FVec F S72x1 .f32) (main_cst_32 : FVec F S_ .f32) : IVec S_ 1 :=
  let main_v85 : FVec F S72x1 .f32 := broadcastInDim S72x1 ![] bcast_S_S72x1 main_cst_32
  let main_v86 : IVec S72x1 1 := cmpf .olt main_v84 main_v85
  let main_c_33 : IVec S_ 1 := constantI S_ 1 1#1
  let main_v87 : IVec S_ 1 := (fun x v => Host.reduce IntOp.andi x v reducesTo_S72x1_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg15 : FVec F S72x72 .f32) (main_arg16 : FVec F S72 .f32) (main_arg17 : FVec F S72x1 .f32) (main_arg18 : FVec F S72x1 .f32) (main_arg19 : FVec F S1 .f32) (main_v63 : IVec S_ 1) (main_v67 : IVec S_ 1) : IVec S_ 1 :=
  let main_v68 : IVec S_ 1 := andi main_v63 main_v67
  let main_v69 : FVec F S72x72 .f32 := Host.absf main_arg15
  let main_cst_26 : FVec F S_ .f32 := constant S_ .f32 0x7F800000#32
  let main_v70 : FVec F S72x72 .f32 := broadcastInDim S72x72 ![] bcast_S_S72x72 main_cst_26
  let main_v71 : IVec S72x72 1 := cmpf .olt main_v69 main_v70
  let main_c_27 : IVec S_ 1 := constantI S_ 1 1#1
  let main_v72 : IVec S_ 1 := (fun x v => Host.reduce IntOp.andi x v reducesTo_S72x72_S_d0_1 h_S_) main_v71 main_c_27
  let main_v73 : IVec S_ 1 := andi main_v68 main_v72
  let main_v74 : FVec F S72 .f32 := Host.absf main_arg16
  let main_cst_28 : FVec F S_ .f32 := constant S_ .f32 0x7F800000#32
  let main_v75 : FVec F S72 .f32 := broadcastInDim S72 ![] bcast_S_S72 main_cst_28
  let main_v76 : IVec S72 1 := cmpf .olt main_v74 main_v75
  let main_c_29 : IVec S_ 1 := constantI S_ 1 1#1
  let main_v77 : IVec S_ 1 := (fun x v => Host.reduce IntOp.andi x v reducesTo_S72_S_d0 h_S_) main_v76 main_c_29
  let main_v78 : IVec S_ 1 := andi main_v73 main_v77
  let main_v79 : FVec F S72x1 .f32 := Host.absf main_arg17
  let main_cst_30 : FVec F S_ .f32 := constant S_ .f32 0x7F800000#32
  let main_v80 : FVec F S72x1 .f32 := broadcastInDim S72x1 ![] bcast_S_S72x1 main_cst_30
  let main_v81 : IVec S72x1 1 := cmpf .olt main_v79 main_v80
  let main_c_31 : IVec S_ 1 := constantI S_ 1 1#1
  let main_v82 : IVec S_ 1 := (fun x v => Host.reduce IntOp.andi x v reducesTo_S72x1_S_d0_1 h_S_) main_v81 main_c_31
  let main_v83 : IVec S_ 1 := andi main_v78 main_v82
  let main_v84 : FVec F S72x1 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S72 .f32) (main_arg13 : FVec F S72x72 .f32) (main_arg14 : FVec F S72 .f32) (main_arg15 : FVec F S72x72 .f32) (main_arg16 : FVec F S72 .f32) (main_arg17 : FVec F S72x1 .f32) (main_arg18 : FVec F S72x1 .f32) (main_arg19 : FVec F S1 .f32) (main_v48 : IVec S_ 1) (main_v49 : FVec F S72 .f32) (main_v50 : FVec F S72 .f32) : IVec S_ 1 :=
  let main_v51 : IVec S72 1 := cmpf .olt main_v49 main_v50
  let main_c_19 : IVec S_ 1 := constantI S_ 1 1#1
  let main_v52 : IVec S_ 1 := (fun x v => Host.reduce IntOp.andi x v reducesTo_S72_S_d0 h_S_) main_v51 main_c_19
  let main_v53 : IVec S_ 1 := andi main_v48 main_v52
  let main_v54 : FVec F S72 .f32 := Host.absf main_arg12
  let main_cst_20 : FVec F S_ .f32 := constant S_ .f32 0x7F800000#32
  let main_v55 : FVec F S72 .f32 := broadcastInDim S72 ![] bcast_S_S72 main_cst_20
  let main_v56 : IVec S72 1 := cmpf .olt main_v54 main_v55
  let main_c_21 : IVec S_ 1 := constantI S_ 1 1#1
  let main_v57 : IVec S_ 1 := (fun x v => Host.reduce IntOp.andi x v reducesTo_S72_S_d0 h_S_) main_v56 main_c_21
  let main_v58 : IVec S_ 1 := andi main_v53 main_v57
  let main_v59 : FVec F S72x72 .f32 := Host.absf main_arg13
  let main_cst_22 : FVec F S_ .f32 := constant S_ .f32 0x7F800000#32
  let main_v60 : FVec F S72x72 .f32 := broadcastInDim S72x72 ![] bcast_S_S72x72 main_cst_22
  let main_v61 : IVec S72x72 1 := cmpf .olt main_v59 main_v60
  let main_c_23 : IVec S_ 1 := constantI S_ 1 1#1
  let main_v62 : IVec S_ 1 := (fun x v => Host.reduce IntOp.andi x v reducesTo_S72x72_S_d0_1 h_S_) main_v61 main_c_23
  let main_v63 : IVec S_ 1 := andi main_v58 main_v62
  let main_v64 : FVec F S72 .f32 := Host.absf main_arg14
  let main_cst_24 : FVec F S_ .f32 := constant S_ .f32 0x7F800000#32
  let main_v65 : FVec F S72 .f32 := broadcastInDim S72 ![] bcast_S_S72 main_cst_24
  let main_v66 : IVec S72 1 := cmpf .olt main_v64 main_v65
  let main_c_25 : IVec S_ 1 := constantI S_ 1 1#1
  let main_v67 : IVec S_ 1 := (fun x v => Host.reduce IntOp.andi x v reducesTo_S72_S_d0 h_S_) main_v66 main_c_25
  fn_part4 (F := F) main_arg15 main_arg16 main_arg17 main_arg18 main_arg19 main_v63 main_v67

def fn_part2 {F : FTy → Type} [FloatOps F] (main_arg8 : FVec F S72 .f32) (main_arg9 : FVec F S152x72 .f32) (main_arg10 : FVec F S72 .f32) (main_arg11 : FVec F S72 .f32) (main_arg12 : FVec F S72 .f32) (main_arg13 : FVec F S72x72 .f32) (main_arg14 : FVec F S72 .f32) (main_arg15 : FVec F S72x72 .f32) (main_arg16 : FVec F S72 .f32) (main_arg17 : FVec F S72x1 .f32) (main_arg18 : FVec F S72x1 .f32) (main_arg19 : FVec F S1 .f32) (main_v33 : IVec S_ 1) : IVec S_ 1 :=
  let main_v34 : FVec F S72 .f32 := Host.absf main_arg8
  let main_cst_12 : FVec F S_ .f32 := constant S_ .f32 0x7F800000#32
  let main_v35 : FVec F S72 .f32 := broadcastInDim S72 ![] bcast_S_S72 main_cst_12
  let main_v36 : IVec S72 1 := cmpf .olt main_v34 main_v35
  let main_c_13 : IVec S_ 1 := constantI S_ 1 1#1
  let main_v37 : IVec S_ 1 := (fun x v => Host.reduce IntOp.andi x v reducesTo_S72_S_d0 h_S_) main_v36 main_c_13
  let main_v38 : IVec S_ 1 := andi main_v33 main_v37
  let main_v39 : FVec F S152x72 .f32 := Host.absf main_arg9
  let main_cst_14 : FVec F S_ .f32 := constant S_ .f32 0x7F800000#32
  let main_v40 : FVec F S152x72 .f32 := broadcastInDim S152x72 ![] bcast_S_S152x72 main_cst_14
  let main_v41 : IVec S152x72 1 := cmpf .olt main_v39 main_v40
  let main_c_15 : IVec S_ 1 := constantI S_ 1 1#1
  let main_v42 : IVec S_ 1 := (fun x v => Host.reduce IntOp.andi x v reducesTo_S152x72_S_d0_1 h_S_) main_v41 main_c_15
  let main_v43 : IVec S_ 1 := andi main_v38 main_v42
  let main_v44 : FVec F S72 .f32 := Host.absf main_arg10
  let main_cst_16 : FVec F S_ .f32 := constant S_ .f32 0x7F800000#32
  let main_v45 : FVec F S72 .f32 := broadcastInDim S72 ![] bcast_S_S72 main_cst_16
  let main_v46 : IVec S72 1 := cmpf .olt main_v44 main_v45
  let main_c_17 : IVec S_ 1 := constantI S_ 1 1#1
  let main_v47 : IVec S_ 1 := (fun x v => Host.reduce IntOp.andi x v reducesTo_S72_S_d0 h_S_) main_v46 main_c_17
  let main_v48 : IVec S_ 1 := andi main_v43 main_v47
  let main_v49 : FVec F S72 .f32 := Host.absf main_arg11
  let main_cst_18 : FVec F S_ .f32 := constant S_ .f32 0x7F800000#32
  let main_v50 : FVec F S72 .f32 := broadcastInDim S72 ![] bcast_S_S72 main_cst_18
  fn_part3 (F := F) main_arg12 main_arg13 main_arg14 main_arg15 main_arg16 main_arg17 main_arg18 main_arg19 main_v48 main_v49 main_v50

def fn_part1 {F : FTy → Type} [FloatOps F] (main_arg5 : FVec F S72 .f32) (main_arg6 : FVec F S72 .f32) (main_arg7 : FVec F S72x72 .f32) (main_arg8 : FVec F S72 .f32) (main_arg9 : FVec F S152x72 .f32) (main_arg10 : FVec F S72 .f32) (main_arg11 : FVec F S72 .f32) (main_arg12 : FVec F S72 .f32) (main_arg13 : FVec F S72x72 .f32) (main_arg14 : FVec F S72 .f32) (main_arg15 : FVec F S72x72 .f32) (main_arg16 : FVec F S72 .f32) (main_arg17 : FVec F S72x1 .f32) (main_arg18 : FVec F S72x1 .f32) (main_arg19 : FVec F S1 .f32) (main_v13 : IVec S_ 1) (main_v16 : IVec S146x72 1) : IVec S_ 1 :=
  let main_c_5 : IVec S_ 1 := constantI S_ 1 1#1
  let main_v17 : IVec S_ 1 := (fun x v => Host.reduce IntOp.andi x v reducesTo_S146x72_S_d0_1 h_S_) main_v16 main_c_5
  let main_v18 : IVec S_ 1 := andi main_v13 main_v17
  let main_v19 : FVec F S72 .f32 := Host.absf main_arg5
  let main_cst_6 : FVec F S_ .f32 := constant S_ .f32 0x7F800000#32
  let main_v20 : FVec F S72 .f32 := broadcastInDim S72 ![] bcast_S_S72 main_cst_6
  let main_v21 : IVec S72 1 := cmpf .olt main_v19 main_v20
  let main_c_7 : IVec S_ 1 := constantI S_ 1 1#1
  let main_v22 : IVec S_ 1 := (fun x v => Host.reduce IntOp.andi x v reducesTo_S72_S_d0 h_S_) main_v21 main_c_7
  let main_v23 : IVec S_ 1 := andi main_v18 main_v22
  let main_v24 : FVec F S72 .f32 := Host.absf main_arg6
  let main_cst_8 : FVec F S_ .f32 := constant S_ .f32 0x7F800000#32
  let main_v25 : FVec F S72 .f32 := broadcastInDim S72 ![] bcast_S_S72 main_cst_8
  let main_v26 : IVec S72 1 := cmpf .olt main_v24 main_v25
  let main_c_9 : IVec S_ 1 := constantI S_ 1 1#1
  let main_v27 : IVec S_ 1 := (fun x v => Host.reduce IntOp.andi x v reducesTo_S72_S_d0 h_S_) main_v26 main_c_9
  let main_v28 : IVec S_ 1 := andi main_v23 main_v27
  let main_v29 : FVec F S72x72 .f32 := Host.absf main_arg7
  let main_cst_10 : FVec F S_ .f32 := constant S_ .f32 0x7F800000#32
  let main_v30 : FVec F S72x72 .f32 := broadcastInDim S72x72 ![] bcast_S_S72x72 main_cst_10
  let main_v31 : IVec S72x72 1 := cmpf .olt main_v29 main_v30
  let main_c_11 : IVec S_ 1 := constantI S_ 1 1#1
  let main_v32 : IVec S_ 1 := (fun x v => Host.reduce IntOp.andi x v reducesTo_S72x72_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x72 .f32) (main_arg1 : FVec F S50000x4 .f32) (main_arg2 : FVec F S50000x8 .f32) (main_arg3 : IVec S2x1600000 32) (main_arg4 : FVec F S146x72 .f32) (main_arg5 : FVec F S72 .f32) (main_arg6 : FVec F S72 .f32) (main_arg7 : FVec F S72x72 .f32) (main_arg8 : FVec F S72 .f32) (main_arg9 : FVec F S152x72 .f32) (main_arg10 : FVec F S72 .f32) (main_arg11 : FVec F S72 .f32) (main_arg12 : FVec F S72 .f32) (main_arg13 : FVec F S72x72 .f32) (main_arg14 : FVec F S72 .f32) (main_arg15 : FVec F S72x72 .f32) (main_arg16 : FVec F S72 .f32) (main_arg17 : FVec F S72x1 .f32) (main_arg18 : FVec F S72x1 .f32) (main_arg19 : FVec F S1 .f32) : IVec S_ 1 :=
  let main_v0 : FVec F S50000x72 .f32 := Host.absf main_arg0
  let main_cst : FVec F S_ .f32 := constant S_ .f32 0x7F800000#32
  let main_v1 : FVec F S50000x72 .f32 := broadcastInDim S50000x72 ![] bcast_S_S50000x72 main_cst
  let main_v2 : IVec S50000x72 1 := cmpf .olt main_v0 main_v1
  let main_c : IVec S_ 1 := constantI S_ 1 1#1
  let main_v3 : IVec S_ 1 := (fun x v => Host.reduce IntOp.andi x v reducesTo_S50000x72_S_d0_1 h_S_) main_v2 main_c
  let main_v4 : FVec F S50000x4 .f32 := Host.absf main_arg1
  let main_cst_0 : FVec F S_ .f32 := constant S_ .f32 0x7F800000#32
  let main_v5 : FVec F S50000x4 .f32 := broadcastInDim S50000x4 ![] bcast_S_S50000x4 main_cst_0
  let main_v6 : IVec S50000x4 1 := cmpf .olt main_v4 main_v5
  let main_c_1 : IVec S_ 1 := constantI S_ 1 1#1
  let main_v7 : IVec S_ 1 := (fun x v => Host.reduce IntOp.andi x v reducesTo_S50000x4_S_d0_1 h_S_) main_v6 main_c_1
  let main_v8 : IVec S_ 1 := andi main_v3 main_v7
  let main_v9 : FVec F S50000x8 .f32 := Host.absf main_arg2
  let main_cst_2 : FVec F S_ .f32 := constant S_ .f32 0x7F800000#32
  let main_v10 : FVec F S50000x8 .f32 := broadcastInDim S50000x8 ![] bcast_S_S50000x8 main_cst_2
  let main_v11 : IVec S50000x8 1 := cmpf .olt main_v9 main_v10
  let main_c_3 : IVec S_ 1 := constantI S_ 1 1#1
  let main_v12 : IVec S_ 1 := (fun x v => Host.reduce IntOp.andi x v reducesTo_S50000x8_S_d0_1 h_S_) main_v11 main_c_3
  let main_v13 : IVec S_ 1 := andi main_v8 main_v12
  let main_v14 : FVec F S146x72 .f32 := Host.absf main_arg4
  let main_cst_4 : FVec F S_ .f32 := constant S_ .f32 0x7F800000#32
  let main_v15 : FVec F S146x72 .f32 := broadcastInDim S146x72 ![] bcast_S_S146x72 main_cst_4
  let main_v16 : IVec S146x72 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x72 : Shape := ⟨2, ![50000, 72]⟩
abbrev S50000x4 : Shape := ⟨2, ![50000, 4]⟩
abbrev S50000x8 : Shape := ⟨2, ![50000, 8]⟩
abbrev S2x1600000 : Shape := ⟨2, ![2, 1600000]⟩
abbrev S146x72 : Shape := ⟨2, ![146, 72]⟩
abbrev S72 : Shape := ⟨1, ![72]⟩
abbrev S72x72 : Shape := ⟨2, ![72, 72]⟩
abbrev S152x72 : Shape := ⟨2, ![152, 72]⟩
abbrev S72x1 : Shape := ⟨2, ![72, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x72 : Shape := ⟨2, ![1600000, 72]⟩
abbrev S1600000x4 : Shape := ⟨2, ![1600000, 4]⟩
abbrev S1x72 : Shape := ⟨2, ![1, 72]⟩
abbrev S8000x72 : Shape := ⟨2, ![8000, 72]⟩
abbrev S8000x4 : Shape := ⟨2, ![8000, 4]⟩
abbrev S8000x1 : Shape := ⟨2, ![8000, 1]⟩
abbrev S8000 : Shape := ⟨1, ![8000]⟩
abbrev S1x1 : Shape := ⟨2, ![1, 1]⟩
abbrev S50000 : Shape := ⟨1, ![50000]⟩
abbrev S50000x1 : Shape := ⟨2, ![50000, 1]⟩
abbrev S8x72 : Shape := ⟨2, ![8, 72]⟩
abbrev S5000x72 : Shape := ⟨2, ![5000, 72]⟩
abbrev S5000x8 : Shape := ⟨2, ![5000, 8]⟩

abbrev nBuf : Space → Nat
  | .hbm => 166
  | .vmem => 59
  | .smem => 0
  | _ => 0

abbrev hbmTy0_0 (i : Nat) : BufTy := match i % 128 with
  | 0 => ⟨S50000x72, .f32⟩
  | 1 => ⟨S50000x4, .f32⟩
  | 2 => ⟨S50000x8, .f32⟩
  | 3 => ⟨S2x1600000, .i32⟩
  | 4 => ⟨S146x72, .f32⟩
  | 5 => ⟨S72, .f32⟩
  | 6 => ⟨S72, .f32⟩
  | 7 => ⟨S72x72, .f32⟩
  | 8 => ⟨S72, .f32⟩
  | 9 => ⟨S152x72, .f32⟩
  | 10 => ⟨S72, .f32⟩
  | 11 => ⟨S72, .f32⟩
  | 12 => ⟨S72, .f32⟩
  | 13 => ⟨S72x72, .f32⟩
  | 14 => ⟨S72, .f32⟩
  | 15 => ⟨S72x72, .f32⟩
  | 16 => ⟨S72, .f32⟩
  | 17 => ⟨S72x1, .f32⟩
  | 18 => ⟨S72x1, .f32⟩
  | 19 => ⟨S1, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x72, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x72, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x4, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x4, .f32⟩
  | 60 => ⟨S72x72, .f32⟩
  | 61 => ⟨S72x72, .f32⟩
  | 62 => ⟨S1x72, .f32⟩
  | 63 => ⟨S1x72, .f32⟩
  | 64 => ⟨S1600000x72, .f32⟩
  | 65 => ⟨S1600000x4, .f32⟩
  | 66 => ⟨S_, .f32⟩
  | 67 => ⟨S72, .f32⟩
  | 68 => ⟨S1x72, .f32⟩
  | 69 => ⟨S_, .f32⟩
  | 70 => ⟨S1x72, .f32⟩
  | 71 => ⟨S1x72, .f32⟩
  | 72 => ⟨S_, .i32⟩
  | 73 => ⟨S_, .f32⟩
  | 74 => ⟨S72, .f32⟩
  | 75 => ⟨S1x72, .f32⟩
  | 76 => ⟨S_, .f32⟩
  | 77 => ⟨S1x72, .f32⟩
  | 78 => ⟨S1x72, .f32⟩
  | 79 => ⟨S1600000x72, .f32⟩
  | 80 => ⟨S1600000x72, .f32⟩
  | 81 => ⟨S1600000x72, .f32⟩
  | 82 => ⟨S_, .f32⟩
  | 83 => ⟨S_, .f32⟩
  | 84 => ⟨S_, .f32⟩
  | 85 => ⟨S_, .f32⟩
  | 86 => ⟨S72, .f32⟩
  | 87 => ⟨S1x72, .f32⟩
  | 88 => ⟨S1x72, .f32⟩
  | 89 => ⟨S1x72, .f32⟩
  | 90 => ⟨S_, .f32⟩
  | 91 => ⟨S_, .i1⟩
  | 92 => ⟨S_, .f32⟩
  | 93 => ⟨S_, .f32⟩
  | 94 => ⟨S1x72, .f32⟩
  | 95 => ⟨S1x72, .f32⟩
  | 96 => ⟨S1x72, .f32⟩
  | 97 => ⟨S1x72, .f32⟩
  | 98 => ⟨S1x72, .f32⟩
  | 99 => ⟨S1x1, .f32⟩
  | 100 => ⟨S1x72, .f32⟩
  | 101 => ⟨S1600000x72, .f32⟩
  | 102 => ⟨S1600000x4, .f32⟩
  | 103 => ⟨S_, .f32⟩
  | 104 => ⟨S50000x72, .f32⟩
  | 105 => ⟨S1600000x1, .i32⟩
  | 106 => ⟨S50000x72, .f32⟩
  | 107 => ⟨S_, .f32⟩
  | 108 => ⟨S50000x4, .f32⟩
  | 109 => ⟨S1600000x1, .i32⟩
  | 110 => ⟨S50000x4, .f32⟩
  | 111 => ⟨S_, .f32⟩
  | 112 => ⟨S1600000, .f32⟩
  | 113 => ⟨S_, .f32⟩
  | 114 => ⟨S50000, .f32⟩
  | 115 => ⟨S1600000x1, .i32⟩
  | 116 => ⟨S50000, .f32⟩
  | 117 => ⟨S_, .f32⟩
  | 118 => ⟨S50000, .f32⟩
  | 119 => ⟨S50000, .f32⟩
  | 120 => ⟨S50000x1, .f32⟩
  | 121 => ⟨S50000x4, .f32⟩
  | 122 => ⟨S50000x4, .f32⟩
  | 123 => ⟨S_, .f32⟩
  | 124 => ⟨S50000x4, .f32⟩
  | 125 => ⟨S50000x4, .f32⟩
  | 126 => ⟨S50000x4, .f32⟩
  | 127 => ⟨S72x72, .f32⟩
  | _ => ⟨S50000x72, .f32⟩

abbrev hbmTy0_1 (i : Nat) : BufTy := match i % 128 with
  | 0 => ⟨S72x72, .f32⟩
  | 1 => ⟨S8x72, .f32⟩
  | 2 => ⟨S1x72, .f32⟩
  | 3 => ⟨S50000x72, .f32⟩
  | 4 => ⟨S_, .f32⟩
  | 5 => ⟨S72, .f32⟩
  | 6 => ⟨S1x72, .f32⟩
  | 7 => ⟨S_, .f32⟩
  | 8 => ⟨S1x72, .f32⟩
  | 9 => ⟨S1x72, .f32⟩
  | 10 => ⟨S_, .i32⟩
  | 11 => ⟨S_, .f32⟩
  | 12 => ⟨S72, .f32⟩
  | 13 => ⟨S1x72, .f32⟩
  | 14 => ⟨S_, .f32⟩
  | 15 => ⟨S1x72, .f32⟩
  | 16 => ⟨S1x72, .f32⟩
  | 17 => ⟨S50000x72, .f32⟩
  | 18 => ⟨S50000x72, .f32⟩
  | 19 => ⟨S50000x72, .f32⟩
  | 20 => ⟨S_, .f32⟩
  | 21 => ⟨S_, .f32⟩
  | 22 => ⟨S_, .f32⟩
  | 23 => ⟨S_, .f32⟩
  | 24 => ⟨S72, .f32⟩
  | 25 => ⟨S1x72, .f32⟩
  | 26 => ⟨S1x72, .f32⟩
  | 27 => ⟨S1x72, .f32⟩
  | 28 => ⟨S_, .f32⟩
  | 29 => ⟨S_, .i1⟩
  | 30 => ⟨S_, .f32⟩
  | 31 => ⟨S_, .f32⟩
  | 32 => ⟨S1x72, .f32⟩
  | 33 => ⟨S1x72, .f32⟩
  | 34 => ⟨S1x72, .f32⟩
  | 35 => ⟨S1x72, .f32⟩
  | 36 => ⟨S1x72, .f32⟩
  | 37 => ⟨S50000x72, .f32⟩
  | _ => ⟨S50000x72, .f32⟩

abbrev hbmTy (i : Nat) : BufTy := match i / 128 with
  | 0 => hbmTy0_0 i
  | 1 => hbmTy0_1 i
  | _ => ⟨S50000x72, .f32⟩

abbrev bufTy : (tb : Table) → Fin (tcTables nBuf tb) → BufTy
  | .hbm, ⟨i, _⟩ => hbmTy i
  | .local _ .vmem, ⟨0, _⟩ => ⟨S8000x72, .f32⟩
  | .local _ .vmem, ⟨1, _⟩ => ⟨S8000x72, .f32⟩
  | .local _ .vmem, ⟨2, _⟩ => ⟨S8000x72, .f32⟩
  | .local _ .vmem, ⟨3, _⟩ => ⟨S8000x72, .f32⟩
  | .local _ .vmem, ⟨4, _⟩ => ⟨S8000x4, .f32⟩
  | .local _ .vmem, ⟨5, _⟩ => ⟨S8000x4, .f32⟩
  | .local _ .vmem, ⟨6, _⟩ => ⟨S8000x4, .f32⟩
  | .local _ .vmem, ⟨7, _⟩ => ⟨S8000x4, .f32⟩
  | .local _ .vmem, ⟨8, _⟩ => ⟨S72x72, .f32⟩
  | .local _ .vmem, ⟨9, _⟩ => ⟨S72x72, .f32⟩
  | .local _ .vmem, ⟨10, _⟩ => ⟨S1x72, .f32⟩
  | .local _ .vmem, ⟨11, _⟩ => ⟨S1x72, .f32⟩
  | .local _ .vmem, ⟨12, _⟩ => ⟨S8000x72, .f32⟩
  | .local _ .vmem, ⟨13, _⟩ => ⟨S8000x72, .f32⟩
  | .local _ .vmem, ⟨14, _⟩ => ⟨S8000x4, .f32⟩
  | .local _ .vmem, ⟨15, _⟩ => ⟨S8000x4, .f32⟩
  | .local _ .vmem, ⟨16, _⟩ => ⟨S8000x72, .f32⟩
  | .local _ .vmem, ⟨17, _⟩ => ⟨S8000x72, .f32⟩
  | .local _ .vmem, ⟨18, _⟩ => ⟨S8000x4, .f32⟩
  | .local _ .vmem, ⟨19, _⟩ => ⟨S8000x4, .f32⟩
  | .local _ .vmem, ⟨20, _⟩ => ⟨S1x72, .f32⟩
  | .local _ .vmem, ⟨21, _⟩ => ⟨S1x72, .f32⟩
  | .local _ .vmem, ⟨22, _⟩ => ⟨S1x72, .f32⟩
  | .local _ .vmem, ⟨23, _⟩ => ⟨S1x72, .f32⟩
  | .local _ .vmem, ⟨24, _⟩ => ⟨S72x72, .f32⟩
  | .local _ .vmem, ⟨25, _⟩ => ⟨S1x72, .f32⟩
  | .local _ .vmem, ⟨26, _⟩ => ⟨S72x1, .f32⟩
  | .local _ .vmem, ⟨27, _⟩ => ⟨S1x1, .f32⟩
  | .local _ .vmem, ⟨28, _⟩ => ⟨S72x72, .f32⟩
  | .local _ .vmem, ⟨29, _⟩ => ⟨S1x72, .f32⟩
  | .local _ .vmem, ⟨30, _⟩ => ⟨S72x1, .f32⟩
  | .local _ .vmem, ⟨31, _⟩ => ⟨S8000x72, .f32⟩
  | .local _ .vmem, ⟨32, _⟩ => ⟨S8000x72, .f32⟩
  | .local _ .vmem, ⟨33, _⟩ => ⟨S8000x4, .f32⟩
  | .local _ .vmem, ⟨34, _⟩ => ⟨S8000x4, .f32⟩
  | .local _ .vmem, ⟨35, _⟩ => ⟨S5000x72, .f32⟩
  | .local _ .vmem, ⟨36, _⟩ => ⟨S5000x72, .f32⟩
  | .local _ .vmem, ⟨37, _⟩ => ⟨S5000x72, .f32⟩
  | .local _ .vmem, ⟨38, _⟩ => ⟨S5000x72, .f32⟩
  | .local _ .vmem, ⟨39, _⟩ => ⟨S5000x8, .f32⟩
  | .local _ .vmem, ⟨40, _⟩ => ⟨S5000x8, .f32⟩
  | .local _ .vmem, ⟨41, _⟩ => ⟨S72x72, .f32⟩
  | .local _ .vmem, ⟨42, _⟩ => ⟨S72x72, .f32⟩
  | .local _ .vmem, ⟨43, _⟩ => ⟨S8x72, .f32⟩
  | .local _ .vmem, ⟨44, _⟩ => ⟨S1x72, .f32⟩
  | .local _ .vmem, ⟨45, _⟩ => ⟨S5000x72, .f32⟩
  | .local _ .vmem, ⟨46, _⟩ => ⟨S5000x72, .f32⟩
  | .local _ .vmem, ⟨47, _⟩ => ⟨S5000x72, .f32⟩
  | .local _ .vmem, ⟨48, _⟩ => ⟨S5000x72, .f32⟩
  | .local _ .vmem, ⟨49, _⟩ => ⟨S5000x72, .f32⟩
  | .local _ .vmem, ⟨50, _⟩ => ⟨S5000x72, .f32⟩
  | .local _ .vmem, ⟨51, _⟩ => ⟨S1x72, .f32⟩
  | .local _ .vmem, ⟨52, _⟩ => ⟨S1x72, .f32⟩
  | .local _ .vmem, ⟨53, _⟩ => ⟨S1x72, .f32⟩
  | .local _ .vmem, ⟨54, _⟩ => ⟨S1x72, .f32⟩
  | .local _ .vmem, ⟨55, _⟩ => ⟨S72x72, .f32⟩
  | .local _ .vmem, ⟨56, _⟩ => ⟨S1x72, .f32⟩
  | .local _ .vmem, ⟨57, _⟩ => ⟨S5000x72, .f32⟩
  | .local _ .vmem, ⟨58, _⟩ => ⟨S5000x72, .f32⟩
  | _, _ => ⟨S50000x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_c_6 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36_0 : Ref sig .tc := ⟨.hbm, 64, rfl⟩
abbrev main_v36_1 : Ref sig .tc := ⟨.hbm, 65, rfl⟩
abbrev main_cst : Ref sig .tc := ⟨.hbm, 66, rfl⟩
abbrev main_v37 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_c_8 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_cst_0 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_cst_1 : Ref sig .tc := ⟨.hbm, 83, rfl⟩
abbrev main_call0_v8 : Ref sig .tc := ⟨.hbm, 84, rfl⟩
abbrev main_call0_cst_2 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_v12 : Ref sig .tc := ⟨.hbm, 89, rfl⟩
abbrev main_call0_cst_3 : Ref sig .tc := ⟨.hbm, 90, rfl⟩
abbrev main_call0_v13 : Ref sig .tc := ⟨.hbm, 91, rfl⟩
abbrev main_call0_cst_4 : Ref sig .tc := ⟨.hbm, 92, rfl⟩
abbrev main_call0_call0_v0 : Ref sig .tc := ⟨.hbm, 93, rfl⟩
abbrev main_call0_call0_v1 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47_0 : Ref sig .tc := ⟨.hbm, 101, rfl⟩
abbrev main_v47_1 : Ref sig .tc := ⟨.hbm, 102, rfl⟩
abbrev main_cst_9 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_cst_10 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_11 : Ref sig .tc := ⟨.hbm, 111, rfl⟩
abbrev main_v54 : Ref sig .tc := ⟨.hbm, 112, rfl⟩
abbrev main_cst_12 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_cst_13 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_cst_14 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_cst_15 : Ref sig .tc := ⟨.hbm, 132, rfl⟩
abbrev main_v71 : Ref sig .tc := ⟨.hbm, 133, rfl⟩
abbrev main_v72 : Ref sig .tc := ⟨.hbm, 134, rfl⟩
abbrev main_cst_16 : Ref sig .tc := ⟨.hbm, 135, rfl⟩
abbrev main_v73 : Ref sig .tc := ⟨.hbm, 136, rfl⟩
abbrev main_v74 : Ref sig .tc := ⟨.hbm, 137, rfl⟩
abbrev main_c_17 : Ref sig .tc := ⟨.hbm, 138, rfl⟩
abbrev main_call1_cst : Ref sig .tc := ⟨.hbm, 139, rfl⟩
abbrev main_call1_v0 : Ref sig .tc := ⟨.hbm, 140, rfl⟩
abbrev main_call1_v1 : Ref sig .tc := ⟨.hbm, 141, rfl⟩
abbrev main_call1_cst_0 : Ref sig .tc := ⟨.hbm, 142, rfl⟩
abbrev main_call1_v2 : Ref sig .tc := ⟨.hbm, 143, rfl⟩
abbrev main_call1_v3 : Ref sig .tc := ⟨.hbm, 144, rfl⟩
abbrev main_call1_v4 : Ref sig .tc := ⟨.hbm, 145, rfl⟩
abbrev main_call1_v5 : Ref sig .tc := ⟨.hbm, 146, rfl⟩
abbrev main_call1_v6 : Ref sig .tc := ⟨.hbm, 147, rfl⟩
abbrev main_call1_v7 : Ref sig .tc := ⟨.hbm, 148, rfl⟩
abbrev main_call1_cst_1 : Ref sig .tc := ⟨.hbm, 149, rfl⟩
abbrev main_call1_v8 : Ref sig .tc := ⟨.hbm, 150, rfl⟩
abbrev main_call1_cst_2 : Ref sig .tc := ⟨.hbm, 151, rfl⟩
abbrev main_call1_v9 : Ref sig .tc := ⟨.hbm, 152, rfl⟩
abbrev main_call1_v10 : Ref sig .tc := ⟨.hbm, 153, rfl⟩
abbrev main_call1_v11 : Ref sig .tc := ⟨.hbm, 154, rfl⟩
abbrev main_call1_v12 : Ref sig .tc := ⟨.hbm, 155, rfl⟩
abbrev main_call1_cst_3 : Ref sig .tc := ⟨.hbm, 156, rfl⟩
abbrev main_call1_v13 : Ref sig .tc := ⟨.hbm, 157, rfl⟩
abbrev main_call1_cst_4 : Ref sig .tc := ⟨.hbm, 158, rfl⟩
abbrev main_call1_call0_v0 : Ref sig .tc := ⟨.hbm, 159, rfl⟩
abbrev main_call1_call0_v1 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg13_1 : Ref sig .tc := ⟨.vmem, 32, rfl⟩
abbrev cc1_stg14_0 : Ref sig .tc := ⟨.vmem, 33, rfl⟩
abbrev cc1_stg14_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg7_1 : Ref sig .tc := ⟨.vmem, 46, rfl⟩
abbrev cc3_stg0_0 : Ref sig .tc := ⟨.vmem, 47, rfl⟩
abbrev cc3_stg0_1 : Ref sig .tc := ⟨.vmem, 48, rfl⟩
abbrev cc3_stg1_0 : Ref sig .tc := ⟨.vmem, 49, rfl⟩
abbrev cc3_stg1_1 : Ref sig .tc := ⟨.vmem, 50, rfl⟩
abbrev cc3_stg2_0 : Ref sig .tc := ⟨.vmem, 51, rfl⟩
abbrev cc3_stg3_0 : Ref sig .tc := ⟨.vmem, 52, rfl⟩
abbrev cc3_stg4_0 : Ref sig .tc := ⟨.vmem, 53, rfl⟩
abbrev cc3_stg5_0 : Ref sig .tc := ⟨.vmem, 54, rfl⟩
abbrev cc3_stg6_0 : Ref sig .tc := ⟨.vmem, 55, rfl⟩
abbrev cc3_stg7_0 : Ref sig .tc := ⟨.vmem, 56, rfl⟩
abbrev cc3_stg8_0 : Ref sig .tc := ⟨.vmem, 57, rfl⟩
abbrev cc3_stg8_1 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem13_1 : DmaSem sig := 32
abbrev cc1_sem14_0 : DmaSem sig := 33
abbrev cc1_sem14_1 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc2_sem3_0 : DmaSem sig := 41
abbrev cc2_sem4_0 : DmaSem sig := 42
abbrev cc2_sem5_0 : DmaSem sig := 43
abbrev cc2_sem6_0 : DmaSem sig := 44
abbrev cc2_sem7_0 : DmaSem sig := 45
abbrev cc2_sem7_1 : DmaSem sig := 46
abbrev cc3_sem0_0 : DmaSem sig := 47
abbrev cc3_sem0_1 : DmaSem sig := 48
abbrev cc3_sem1_0 : DmaSem sig := 49
abbrev cc3_sem1_1 : DmaSem sig := 50
abbrev cc3_sem2_0 : DmaSem sig := 51
abbrev cc3_sem3_0 : DmaSem sig := 52
abbrev cc3_sem4_0 : DmaSem sig := 53
abbrev cc3_sem5_0 : DmaSem sig := 54
abbrev cc3_sem6_0 : DmaSem sig := 55
abbrev cc3_sem7_0 : DmaSem sig := 56
abbrev cc3_sem8_0 : DmaSem sig := 57
abbrev cc3_sem8_1 : DmaSem sig := 58

abbrev nD : Nat := 1
abbrev τ : Topo := Topo.v7x

variable {F : FTy → Type} [BitOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x72 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x72 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S72x72 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S72x72 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x72 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x72 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8000x72 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8000x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x72 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x72 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x72 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x72 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x72 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S72x72 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x72 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S72x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S72x72 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x72 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S72x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S8000x72 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S8000x4 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x72 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x72 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S72x72 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S72x72 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x72 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x72 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x72 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x72 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x72 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x72 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x72 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x72 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x72 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S72x72 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x72 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x72 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S146x72_S72x72_0_0 : S146x72.Slices ![0, 0] S72x72
  slices_S146x72_S72x72_72_0 : S146x72.Slices ![72, 0] S72x72
  slices_S146x72_S1x72_144_0 : S146x72.Slices ![144, 0] S1x72
  slices_S146x72_S1x72_145_0 : S146x72.Slices ![145, 0] S1x72
  inb_S8000x72_S8000x72_0_0 : ∀ a, (![0, 0] : Fin 2 → Nat) a + S8000x72.size a ≤ S8000x72.size a
  h_S8000x72 : 0 < S8000x72.numel
  shapeCasts_S8000x72_S8000x72 : S8000x72.ShapeCasts S8000x72
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  slices_S8000x4_o0_0_S8000x1 : S8000x4.Slices ![0, 0] S8000x1
  shapeCasts_S8000x1_S8000 : S8000x1.ShapeCasts S8000
  reduces_S8000x4_S8000 : S8000x4.Reduces [1] S8000
  shapeCasts_S8000_S8000x1 : S8000.ShapeCasts S8000x1
  bitsLt_bf16_f32 : FTy.bits .bf16 < FTy.bits .f32
  inb_S72x72_S72x72_0_0 : ∀ a, (![0, 0] : Fin 2 → Nat) a + S72x72.size a ≤ S72x72.size a
  h_S72x72 : 0 < S72x72.numel
  shapeCasts_S72x72_S72x72 : S72x72.ShapeCasts S72x72
  inb_S1x72_S1x72_0_0 : ∀ a, (![0, 0] : Fin 2 → Nat) a + S1x72.size a ≤ S1x72.size a
  h_S1x72 : 0 < S1x72.numel
  shapeCasts_S1x72_S1x72 : S1x72.ShapeCasts S1x72
  broadcasts_S8000x1_S8000x72 : S8000x1.Broadcasts S8000x72
  broadcasts_S1x72_S8000x72 : S1x72.Broadcasts S8000x72
  reducesTo_S1600000x72_S72_d0 : S1600000x72.ReducesTo [0] S72
  h_S_ : 0 < S_.numel
  bcast_S72_S1x72_1 : S72.BroadcastsInDim S1x72 (![1] : Fin 1 → Fin S1x72.rank)
  bcast_S_S1x72 : S_.BroadcastsInDim S1x72 (![] : Fin 0 → Fin S1x72.rank)
  bcast_S1x72_S1600000x72_0_1 : S1x72.BroadcastsInDim S1600000x72 (![0, 1] : Fin 2 → Fin S1600000x72.rank)
  shapeCasts_S72_S1x72 : S72.ShapeCasts S1x72
  shapeCasts_S1_S1x1 : S1.ShapeCasts S1x1
  inb_S72x1_S72x1_0_0 : ∀ a, (![0, 0] : Fin 2 → Nat) a + S72x1.size a ≤ S72x1.size a
  h_S72x1 : 0 < S72x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  broadcasts_S8000x1_S8000x4 : S8000x1.Broadcasts S8000x4
  bcast_S_S50000x72 : S_.BroadcastsInDim S50000x72 (![] : Fin 0 → Fin S50000x72.rank)
  bcast_S_S50000x4 : S_.BroadcastsInDim S50000x4 (![] : Fin 0 → Fin S50000x4.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  slices_S152x72_S72x72_0_0 : S152x72.Slices ![0, 0] S72x72
  slices_S152x72_S72x72_72_0 : S152x72.Slices ![72, 0] S72x72
  slices_S152x72_S8x72_144_0 : S152x72.Slices ![144, 0] S8x72
  inb_S5000x72_S5000x72_0_0 : ∀ a, (![0, 0] : Fin 2 → Nat) a + S5000x72.size a ≤ S5000x72.size a
  h_S5000x72 : 0 < S5000x72.numel
  shapeCasts_S5000x72_S5000x72 : S5000x72.ShapeCasts S5000x72
  inb_S5000x8_S5000x8_0_0 : ∀ a, (![0, 0] : Fin 2 → Nat) a + S5000x8.size a ≤ S5000x8.size a
  h_S5000x8 : 0 < S5000x8.numel
  inb_S8x72_S8x72_0_0 : ∀ a, (![0, 0] : Fin 2 → Nat) a + S8x72.size a ≤ S8x72.size a
  h_S8x72 : 0 < S8x72.numel
  shapeCasts_S8x72_S8x72 : S8x72.ShapeCasts S8x72
  broadcasts_S1x72_S5000x72 : S1x72.Broadcasts S5000x72
  reducesTo_S50000x72_S72_d0 : S50000x72.ReducesTo [0] S72
  bcast_S1x72_S50000x72_0_1 : S1x72.BroadcastsInDim S50000x72 (![0, 1] : Fin 2 → Fin S50000x72.rank)
  gather_S50000x72_S1600000x1_S1600000x72_1_0_n_n_0_1_172_wf : GatherDims.WF S50000x72 S1600000x1 S1600000x72 [1] [0] [] [0] [] 1 ![1, 72]
  gather_S50000x4_S1600000x1_S1600000x4_1_0_n_n_0_1_14_wf : GatherDims.WF S50000x4 S1600000x1 S1600000x4 [1] [0] [] [0] [] 1 ![1, 4]
  dot_S8000x72_S72x72_S8000x72_1_0_0_1_n_n_wf : DotDims.WF S8000x72 S72x72 S8000x72 [1] [0] [0] [1] [] []
  dot_S8000x72_S72x1_S8000x1_1_0_0_1_n_n_wf : DotDims.WF S8000x72 S72x1 S8000x1 [1] [0] [0] [1] [] []
  scatter_S50000x72_S1600000x1_S1600000x72_1_0_0_1_wf : ScatterDims.WF S50000x72 S1600000x1 S1600000x72 [1] [0] [0] 1
  scatter_S50000x4_S1600000x1_S1600000x4_1_0_0_1_wf : ScatterDims.WF S50000x4 S1600000x1 S1600000x4 [1] [0] [0] 1
  scatter_S50000_S1600000x1_S1600000_n_0_0_1_wf : ScatterDims.WF S50000 S1600000x1 S1600000 [] [0] [0] 1
  dot_S5000x72_S72x72_S5000x72_1_0_0_1_n_n_wf : DotDims.WF S5000x72 S72x72 S5000x72 [1] [0] [0] [1] [] []
  dot_S5000x8_S8x72_S5000x72_1_0_0_1_n_n_wf : DotDims.WF S5000x8 S8x72 S5000x72 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x72.size a ≤ S1600000x72.size a
  hwx0_0 : ∀ i : grid0.Coords, EltTy.bits .f32 = 32 ∨ (Rect.block (s := S1600000x72) S8000x72.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x72.size a ≤ S1600000x72.size a
  hwx0_1 : ∀ i : grid0.Coords, EltTy.bits .f32 = 32 ∨ (Rect.block (s := S1600000x72) S8000x72.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x4.size a ≤ S1600000x4.size a
  hwx0_2 : ∀ i : grid0.Coords, EltTy.bits .f32 = 32 ∨ (Rect.block (s := S1600000x4) S8000x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x4.size a ≤ S1600000x4.size a
  hwx0_3 : ∀ i : grid0.Coords, EltTy.bits .f32 = 32 ∨ (Rect.block (s := S1600000x4) S8000x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S72x72.size a ≤ S72x72.size a
  hwx0_4 : ∀ i : grid0.Coords, EltTy.bits .f32 = 32 ∨ (Rect.block (s := S72x72) S72x72.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S72x72.size a ≤ S72x72.size a
  hwx0_5 : ∀ i : grid0.Coords, EltTy.bits .f32 = 32 ∨ (Rect.block (s := S72x72) S72x72.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x72.size a ≤ S1x72.size a
  hwx0_6 : ∀ i : grid0.Coords, EltTy.bits .f32 = 32 ∨ (Rect.block (s := S1x72) S1x72.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x72.size a ≤ S1x72.size a
  hwx0_7 : ∀ i : grid0.Coords, EltTy.bits .f32 = 32 ∨ (Rect.block (s := S1x72) S1x72.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x72.size a ≤ S1600000x72.size a
  hwx0_8 : ∀ i : grid0.Coords, EltTy.bits .f32 = 32 ∨ (Rect.block (s := S1600000x72) S8000x72.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x4.size a ≤ S1600000x4.size a
  hwx0_9 : ∀ i : grid0.Coords, EltTy.bits .f32 = 32 ∨ (Rect.block (s := S1600000x4) S8000x4.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x72.size a ≤ S1600000x72.size a
  hwx1_0 : ∀ i : grid1.Coords, EltTy.bits .f32 = 32 ∨ (Rect.block (s := S1600000x72) S8000x72.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x4.size a ≤ S1600000x4.size a
  hwx1_1 : ∀ i : grid1.Coords, EltTy.bits .f32 = 32 ∨ (Rect.block (s := S1600000x4) S8000x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x72.size a ≤ S1x72.size a
  hwx1_2 : ∀ i : grid1.Coords, EltTy.bits .f32 = 32 ∨ (Rect.block (s := S1x72) S1x72.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x72.size a ≤ S1x72.size a
  hwx1_3 : ∀ i : grid1.Coords, EltTy.bits .f32 = 32 ∨ (Rect.block (s := S1x72) S1x72.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x72.size a ≤ S1x72.size a
  hwx1_4 : ∀ i : grid1.Coords, EltTy.bits .f32 = 32 ∨ (Rect.block (s := S1x72) S1x72.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x72.size a ≤ S1x72.size a
  hwx1_5 : ∀ i : grid1.Coords, EltTy.bits .f32 = 32 ∨ (Rect.block (s := S1x72) S1x72.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S72x72.size a ≤ S72x72.size a
  hwx1_6 : ∀ i : grid1.Coords, EltTy.bits .f32 = 32 ∨ (Rect.block (s := S72x72) S72x72.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x72.size a ≤ S1x72.size a
  hwx1_7 : ∀ i : grid1.Coords, EltTy.bits .f32 = 32 ∨ (Rect.block (s := S1x72) S1x72.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S72x1.size a ≤ S72x1.size a
  hwx1_8 : ∀ i : grid1.Coords, EltTy.bits .f32 = 32 ∨ (Rect.block (s := S72x1) S72x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S72x72.size a ≤ S72x72.size a
  hwx1_10 : ∀ i : grid1.Coords, EltTy.bits .f32 = 32 ∨ (Rect.block (s := S72x72) S72x72.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x72.size a ≤ S1x72.size a
  hwx1_11 : ∀ i : grid1.Coords, EltTy.bits .f32 = 32 ∨ (Rect.block (s := S1x72) S1x72.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S72x1.size a ≤ S72x1.size a
  hwx1_12 : ∀ i : grid1.Coords, EltTy.bits .f32 = 32 ∨ (Rect.block (s := S72x1) S72x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S8000x72.size a ≤ S1600000x72.size a
  hwx1_13 : ∀ i : grid1.Coords, EltTy.bits .f32 = 32 ∨ (Rect.block (s := S1600000x72) S8000x72.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S8000x4.size a ≤ S1600000x4.size a
  hwx1_14 : ∀ i : grid1.Coords, EltTy.bits .f32 = 32 ∨ (Rect.block (s := S1600000x4) S8000x4.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x72.size a ≤ S50000x72.size a
  hwx2_0 : ∀ i : grid2.Coords, EltTy.bits .f32 = 32 ∨ (Rect.block (s := S50000x72) S5000x72.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x72.size a ≤ S50000x72.size a
  hwx2_1 : ∀ i : grid2.Coords, EltTy.bits .f32 = 32 ∨ (Rect.block (s := S50000x72) S5000x72.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x8.size a ≤ S50000x8.size a
  hwx2_2 : ∀ i : grid2.Coords, EltTy.bits .f32 = 32 ∨ (Rect.block (s := S50000x8) S5000x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S72x72.size a ≤ S72x72.size a
  hwx2_3 : ∀ i : grid2.Coords, EltTy.bits .f32 = 32 ∨ (Rect.block (s := S72x72) S72x72.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S72x72.size a ≤ S72x72.size a
  hwx2_4 : ∀ i : grid2.Coords, EltTy.bits .f32 = 32 ∨ (Rect.block (s := S72x72) S72x72.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x72.size a ≤ S8x72.size a
  hwx2_5 : ∀ i : grid2.Coords, EltTy.bits .f32 = 32 ∨ (Rect.block (s := S8x72) S8x72.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x72.size a ≤ S1x72.size a
  hwx2_6 : ∀ i : grid2.Coords, EltTy.bits .f32 = 32 ∨ (Rect.block (s := S1x72) S1x72.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x72.size a ≤ S50000x72.size a
  hwx2_7 : ∀ i : grid2.Coords, EltTy.bits .f32 = 32 ∨ (Rect.block (s := S50000x72) S5000x72.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x72.size a ≤ S50000x72.size a
  hwx3_0 : ∀ i : grid3.Coords, EltTy.bits .f32 = 32 ∨ (Rect.block (s := S50000x72) S5000x72.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x72.size a ≤ S50000x72.size a
  hwx3_1 : ∀ i : grid3.Coords, EltTy.bits .f32 = 32 ∨ (Rect.block (s := S50000x72) S5000x72.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x72.size a ≤ S1x72.size a
  hwx3_2 : ∀ i : grid3.Coords, EltTy.bits .f32 = 32 ∨ (Rect.block (s := S1x72) S1x72.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x72.size a ≤ S1x72.size a
  hwx3_3 : ∀ i : grid3.Coords, EltTy.bits .f32 = 32 ∨ (Rect.block (s := S1x72) S1x72.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x72.size a ≤ S1x72.size a
  hwx3_4 : ∀ i : grid3.Coords, EltTy.bits .f32 = 32 ∨ (Rect.block (s := S1x72) S1x72.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x72.size a ≤ S1x72.size a
  hwx3_5 : ∀ i : grid3.Coords, EltTy.bits .f32 = 32 ∨ (Rect.block (s := S1x72) S1x72.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S72x72.size a ≤ S72x72.size a
  hwx3_6 : ∀ i : grid3.Coords, EltTy.bits .f32 = 32 ∨ (Rect.block (s := S72x72) S72x72.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x72.size a ≤ S1x72.size a
  hwx3_7 : ∀ i : grid3.Coords, EltTy.bits .f32 = 32 ∨ (Rect.block (s := S1x72) S1x72.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x72.size a ≤ S50000x72.size a
  hwx3_8 : ∀ i : grid3.Coords, EltTy.bits .f32 = 32 ∨ (Rect.block (s := S50000x72) S5000x72.size (cc3_transform_8 i) (hinb3_8 i)).WholeWords (EltTy.packing .f32)

variable [Facts₀]

def gather_S50000x72_S1600000x1_S1600000x72_1_0_n_n_0_1_172 : GatherDims S50000x72 S1600000x1 S1600000x72 where
  offsetDims := [1]
  collapsedSliceDims := [0]
  operandBatchingDims := []
  startIndicesBatchingDims := []
  startIndexMap := [0]
  indexVectorDim := 1
  sliceSizes := ![1, 72]
  wf := gather_S50000x72_S1600000x1_S1600000x72_1_0_n_n_0_1_172_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def dot_S8000x72_S72x72_S8000x72_1_0_0_1_n_n : DotDims S8000x72 S72x72 S8000x72 where
  lhsContracting := [1]
  rhsContracting := [0]
  lhsNonContracting := [0]
  rhsNonContracting := [1]
  lhsBatch := []
  rhsBatch := []
  wf := dot_S8000x72_S72x72_S8000x72_1_0_0_1_n_n_wf
def dot_S8000x72_S72x1_S8000x1_1_0_0_1_n_n : DotDims S8000x72 S72x1 S8000x1 where
  lhsContracting := [1]
  rhsContracting := [0]
  lhsNonContracting := [0]
  rhsNonContracting := [1]
  lhsBatch := []
  rhsBatch := []
  wf := dot_S8000x72_S72x1_S8000x1_1_0_0_1_n_n_wf
def scatter_S50000x72_S1600000x1_S1600000x72_1_0_0_1 : ScatterDims S50000x72 S1600000x1 S1600000x72 where
  updateWindowDims := [1]
  insertedWindowDims := [0]
  scatterDimsToOperandDims := [0]
  indexVectorDim := 1
  wf := scatter_S50000x72_S1600000x1_S1600000x72_1_0_0_1_wf
def scatter_S50000x4_S1600000x1_S1600000x4_1_0_0_1 : ScatterDims S50000x4 S1600000x1 S1600000x4 where
  updateWindowDims := [1]
  insertedWindowDims := [0]
  scatterDimsToOperandDims := [0]
  indexVectorDim := 1
  wf := scatter_S50000x4_S1600000x1_S1600000x4_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x72_S72x72_S5000x72_1_0_0_1_n_n : DotDims S5000x72 S72x72 S5000x72 where
  lhsContracting := [1]
  rhsContracting := [0]
  lhsNonContracting := [0]
  rhsNonContracting := [1]
  lhsBatch := []
  rhsBatch := []
  wf := dot_S5000x72_S72x72_S5000x72_1_0_0_1_n_n_wf
def dot_S5000x8_S8x72_S5000x72_1_0_0_1_n_n : DotDims S5000x8 S8x72 S5000x72 where
  lhsContracting := [1]
  rhsContracting := [0]
  lhsNonContracting := [0]
  rhsNonContracting := [1]
  lhsBatch := []
  rhsBatch := []
  wf := dot_S5000x8_S8x72_S5000x72_1_0_0_1_n_n_wf

abbrev win0_0 : Pipeline.Window sig grid0 :=
  Pipeline.Window.ofSpec (Memref.whole main_v10) S8000x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8000x72.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S8000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S8000x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S72x72.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S72x72.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x72.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x72.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36_0) S8000x72.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v36_1) S8000x4.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v36_0) S8000x72.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36_1) S8000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x72.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x72.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x72.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x72.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S72x72.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S1x72.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S72x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v45) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg15) S72x72.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v46) S1x72.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg17) S72x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v47_0) S8000x72.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v47_1) S8000x4.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_arg0) S5000x72.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x72.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S5000x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S72x72.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S72x72.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S8x72.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69) S1x72.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v70) S5000x72.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v70) S5000x72.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x72.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x72.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x72.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x72.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S1x72.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg13) S72x72.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v78) S1x72.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v79) S5000x72.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x72 : Shape := ⟨2, ![50000, 72]⟩
abbrev S50000x4 : Shape := ⟨2, ![50000, 4]⟩
abbrev S50000x8 : Shape := ⟨2, ![50000, 8]⟩
abbrev S2x1600000 : Shape := ⟨2, ![2, 1600000]⟩
abbrev S146x72 : Shape := ⟨2, ![146, 72]⟩
abbrev S72 : Shape := ⟨1, ![72]⟩
abbrev S72x72 : Shape := ⟨2, ![72, 72]⟩
abbrev S152x72 : Shape := ⟨2, ![152, 72]⟩
abbrev S72x1 : Shape := ⟨2, ![72, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x4 : Shape := ⟨2, ![1600000, 4]⟩
abbrev S1600000x72 : Shape := ⟨2, ![1600000, 72]⟩
abbrev S1600000x146 : Shape := ⟨2, ![1600000, 146]⟩
abbrev S1x72 : Shape := ⟨2, ![1, 72]⟩
abbrev S1x1 : Shape := ⟨2, ![1, 1]⟩
abbrev S50000 : Shape := ⟨1, ![50000]⟩
abbrev S50000x1 : Shape := ⟨2, ![50000, 1]⟩
abbrev S50000x152 : Shape := ⟨2, ![50000, 152]⟩

abbrev nBuf : Space → Nat
  | .hbm => 282
  | .vmem => 0
  | .smem => 0
  | _ => 0

abbrev hbmTy0_0 (i : Nat) : BufTy := match i % 128 with
  | 0 => ⟨S50000x72, .f32⟩
  | 1 => ⟨S50000x4, .f32⟩
  | 2 => ⟨S50000x8, .f32⟩
  | 3 => ⟨S2x1600000, .i32⟩
  | 4 => ⟨S146x72, .f32⟩
  | 5 => ⟨S72, .f32⟩
  | 6 => ⟨S72, .f32⟩
  | 7 => ⟨S72x72, .f32⟩
  | 8 => ⟨S72, .f32⟩
  | 9 => ⟨S152x72, .f32⟩
  | 10 => ⟨S72, .f32⟩
  | 11 => ⟨S72, .f32⟩
  | 12 => ⟨S72, .f32⟩
  | 13 => ⟨S72x72, .f32⟩
  | 14 => ⟨S72, .f32⟩
  | 15 => ⟨S72x72, .f32⟩
  | 16 => ⟨S72, .f32⟩
  | 17 => ⟨S72x1, .f32⟩
  | 18 => ⟨S72x1, .f32⟩
  | 19 => ⟨S1, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x4, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x4, .f32⟩
  | 42 => ⟨S1600000x4, .f32⟩
  | 43 => ⟨S1600000x4, .f32⟩
  | 44 => ⟨S1600000x1, .f32⟩
  | 45 => ⟨S1600000, .f32⟩
  | 46 => ⟨S_, .f32⟩
  | 47 => ⟨S1600000, .f32⟩
  | 48 => ⟨S1600000, .f32⟩
  | 49 => ⟨S_, .f32⟩
  | 50 => ⟨S1600000, .f32⟩
  | 51 => ⟨S1600000, .f32⟩
  | 52 => ⟨S1600000, .f32⟩
  | 53 => ⟨S1600000, .f32⟩
  | 54 => ⟨S_, .f32⟩
  | 55 => ⟨S1600000, .f32⟩
  | 56 => ⟨S1600000, .f32⟩
  | 57 => ⟨S1600000, .f32⟩
  | 58 => ⟨S1600000, .f32⟩
  | 59 => ⟨S1600000x1, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x4, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x4, .f32⟩
  | 78 => ⟨S1600000x4, .f32⟩
  | 79 => ⟨S1600000x1, .f32⟩
  | 80 => ⟨S1600000, .f32⟩
  | 81 => ⟨S_, .f32⟩
  | 82 => ⟨S1600000, .f32⟩
  | 83 => ⟨S1600000, .f32⟩
  | 84 => ⟨S_, .f32⟩
  | 85 => ⟨S1600000, .f32⟩
  | 86 => ⟨S1600000, .f32⟩
  | 87 => ⟨S1600000, .f32⟩
  | 88 => ⟨S1600000, .f32⟩
  | 89 => ⟨S_, .f32⟩
  | 90 => ⟨S1600000, .f32⟩
  | 91 => ⟨S1600000, .f32⟩
  | 92 => ⟨S1600000, .f32⟩
  | 93 => ⟨S1600000, .f32⟩
  | 94 => ⟨S1600000x1, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x72, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x72, .f32⟩
  | 113 => ⟨S1600000x146, .f32⟩
  | 114 => ⟨S1600000x72, .f32⟩
  | 115 => ⟨S_, .f32⟩
  | 116 => ⟨S72, .f32⟩
  | 117 => ⟨S_, .f32⟩
  | 118 => ⟨S72, .f32⟩
  | 119 => ⟨S72, .f32⟩
  | 120 => ⟨S_, .i32⟩
  | 121 => ⟨S_, .f32⟩
  | 122 => ⟨S72, .f32⟩
  | 123 => ⟨S1x72, .f32⟩
  | 124 => ⟨S_, .f32⟩
  | 125 => ⟨S1x72, .f32⟩
  | 126 => ⟨S1x72, .f32⟩
  | 127 => ⟨S1600000x72, .f32⟩
  | _ => ⟨S50000x72, .f32⟩

abbrev hbmTy0_1 (i : Nat) : BufTy := match i % 128 with
  | 0 => ⟨S1600000x72, .f32⟩
  | 1 => ⟨S1600000x72, .f32⟩
  | 2 => ⟨S_, .f32⟩
  | 3 => ⟨S_, .f32⟩
  | 4 => ⟨S_, .f32⟩
  | 5 => ⟨S_, .f32⟩
  | 6 => ⟨S72, .f32⟩
  | 7 => ⟨S72, .f32⟩
  | 8 => ⟨S72, .f32⟩
  | 9 => ⟨S_, .f32⟩
  | 10 => ⟨S_, .i1⟩
  | 11 => ⟨S_, .f32⟩
  | 12 => ⟨S_, .f32⟩
  | 13 => ⟨S72, .f32⟩
  | 14 => ⟨S72, .f32⟩
  | 15 => ⟨S1x72, .f32⟩
  | 16 => ⟨S1600000x72, .f32⟩
  | 17 => ⟨S1600000x72, .f32⟩
  | 18 => ⟨S_, .f32⟩
  | 19 => ⟨S72, .f32⟩
  | 20 => ⟨S72, .f32⟩
  | 21 => ⟨S72, .f32⟩
  | 22 => ⟨S1x72, .f32⟩
  | 23 => ⟨S1600000x72, .f32⟩
  | 24 => ⟨S1600000x72, .f32⟩
  | 25 => ⟨S1x72, .f32⟩
  | 26 => ⟨S1600000x72, .f32⟩
  | 27 => ⟨S1600000x72, .f32⟩
  | 28 => ⟨S1x72, .f32⟩
  | 29 => ⟨S1600000x72, .f32⟩
  | 30 => ⟨S1600000x72, .f32⟩
  | 31 => ⟨S_, .f32⟩
  | 32 => ⟨S1600000x72, .f32⟩
  | 33 => ⟨S1600000x72, .f32⟩
  | 34 => ⟨S1600000x72, .f32⟩
  | 35 => ⟨S1x72, .f32⟩
  | 36 => ⟨S1600000x72, .f32⟩
  | 37 => ⟨S1600000x72, .f32⟩
  | 38 => ⟨S_, .f32⟩
  | 39 => ⟨S1600000x72, .f32⟩
  | 40 => ⟨S1600000x72, .f32⟩
  | 41 => ⟨S1600000x1, .f32⟩
  | 42 => ⟨S1x1, .f32⟩
  | 43 => ⟨S1600000x1, .f32⟩
  | 44 => ⟨S1600000x1, .f32⟩
  | 45 => ⟨S1600000x1, .f32⟩
  | 46 => ⟨S1600000x1, .f32⟩
  | 47 => ⟨S_, .f32⟩
  | 48 => ⟨S1600000x1, .f32⟩
  | 49 => ⟨S1600000x1, .f32⟩
  | 50 => ⟨S_, .f32⟩
  | 51 => ⟨S1600000x1, .f32⟩
  | 52 => ⟨S1600000x1, .f32⟩
  | 53 => ⟨S1600000x72, .f32⟩
  | 54 => ⟨S1600000x72, .f32⟩
  | 55 => ⟨S1600000x72, .f32⟩
  | 56 => ⟨S1x72, .f32⟩
  | 57 => ⟨S1600000x72, .f32⟩
  | 58 => ⟨S1600000x72, .f32⟩
  | 59 => ⟨S_, .f32⟩
  | 60 => ⟨S1600000x72, .f32⟩
  | 61 => ⟨S1600000x72, .f32⟩
  | 62 => ⟨S1600000x1, .f32⟩
  | 63 => ⟨S1600000x4, .f32⟩
  | 64 => ⟨S1600000x4, .f32⟩
  | 65 => ⟨S_, .f32⟩
  | 66 => ⟨S_, .f32⟩
  | 67 => ⟨S_, .f32⟩
  | 68 => ⟨S1600000x4, .f32⟩
  | 69 => ⟨S1600000x4, .f32⟩
  | 70 => ⟨S_, .f32⟩
  | 71 => ⟨S1600000x4, .f32⟩
  | 72 => ⟨S1600000x4, .f32⟩
  | 73 => ⟨S_, .f32⟩
  | 74 => ⟨S1600000, .f32⟩
  | 75 => ⟨S_, .f32⟩
  | 76 => ⟨S50000, .f32⟩
  | 77 => ⟨S1600000x1, .i32⟩
  | 78 => ⟨S50000, .f32⟩
  | 79 => ⟨S_, .f32⟩
  | 80 => ⟨S50000x4, .f32⟩
  | 81 => ⟨S1600000x1, .i32⟩
  | 82 => ⟨S50000x4, .f32⟩
  | 83 => ⟨S_, .f32⟩
  | 84 => ⟨S50000, .f32⟩
  | 85 => ⟨S50000, .f32⟩
  | 86 => ⟨S50000x1, .f32⟩
  | 87 => ⟨S50000x4, .f32⟩
  | 88 => ⟨S50000x4, .f32⟩
  | 89 => ⟨S_, .f32⟩
  | 90 => ⟨S50000x4, .f32⟩
  | 91 => ⟨S50000x4, .f32⟩
  | 92 => ⟨S50000x4, .f32⟩
  | 93 => ⟨S_, .f32⟩
  | 94 => ⟨S50000x72, .f32⟩
  | 95 => ⟨S1600000x1, .i32⟩
  | 96 => ⟨S50000x72, .f32⟩
  | 97 => ⟨S50000x152, .f32⟩
  | 98 => ⟨S50000x72, .f32⟩
  | 99 => ⟨S1x72, .f32⟩
  | 100 => ⟨S50000x72, .f32⟩
  | 101 => ⟨S50000x72, .f32⟩
  | 102 => ⟨S_, .f32⟩
  | 103 => ⟨S72, .f32⟩
  | 104 => ⟨S_, .f32⟩
  | 105 => ⟨S72, .f32⟩
  | 106 => ⟨S72, .f32⟩
  | 107 => ⟨S_, .i32⟩
  | 108 => ⟨S_, .f32⟩
  | 109 => ⟨S72, .f32⟩
  | 110 => ⟨S1x72, .f32⟩
  | 111 => ⟨S_, .f32⟩
  | 112 => ⟨S1x72, .f32⟩
  | 113 => ⟨S1x72, .f32⟩
  | 114 => ⟨S50000x72, .f32⟩
  | 115 => ⟨S50000x72, .f32⟩
  | 116 => ⟨S50000x72, .f32⟩
  | 117 => ⟨S_, .f32⟩
  | 118 => ⟨S_, .f32⟩
  | 119 => ⟨S_, .f32⟩
  | 120 => ⟨S_, .f32⟩
  | 121 => ⟨S72, .f32⟩
  | 122 => ⟨S72, .f32⟩
  | 123 => ⟨S72, .f32⟩
  | 124 => ⟨S_, .f32⟩
  | 125 => ⟨S_, .i1⟩
  | 126 => ⟨S_, .f32⟩
  | 127 => ⟨S_, .f32⟩
  | _ => ⟨S50000x72, .f32⟩

abbrev hbmTy0_2 (i : Nat) : BufTy := match i % 128 with
  | 0 => ⟨S72, .f32⟩
  | 1 => ⟨S72, .f32⟩
  | 2 => ⟨S1x72, .f32⟩
  | 3 => ⟨S50000x72, .f32⟩
  | 4 => ⟨S50000x72, .f32⟩
  | 5 => ⟨S_, .f32⟩
  | 6 => ⟨S72, .f32⟩
  | 7 => ⟨S72, .f32⟩
  | 8 => ⟨S72, .f32⟩
  | 9 => ⟨S1x72, .f32⟩
  | 10 => ⟨S50000x72, .f32⟩
  | 11 => ⟨S50000x72, .f32⟩
  | 12 => ⟨S1x72, .f32⟩
  | 13 => ⟨S50000x72, .f32⟩
  | 14 => ⟨S50000x72, .f32⟩
  | 15 => ⟨S1x72, .f32⟩
  | 16 => ⟨S50000x72, .f32⟩
  | 17 => ⟨S50000x72, .f32⟩
  | 18 => ⟨S_, .f32⟩
  | 19 => ⟨S50000x72, .f32⟩
  | 20 => ⟨S50000x72, .f32⟩
  | 21 => ⟨S50000x72, .f32⟩
  | 22 => ⟨S50000x72, .f32⟩
  | 23 => ⟨S1x72, .f32⟩
  | 24 => ⟨S50000x72, .f32⟩
  | 25 => ⟨S50000x72, .f32⟩
  | _ => ⟨S50000x72, .f32⟩

abbrev hbmTy (i : Nat) : BufTy := match i / 128 with
  | 0 => hbmTy0_0 i
  | 1 => hbmTy0_1 i
  | 2 => hbmTy0_2 i
  | _ => ⟨S50000x72, .f32⟩

abbrev bufTy : (tb : Table) → Fin (tcTables nBuf tb) → BufTy
  | .hbm, ⟨i, _⟩ => hbmTy i
  | _, _ => ⟨S50000x72, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_c_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_7 : Ref sig .tc := ⟨.hbm, 69, rfl⟩
abbrev main_v40 : Ref sig .tc := ⟨.hbm, 70, rfl⟩
abbrev main_v41 : Ref sig .tc := ⟨.hbm, 71, rfl⟩
abbrev main_c_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_12 : Ref sig .tc := ⟨.hbm, 95, rfl⟩
abbrev main_v61 : Ref sig .tc := ⟨.hbm, 96, rfl⟩
abbrev main_v62 : Ref sig .tc := ⟨.hbm, 97, rfl⟩
abbrev main_c_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_14 : Ref sig .tc := ⟨.hbm, 104, rfl⟩
abbrev main_v68 : Ref sig .tc := ⟨.hbm, 105, rfl⟩
abbrev main_v69 : Ref sig .tc := ⟨.hbm, 106, rfl⟩
abbrev main_c_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_16 : Ref sig .tc := ⟨.hbm, 115, rfl⟩
abbrev main_v77 : Ref sig .tc := ⟨.hbm, 116, rfl⟩
abbrev main_cst_17 : Ref sig .tc := ⟨.hbm, 117, rfl⟩
abbrev main_v78 : Ref sig .tc := ⟨.hbm, 118, rfl⟩
abbrev main_v79 : Ref sig .tc := ⟨.hbm, 119, rfl⟩
abbrev main_c_18 : Ref sig .tc := ⟨.hbm, 120, rfl⟩
abbrev main_call0_cst : Ref sig .tc := ⟨.hbm, 121, rfl⟩
abbrev main_call0_v0 : Ref sig .tc := ⟨.hbm, 122, rfl⟩
abbrev main_call0_v1 : Ref sig .tc := ⟨.hbm, 123, rfl⟩
abbrev main_call0_cst_0 : Ref sig .tc := ⟨.hbm, 124, rfl⟩
abbrev main_call0_v2 : Ref sig .tc := ⟨.hbm, 125, rfl⟩
abbrev main_call0_v3 : Ref sig .tc := ⟨.hbm, 126, rfl⟩
abbrev main_call0_v4 : Ref sig .tc := ⟨.hbm, 127, rfl⟩
abbrev main_call0_v5 : Ref sig .tc := ⟨.hbm, 128, rfl⟩
abbrev main_call0_v6 : Ref sig .tc := ⟨.hbm, 129, rfl⟩
abbrev main_call0_v7 : Ref sig .tc := ⟨.hbm, 130, rfl⟩
abbrev main_call0_cst_1 : Ref sig .tc := ⟨.hbm, 131, rfl⟩
abbrev main_call0_v8 : Ref sig .tc := ⟨.hbm, 132, rfl⟩
abbrev main_call0_cst_2 : Ref sig .tc := ⟨.hbm, 133, rfl⟩
abbrev main_call0_v9 : Ref sig .tc := ⟨.hbm, 134, rfl⟩
abbrev main_call0_v10 : Ref sig .tc := ⟨.hbm, 135, rfl⟩
abbrev main_call0_v11 : Ref sig .tc := ⟨.hbm, 136, rfl⟩
abbrev main_call0_cst_3 : Ref sig .tc := ⟨.hbm, 137, rfl⟩
abbrev main_call0_v12 : Ref sig .tc := ⟨.hbm, 138, rfl⟩
abbrev main_call0_cst_4 : Ref sig .tc := ⟨.hbm, 139, rfl⟩
abbrev main_call0_call0_v0 : Ref sig .tc := ⟨.hbm, 140, rfl⟩
abbrev main_call0_call0_v1 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_cst_19 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_call1_cst : Ref sig .tc := ⟨.hbm, 159, rfl⟩
abbrev main_call1_v0 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_call2_cst : Ref sig .tc := ⟨.hbm, 166, rfl⟩
abbrev main_call2_v0 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_cst_20 : Ref sig .tc := ⟨.hbm, 175, rfl⟩
abbrev main_v108 : Ref sig .tc := ⟨.hbm, 176, rfl⟩
abbrev main_v109 : Ref sig .tc := ⟨.hbm, 177, rfl⟩
abbrev main_cst_21 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_call3_cst : Ref sig .tc := ⟨.hbm, 187, rfl⟩
abbrev main_call3_v0 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_cst_22 : Ref sig .tc := ⟨.hbm, 193, rfl⟩
abbrev main_cst_23 : Ref sig .tc := ⟨.hbm, 194, rfl⟩
abbrev main_call4_v0 : Ref sig .tc := ⟨.hbm, 195, rfl⟩
abbrev main_call4_v1 : Ref sig .tc := ⟨.hbm, 196, rfl⟩
abbrev main_call4_v2 : Ref sig .tc := ⟨.hbm, 197, rfl⟩
abbrev main_call4_v3 : Ref sig .tc := ⟨.hbm, 198, rfl⟩
abbrev main_call4_v4 : Ref sig .tc := ⟨.hbm, 199, rfl⟩
abbrev main_v122 : Ref sig .tc := ⟨.hbm, 200, rfl⟩
abbrev main_cst_24 : Ref sig .tc := ⟨.hbm, 201, rfl⟩
abbrev main_v123 : Ref sig .tc := ⟨.hbm, 202, rfl⟩
abbrev main_cst_25 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_cst_26 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_cst_27 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_cst_28 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_cst_29 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_cst_30 : Ref sig .tc := ⟨.hbm, 230, rfl⟩
abbrev main_v146 : Ref sig .tc := ⟨.hbm, 231, rfl⟩
abbrev main_cst_31 : Ref sig .tc := ⟨.hbm, 232, rfl⟩
abbrev main_v147 : Ref sig .tc := ⟨.hbm, 233, rfl⟩
abbrev main_v148 : Ref sig .tc := ⟨.hbm, 234, rfl⟩
abbrev main_c_32 : Ref sig .tc := ⟨.hbm, 235, rfl⟩
abbrev main_call5_cst : Ref sig .tc := ⟨.hbm, 236, rfl⟩
abbrev main_call5_v0 : Ref sig .tc := ⟨.hbm, 237, rfl⟩
abbrev main_call5_v1 : Ref sig .tc := ⟨.hbm, 238, rfl⟩
abbrev main_call5_cst_0 : Ref sig .tc := ⟨.hbm, 239, rfl⟩
abbrev main_call5_v2 : Ref sig .tc := ⟨.hbm, 240, rfl⟩
abbrev main_call5_v3 : Ref sig .tc := ⟨.hbm, 241, rfl⟩
abbrev main_call5_v4 : Ref sig .tc := ⟨.hbm, 242, rfl⟩
abbrev main_call5_v5 : Ref sig .tc := ⟨.hbm, 243, rfl⟩
abbrev main_call5_v6 : Ref sig .tc := ⟨.hbm, 244, rfl⟩
abbrev main_call5_v7 : Ref sig .tc := ⟨.hbm, 245, rfl⟩
abbrev main_call5_cst_1 : Ref sig .tc := ⟨.hbm, 246, rfl⟩
abbrev main_call5_v8 : Ref sig .tc := ⟨.hbm, 247, rfl⟩
abbrev main_call5_cst_2 : Ref sig .tc := ⟨.hbm, 248, rfl⟩
abbrev main_call5_v9 : Ref sig .tc := ⟨.hbm, 249, rfl⟩
abbrev main_call5_v10 : Ref sig .tc := ⟨.hbm, 250, rfl⟩
abbrev main_call5_v11 : Ref sig .tc := ⟨.hbm, 251, rfl⟩
abbrev main_call5_cst_3 : Ref sig .tc := ⟨.hbm, 252, rfl⟩
abbrev main_call5_v12 : Ref sig .tc := ⟨.hbm, 253, rfl⟩
abbrev main_call5_cst_4 : Ref sig .tc := ⟨.hbm, 254, rfl⟩
abbrev main_call5_call0_v0 : Ref sig .tc := ⟨.hbm, 255, rfl⟩
abbrev main_call5_call0_v1 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩
abbrev main_cst_33 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_v163 : Ref sig .tc := ⟨.hbm, 272, rfl⟩
abbrev main_v164 : Ref sig .tc := ⟨.hbm, 273, rfl⟩
abbrev main_call6_cst : Ref sig .tc := ⟨.hbm, 274, rfl⟩
abbrev main_call6_v0 : Ref sig .tc := ⟨.hbm, 275, rfl⟩
abbrev main_v165 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1600000x4_S1600000x1_0_0 : S1600000x4.Slices ![0, 0] S1600000x1
  shapeCasts_S1600000x1_S1600000 : S1600000x1.ShapeCasts S1600000
  reducesTo_S1600000x4_S1600000_d1 : S1600000x4.ReducesTo [1] S1600000
  h_S_ : 0 < S_.numel
  concatenates_S1600000x72_S1600000x72_S1600000x1_S1600000x1_S1600000x146_d1 : Shape.Concatenates [S1600000x72, S1600000x72, S1600000x1, S1600000x1] S1600000x146 1
  reducesTo_S1600000x72_S72_d0 : S1600000x72.ReducesTo [0] S72
  bcast_S_S72 : S_.BroadcastsInDim S72 (![] : Fin 0 → Fin S72.rank)
  bcast_S72_S1x72_1 : S72.BroadcastsInDim S1x72 (![1] : Fin 1 → Fin S1x72.rank)
  bcast_S_S1x72 : S_.BroadcastsInDim S1x72 (![] : Fin 0 → Fin S1x72.rank)
  bcast_S1x72_S1600000x72_0_1 : S1x72.BroadcastsInDim S1600000x72 (![0, 1] : Fin 2 → Fin S1600000x72.rank)
  bcast_S_S1600000x72 : S_.BroadcastsInDim S1600000x72 (![] : Fin 0 → Fin S1600000x72.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  bcast_S1600000x1_S1600000x72_0_1 : S1600000x1.BroadcastsInDim S1600000x72 (![0, 1] : Fin 2 → Fin S1600000x72.rank)
  bcast_S1600000x1_S1600000x4_0_1 : S1600000x1.BroadcastsInDim S1600000x4 (![0, 1] : Fin 2 → Fin S1600000x4.rank)
  bcast_S_S1600000x4 : S_.BroadcastsInDim S1600000x4 (![] : Fin 0 → Fin S1600000x4.rank)
  bcast_S_S50000 : S_.BroadcastsInDim S50000 (![] : Fin 0 → Fin S50000.rank)
  bcast_S_S50000x4 : S_.BroadcastsInDim S50000x4 (![] : Fin 0 → Fin S50000x4.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  bcast_S_S50000x72 : S_.BroadcastsInDim S50000x72 (![] : Fin 0 → Fin S50000x72.rank)
  concatenates_S50000x72_S50000x72_S50000x8_S50000x152_d1 : Shape.Concatenates [S50000x72, S50000x72, S50000x8] S50000x152 1
  bcast_S1x72_S50000x72_0_1 : S1x72.BroadcastsInDim S50000x72 (![0, 1] : Fin 2 → Fin S50000x72.rank)
  reducesTo_S50000x72_S72_d0 : S50000x72.ReducesTo [0] S72
  gather_S50000x4_S1600000x1_S1600000x4_1_0_n_n_0_1_14_wf : GatherDims.WF S50000x4 S1600000x1 S1600000x4 [1] [0] [] [0] [] 1 ![1, 4]
  gather_S50000x72_S1600000x1_S1600000x72_1_0_n_n_0_1_172_wf : GatherDims.WF S50000x72 S1600000x1 S1600000x72 [1] [0] [] [0] [] 1 ![1, 72]
  dot_S1600000x146_S146x72_S1600000x72_1_0_0_1_n_n_wf : DotDims.WF S1600000x146 S146x72 S1600000x72 [1] [0] [0] [1] [] []
  dot_S1600000x72_S72x72_S1600000x72_1_0_0_1_n_n_wf : DotDims.WF S1600000x72 S72x72 S1600000x72 [1] [0] [0] [1] [] []
  dot_S1600000x72_S72x1_S1600000x1_1_0_0_1_n_n_wf : DotDims.WF S1600000x72 S72x1 S1600000x1 [1] [0] [0] [1] [] []
  scatter_S50000_S1600000x1_S1600000_n_0_0_1_wf : ScatterDims.WF S50000 S1600000x1 S1600000 [] [0] [0] 1
  scatter_S50000x4_S1600000x1_S1600000x4_1_0_0_1_wf : ScatterDims.WF S50000x4 S1600000x1 S1600000x4 [1] [0] [0] 1
  scatter_S50000x72_S1600000x1_S1600000x72_1_0_0_1_wf : ScatterDims.WF S50000x72 S1600000x1 S1600000x72 [1] [0] [0] 1
  dot_S50000x152_S152x72_S50000x72_1_0_0_1_n_n_wf : DotDims.WF S50000x152 S152x72 S50000x72 [1] [0] [0] [1] [] []
  dot_S50000x72_S72x72_S50000x72_1_0_0_1_n_n_wf : DotDims.WF S50000x72 S72x72 S50000x72 [1] [0] [0] [1] [] []

variable [Facts₀]

def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def gather_S50000x72_S1600000x1_S1600000x72_1_0_n_n_0_1_172 : GatherDims S50000x72 S1600000x1 S1600000x72 where
  offsetDims := [1]
  collapsedSliceDims := [0]
  operandBatchingDims := []
  startIndicesBatchingDims := []
  startIndexMap := [0]
  indexVectorDim := 1
  sliceSizes := ![1, 72]
  wf := gather_S50000x72_S1600000x1_S1600000x72_1_0_n_n_0_1_172_wf
def dot_S1600000x146_S146x72_S1600000x72_1_0_0_1_n_n : DotDims S1600000x146 S146x72 S1600000x72 where
  lhsContracting := [1]
  rhsContracting := [0]
  lhsNonContracting := [0]
  rhsNonContracting := [1]
  lhsBatch := []
  rhsBatch := []
  wf := dot_S1600000x146_S146x72_S1600000x72_1_0_0_1_n_n_wf
def dot_S1600000x72_S72x72_S1600000x72_1_0_0_1_n_n : DotDims S1600000x72 S72x72 S1600000x72 where
  lhsContracting := [1]
  rhsContracting := [0]
  lhsNonContracting := [0]
  rhsNonContracting := [1]
  lhsBatch := []
  rhsBatch := []
  wf := dot_S1600000x72_S72x72_S1600000x72_1_0_0_1_n_n_wf
def dot_S1600000x72_S72x1_S1600000x1_1_0_0_1_n_n : DotDims S1600000x72 S72x1 S1600000x1 where
  lhsContracting := [1]
  rhsContracting := [0]
  lhsNonContracting := [0]
  rhsNonContracting := [1]
  lhsBatch := []
  rhsBatch := []
  wf := dot_S1600000x72_S72x1_S1600000x1_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x4_S1600000x1_S1600000x4_1_0_0_1 : ScatterDims S50000x4 S1600000x1 S1600000x4 where
  updateWindowDims := [1]
  insertedWindowDims := [0]
  scatterDimsToOperandDims := [0]
  indexVectorDim := 1
  wf := scatter_S50000x4_S1600000x1_S1600000x4_1_0_0_1_wf
def scatter_S50000x72_S1600000x1_S1600000x72_1_0_0_1 : ScatterDims S50000x72 S1600000x1 S1600000x72 where
  updateWindowDims := [1]
  insertedWindowDims := [0]
  scatterDimsToOperandDims := [0]
  indexVectorDim := 1
  wf := scatter_S50000x72_S1600000x1_S1600000x72_1_0_0_1_wf
def dot_S50000x152_S152x72_S50000x72_1_0_0_1_n_n : DotDims S50000x152 S152x72 S50000x72 where
  lhsContracting := [1]
  rhsContracting := [0]
  lhsNonContracting := [0]
  rhsNonContracting := [1]
  lhsBatch := []
  rhsBatch := []
  wf := dot_S50000x152_S152x72_S50000x72_1_0_0_1_n_n_wf
def dot_S50000x72_S72x72_S50000x72_1_0_0_1_n_n : DotDims S50000x72 S72x72 S50000x72 where
  lhsContracting := [1]
  rhsContracting := [0]
  lhsNonContracting := [0]
  rhsNonContracting := [1]
  lhsBatch := []
  rhsBatch := []
  wf := dot_S50000x72_S72x72_S50000x72_1_0_0_1_n_n_wf

class Facts : Prop extends Facts₀ where

variable [Facts]
-- ==== Proof.Spec.lean ====
/- GENERATED by a script of this unit (a table of the reference program's dataflow, no proof): bun scratch/gen_spec.js <unit directory> 152136_j87351044866445_1_alg > proof/Proof/Spec.lean — one definition per
   buffer of the reference's @main, callee bodies inlined through their call records: the buffer's operation applied to its operands' definitions. -/
import proofs.«152136_j87351044866445_1_alg».proof.ReferenceIdeal

set_option synthInstance.maxSize 4096

noncomputable section

namespace Cert.Spec

open Idealize.ShloMosaic Idealize.SL.Sem
open Cert.ReferenceIdeal Cert.ReferenceIdeal.Facts₀ Cert.ReferenceIdeal.Facts

variable {F : FTy → Type} [FloatOps F] [Cert.ReferenceIdeal.Facts]

/-- The twenty argument arrays of one device. -/
structure Args (F : FTy → Type) where
  a0 : (⟨S50000x72, .f32⟩ : BufTy).Contents (Elt F)
  a1 : (⟨S50000x4, .f32⟩ : BufTy).Contents (Elt F)
  a2 : (⟨S50000x8, .f32⟩ : BufTy).Contents (Elt F)
  a3 : (⟨S2x1600000, .i32⟩ : BufTy).Contents (Elt F)
  a4 : (⟨S146x72, .f32⟩ : BufTy).Contents (Elt F)
  a5 : (⟨S72, .f32⟩ : BufTy).Contents (Elt F)
  a6 : (⟨S72, .f32⟩ : BufTy).Contents (Elt F)
  a7 : (⟨S72x72, .f32⟩ : BufTy).Contents (Elt F)
  a8 : (⟨S72, .f32⟩ : BufTy).Contents (Elt F)
  a9 : (⟨S152x72, .f32⟩ : BufTy).Contents (Elt F)
  a10 : (⟨S72, .f32⟩ : BufTy).Contents (Elt F)
  a11 : (⟨S72, .f32⟩ : BufTy).Contents (Elt F)
  a12 : (⟨S72, .f32⟩ : BufTy).Contents (Elt F)
  a13 : (⟨S72x72, .f32⟩ : BufTy).Contents (Elt F)
  a14 : (⟨S72, .f32⟩ : BufTy).Contents (Elt F)
  a15 : (⟨S72x72, .f32⟩ : BufTy).Contents (Elt F)
  a16 : (⟨S72, .f32⟩ : BufTy).Contents (Elt F)
  a17 : (⟨S72x1, .f32⟩ : BufTy).Contents (Elt F)
  a18 : (⟨S72x1, .f32⟩ : BufTy).Contents (Elt F)
  a19 : (⟨S1, .f32⟩ : BufTy).Contents (Elt F)

def r_main_v0 (A : Args F) : (⟨S1x1600000, .i32⟩ : BufTy).Contents (Elt F) :=
  ((extractStridedSlice S1x1600000 ![0, 0] · slices_S2x1600000_S1x1600000_0_0) : (⟨S2x1600000, .i32⟩ : BufTy).Contents (Elt F) → (⟨S1x1600000, .i32⟩ : BufTy).Contents (Elt F)) A.a3

def r_main_v1 (A : Args F) : (⟨S1600000, .i32⟩ : BufTy).Contents (Elt F) :=
  shapeCast S1600000 (r_main_v0 A) shapeCasts_S1x1600000_S1600000

def r_main_v2 (A : Args F) : (⟨S1x1600000, .i32⟩ : BufTy).Contents (Elt F) :=
  ((extractStridedSlice S1x1600000 ![1, 0] · slices_S2x1600000_S1x1600000_1_0) : (⟨S2x1600000, .i32⟩ : BufTy).Contents (Elt F) → (⟨S1x1600000, .i32⟩ : BufTy).Contents (Elt F)) A.a3

def r_main_v3 (A : Args F) : (⟨S1600000, .i32⟩ : BufTy).Contents (Elt F) :=
  shapeCast S1600000 (r_main_v2 A) shapeCasts_S1x1600000_S1600000

def r_main_c (A : Args F) : (⟨S_, .i32⟩ : BufTy).Contents (Elt F) :=
  (constantI S_ 32 0#32)

def r_main_v4 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (r_main_c A)

def r_main_v5 (A : Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (r_main_v1 A) (r_main_v4 A)

def r_main_c_0 (A : Args F) : (⟨S_, .i32⟩ : BufTy).Contents (Elt F) :=
  (constantI S_ 32 50000#32)

def r_main_v6 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (r_main_c_0 A)

def r_main_v7 (A : Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (r_main_v1 A) (r_main_v6 A)

def r_main_v8 (A : Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (r_main_v5 A) (r_main_v7 A) (r_main_v1 A)

def r_main_v9 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (r_main_v8 A)

def r_main_v10 (A : Args F) : (⟨S1600000x4, .f32⟩ : BufTy).Contents (Elt F) :=
  ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)) A.a1 (r_main_v9 A)

def r_main_c_1 (A : Args F) : (⟨S_, .i32⟩ : BufTy).Contents (Elt F) :=
  (constantI S_ 32 0#32)

def r_main_v11 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (r_main_c_1 A)

def r_main_v12 (A : Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (r_main_v3 A) (r_main_v11 A)

def r_main_c_2 (A : Args F) : (⟨S_, .i32⟩ : BufTy).Contents (Elt F) :=
  (constantI S_ 32 50000#32)

def r_main_v13 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (r_main_c_2 A)

def r_main_v14 (A : Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (r_main_v3 A) (r_main_v13 A)

def r_main_v15 (A : Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (r_main_v12 A) (r_main_v14 A) (r_main_v3 A)

def r_main_v16 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (r_main_v15 A)

def r_main_v17 (A : Args F) : (⟨S1600000x4, .f32⟩ : BufTy).Contents (Elt F) :=
  ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)) A.a1 (r_main_v16 A)

def r_main_v18 (A : Args F) : (⟨S1600000x4, .f32⟩ : BufTy).Contents (Elt F) :=
  (subf : (⟨S1600000x4, .f32⟩ : BufTy).Contents (Elt F) → (⟨S1600000x4, .f32⟩ : BufTy).Contents (Elt F) → (⟨S1600000x4, .f32⟩ : BufTy).Contents (Elt F)) (r_main_v10 A) (r_main_v17 A)

def r_main_v19 (A : Args F) : (⟨S1600000x4, .f32⟩ : BufTy).Contents (Elt F) :=
  (mulf : (⟨S1600000x4, .f32⟩ : BufTy).Contents (Elt F) → (⟨S1600000x4, .f32⟩ : BufTy).Contents (Elt F) → (⟨S1600000x4, .f32⟩ : BufTy).Contents (Elt F)) (r_main_v18 A) (r_main_v18 A)

def r_main_v20 (A : Args F) : (⟨S1600000x1, .f32⟩ : BufTy).Contents (Elt F) :=
  ((extractStridedSlice S1600000x1 ![0, 0] · slices_S1600000x4_S1600000x1_0_0) : (⟨S1600000x4, .f32⟩ : BufTy).Contents (Elt F) → (⟨S1600000x1, .f32⟩ : BufTy).Contents (Elt F)) (r_main_v19 A)

def r_main_v21 (A : Args F) : (⟨S1600000, .f32⟩ : BufTy).Contents (Elt F) :=
  shapeCast S1600000 (r_main_v20 A) shapeCasts_S1600000x1_S1600000

def r_main_cst (A : Args F) : (⟨S_, .f32⟩ : BufTy).Contents (Elt F) :=
  (constant S_ .f32 0x40000000#32)

def r_main_v22 (A : Args F) : (⟨S1600000, .f32⟩ : BufTy).Contents (Elt F) :=
  (broadcastInDim S1600000 ![] bcast_S_S1600000 : (⟨S_, .f32⟩ : BufTy).Contents (Elt F) → (⟨S1600000, .f32⟩ : BufTy).Contents (Elt F)) (r_main_cst A)

def r_main_v23 (A : Args F) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F)) (r_main_v22 A) (r_main_v21 A)

def r_main_cst_3 (A : Args F) : (⟨S_, .f32⟩ : BufTy).Contents (Elt F) :=
  (constant S_ .f32 0x00000000#32)

def r_main_v24 (A : Args F) : (⟨S1600000, .f32⟩ : BufTy).Contents (Elt F) :=
  ((fun x v => Host.reduceAdd x v reducesTo_S1600000x4_S1600000_d1 h_S_) : (⟨S1600000x4, .f32⟩ : BufTy).Contents (Elt F) → (⟨S_, .f32⟩ : BufTy).Contents (Elt F) → (⟨S1600000, .f32⟩ : BufTy).Contents (Elt F)) (r_main_v19 A) (r_main_cst_3 A)

def r_main_v25 (A : Args F) : (⟨S1600000, .f32⟩ : BufTy).Contents (Elt F) :=
  (subf : (⟨S1600000, .f32⟩ : BufTy).Contents (Elt F) → (⟨S1600000, .f32⟩ : BufTy).Contents (Elt F) → (⟨S1600000, .f32⟩ : BufTy).Contents (Elt F)) (r_main_v23 A) (r_main_v24 A)

def r_main_v26 (A : Args F) : (⟨S1600000, .f32⟩ : BufTy).Contents (Elt F) :=
  (Host.sign : (⟨S1600000, .f32⟩ : BufTy).Contents (Elt F) → (⟨S1600000, .f32⟩ : BufTy).Contents (Elt F)) (r_main_v25 A)

def r_main_v27 (A : Args F) : (⟨S1600000, .f32⟩ : BufTy).Contents (Elt F) :=
  (Host.absf : (⟨S1600000, .f32⟩ : BufTy).Contents (Elt F) → (⟨S1600000, .f32⟩ : BufTy).Contents (Elt F)) (r_main_v25 A)

def r_main_cst_4 (A : Args F) : (⟨S_, .f32⟩ : BufTy).Contents (Elt F) :=
  (constant S_ .f32 0x3F800000#32)

def r_main_v28 (A : Args F) : (⟨S1600000, .f32⟩ : BufTy).Contents (Elt F) :=
  (broadcastInDim S1600000 ![] bcast_S_S1600000 : (⟨S_, .f32⟩ : BufTy).Contents (Elt F) → (⟨S1600000, .f32⟩ : BufTy).Contents (Elt F)) (r_main_cst_4 A)

def r_main_v29 (A : Args F) : (⟨S1600000, .f32⟩ : BufTy).Contents (Elt F) :=
  (addf : (⟨S1600000, .f32⟩ : BufTy).Contents (Elt F) → (⟨S1600000, .f32⟩ : BufTy).Contents (Elt F) → (⟨S1600000, .f32⟩ : BufTy).Contents (Elt F)) (r_main_v27 A) (r_main_v28 A)

def r_main_v30 (A : Args F) : (⟨S1600000, .f32⟩ : BufTy).Contents (Elt F) :=
  (Host.log : (⟨S1600000, .f32⟩ : BufTy).Contents (Elt F) → (⟨S1600000, .f32⟩ : BufTy).Contents (Elt F)) (r_main_v29 A)

def r_main_v31 (A : Args F) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F)) (r_main_v26 A) (r_main_v30 A)

def r_main_v32 (A : Args F) : (⟨S1600000x1, .f32⟩ : BufTy).Contents (Elt F) :=
  (broadcastInDim S1600000x1 ![0] bcast_S1600000_S1600000x1_0 : (⟨S1600000, .f32⟩ : BufTy).Contents (Elt F) → (⟨S1600000x1, .f32⟩ : BufTy).Contents (Elt F)) (r_main_v31 A)

def r_main_c_5 (A : Args F) : (⟨S_, .i32⟩ : BufTy).Contents (Elt F) :=
  (constantI S_ 32 0#32)

def r_main_v33 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (r_main_c_5 A)

def r_main_v34 (A : Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (r_main_v1 A) (r_main_v33 A)

def r_main_c_6 (A : Args F) : (⟨S_, .i32⟩ : BufTy).Contents (Elt F) :=
  (constantI S_ 32 50000#32)

def r_main_v35 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (r_main_c_6 A)

def r_main_v36 (A : Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (r_main_v1 A) (r_main_v35 A)

def r_main_v37 (A : Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (r_main_v34 A) (r_main_v36 A) (r_main_v1 A)

def r_main_v38 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (r_main_v37 A)

def r_main_v39 (A : Args F) : (⟨S1600000x4, .f32⟩ : BufTy).Contents (Elt F) :=
  ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)) A.a1 (r_main_v38 A)

def r_main_c_7 (A : Args F) : (⟨S_, .i32⟩ : BufTy).Contents (Elt F) :=
  (constantI S_ 32 0#32)

def r_main_v40 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (r_main_c_7 A)

def r_main_v41 (A : Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (r_main_v3 A) (r_main_v40 A)

def r_main_c_8 (A : Args F) : (⟨S_, .i32⟩ : BufTy).Contents (Elt F) :=
  (constantI S_ 32 50000#32)

def r_main_v42 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (r_main_c_8 A)

def r_main_v43 (A : Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (r_main_v3 A) (r_main_v42 A)

def r_main_v44 (A : Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (r_main_v41 A) (r_main_v43 A) (r_main_v3 A)

def r_main_v45 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (r_main_v44 A)

def r_main_v46 (A : Args F) : (⟨S1600000x4, .f32⟩ : BufTy).Contents (Elt F) :=
  ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)) A.a1 (r_main_v45 A)

def r_main_v47 (A : Args F) : (⟨S1600000x4, .f32⟩ : BufTy).Contents (Elt F) :=
  (mulf : (⟨S1600000x4, .f32⟩ : BufTy).Contents (Elt F) → (⟨S1600000x4, .f32⟩ : BufTy).Contents (Elt F) → (⟨S1600000x4, .f32⟩ : BufTy).Contents (Elt F)) (r_main_v39 A) (r_main_v46 A)

def r_main_v48 (A : Args F) : (⟨S1600000x1, .f32⟩ : BufTy).Contents (Elt F) :=
  ((extractStridedSlice S1600000x1 ![0, 0] · slices_S1600000x4_S1600000x1_0_0) : (⟨S1600000x4, .f32⟩ : BufTy).Contents (Elt F) → (⟨S1600000x1, .f32⟩ : BufTy).Contents (Elt F)) (r_main_v47 A)

def r_main_v49 (A : Args F) : (⟨S1600000, .f32⟩ : BufTy).Contents (Elt F) :=
  shapeCast S1600000 (r_main_v48 A) shapeCasts_S1600000x1_S1600000

def r_main_cst_9 (A : Args F) : (⟨S_, .f32⟩ : BufTy).Contents (Elt F) :=
  (constant S_ .f32 0x40000000#32)

def r_main_v50 (A : Args F) : (⟨S1600000, .f32⟩ : BufTy).Contents (Elt F) :=
  (broadcastInDim S1600000 ![] bcast_S_S1600000 : (⟨S_, .f32⟩ : BufTy).Contents (Elt F) → (⟨S1600000, .f32⟩ : BufTy).Contents (Elt F)) (r_main_cst_9 A)

def r_main_v51 (A : Args F) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F)) (r_main_v50 A) (r_main_v49 A)

def r_main_cst_10 (A : Args F) : (⟨S_, .f32⟩ : BufTy).Contents (Elt F) :=
  (constant S_ .f32 0x00000000#32)

def r_main_v52 (A : Args F) : (⟨S1600000, .f32⟩ : BufTy).Contents (Elt F) :=
  ((fun x v => Host.reduceAdd x v reducesTo_S1600000x4_S1600000_d1 h_S_) : (⟨S1600000x4, .f32⟩ : BufTy).Contents (Elt F) → (⟨S_, .f32⟩ : BufTy).Contents (Elt F) → (⟨S1600000, .f32⟩ : BufTy).Contents (Elt F)) (r_main_v47 A) (r_main_cst_10 A)

def r_main_v53 (A : Args F) : (⟨S1600000, .f32⟩ : BufTy).Contents (Elt F) :=
  (subf : (⟨S1600000, .f32⟩ : BufTy).Contents (Elt F) → (⟨S1600000, .f32⟩ : BufTy).Contents (Elt F) → (⟨S1600000, .f32⟩ : BufTy).Contents (Elt F)) (r_main_v51 A) (r_main_v52 A)

def r_main_v54 (A : Args F) : (⟨S1600000, .f32⟩ : BufTy).Contents (Elt F) :=
  (Host.sign : (⟨S1600000, .f32⟩ : BufTy).Contents (Elt F) → (⟨S1600000, .f32⟩ : BufTy).Contents (Elt F)) (r_main_v53 A)

def r_main_v55 (A : Args F) : (⟨S1600000, .f32⟩ : BufTy).Contents (Elt F) :=
  (Host.absf : (⟨S1600000, .f32⟩ : BufTy).Contents (Elt F) → (⟨S1600000, .f32⟩ : BufTy).Contents (Elt F)) (r_main_v53 A)

def r_main_cst_11 (A : Args F) : (⟨S_, .f32⟩ : BufTy).Contents (Elt F) :=
  (constant S_ .f32 0x3F800000#32)

def r_main_v56 (A : Args F) : (⟨S1600000, .f32⟩ : BufTy).Contents (Elt F) :=
  (broadcastInDim S1600000 ![] bcast_S_S1600000 : (⟨S_, .f32⟩ : BufTy).Contents (Elt F) → (⟨S1600000, .f32⟩ : BufTy).Contents (Elt F)) (r_main_cst_11 A)

def r_main_v57 (A : Args F) : (⟨S1600000, .f32⟩ : BufTy).Contents (Elt F) :=
  (addf : (⟨S1600000, .f32⟩ : BufTy).Contents (Elt F) → (⟨S1600000, .f32⟩ : BufTy).Contents (Elt F) → (⟨S1600000, .f32⟩ : BufTy).Contents (Elt F)) (r_main_v55 A) (r_main_v56 A)

def r_main_v58 (A : Args F) : (⟨S1600000, .f32⟩ : BufTy).Contents (Elt F) :=
  (Host.log : (⟨S1600000, .f32⟩ : BufTy).Contents (Elt F) → (⟨S1600000, .f32⟩ : BufTy).Contents (Elt F)) (r_main_v57 A)

def r_main_v59 (A : Args F) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F)) (r_main_v54 A) (r_main_v58 A)

def r_main_v60 (A : Args F) : (⟨S1600000x1, .f32⟩ : BufTy).Contents (Elt F) :=
  (broadcastInDim S1600000x1 ![0] bcast_S1600000_S1600000x1_0 : (⟨S1600000, .f32⟩ : BufTy).Contents (Elt F) → (⟨S1600000x1, .f32⟩ : BufTy).Contents (Elt F)) (r_main_v59 A)

def r_main_c_12 (A : Args F) : (⟨S_, .i32⟩ : BufTy).Contents (Elt F) :=
  (constantI S_ 32 0#32)

def r_main_v61 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (r_main_c_12 A)

def r_main_v62 (A : Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (r_main_v1 A) (r_main_v61 A)

def r_main_c_13 (A : Args F) : (⟨S_, .i32⟩ : BufTy).Contents (Elt F) :=
  (constantI S_ 32 50000#32)

def r_main_v63 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (r_main_c_13 A)

def r_main_v64 (A : Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (r_main_v1 A) (r_main_v63 A)

def r_main_v65 (A : Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (r_main_v62 A) (r_main_v64 A) (r_main_v1 A)

def r_main_v66 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (r_main_v65 A)

def r_main_v67 (A : Args F) : (⟨S1600000x72, .f32⟩ : BufTy).Contents (Elt F) :=
  ((fun x i => Host.gather gather_S50000x72_S1600000x1_S1600000x72_1_0_n_n_0_1_172 x i) : (⟨S50000x72, .f32⟩ : BufTy).Contents (Elt F) → (⟨S1600000x1, .i32⟩ : BufTy).Contents (Elt F) → (⟨S1600000x72, .f32⟩ : BufTy).Contents (Elt F)) A.a0 (r_main_v66 A)

def r_main_c_14 (A : Args F) : (⟨S_, .i32⟩ : BufTy).Contents (Elt F) :=
  (constantI S_ 32 0#32)

def r_main_v68 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (r_main_c_14 A)

def r_main_v69 (A : Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (r_main_v3 A) (r_main_v68 A)

def r_main_c_15 (A : Args F) : (⟨S_, .i32⟩ : BufTy).Contents (Elt F) :=
  (constantI S_ 32 50000#32)

def r_main_v70 (A : Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (r_main_c_15 A)

def r_main_v71 (A : Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (r_main_v3 A) (r_main_v70 A)

def r_main_v72 (A : Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (r_main_v69 A) (r_main_v71 A) (r_main_v3 A)

def r_main_v73 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (r_main_v72 A)

def r_main_v74 (A : Args F) : (⟨S1600000x72, .f32⟩ : BufTy).Contents (Elt F) :=
  ((fun x i => Host.gather gather_S50000x72_S1600000x1_S1600000x72_1_0_n_n_0_1_172 x i) : (⟨S50000x72, .f32⟩ : BufTy).Contents (Elt F) → (⟨S1600000x1, .i32⟩ : BufTy).Contents (Elt F) → (⟨S1600000x72, .f32⟩ : BufTy).Contents (Elt F)) A.a0 (r_main_v73 A)

def r_main_v75 (A : Args F) : (⟨S1600000x146, .f32⟩ : BufTy).Contents (Elt F) :=
  concatenate S1600000x146 1 [⟨S1600000x72, (r_main_v67 A)⟩, ⟨S1600000x72, (r_main_v74 A)⟩, ⟨S1600000x1, (r_main_v32 A)⟩, ⟨S1600000x1, (r_main_v60 A)⟩] concatenates_S1600000x72_S1600000x72_S1600000x1_S1600000x1_S1600000x146_d1

def r_main_v76 (A : Args F) : (⟨S1600000x72, .f32⟩ : BufTy).Contents (Elt F) :=
  ((fun l r => Host.dotGeneral dot_S1600000x146_S146x72_S1600000x72_1_0_0_1_n_n none l r) : (⟨S1600000x146, .f32⟩ : BufTy).Contents (Elt F) → (⟨S146x72, .f32⟩ : BufTy).Contents (Elt F) → (⟨S1600000x72, .f32⟩ : BufTy).Contents (Elt F)) (r_main_v75 A) A.a4

def r_main_cst_16 (A : Args F) : (⟨S_, .f32⟩ : BufTy).Contents (Elt F) :=
  (constant S_ .f32 0x00000000#32)

def r_main_v77 (A : Args F) : (⟨S72, .f32⟩ : BufTy).Contents (Elt F) :=
  ((fun x v => Host.reduceAdd x v reducesTo_S1600000x72_S72_d0 h_S_) : (⟨S1600000x72, .f32⟩ : BufTy).Contents (Elt F) → (⟨S_, .f32⟩ : BufTy).Contents (Elt F) → (⟨S72, .f32⟩ : BufTy).Contents (Elt F)) (r_main_v76 A) (r_main_cst_16 A)

def r_main_cst_17 (A : Args F) : (⟨S_, .f32⟩ : BufTy).Contents (Elt F) :=
  (constant S_ .f32 0x49C35000#32)

def r_main_v78 (A : Args F) : (⟨S72, .f32⟩ : BufTy).Contents (Elt F) :=
  (broadcastInDim S72 ![] bcast_S_S72 : (⟨S_, .f32⟩ : BufTy).Contents (Elt F) → (⟨S72, .f32⟩ : BufTy).Contents (Elt F)) (r_main_cst_17 A)

def r_main_v79 (A : Args F) : (⟨S72, .f32⟩ : BufTy).Contents (Elt F) :=
  (Host.divf : (⟨S72, .f32⟩ : BufTy).Contents (Elt F) → (⟨S72, .f32⟩ : BufTy).Contents (Elt F) → (⟨S72, .f32⟩ : BufTy).Contents (Elt F)) (r_main_v77 A) (r_main_v78 A)

def r_main_c_18 (A : Args F) : (⟨S_, .i32⟩ : BufTy).Contents (Elt F) :=
  (constantI S_ 32 0#32)

def r_main_call0_cst (A : Args F) : (⟨S_, .f32⟩ : BufTy).Contents (Elt F) :=
  (constant S_ .f32 0x00000000#32)

def r_main_call0_v0 (A : Args F) : (⟨S72, .f32⟩ : BufTy).Contents (Elt F) :=
  (fun x v => Host.reduceAdd x v reducesTo_S1600000x72_S72_d0 h_S_) (r_main_v76 A) (r_main_call0_cst A)

def r_main_call0_v1 (A : Args F) : (⟨S1x72, .f32⟩ : BufTy).Contents (Elt F) :=
  (broadcastInDim S1x72 ![1] bcast_S72_S1x72_1) (r_main_call0_v0 A)

def r_main_call0_cst_0 (A : Args F) : (⟨S_, .f32⟩ : BufTy).Contents (Elt F) :=
  (constant S_ .f32 0x49C35000#32)

def r_main_call0_v2 (A : Args F) : (⟨S1x72, .f32⟩ : BufTy).Contents (Elt F) :=
  (broadcastInDim S1x72 ![] bcast_S_S1x72) (r_main_call0_cst_0 A)

def r_main_call0_v3 (A : Args F) : (⟨S1x72, .f32⟩ : BufTy).Contents (Elt F) :=
  Host.divf (r_main_call0_v1 A) (r_main_call0_v2 A)

def r_main_call0_v4 (A : Args F) : (⟨S1600000x72, .f32⟩ : BufTy).Contents (Elt F) :=
  (broadcastInDim S1600000x72 ![0, 1] bcast_S1x72_S1600000x72_0_1) (r_main_call0_v3 A)

def r_main_call0_v5 (A : Args F) : (⟨S1600000x72, .f32⟩ : BufTy).Contents (Elt F) :=
  subf (r_main_v76 A) (r_main_call0_v4 A)

def r_main_call0_v6 (A : Args F) : (⟨S1600000x72, .f32⟩ : BufTy).Contents (Elt F) :=
  mulf (r_main_call0_v5 A) (r_main_call0_v5 A)

def r_main_call0_v7 (A : Args F) : (⟨S_, .f32⟩ : BufTy).Contents (Elt F) :=
  (sitofp .f32) (r_main_c_18 A)

def r_main_call0_cst_1 (A : Args F) : (⟨S_, .f32⟩ : BufTy).Contents (Elt F) :=
  (constant S_ .f32 0x49C35000#32)

def r_main_call0_v8 (A : Args F) : (⟨S_, .f32⟩ : BufTy).Contents (Elt F) :=
  subf (r_main_call0_cst_1 A) (r_main_call0_v7 A)

def r_main_call0_cst_2 (A : Args F) : (⟨S_, .f32⟩ : BufTy).Contents (Elt F) :=
  (constant S_ .f32 0x00000000#32)

def r_main_call0_v9 (A : Args F) : (⟨S72, .f32⟩ : BufTy).Contents (Elt F) :=
  (fun x v => Host.reduceAdd x v reducesTo_S1600000x72_S72_d0 h_S_) (r_main_call0_v6 A) (r_main_call0_cst_2 A)

def r_main_call0_v10 (A : Args F) : (⟨S72, .f32⟩ : BufTy).Contents (Elt F) :=
  (broadcastInDim S72 ![] bcast_S_S72) (r_main_call0_v8 A)

def r_main_call0_v11 (A : Args F) : (⟨S72, .f32⟩ : BufTy).Contents (Elt F) :=
  Host.divf (r_main_call0_v9 A) (r_main_call0_v10 A)

def r_main_call0_cst_3 (A : Args F) : (⟨S_, .f32⟩ : BufTy).Contents (Elt F) :=
  (constant S_ .f32 0x00000000#32)

def r_main_call0_v12 (A : Args F) : (⟨S_, .i1⟩ : BufTy).Contents (Elt F) :=
  (cmpf .ogt) (r_main_call0_v8 A) (r_main_call0_cst_3 A)

def r_main_call0_cst_4 (A : Args F) : (⟨S_, .f32⟩ : BufTy).Contents (Elt F) :=
  (constant S_ .f32 0x7FC00000#32)

def r_main_call0_call0_v0 (A : Args F) : (⟨S_, .f32⟩ : BufTy).Contents (Elt F) :=
  id (r_main_call0_cst_4 A)

def r_main_call0_call0_v1 (A : Args F) : (⟨S72, .f32⟩ : BufTy).Contents (Elt F) :=
  (broadcastInDim S72 ![] bcast_S_S72) (r_main_call0_call0_v0 A)

def r_main_v80 (A : Args F) : (⟨S72, .f32⟩ : BufTy).Contents (Elt F) :=
  (fun p a b => select (broadcastInDim S72 ![] bcast_S_S72 p) a b) (r_main_call0_v12 A) (r_main_call0_v11 A) (r_main_call0_call0_v1 A)

def r_main_v81 (A : Args F) : (⟨S1x72, .f32⟩ : BufTy).Contents (Elt F) :=
  (broadcastInDim S1x72 ![1] bcast_S72_S1x72_1 : (⟨S72, .f32⟩ : BufTy).Contents (Elt F) → (⟨S1x72, .f32⟩ : BufTy).Contents (Elt F)) (r_main_v79 A)

def r_main_v82 (A : Args F) : (⟨S1600000x72, .f32⟩ : BufTy).Contents (Elt F) :=
  (broadcastInDim S1600000x72 ![0, 1] bcast_S1x72_S1600000x72_0_1 : (⟨S1x72, .f32⟩ : BufTy).Contents (Elt F) → (⟨S1600000x72, .f32⟩ : BufTy).Contents (Elt F)) (r_main_v81 A)

def r_main_v83 (A : Args F) : (⟨S1600000x72, .f32⟩ : BufTy).Contents (Elt F) :=
  (subf : (⟨S1600000x72, .f32⟩ : BufTy).Contents (Elt F) → (⟨S1600000x72, .f32⟩ : BufTy).Contents (Elt F) → (⟨S1600000x72, .f32⟩ : BufTy).Contents (Elt F)) (r_main_v76 A) (r_main_v82 A)

def r_main_cst_19 (A : Args F) : (⟨S_, .f32⟩ : BufTy).Contents (Elt F) :=
  (constant S_ .f32 0x3727C5AC#32)

def r_main_v84 (A : Args F) : (⟨S72, .f32⟩ : BufTy).Contents (Elt F) :=
  (broadcastInDim S72 ![] bcast_S_S72 : (⟨S_, .f32⟩ : BufTy).Contents (Elt F) → (⟨S72, .f32⟩ : BufTy).Contents (Elt F)) (r_main_cst_19 A)

def r_main_v85 (A : Args F) : (⟨S72, .f32⟩ : BufTy).Contents (Elt F) :=
  (addf : (⟨S72, .f32⟩ : BufTy).Contents (Elt F) → (⟨S72, .f32⟩ : BufTy).Contents (Elt F) → (⟨S72, .f32⟩ : BufTy).Contents (Elt F)) (r_main_v80 A) (r_main_v84 A)

def r_main_v86 (A : Args F) : (⟨S72, .f32⟩ : BufTy).Contents (Elt F) :=
  (Host.rsqrt : (⟨S72, .f32⟩ : BufTy).Contents (Elt F) → (⟨S72, .f32⟩ : BufTy).Contents (Elt F)) (r_main_v85 A)

def r_main_v87 (A : Args F) : (⟨S1x72, .f32⟩ : BufTy).Contents (Elt F) :=
  (broadcastInDim S1x72 ![1] bcast_S72_S1x72_1 : (⟨S72, .f32⟩ : BufTy).Contents (Elt F) → (⟨S1x72, .f32⟩ : BufTy).Contents (Elt F)) (r_main_v86 A)

def r_main_v88 (A : Args F) : (⟨S1600000x72, .f32⟩ : BufTy).Contents (Elt F) :=
  (broadcastInDim S1600000x72 ![0, 1] bcast_S1x72_S1600000x72_0_1 : (⟨S1x72, .f32⟩ : BufTy).Contents (Elt F) → (⟨S1600000x72, .f32⟩ : BufTy).Contents (Elt F)) (r_main_v87 A)

def r_main_v89 (A : Args F) : (⟨S1600000x72, .f32⟩ : BufTy).Contents (Elt F) :=
  (mulf : (⟨S1600000x72, .f32⟩ : BufTy).Contents (Elt F) → (⟨S1600000x72, .f32⟩ : BufTy).Contents (Elt F) → (⟨S1600000x72, .f32⟩ : BufTy).Contents (Elt F)) (r_main_v83 A) (r_main_v88 A)

def r_main_v90 (A : Args F) : (⟨S1x72, .f32⟩ : BufTy).Contents (Elt F) :=
  (broadcastInDim S1x72 ![1] bcast_S72_S1x72_1 : (⟨S72, .f32⟩ : BufTy).Contents (Elt F) → (⟨S1x72, .f32⟩ : BufTy).Contents (Elt F)) A.a5

def r_main_v91 (A : Args F) : (⟨S1600000x72, .f32⟩ : BufTy).Contents (Elt F) :=
  (broadcastInDim S1600000x72 ![0, 1] bcast_S1x72_S1600000x72_0_1 : (⟨S1x72, .f32⟩ : BufTy).Contents (Elt F) → (⟨S1600000x72, .f32⟩ : BufTy).Contents (Elt F)) (r_main_v90 A)

def r_main_v92 (A : Args F) : (⟨S1600000x72, .f32⟩ : BufTy).Contents (Elt F) :=
  (mulf : (⟨S1600000x72, .f32⟩ : BufTy).Contents (Elt F) → (⟨S1600000x72, .f32⟩ : BufTy).Contents (Elt F) → (⟨S1600000x72, .f32⟩ : BufTy).Contents (Elt F)) (r_main_v89 A) (r_main_v91 A)

def r_main_v93 (A : Args F) : (⟨S1x72, .f32⟩ : BufTy).Contents (Elt F) :=
  (broadcastInDim S1x72 ![1] bcast_S72_S1x72_1 : (⟨S72, .f32⟩ : BufTy).Contents (Elt F) → (⟨S1x72, .f32⟩ : BufTy).Contents (Elt F)) A.a6

def r_main_v94 (A : Args F) : (⟨S1600000x72, .f32⟩ : BufTy).Contents (Elt F) :=
  (broadcastInDim S1600000x72 ![0, 1] bcast_S1x72_S1600000x72_0_1 : (⟨S1x72, .f32⟩ : BufTy).Contents (Elt F) → (⟨S1600000x72, .f32⟩ : BufTy).Contents (Elt F)) (r_main_v93 A)

def r_main_v95 (A : Args F) : (⟨S1600000x72, .f32⟩ : BufTy).Contents (Elt F) :=
  (addf : (⟨S1600000x72, .f32⟩ : BufTy).Contents (Elt F) → (⟨S1600000x72, .f32⟩ : BufTy).Contents (Elt F) → (⟨S1600000x72, .f32⟩ : BufTy).Contents (Elt F)) (r_main_v92 A) (r_main_v94 A)

def r_main_call1_cst (A : Args F) : (⟨S_, .f32⟩ : BufTy).Contents (Elt F) :=
  (constant S_ .f32 0x00000000#32)

def r_main_call1_v0 (A : Args F) : (⟨S1600000x72, .f32⟩ : BufTy).Contents (Elt F) :=
  (broadcastInDim S1600000x72 ![] bcast_S_S1600000x72) (r_main_call1_cst A)

def r_main_v96 (A : Args F) : (⟨S1600000x72, .f32⟩ : BufTy).Contents (Elt F) :=
  maximumf (r_main_v95 A) (r_main_call1_v0 A)

def r_main_v97 (A : Args F) : (⟨S1600000x72, .f32⟩ : BufTy).Contents (Elt F) :=
  ((fun l r => Host.dotGeneral dot_S1600000x72_S72x72_S1600000x72_1_0_0_1_n_n none l r) : (⟨S1600000x72, .f32⟩ : BufTy).Contents (Elt F) → (⟨S72x72, .f32⟩ : BufTy).Contents (Elt F) → (⟨S1600000x72, .f32⟩ : BufTy).Contents (Elt F)) (r_main_v96 A) A.a7

def r_main_v98 (A : Args F) : (⟨S1x72, .f32⟩ : BufTy).Contents (Elt F) :=
  (broadcastInDim S1x72 ![1] bcast_S72_S1x72_1 : (⟨S72, .f32⟩ : BufTy).Contents (Elt F) → (⟨S1x72, .f32⟩ : BufTy).Contents (Elt F)) A.a8

def r_main_v99 (A : Args F) : (⟨S1600000x72, .f32⟩ : BufTy).Contents (Elt F) :=
  (broadcastInDim S1600000x72 ![0, 1] bcast_S1x72_S1600000x72_0_1 : (⟨S1x72, .f32⟩ : BufTy).Contents (Elt F) → (⟨S1600000x72, .f32⟩ : BufTy).Contents (Elt F)) (r_main_v98 A)

def r_main_v100 (A : Args F) : (⟨S1600000x72, .f32⟩ : BufTy).Contents (Elt F) :=
  (addf : (⟨S1600000x72, .f32⟩ : BufTy).Contents (Elt F) → (⟨S1600000x72, .f32⟩ : BufTy).Contents (Elt F) → (⟨S1600000x72, .f32⟩ : BufTy).Contents (Elt F)) (r_main_v97 A) (r_main_v99 A)

def r_main_call2_cst (A : Args F) : (⟨S_, .f32⟩ : BufTy).Contents (Elt F) :=
  (constant S_ .f32 0x00000000#32)

def r_main_call2_v0 (A : Args F) : (⟨S1600000x72, .f32⟩ : BufTy).Contents (Elt F) :=
  (broadcastInDim S1600000x72 ![] bcast_S_S1600000x72) (r_main_call2_cst A)

def r_main_v101 (A : Args F) : (⟨S1600000x72, .f32⟩ : BufTy).Contents (Elt F) :=
  maximumf (r_main_v100 A) (r_main_call2_v0 A)

def r_main_v102 (A : Args F) : (⟨S1600000x1, .f32⟩ : BufTy).Contents (Elt F) :=
  ((fun l r => Host.dotGeneral dot_S1600000x72_S72x1_S1600000x1_1_0_0_1_n_n none l r) : (⟨S1600000x72, .f32⟩ : BufTy).Contents (Elt F) → (⟨S72x1, .f32⟩ : BufTy).Contents (Elt F) → (⟨S1600000x1, .f32⟩ : BufTy).Contents (Elt F)) (r_main_v101 A) A.a18

def r_main_v103 (A : Args F) : (⟨S1x1, .f32⟩ : BufTy).Contents (Elt F) :=
  (broadcastInDim S1x1 ![1] bcast_S1_S1x1_1 : (⟨S1, .f32⟩ : BufTy).Contents (Elt F) → (⟨S1x1, .f32⟩ : BufTy).Contents (Elt F)) A.a19

def r_main_v104 (A : Args F) : (⟨S1600000x1, .f32⟩ : BufTy).Contents (Elt F) :=
  (broadcastInDim S1600000x1 ![0, 1] bcast_S1x1_S1600000x1_0_1 : (⟨S1x1, .f32⟩ : BufTy).Contents (Elt F) → (⟨S1600000x1, .f32⟩ : BufTy).Contents (Elt F)) (r_main_v103 A)

def r_main_v105 (A : Args F) : (⟨S1600000x1, .f32⟩ : BufTy).Contents (Elt F) :=
  (addf : (⟨S1600000x1, .f32⟩ : BufTy).Contents (Elt F) → (⟨S1600000x1, .f32⟩ : BufTy).Contents (Elt F) → (⟨S1600000x1, .f32⟩ : BufTy).Contents (Elt F)) (r_main_v102 A) (r_main_v104 A)

def r_main_v106 (A : Args F) : (⟨S1600000x1, .f32⟩ : BufTy).Contents (Elt F) :=
  (Host.negf : (⟨S1600000x1, .f32⟩ : BufTy).Contents (Elt F) → (⟨S1600000x1, .f32⟩ : BufTy).Contents (Elt F)) (r_main_v105 A)

def r_main_v107 (A : Args F) : (⟨S1600000x1, .f32⟩ : BufTy).Contents (Elt F) :=
  (Host.exp : (⟨S1600000x1, .f32⟩ : BufTy).Contents (Elt F) → (⟨S1600000x1, .f32⟩ : BufTy).Contents (Elt F)) (r_main_v106 A)

def r_main_cst_20 (A : Args F) : (⟨S_, .f32⟩ : BufTy).Contents (Elt F) :=
  (constant S_ .f32 0x3F800000#32)

def r_main_v108 (A : Args F) : (⟨S1600000x1, .f32⟩ : BufTy).Contents (Elt F) :=
  (broadcastInDim S1600000x1 ![] bcast_S_S1600000x1 : (⟨S_, .f32⟩ : BufTy).Contents (Elt F) → (⟨S1600000x1, .f32⟩ : BufTy).Contents (Elt F)) (r_main_cst_20 A)

def r_main_v109 (A : Args F) : (⟨S1600000x1, .f32⟩ : BufTy).Contents (Elt F) :=
  (addf : (⟨S1600000x1, .f32⟩ : BufTy).Contents (Elt F) → (⟨S1600000x1, .f32⟩ : BufTy).Contents (Elt F) → (⟨S1600000x1, .f32⟩ : BufTy).Contents (Elt F)) (r_main_v108 A) (r_main_v107 A)

def r_main_cst_21 (A : Args F) : (⟨S_, .f32⟩ : BufTy).Contents (Elt F) :=
  (constant S_ .f32 0x3F800000#32)

def r_main_v110 (A : Args F) : (⟨S1600000x1, .f32⟩ : BufTy).Contents (Elt F) :=
  (broadcastInDim S1600000x1 ![] bcast_S_S1600000x1 : (⟨S_, .f32⟩ : BufTy).Contents (Elt F) → (⟨S1600000x1, .f32⟩ : BufTy).Contents (Elt F)) (r_main_cst_21 A)

def r_main_v111 (A : Args F) : (⟨S1600000x1, .f32⟩ : BufTy).Contents (Elt F) :=
  (Host.divf : (⟨S1600000x1, .f32⟩ : BufTy).Contents (Elt F) → (⟨S1600000x1, .f32⟩ : BufTy).Contents (Elt F) → (⟨S1600000x1, .f32⟩ : BufTy).Contents (Elt F)) (r_main_v110 A) (r_main_v109 A)

def r_main_v112 (A : Args F) : (⟨S1600000x72, .f32⟩ : BufTy).Contents (Elt F) :=
  (broadcastInDim S1600000x72 ![0, 1] bcast_S1600000x1_S1600000x72_0_1 : (⟨S1600000x1, .f32⟩ : BufTy).Contents (Elt F) → (⟨S1600000x72, .f32⟩ : BufTy).Contents (Elt F)) (r_main_v111 A)

def r_main_v113 (A : Args F) : (⟨S1600000x72, .f32⟩ : BufTy).Contents (Elt F) :=
  (mulf : (⟨S1600000x72, .f32⟩ : BufTy).Contents (Elt F) → (⟨S1600000x72, .f32⟩ : BufTy).Contents (Elt F) → (⟨S1600000x72, .f32⟩ : BufTy).Contents (Elt F)) (r_main_v101 A) (r_main_v112 A)

def r_main_v114 (A : Args F) : (⟨S1600000x72, .f32⟩ : BufTy).Contents (Elt F) :=
  ((fun l r => Host.dotGeneral dot_S1600000x72_S72x72_S1600000x72_1_0_0_1_n_n none l r) : (⟨S1600000x72, .f32⟩ : BufTy).Contents (Elt F) → (⟨S72x72, .f32⟩ : BufTy).Contents (Elt F) → (⟨S1600000x72, .f32⟩ : BufTy).Contents (Elt F)) (r_main_v113 A) A.a15

def r_main_v115 (A : Args F) : (⟨S1x72, .f32⟩ : BufTy).Contents (Elt F) :=
  (broadcastInDim S1x72 ![1] bcast_S72_S1x72_1 : (⟨S72, .f32⟩ : BufTy).Contents (Elt F) → (⟨S1x72, .f32⟩ : BufTy).Contents (Elt F)) A.a16

def r_main_v116 (A : Args F) : (⟨S1600000x72, .f32⟩ : BufTy).Contents (Elt F) :=
  (broadcastInDim S1600000x72 ![0, 1] bcast_S1x72_S1600000x72_0_1 : (⟨S1x72, .f32⟩ : BufTy).Contents (Elt F) → (⟨S1600000x72, .f32⟩ : BufTy).Contents (Elt F)) (r_main_v115 A)

def r_main_v117 (A : Args F) : (⟨S1600000x72, .f32⟩ : BufTy).Contents (Elt F) :=
  (addf : (⟨S1600000x72, .f32⟩ : BufTy).Contents (Elt F) → (⟨S1600000x72, .f32⟩ : BufTy).Contents (Elt F) → (⟨S1600000x72, .f32⟩ : BufTy).Contents (Elt F)) (r_main_v114 A) (r_main_v116 A)

def r_main_call3_cst (A : Args F) : (⟨S_, .f32⟩ : BufTy).Contents (Elt F) :=
  (constant S_ .f32 0x00000000#32)

def r_main_call3_v0 (A : Args F) : (⟨S1600000x72, .f32⟩ : BufTy).Contents (Elt F) :=
  (broadcastInDim S1600000x72 ![] bcast_S_S1600000x72) (r_main_call3_cst A)

def r_main_v118 (A : Args F) : (⟨S1600000x72, .f32⟩ : BufTy).Contents (Elt F) :=
  maximumf (r_main_v117 A) (r_main_call3_v0 A)

def r_main_v119 (A : Args F) : (⟨S1600000x1, .f32⟩ : BufTy).Contents (Elt F) :=
  ((fun l r => Host.dotGeneral dot_S1600000x72_S72x1_S1600000x1_1_0_0_1_n_n none l r) : (⟨S1600000x72, .f32⟩ : BufTy).Contents (Elt F) → (⟨S72x1, .f32⟩ : BufTy).Contents (Elt F) → (⟨S1600000x1, .f32⟩ : BufTy).Contents (Elt F)) (r_main_v118 A) A.a17

def r_main_v120 (A : Args F) : (⟨S1600000x4, .f32⟩ : BufTy).Contents (Elt F) :=
  (broadcastInDim S1600000x4 ![0, 1] bcast_S1600000x1_S1600000x4_0_1 : (⟨S1600000x1, .f32⟩ : BufTy).Contents (Elt F) → (⟨S1600000x4, .f32⟩ : BufTy).Contents (Elt F)) (r_main_v119 A)

def r_main_v121 (A : Args F) : (⟨S1600000x4, .f32⟩ : BufTy).Contents (Elt F) :=
  (mulf : (⟨S1600000x4, .f32⟩ : BufTy).Contents (Elt F) → (⟨S1600000x4, .f32⟩ : BufTy).Contents (Elt F) → (⟨S1600000x4, .f32⟩ : BufTy).Contents (Elt F)) (r_main_v18 A) (r_main_v120 A)

def r_main_cst_22 (A : Args F) : (⟨S_, .f32⟩ : BufTy).Contents (Elt F) :=
  (constant S_ .f32 0xC2C80000#32)

def r_main_cst_23 (A : Args F) : (⟨S_, .f32⟩ : BufTy).Contents (Elt F) :=
  (constant S_ .f32 0x42C80000#32)

def r_main_call4_v0 (A : Args F) : (⟨S_, .f32⟩ : BufTy).Contents (Elt F) :=
  id (r_main_cst_22 A)

def r_main_call4_v1 (A : Args F) : (⟨S1600000x4, .f32⟩ : BufTy).Contents (Elt F) :=
  (broadcastInDim S1600000x4 ![] bcast_S_S1600000x4) (r_main_call4_v0 A)

def r_main_call4_v2 (A : Args F) : (⟨S1600000x4, .f32⟩ : BufTy).Contents (Elt F) :=
  maximumf (r_main_call4_v1 A) (r_main_v121 A)

def r_main_call4_v3 (A : Args F) : (⟨S_, .f32⟩ : BufTy).Contents (Elt F) :=
  id (r_main_cst_23 A)

def r_main_call4_v4 (A : Args F) : (⟨S1600000x4, .f32⟩ : BufTy).Contents (Elt F) :=
  (broadcastInDim S1600000x4 ![] bcast_S_S1600000x4) (r_main_call4_v3 A)

def r_main_v122 (A : Args F) : (⟨S1600000x4, .f32⟩ : BufTy).Contents (Elt F) :=
  minimumf (r_main_call4_v4 A) (r_main_call4_v2 A)

def r_main_cst_24 (A : Args F) : (⟨S_, .f32⟩ : BufTy).Contents (Elt F) :=
  (constant S_ .f32 0x3F800000#32)

def r_main_v123 (A : Args F) : (⟨S1600000, .f32⟩ : BufTy).Contents (Elt F) :=
  (broadcastInDim S1600000 ![] bcast_S_S1600000 : (⟨S_, .f32⟩ : BufTy).Contents (Elt F) → (⟨S1600000, .f32⟩ : BufTy).Contents (Elt F)) (r_main_cst_24 A)

def r_main_cst_25 (A : Args F) : (⟨S_, .f32⟩ : BufTy).Contents (Elt F) :=
  (constant S_ .f32 0x00000000#32)

def r_main_v124 (A : Args F) : (⟨S50000, .f32⟩ : BufTy).Contents (Elt F) :=
  (broadcastInDim S50000 ![] bcast_S_S50000 : (⟨S_, .f32⟩ : BufTy).Contents (Elt F) → (⟨S50000, .f32⟩ : BufTy).Contents (Elt F)) (r_main_cst_25 A)

def r_main_v125 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (r_main_v1 A)

def r_main_v126 (A : Args F) : (⟨S50000, .f32⟩ : BufTy).Contents (Elt F) :=
  ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)) (r_main_v124 A) (r_main_v125 A) (r_main_v123 A)

def r_main_cst_26 (A : Args F) : (⟨S_, .f32⟩ : BufTy).Contents (Elt F) :=
  (constant S_ .f32 0x00000000#32)

def r_main_v127 (A : Args F) : (⟨S50000x4, .f32⟩ : BufTy).Contents (Elt F) :=
  (broadcastInDim S50000x4 ![] bcast_S_S50000x4 : (⟨S_, .f32⟩ : BufTy).Contents (Elt F) → (⟨S50000x4, .f32⟩ : BufTy).Contents (Elt F)) (r_main_cst_26 A)

def r_main_v128 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (r_main_v1 A)

def r_main_v129 (A : Args F) : (⟨S50000x4, .f32⟩ : BufTy).Contents (Elt F) :=
  ((fun x i u => Host.scatterAdd scatter_S50000x4_S1600000x1_S1600000x4_1_0_0_1 x i u) : (⟨S50000x4, .f32⟩ : BufTy).Contents (Elt F) → (⟨S1600000x1, .i32⟩ : BufTy).Contents (Elt F) → (⟨S1600000x4, .f32⟩ : BufTy).Contents (Elt F) → (⟨S50000x4, .f32⟩ : BufTy).Contents (Elt F)) (r_main_v127 A) (r_main_v128 A) (r_main_v122 A)

def r_main_cst_27 (A : Args F) : (⟨S_, .f32⟩ : BufTy).Contents (Elt F) :=
  (constant S_ .f32 0x3F800000#32)

def r_main_v130 (A : Args F) : (⟨S50000, .f32⟩ : BufTy).Contents (Elt F) :=
  (broadcastInDim S50000 ![] bcast_S_S50000 : (⟨S_, .f32⟩ : BufTy).Contents (Elt F) → (⟨S50000, .f32⟩ : BufTy).Contents (Elt F)) (r_main_cst_27 A)

def r_main_v131 (A : Args F) : (⟨S50000, .f32⟩ : BufTy).Contents (Elt F) :=
  (maximumf : (⟨S50000, .f32⟩ : BufTy).Contents (Elt F) → (⟨S50000, .f32⟩ : BufTy).Contents (Elt F) → (⟨S50000, .f32⟩ : BufTy).Contents (Elt F)) (r_main_v126 A) (r_main_v130 A)

def r_main_v132 (A : Args F) : (⟨S50000x1, .f32⟩ : BufTy).Contents (Elt F) :=
  (broadcastInDim S50000x1 ![0] bcast_S50000_S50000x1_0 : (⟨S50000, .f32⟩ : BufTy).Contents (Elt F) → (⟨S50000x1, .f32⟩ : BufTy).Contents (Elt F)) (r_main_v131 A)

def r_main_v133 (A : Args F) : (⟨S50000x4, .f32⟩ : BufTy).Contents (Elt F) :=
  (broadcastInDim S50000x4 ![0, 1] bcast_S50000x1_S50000x4_0_1 : (⟨S50000x1, .f32⟩ : BufTy).Contents (Elt F) → (⟨S50000x4, .f32⟩ : BufTy).Contents (Elt F)) (r_main_v132 A)

def r_main_v134 (A : Args F) : (⟨S50000x4, .f32⟩ : BufTy).Contents (Elt F) :=
  (Host.divf : (⟨S50000x4, .f32⟩ : BufTy).Contents (Elt F) → (⟨S50000x4, .f32⟩ : BufTy).Contents (Elt F) → (⟨S50000x4, .f32⟩ : BufTy).Contents (Elt F)) (r_main_v129 A) (r_main_v133 A)

def r_main_cst_28 (A : Args F) : (⟨S_, .f32⟩ : BufTy).Contents (Elt F) :=
  (constant S_ .f32 0x3F800000#32)

def r_main_v135 (A : Args F) : (⟨S50000x4, .f32⟩ : BufTy).Contents (Elt F) :=
  (broadcastInDim S50000x4 ![] bcast_S_S50000x4 : (⟨S_, .f32⟩ : BufTy).Contents (Elt F) → (⟨S50000x4, .f32⟩ : BufTy).Contents (Elt F)) (r_main_cst_28 A)

def r_main_v136 (A : Args F) : (⟨S50000x4, .f32⟩ : BufTy).Contents (Elt F) :=
  (mulf : (⟨S50000x4, .f32⟩ : BufTy).Contents (Elt F) → (⟨S50000x4, .f32⟩ : BufTy).Contents (Elt F) → (⟨S50000x4, .f32⟩ : BufTy).Contents (Elt F)) (r_main_v134 A) (r_main_v135 A)

def r_main_v137 (A : Args F) : (⟨S50000x4, .f32⟩ : BufTy).Contents (Elt F) :=
  (addf : (⟨S50000x4, .f32⟩ : BufTy).Contents (Elt F) → (⟨S50000x4, .f32⟩ : BufTy).Contents (Elt F) → (⟨S50000x4, .f32⟩ : BufTy).Contents (Elt F)) A.a1 (r_main_v136 A)

def r_main_cst_29 (A : Args F) : (⟨S_, .f32⟩ : BufTy).Contents (Elt F) :=
  (constant S_ .f32 0x00000000#32)

def r_main_v138 (A : Args F) : (⟨S50000x72, .f32⟩ : BufTy).Contents (Elt F) :=
  (broadcastInDim S50000x72 ![] bcast_S_S50000x72 : (⟨S_, .f32⟩ : BufTy).Contents (Elt F) → (⟨S50000x72, .f32⟩ : BufTy).Contents (Elt F)) (r_main_cst_29 A)

def r_main_v139 (A : Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (r_main_v1 A)

def r_main_v140 (A : Args F) : (⟨S50000x72, .f32⟩ : BufTy).Contents (Elt F) :=
  ((fun x i u => Host.scatterAdd scatter_S50000x72_S1600000x1_S1600000x72_1_0_0_1 x i u) : (⟨S50000x72, .f32⟩ : BufTy).Contents (Elt F) → (⟨S1600000x1, .i32⟩ : BufTy).Contents (Elt F) → (⟨S1600000x72, .f32⟩ : BufTy).Contents (Elt F) → (⟨S50000x72, .f32⟩ : BufTy).Contents (Elt F)) (r_main_v138 A) (r_main_v139 A) (r_main_v113 A)

def r_main_v141 (A : Args F) : (⟨S50000x152, .f32⟩ : BufTy).Contents (Elt F) :=
  concatenate S50000x152 1 [⟨S50000x72, A.a0⟩, ⟨S50000x72, (r_main_v140 A)⟩, ⟨S50000x8, A.a2⟩] concatenates_S50000x72_S50000x72_S50000x8_S50000x152_d1

def r_main_v142 (A : Args F) : (⟨S50000x72, .f32⟩ : BufTy).Contents (Elt F) :=
  ((fun l r => Host.dotGeneral dot_S50000x152_S152x72_S50000x72_1_0_0_1_n_n none l r) : (⟨S50000x152, .f32⟩ : BufTy).Contents (Elt F) → (⟨S152x72, .f32⟩ : BufTy).Contents (Elt F) → (⟨S50000x72, .f32⟩ : BufTy).Contents (Elt F)) (r_main_v141 A) A.a9

def r_main_v143 (A : Args F) : (⟨S1x72, .f32⟩ : BufTy).Contents (Elt F) :=
  (broadcastInDim S1x72 ![1] bcast_S72_S1x72_1 : (⟨S72, .f32⟩ : BufTy).Contents (Elt F) → (⟨S1x72, .f32⟩ : BufTy).Contents (Elt F)) A.a10

def r_main_v144 (A : Args F) : (⟨S50000x72, .f32⟩ : BufTy).Contents (Elt F) :=
  (broadcastInDim S50000x72 ![0, 1] bcast_S1x72_S50000x72_0_1 : (⟨S1x72, .f32⟩ : BufTy).Contents (Elt F) → (⟨S50000x72, .f32⟩ : BufTy).Contents (Elt F)) (r_main_v143 A)

def r_main_v145 (A : Args F) : (⟨S50000x72, .f32⟩ : BufTy).Contents (Elt F) :=
  (addf : (⟨S50000x72, .f32⟩ : BufTy).Contents (Elt F) → (⟨S50000x72, .f32⟩ : BufTy).Contents (Elt F) → (⟨S50000x72, .f32⟩ : BufTy).Contents (Elt F)) (r_main_v142 A) (r_main_v144 A)

def r_main_cst_30 (A : Args F) : (⟨S_, .f32⟩ : BufTy).Contents (Elt F) :=
  (constant S_ .f32 0x00000000#32)

def r_main_v146 (A : Args F) : (⟨S72, .f32⟩ : BufTy).Contents (Elt F) :=
  ((fun x v => Host.reduceAdd x v reducesTo_S50000x72_S72_d0 h_S_) : (⟨S50000x72, .f32⟩ : BufTy).Contents (Elt F) → (⟨S_, .f32⟩ : BufTy).Contents (Elt F) → (⟨S72, .f32⟩ : BufTy).Contents (Elt F)) (r_main_v145 A) (r_main_cst_30 A)

def r_main_cst_31 (A : Args F) : (⟨S_, .f32⟩ : BufTy).Contents (Elt F) :=
  (constant S_ .f32 0x47435000#32)

def r_main_v147 (A : Args F) : (⟨S72, .f32⟩ : BufTy).Contents (Elt F) :=
  (broadcastInDim S72 ![] bcast_S_S72 : (⟨S_, .f32⟩ : BufTy).Contents (Elt F) → (⟨S72, .f32⟩ : BufTy).Contents (Elt F)) (r_main_cst_31 A)

def r_main_v148 (A : Args F) : (⟨S72, .f32⟩ : BufTy).Contents (Elt F) :=
  (Host.divf : (⟨S72, .f32⟩ : BufTy).Contents (Elt F) → (⟨S72, .f32⟩ : BufTy).Contents (Elt F) → (⟨S72, .f32⟩ : BufTy).Contents (Elt F)) (r_main_v146 A) (r_main_v147 A)

def r_main_c_32 (A : Args F) : (⟨S_, .i32⟩ : BufTy).Contents (Elt F) :=
  (constantI S_ 32 0#32)

def r_main_call5_cst (A : Args F) : (⟨S_, .f32⟩ : BufTy).Contents (Elt F) :=
  (constant S_ .f32 0x00000000#32)

def r_main_call5_v0 (A : Args F) : (⟨S72, .f32⟩ : BufTy).Contents (Elt F) :=
  (fun x v => Host.reduceAdd x v reducesTo_S50000x72_S72_d0 h_S_) (r_main_v145 A) (r_main_call5_cst A)

def r_main_call5_v1 (A : Args F) : (⟨S1x72, .f32⟩ : BufTy).Contents (Elt F) :=
  (broadcastInDim S1x72 ![1] bcast_S72_S1x72_1) (r_main_call5_v0 A)

def r_main_call5_cst_0 (A : Args F) : (⟨S_, .f32⟩ : BufTy).Contents (Elt F) :=
  (constant S_ .f32 0x47435000#32)

def r_main_call5_v2 (A : Args F) : (⟨S1x72, .f32⟩ : BufTy).Contents (Elt F) :=
  (broadcastInDim S1x72 ![] bcast_S_S1x72) (r_main_call5_cst_0 A)

def r_main_call5_v3 (A : Args F) : (⟨S1x72, .f32⟩ : BufTy).Contents (Elt F) :=
  Host.divf (r_main_call5_v1 A) (r_main_call5_v2 A)

def r_main_call5_v4 (A : Args F) : (⟨S50000x72, .f32⟩ : BufTy).Contents (Elt F) :=
  (broadcastInDim S50000x72 ![0, 1] bcast_S1x72_S50000x72_0_1) (r_main_call5_v3 A)

def r_main_call5_v5 (A : Args F) : (⟨S50000x72, .f32⟩ : BufTy).Contents (Elt F) :=
  subf (r_main_v145 A) (r_main_call5_v4 A)

def r_main_call5_v6 (A : Args F) : (⟨S50000x72, .f32⟩ : BufTy).Contents (Elt F) :=
  mulf (r_main_call5_v5 A) (r_main_call5_v5 A)

def r_main_call5_v7 (A : Args F) : (⟨S_, .f32⟩ : BufTy).Contents (Elt F) :=
  (sitofp .f32) (r_main_c_32 A)

def r_main_call5_cst_1 (A : Args F) : (⟨S_, .f32⟩ : BufTy).Contents (Elt F) :=
  (constant S_ .f32 0x47435000#32)

def r_main_call5_v8 (A : Args F) : (⟨S_, .f32⟩ : BufTy).Contents (Elt F) :=
  subf (r_main_call5_cst_1 A) (r_main_call5_v7 A)

def r_main_call5_cst_2 (A : Args F) : (⟨S_, .f32⟩ : BufTy).Contents (Elt F) :=
  (constant S_ .f32 0x00000000#32)

def r_main_call5_v9 (A : Args F) : (⟨S72, .f32⟩ : BufTy).Contents (Elt F) :=
  (fun x v => Host.reduceAdd x v reducesTo_S50000x72_S72_d0 h_S_) (r_main_call5_v6 A) (r_main_call5_cst_2 A)

def r_main_call5_v10 (A : Args F) : (⟨S72, .f32⟩ : BufTy).Contents (Elt F) :=
  (broadcastInDim S72 ![] bcast_S_S72) (r_main_call5_v8 A)

def r_main_call5_v11 (A : Args F) : (⟨S72, .f32⟩ : BufTy).Contents (Elt F) :=
  Host.divf (r_main_call5_v9 A) (r_main_call5_v10 A)

def r_main_call5_cst_3 (A : Args F) : (⟨S_, .f32⟩ : BufTy).Contents (Elt F) :=
  (constant S_ .f32 0x00000000#32)

def r_main_call5_v12 (A : Args F) : (⟨S_, .i1⟩ : BufTy).Contents (Elt F) :=
  (cmpf .ogt) (r_main_call5_v8 A) (r_main_call5_cst_3 A)

def r_main_call5_cst_4 (A : Args F) : (⟨S_, .f32⟩ : BufTy).Contents (Elt F) :=
  (constant S_ .f32 0x7FC00000#32)

def r_main_call5_call0_v0 (A : Args F) : (⟨S_, .f32⟩ : BufTy).Contents (Elt F) :=
  id (r_main_call5_cst_4 A)

def r_main_call5_call0_v1 (A : Args F) : (⟨S72, .f32⟩ : BufTy).Contents (Elt F) :=
  (broadcastInDim S72 ![] bcast_S_S72) (r_main_call5_call0_v0 A)

def r_main_v149 (A : Args F) : (⟨S72, .f32⟩ : BufTy).Contents (Elt F) :=
  (fun p a b => select (broadcastInDim S72 ![] bcast_S_S72 p) a b) (r_main_call5_v12 A) (r_main_call5_v11 A) (r_main_call5_call0_v1 A)

def r_main_v150 (A : Args F) : (⟨S1x72, .f32⟩ : BufTy).Contents (Elt F) :=
  (broadcastInDim S1x72 ![1] bcast_S72_S1x72_1 : (⟨S72, .f32⟩ : BufTy).Contents (Elt F) → (⟨S1x72, .f32⟩ : BufTy).Contents (Elt F)) (r_main_v148 A)

def r_main_v151 (A : Args F) : (⟨S50000x72, .f32⟩ : BufTy).Contents (Elt F) :=
  (broadcastInDim S50000x72 ![0, 1] bcast_S1x72_S50000x72_0_1 : (⟨S1x72, .f32⟩ : BufTy).Contents (Elt F) → (⟨S50000x72, .f32⟩ : BufTy).Contents (Elt F)) (r_main_v150 A)

def r_main_v152 (A : Args F) : (⟨S50000x72, .f32⟩ : BufTy).Contents (Elt F) :=
  (subf : (⟨S50000x72, .f32⟩ : BufTy).Contents (Elt F) → (⟨S50000x72, .f32⟩ : BufTy).Contents (Elt F) → (⟨S50000x72, .f32⟩ : BufTy).Contents (Elt F)) (r_main_v145 A) (r_main_v151 A)

def r_main_cst_33 (A : Args F) : (⟨S_, .f32⟩ : BufTy).Contents (Elt F) :=
  (constant S_ .f32 0x3727C5AC#32)

def r_main_v153 (A : Args F) : (⟨S72, .f32⟩ : BufTy).Contents (Elt F) :=
  (broadcastInDim S72 ![] bcast_S_S72 : (⟨S_, .f32⟩ : BufTy).Contents (Elt F) → (⟨S72, .f32⟩ : BufTy).Contents (Elt F)) (r_main_cst_33 A)

def r_main_v154 (A : Args F) : (⟨S72, .f32⟩ : BufTy).Contents (Elt F) :=
  (addf : (⟨S72, .f32⟩ : BufTy).Contents (Elt F) → (⟨S72, .f32⟩ : BufTy).Contents (Elt F) → (⟨S72, .f32⟩ : BufTy).Contents (Elt F)) (r_main_v149 A) (r_main_v153 A)

def r_main_v155 (A : Args F) : (⟨S72, .f32⟩ : BufTy).Contents (Elt F) :=
  (Host.rsqrt : (⟨S72, .f32⟩ : BufTy).Contents (Elt F) → (⟨S72, .f32⟩ : BufTy).Contents (Elt F)) (r_main_v154 A)

def r_main_v156 (A : Args F) : (⟨S1x72, .f32⟩ : BufTy).Contents (Elt F) :=
  (broadcastInDim S1x72 ![1] bcast_S72_S1x72_1 : (⟨S72, .f32⟩ : BufTy).Contents (Elt F) → (⟨S1x72, .f32⟩ : BufTy).Contents (Elt F)) (r_main_v155 A)

def r_main_v157 (A : Args F) : (⟨S50000x72, .f32⟩ : BufTy).Contents (Elt F) :=
  (broadcastInDim S50000x72 ![0, 1] bcast_S1x72_S50000x72_0_1 : (⟨S1x72, .f32⟩ : BufTy).Contents (Elt F) → (⟨S50000x72, .f32⟩ : BufTy).Contents (Elt F)) (r_main_v156 A)

def r_main_v158 (A : Args F) : (⟨S50000x72, .f32⟩ : BufTy).Contents (Elt F) :=
  (mulf : (⟨S50000x72, .f32⟩ : BufTy).Contents (Elt F) → (⟨S50000x72, .f32⟩ : BufTy).Contents (Elt F) → (⟨S50000x72, .f32⟩ : BufTy).Contents (Elt F)) (r_main_v152 A) (r_main_v157 A)

def r_main_v159 (A : Args F) : (⟨S1x72, .f32⟩ : BufTy).Contents (Elt F) :=
  (broadcastInDim S1x72 ![1] bcast_S72_S1x72_1 : (⟨S72, .f32⟩ : BufTy).Contents (Elt F) → (⟨S1x72, .f32⟩ : BufTy).Contents (Elt F)) A.a11

def r_main_v160 (A : Args F) : (⟨S50000x72, .f32⟩ : BufTy).Contents (Elt F) :=
  (broadcastInDim S50000x72 ![0, 1] bcast_S1x72_S50000x72_0_1 : (⟨S1x72, .f32⟩ : BufTy).Contents (Elt F) → (⟨S50000x72, .f32⟩ : BufTy).Contents (Elt F)) (r_main_v159 A)

def r_main_v161 (A : Args F) : (⟨S50000x72, .f32⟩ : BufTy).Contents (Elt F) :=
  (mulf : (⟨S50000x72, .f32⟩ : BufTy).Contents (Elt F) → (⟨S50000x72, .f32⟩ : BufTy).Contents (Elt F) → (⟨S50000x72, .f32⟩ : BufTy).Contents (Elt F)) (r_main_v158 A) (r_main_v160 A)

def r_main_v162 (A : Args F) : (⟨S1x72, .f32⟩ : BufTy).Contents (Elt F) :=
  (broadcastInDim S1x72 ![1] bcast_S72_S1x72_1 : (⟨S72, .f32⟩ : BufTy).Contents (Elt F) → (⟨S1x72, .f32⟩ : BufTy).Contents (Elt F)) A.a12

def r_main_v163 (A : Args F) : (⟨S50000x72, .f32⟩ : BufTy).Contents (Elt F) :=
  (broadcastInDim S50000x72 ![0, 1] bcast_S1x72_S50000x72_0_1 : (⟨S1x72, .f32⟩ : BufTy).Contents (Elt F) → (⟨S50000x72, .f32⟩ : BufTy).Contents (Elt F)) (r_main_v162 A)

def r_main_v164 (A : Args F) : (⟨S50000x72, .f32⟩ : BufTy).Contents (Elt F) :=
  (addf : (⟨S50000x72, .f32⟩ : BufTy).Contents (Elt F) → (⟨S50000x72, .f32⟩ : BufTy).Contents (Elt F) → (⟨S50000x72, .f32⟩ : BufTy).Contents (Elt F)) (r_main_v161 A) (r_main_v163 A)

def r_main_call6_cst (A : Args F) : (⟨S_, .f32⟩ : BufTy).Contents (Elt F) :=
  (constant S_ .f32 0x00000000#32)

def r_main_call6_v0 (A : Args F) : (⟨S50000x72, .f32⟩ : BufTy).Contents (Elt F) :=
  (broadcastInDim S50000x72 ![] bcast_S_S50000x72) (r_main_call6_cst A)

def r_main_v165 (A : Args F) : (⟨S50000x72, .f32⟩ : BufTy).Contents (Elt F) :=
  maximumf (r_main_v164 A) (r_main_call6_v0 A)

def r_main_v166 (A : Args F) : (⟨S50000x72, .f32⟩ : BufTy).Contents (Elt F) :=
  ((fun l r => Host.dotGeneral dot_S50000x72_S72x72_S50000x72_1_0_0_1_n_n none l r) : (⟨S50000x72, .f32⟩ : BufTy).Contents (Elt F) → (⟨S72x72, .f32⟩ : BufTy).Contents (Elt F) → (⟨S50000x72, .f32⟩ : BufTy).Contents (Elt F)) (r_main_v165 A) A.a13

def r_main_v167 (A : Args F) : (⟨S50000x72, .f32⟩ : BufTy).Contents (Elt F) :=
  (addf : (⟨S50000x72, .f32⟩ : BufTy).Contents (Elt F) → (⟨S50000x72, .f32⟩ : BufTy).Contents (Elt F) → (⟨S50000x72, .f32⟩ : BufTy).Contents (Elt F)) A.a0 (r_main_v166 A)

def r_main_v168 (A : Args F) : (⟨S1x72, .f32⟩ : BufTy).Contents (Elt F) :=
  (broadcastInDim S1x72 ![1] bcast_S72_S1x72_1 : (⟨S72, .f32⟩ : BufTy).Contents (Elt F) → (⟨S1x72, .f32⟩ : BufTy).Contents (Elt F)) A.a14

def r_main_v169 (A : Args F) : (⟨S50000x72, .f32⟩ : BufTy).Contents (Elt F) :=
  (broadcastInDim S50000x72 ![0, 1] bcast_S1x72_S50000x72_0_1 : (⟨S1x72, .f32⟩ : BufTy).Contents (Elt F) → (⟨S50000x72, .f32⟩ : BufTy).Contents (Elt F)) (r_main_v168 A)

def r_main_v170 (A : Args F) : (⟨S50000x72, .f32⟩ : BufTy).Contents (Elt F) :=
  (addf : (⟨S50000x72, .f32⟩ : BufTy).Contents (Elt F) → (⟨S50000x72, .f32⟩ : BufTy).Contents (Elt F) → (⟨S50000x72, .f32⟩ : BufTy).Contents (Elt F)) (r_main_v167 A) (r_main_v169 A)

/-- The argument arrays of device `c` in a memory of the reference program. -/
def refArgs (m : (ℓ : Loc nD τ sig) → Buf (Elt F) ℓ) (c : Dev nD) : Args F where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)
  a19 := m ((c.tc : Thread nD τ).loc main_arg19)

end Cert.Spec

end
-- ==== Proof.KSpec.lean ====
/- GENERATED by a script of this unit (a table of the kernel program's HOST dataflow, no proof): bun scratch/gen_kspec.js <unit directory> 152136_j87351044866445_1_alg > proof/Proof/KSpec.lean — one definition per
   buffer of the kernel program's @main (callee bodies inlined through their call records): a host operation's buffer is that operation applied to its operands'
   definitions; a pallas_call's result buffer is DEFINED as the reference's value it is to be proved equal to (Spec.lean): z, x_diff, m, trans, z_h, h_out. -/
import proofs.«152136_j87351044866445_1_alg».proof.KernelIdeal
import proofs.«152136_j87351044866445_1_alg».proof.Proof.Spec

set_option synthInstance.maxSize 4096

noncomputable section

namespace Cert.KSpec

open Idealize.ShloMosaic Idealize.SL.Sem
open Cert.KernelIdeal Cert.KernelIdeal.Facts₀ Cert.KernelIdeal.Facts

variable {F : FTy → Type} [FloatOps F] [Cert.KernelIdeal.Facts] [Cert.ReferenceIdeal.Facts]

def k_main_v36_0 (A : Cert.Spec.Args F) : (⟨S1600000x72, .f32⟩ : BufTy).Contents (Elt F) :=
  Cert.Spec.r_main_v76 A

def k_main_v36_1 (A : Cert.Spec.Args F) : (⟨S1600000x4, .f32⟩ : BufTy).Contents (Elt F) :=
  Cert.Spec.r_main_v18 A

def k_main_v47_0 (A : Cert.Spec.Args F) : (⟨S1600000x72, .f32⟩ : BufTy).Contents (Elt F) :=
  Cert.Spec.r_main_v113 A

def k_main_v47_1 (A : Cert.Spec.Args F) : (⟨S1600000x4, .f32⟩ : BufTy).Contents (Elt F) :=
  Cert.Spec.r_main_v122 A

def k_main_v70 (A : Cert.Spec.Args F) : (⟨S50000x72, .f32⟩ : BufTy).Contents (Elt F) :=
  Cert.Spec.r_main_v145 A

def k_main_v79 (A : Cert.Spec.Args F) : (⟨S50000x72, .f32⟩ : BufTy).Contents (Elt F) :=
  Cert.Spec.r_main_v170 A

def k_main_v0 (A : Cert.Spec.Args F) : (⟨S1x1600000, .i32⟩ : BufTy).Contents (Elt F) :=
  ((extractStridedSlice S1x1600000 ![0, 0] · slices_S2x1600000_S1x1600000_0_0) : (⟨S2x1600000, .i32⟩ : BufTy).Contents (Elt F) → (⟨S1x1600000, .i32⟩ : BufTy).Contents (Elt F)) A.a3

def k_main_v1 (A : Cert.Spec.Args F) : (⟨S1600000, .i32⟩ : BufTy).Contents (Elt F) :=
  shapeCast S1600000 (k_main_v0 A) shapeCasts_S1x1600000_S1600000

def k_main_v2 (A : Cert.Spec.Args F) : (⟨S1x1600000, .i32⟩ : BufTy).Contents (Elt F) :=
  ((extractStridedSlice S1x1600000 ![1, 0] · slices_S2x1600000_S1x1600000_1_0) : (⟨S2x1600000, .i32⟩ : BufTy).Contents (Elt F) → (⟨S1x1600000, .i32⟩ : BufTy).Contents (Elt F)) A.a3

def k_main_v3 (A : Cert.Spec.Args F) : (⟨S1600000, .i32⟩ : BufTy).Contents (Elt F) :=
  shapeCast S1600000 (k_main_v2 A) shapeCasts_S1x1600000_S1600000

def k_main_c (A : Cert.Spec.Args F) : (⟨S_, .i32⟩ : BufTy).Contents (Elt F) :=
  (constantI S_ 32 0#32)

def k_main_v4 (A : Cert.Spec.Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (k_main_c A)

def k_main_v5 (A : Cert.Spec.Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (k_main_v1 A) (k_main_v4 A)

def k_main_c_0 (A : Cert.Spec.Args F) : (⟨S_, .i32⟩ : BufTy).Contents (Elt F) :=
  (constantI S_ 32 50000#32)

def k_main_v6 (A : Cert.Spec.Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (k_main_c_0 A)

def k_main_v7 (A : Cert.Spec.Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (k_main_v1 A) (k_main_v6 A)

def k_main_v8 (A : Cert.Spec.Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (k_main_v5 A) (k_main_v7 A) (k_main_v1 A)

def k_main_v9 (A : Cert.Spec.Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (k_main_v8 A)

def k_main_v10 (A : Cert.Spec.Args F) : (⟨S1600000x72, .f32⟩ : BufTy).Contents (Elt F) :=
  ((fun x i => Host.gather gather_S50000x72_S1600000x1_S1600000x72_1_0_n_n_0_1_172 x i) : (⟨S50000x72, .f32⟩ : BufTy).Contents (Elt F) → (⟨S1600000x1, .i32⟩ : BufTy).Contents (Elt F) → (⟨S1600000x72, .f32⟩ : BufTy).Contents (Elt F)) A.a0 (k_main_v9 A)

def k_main_c_1 (A : Cert.Spec.Args F) : (⟨S_, .i32⟩ : BufTy).Contents (Elt F) :=
  (constantI S_ 32 0#32)

def k_main_v11 (A : Cert.Spec.Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (k_main_c_1 A)

def k_main_v12 (A : Cert.Spec.Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (k_main_v3 A) (k_main_v11 A)

def k_main_c_2 (A : Cert.Spec.Args F) : (⟨S_, .i32⟩ : BufTy).Contents (Elt F) :=
  (constantI S_ 32 50000#32)

def k_main_v13 (A : Cert.Spec.Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (k_main_c_2 A)

def k_main_v14 (A : Cert.Spec.Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (k_main_v3 A) (k_main_v13 A)

def k_main_v15 (A : Cert.Spec.Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (k_main_v12 A) (k_main_v14 A) (k_main_v3 A)

def k_main_v16 (A : Cert.Spec.Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (k_main_v15 A)

def k_main_v17 (A : Cert.Spec.Args F) : (⟨S1600000x72, .f32⟩ : BufTy).Contents (Elt F) :=
  ((fun x i => Host.gather gather_S50000x72_S1600000x1_S1600000x72_1_0_n_n_0_1_172 x i) : (⟨S50000x72, .f32⟩ : BufTy).Contents (Elt F) → (⟨S1600000x1, .i32⟩ : BufTy).Contents (Elt F) → (⟨S1600000x72, .f32⟩ : BufTy).Contents (Elt F)) A.a0 (k_main_v16 A)

def k_main_c_3 (A : Cert.Spec.Args F) : (⟨S_, .i32⟩ : BufTy).Contents (Elt F) :=
  (constantI S_ 32 0#32)

def k_main_v18 (A : Cert.Spec.Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (k_main_c_3 A)

def k_main_v19 (A : Cert.Spec.Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (k_main_v1 A) (k_main_v18 A)

def k_main_c_4 (A : Cert.Spec.Args F) : (⟨S_, .i32⟩ : BufTy).Contents (Elt F) :=
  (constantI S_ 32 50000#32)

def k_main_v20 (A : Cert.Spec.Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (k_main_c_4 A)

def k_main_v21 (A : Cert.Spec.Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (k_main_v1 A) (k_main_v20 A)

def k_main_v22 (A : Cert.Spec.Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (k_main_v19 A) (k_main_v21 A) (k_main_v1 A)

def k_main_v23 (A : Cert.Spec.Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (k_main_v22 A)

def k_main_v24 (A : Cert.Spec.Args F) : (⟨S1600000x4, .f32⟩ : BufTy).Contents (Elt F) :=
  ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)) A.a1 (k_main_v23 A)

def k_main_c_5 (A : Cert.Spec.Args F) : (⟨S_, .i32⟩ : BufTy).Contents (Elt F) :=
  (constantI S_ 32 0#32)

def k_main_v25 (A : Cert.Spec.Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (k_main_c_5 A)

def k_main_v26 (A : Cert.Spec.Args F) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) (k_main_v3 A) (k_main_v25 A)

def k_main_c_6 (A : Cert.Spec.Args F) : (⟨S_, .i32⟩ : BufTy).Contents (Elt F) :=
  (constantI S_ 32 50000#32)

def k_main_v27 (A : Cert.Spec.Args F) : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (k_main_c_6 A)

def k_main_v28 (A : Cert.Spec.Args F) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (k_main_v3 A) (k_main_v27 A)

def k_main_v29 (A : Cert.Spec.Args F) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (k_main_v26 A) (k_main_v28 A) (k_main_v3 A)

def k_main_v30 (A : Cert.Spec.Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (k_main_v29 A)

def k_main_v31 (A : Cert.Spec.Args F) : (⟨S1600000x4, .f32⟩ : BufTy).Contents (Elt F) :=
  ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)) A.a1 (k_main_v30 A)

def k_main_v32 (A : Cert.Spec.Args F) : (⟨S72x72, .f32⟩ : BufTy).Contents (Elt F) :=
  ((extractStridedSlice S72x72 ![0, 0] · slices_S146x72_S72x72_0_0) : (⟨S146x72, .f32⟩ : BufTy).Contents (Elt F) → (⟨S72x72, .f32⟩ : BufTy).Contents (Elt F)) A.a4

def k_main_v33 (A : Cert.Spec.Args F) : (⟨S72x72, .f32⟩ : BufTy).Contents (Elt F) :=
  ((extractStridedSlice S72x72 ![72, 0] · slices_S146x72_S72x72_72_0) : (⟨S146x72, .f32⟩ : BufTy).Contents (Elt F) → (⟨S72x72, .f32⟩ : BufTy).Contents (Elt F)) A.a4

def k_main_v34 (A : Cert.Spec.Args F) : (⟨S1x72, .f32⟩ : BufTy).Contents (Elt F) :=
  ((extractStridedSlice S1x72 ![144, 0] · slices_S146x72_S1x72_144_0) : (⟨S146x72, .f32⟩ : BufTy).Contents (Elt F) → (⟨S1x72, .f32⟩ : BufTy).Contents (Elt F)) A.a4

def k_main_v35 (A : Cert.Spec.Args F) : (⟨S1x72, .f32⟩ : BufTy).Contents (Elt F) :=
  ((extractStridedSlice S1x72 ![145, 0] · slices_S146x72_S1x72_145_0) : (⟨S146x72, .f32⟩ : BufTy).Contents (Elt F) → (⟨S1x72, .f32⟩ : BufTy).Contents (Elt F)) A.a4

def k_main_cst (A : Cert.Spec.Args F) : (⟨S_, .f32⟩ : BufTy).Contents (Elt F) :=
  (constant S_ .f32 0x00000000#32)

def k_main_v37 (A : Cert.Spec.Args F) : (⟨S72, .f32⟩ : BufTy).Contents (Elt F) :=
  ((fun x v => Host.reduceAdd x v reducesTo_S1600000x72_S72_d0 h_S_) : (⟨S1600000x72, .f32⟩ : BufTy).Contents (Elt F) → (⟨S_, .f32⟩ : BufTy).Contents (Elt F) → (⟨S72, .f32⟩ : BufTy).Contents (Elt F)) (k_main_v36_0 A) (k_main_cst A)

def k_main_v38 (A : Cert.Spec.Args F) : (⟨S1x72, .f32⟩ : BufTy).Contents (Elt F) :=
  (broadcastInDim S1x72 ![1] bcast_S72_S1x72_1 : (⟨S72, .f32⟩ : BufTy).Contents (Elt F) → (⟨S1x72, .f32⟩ : BufTy).Contents (Elt F)) (k_main_v37 A)

def k_main_cst_7 (A : Cert.Spec.Args F) : (⟨S_, .f32⟩ : BufTy).Contents (Elt F) :=
  (constant S_ .f32 0x49C35000#32)

def k_main_v39 (A : Cert.Spec.Args F) : (⟨S1x72, .f32⟩ : BufTy).Contents (Elt F) :=
  (broadcastInDim S1x72 ![] bcast_S_S1x72 : (⟨S_, .f32⟩ : BufTy).Contents (Elt F) → (⟨S1x72, .f32⟩ : BufTy).Contents (Elt F)) (k_main_cst_7 A)

def k_main_v40 (A : Cert.Spec.Args F) : (⟨S1x72, .f32⟩ : BufTy).Contents (Elt F) :=
  (Host.divf : (⟨S1x72, .f32⟩ : BufTy).Contents (Elt F) → (⟨S1x72, .f32⟩ : BufTy).Contents (Elt F) → (⟨S1x72, .f32⟩ : BufTy).Contents (Elt F)) (k_main_v38 A) (k_main_v39 A)

def k_main_c_8 (A : Cert.Spec.Args F) : (⟨S_, .i32⟩ : BufTy).Contents (Elt F) :=
  (constantI S_ 32 0#32)

def k_main_call0_cst (A : Cert.Spec.Args F) : (⟨S_, .f32⟩ : BufTy).Contents (Elt F) :=
  (constant S_ .f32 0x00000000#32)

def k_main_call0_v0 (A : Cert.Spec.Args F) : (⟨S72, .f32⟩ : BufTy).Contents (Elt F) :=
  (fun x v => Host.reduceAdd x v reducesTo_S1600000x72_S72_d0 h_S_) (k_main_v36_0 A) (k_main_call0_cst A)

def k_main_call0_v1 (A : Cert.Spec.Args F) : (⟨S1x72, .f32⟩ : BufTy).Contents (Elt F) :=
  (broadcastInDim S1x72 ![1] bcast_S72_S1x72_1) (k_main_call0_v0 A)

def k_main_call0_cst_0 (A : Cert.Spec.Args F) : (⟨S_, .f32⟩ : BufTy).Contents (Elt F) :=
  (constant S_ .f32 0x49C35000#32)

def k_main_call0_v2 (A : Cert.Spec.Args F) : (⟨S1x72, .f32⟩ : BufTy).Contents (Elt F) :=
  (broadcastInDim S1x72 ![] bcast_S_S1x72) (k_main_call0_cst_0 A)

def k_main_call0_v3 (A : Cert.Spec.Args F) : (⟨S1x72, .f32⟩ : BufTy).Contents (Elt F) :=
  Host.divf (k_main_call0_v1 A) (k_main_call0_v2 A)

def k_main_call0_v4 (A : Cert.Spec.Args F) : (⟨S1600000x72, .f32⟩ : BufTy).Contents (Elt F) :=
  (broadcastInDim S1600000x72 ![0, 1] bcast_S1x72_S1600000x72_0_1) (k_main_call0_v3 A)

def k_main_call0_v5 (A : Cert.Spec.Args F) : (⟨S1600000x72, .f32⟩ : BufTy).Contents (Elt F) :=
  subf (k_main_v36_0 A) (k_main_call0_v4 A)

def k_main_call0_v6 (A : Cert.Spec.Args F) : (⟨S1600000x72, .f32⟩ : BufTy).Contents (Elt F) :=
  mulf (k_main_call0_v5 A) (k_main_call0_v5 A)

def k_main_call0_v7 (A : Cert.Spec.Args F) : (⟨S_, .f32⟩ : BufTy).Contents (Elt F) :=
  (sitofp .f32) (k_main_c_8 A)

def k_main_call0_cst_1 (A : Cert.Spec.Args F) : (⟨S_, .f32⟩ : BufTy).Contents (Elt F) :=
  (constant S_ .f32 0x49C35000#32)

def k_main_call0_v8 (A : Cert.Spec.Args F) : (⟨S_, .f32⟩ : BufTy).Contents (Elt F) :=
  subf (k_main_call0_cst_1 A) (k_main_call0_v7 A)

def k_main_call0_cst_2 (A : Cert.Spec.Args F) : (⟨S_, .f32⟩ : BufTy).Contents (Elt F) :=
  (constant S_ .f32 0x00000000#32)

def k_main_call0_v9 (A : Cert.Spec.Args F) : (⟨S72, .f32⟩ : BufTy).Contents (Elt F) :=
  (fun x v => Host.reduceAdd x v reducesTo_S1600000x72_S72_d0 h_S_) (k_main_call0_v6 A) (k_main_call0_cst_2 A)

def k_main_call0_v10 (A : Cert.Spec.Args F) : (⟨S1x72, .f32⟩ : BufTy).Contents (Elt F) :=
  (broadcastInDim S1x72 ![1] bcast_S72_S1x72_1) (k_main_call0_v9 A)

def k_main_call0_v11 (A : Cert.Spec.Args F) : (⟨S1x72, .f32⟩ : BufTy).Contents (Elt F) :=
  (broadcastInDim S1x72 ![] bcast_S_S1x72) (k_main_call0_v8 A)

def k_main_call0_v12 (A : Cert.Spec.Args F) : (⟨S1x72, .f32⟩ : BufTy).Contents (Elt F) :=
  Host.divf (k_main_call0_v10 A) (k_main_call0_v11 A)

def k_main_call0_cst_3 (A : Cert.Spec.Args F) : (⟨S_, .f32⟩ : BufTy).Contents (Elt F) :=
  (constant S_ .f32 0x00000000#32)

def k_main_call0_v13 (A : Cert.Spec.Args F) : (⟨S_, .i1⟩ : BufTy).Contents (Elt F) :=
  (cmpf .ogt) (k_main_call0_v8 A) (k_main_call0_cst_3 A)

def k_main_call0_cst_4 (A : Cert.Spec.Args F) : (⟨S_, .f32⟩ : BufTy).Contents (Elt F) :=
  (constant S_ .f32 0x7FC00000#32)

def k_main_call0_call0_v0 (A : Cert.Spec.Args F) : (⟨S_, .f32⟩ : BufTy).Contents (Elt F) :=
  id (k_main_call0_cst_4 A)

def k_main_call0_call0_v1 (A : Cert.Spec.Args F) : (⟨S1x72, .f32⟩ : BufTy).Contents (Elt F) :=
  (broadcastInDim S1x72 ![] bcast_S_S1x72) (k_main_call0_call0_v0 A)

def k_main_v41 (A : Cert.Spec.Args F) : (⟨S1x72, .f32⟩ : BufTy).Contents (Elt F) :=
  (fun p a b => select (broadcastInDim S1x72 ![] bcast_S_S1x72 p) a b) (k_main_call0_v13 A) (k_main_call0_v12 A) (k_main_call0_call0_v1 A)

def k_main_v42 (A : Cert.Spec.Args F) : (⟨S1x72, .f32⟩ : BufTy).Contents (Elt F) :=
  shapeCast S1x72 A.a5 shapeCasts_S72_S1x72

def k_main_v43 (A : Cert.Spec.Args F) : (⟨S1x72, .f32⟩ : BufTy).Contents (Elt F) :=
  shapeCast S1x72 A.a6 shapeCasts_S72_S1x72

def k_main_v44 (A : Cert.Spec.Args F) : (⟨S1x72, .f32⟩ : BufTy).Contents (Elt F) :=
  shapeCast S1x72 A.a8 shapeCasts_S72_S1x72

def k_main_v45 (A : Cert.Spec.Args F) : (⟨S1x1, .f32⟩ : BufTy).Contents (Elt F) :=
  shapeCast S1x1 A.a19 shapeCasts_S1_S1x1

def k_main_v46 (A : Cert.Spec.Args F) : (⟨S1x72, .f32⟩ : BufTy).Contents (Elt F) :=
  shapeCast S1x72 A.a16 shapeCasts_S72_S1x72

def k_main_cst_9 (A : Cert.Spec.Args F) : (⟨S_, .f32⟩ : BufTy).Contents (Elt F) :=
  (constant S_ .f32 0x00000000#32)

def k_main_v48 (A : Cert.Spec.Args F) : (⟨S50000x72, .f32⟩ : BufTy).Contents (Elt F) :=
  (broadcastInDim S50000x72 ![] bcast_S_S50000x72 : (⟨S_, .f32⟩ : BufTy).Contents (Elt F) → (⟨S50000x72, .f32⟩ : BufTy).Contents (Elt F)) (k_main_cst_9 A)

def k_main_v49 (A : Cert.Spec.Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (k_main_v1 A)

def k_main_v50 (A : Cert.Spec.Args F) : (⟨S50000x72, .f32⟩ : BufTy).Contents (Elt F) :=
  ((fun x i u => Host.scatterAdd scatter_S50000x72_S1600000x1_S1600000x72_1_0_0_1 x i u) : (⟨S50000x72, .f32⟩ : BufTy).Contents (Elt F) → (⟨S1600000x1, .i32⟩ : BufTy).Contents (Elt F) → (⟨S1600000x72, .f32⟩ : BufTy).Contents (Elt F) → (⟨S50000x72, .f32⟩ : BufTy).Contents (Elt F)) (k_main_v48 A) (k_main_v49 A) (k_main_v47_0 A)

def k_main_cst_10 (A : Cert.Spec.Args F) : (⟨S_, .f32⟩ : BufTy).Contents (Elt F) :=
  (constant S_ .f32 0x00000000#32)

def k_main_v51 (A : Cert.Spec.Args F) : (⟨S50000x4, .f32⟩ : BufTy).Contents (Elt F) :=
  (broadcastInDim S50000x4 ![] bcast_S_S50000x4 : (⟨S_, .f32⟩ : BufTy).Contents (Elt F) → (⟨S50000x4, .f32⟩ : BufTy).Contents (Elt F)) (k_main_cst_10 A)

def k_main_v52 (A : Cert.Spec.Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (k_main_v1 A)

def k_main_v53 (A : Cert.Spec.Args F) : (⟨S50000x4, .f32⟩ : BufTy).Contents (Elt F) :=
  ((fun x i u => Host.scatterAdd scatter_S50000x4_S1600000x1_S1600000x4_1_0_0_1 x i u) : (⟨S50000x4, .f32⟩ : BufTy).Contents (Elt F) → (⟨S1600000x1, .i32⟩ : BufTy).Contents (Elt F) → (⟨S1600000x4, .f32⟩ : BufTy).Contents (Elt F) → (⟨S50000x4, .f32⟩ : BufTy).Contents (Elt F)) (k_main_v51 A) (k_main_v52 A) (k_main_v47_1 A)

def k_main_cst_11 (A : Cert.Spec.Args F) : (⟨S_, .f32⟩ : BufTy).Contents (Elt F) :=
  (constant S_ .f32 0x3F800000#32)

def k_main_v54 (A : Cert.Spec.Args F) : (⟨S1600000, .f32⟩ : BufTy).Contents (Elt F) :=
  (broadcastInDim S1600000 ![] bcast_S_S1600000 : (⟨S_, .f32⟩ : BufTy).Contents (Elt F) → (⟨S1600000, .f32⟩ : BufTy).Contents (Elt F)) (k_main_cst_11 A)

def k_main_cst_12 (A : Cert.Spec.Args F) : (⟨S_, .f32⟩ : BufTy).Contents (Elt F) :=
  (constant S_ .f32 0x00000000#32)

def k_main_v55 (A : Cert.Spec.Args F) : (⟨S50000, .f32⟩ : BufTy).Contents (Elt F) :=
  (broadcastInDim S50000 ![] bcast_S_S50000 : (⟨S_, .f32⟩ : BufTy).Contents (Elt F) → (⟨S50000, .f32⟩ : BufTy).Contents (Elt F)) (k_main_cst_12 A)

def k_main_v56 (A : Cert.Spec.Args F) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (k_main_v1 A)

def k_main_v57 (A : Cert.Spec.Args F) : (⟨S50000, .f32⟩ : BufTy).Contents (Elt F) :=
  ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)) (k_main_v55 A) (k_main_v56 A) (k_main_v54 A)

def k_main_cst_13 (A : Cert.Spec.Args F) : (⟨S_, .f32⟩ : BufTy).Contents (Elt F) :=
  (constant S_ .f32 0x3F800000#32)

def k_main_v58 (A : Cert.Spec.Args F) : (⟨S50000, .f32⟩ : BufTy).Contents (Elt F) :=
  (broadcastInDim S50000 ![] bcast_S_S50000 : (⟨S_, .f32⟩ : BufTy).Contents (Elt F) → (⟨S50000, .f32⟩ : BufTy).Contents (Elt F)) (k_main_cst_13 A)

def k_main_v59 (A : Cert.Spec.Args F) : (⟨S50000, .f32⟩ : BufTy).Contents (Elt F) :=
  (maximumf : (⟨S50000, .f32⟩ : BufTy).Contents (Elt F) → (⟨S50000, .f32⟩ : BufTy).Contents (Elt F) → (⟨S50000, .f32⟩ : BufTy).Contents (Elt F)) (k_main_v57 A) (k_main_v58 A)

def k_main_v60 (A : Cert.Spec.Args F) : (⟨S50000x1, .f32⟩ : BufTy).Contents (Elt F) :=
  (broadcastInDim S50000x1 ![0] bcast_S50000_S50000x1_0 : (⟨S50000, .f32⟩ : BufTy).Contents (Elt F) → (⟨S50000x1, .f32⟩ : BufTy).Contents (Elt F)) (k_main_v59 A)

def k_main_v61 (A : Cert.Spec.Args F) : (⟨S50000x4, .f32⟩ : BufTy).Contents (Elt F) :=
  (broadcastInDim S50000x4 ![0, 1] bcast_S50000x1_S50000x4_0_1 : (⟨S50000x1, .f32⟩ : BufTy).Contents (Elt F) → (⟨S50000x4, .f32⟩ : BufTy).Contents (Elt F)) (k_main_v60 A)

def k_main_v62 (A : Cert.Spec.Args F) : (⟨S50000x4, .f32⟩ : BufTy).Contents (Elt F) :=
  (Host.divf : (⟨S50000x4, .f32⟩ : BufTy).Contents (Elt F) → (⟨S50000x4, .f32⟩ : BufTy).Contents (Elt F) → (⟨S50000x4, .f32⟩ : BufTy).Contents (Elt F)) (k_main_v53 A) (k_main_v61 A)

def k_main_cst_14 (A : Cert.Spec.Args F) : (⟨S_, .f32⟩ : BufTy).Contents (Elt F) :=
  (constant S_ .f32 0x3F800000#32)

def k_main_v63 (A : Cert.Spec.Args F) : (⟨S50000x4, .f32⟩ : BufTy).Contents (Elt F) :=
  (broadcastInDim S50000x4 ![] bcast_S_S50000x4 : (⟨S_, .f32⟩ : BufTy).Contents (Elt F) → (⟨S50000x4, .f32⟩ : BufTy).Contents (Elt F)) (k_main_cst_14 A)

def k_main_v64 (A : Cert.Spec.Args F) : (⟨S50000x4, .f32⟩ : BufTy).Contents (Elt F) :=
  (mulf : (⟨S50000x4, .f32⟩ : BufTy).Contents (Elt F) → (⟨S50000x4, .f32⟩ : BufTy).Contents (Elt F) → (⟨S50000x4, .f32⟩ : BufTy).Contents (Elt F)) (k_main_v62 A) (k_main_v63 A)

def k_main_v65 (A : Cert.Spec.Args F) : (⟨S50000x4, .f32⟩ : BufTy).Contents (Elt F) :=
  (addf : (⟨S50000x4, .f32⟩ : BufTy).Contents (Elt F) → (⟨S50000x4, .f32⟩ : BufTy).Contents (Elt F) → (⟨S50000x4, .f32⟩ : BufTy).Contents (Elt F)) A.a1 (k_main_v64 A)

def k_main_v66 (A : Cert.Spec.Args F) : (⟨S72x72, .f32⟩ : BufTy).Contents (Elt F) :=
  ((extractStridedSlice S72x72 ![0, 0] · slices_S152x72_S72x72_0_0) : (⟨S152x72, .f32⟩ : BufTy).Contents (Elt F) → (⟨S72x72, .f32⟩ : BufTy).Contents (Elt F)) A.a9

def k_main_v67 (A : Cert.Spec.Args F) : (⟨S72x72, .f32⟩ : BufTy).Contents (Elt F) :=
  ((extractStridedSlice S72x72 ![72, 0] · slices_S152x72_S72x72_72_0) : (⟨S152x72, .f32⟩ : BufTy).Contents (Elt F) → (⟨S72x72, .f32⟩ : BufTy).Contents (Elt F)) A.a9

def k_main_v68 (A : Cert.Spec.Args F) : (⟨S8x72, .f32⟩ : BufTy).Contents (Elt F) :=
  ((extractStridedSlice S8x72 ![144, 0] · slices_S152x72_S8x72_144_0) : (⟨S152x72, .f32⟩ : BufTy).Contents (Elt F) → (⟨S8x72, .f32⟩ : BufTy).Contents (Elt F)) A.a9

def k_main_v69 (A : Cert.Spec.Args F) : (⟨S1x72, .f32⟩ : BufTy).Contents (Elt F) :=
  shapeCast S1x72 A.a10 shapeCasts_S72_S1x72

def k_main_cst_15 (A : Cert.Spec.Args F) : (⟨S_, .f32⟩ : BufTy).Contents (Elt F) :=
  (constant S_ .f32 0x00000000#32)

def k_main_v71 (A : Cert.Spec.Args F) : (⟨S72, .f32⟩ : BufTy).Contents (Elt F) :=
  ((fun x v => Host.reduceAdd x v reducesTo_S50000x72_S72_d0 h_S_) : (⟨S50000x72, .f32⟩ : BufTy).Contents (Elt F) → (⟨S_, .f32⟩ : BufTy).Contents (Elt F) → (⟨S72, .f32⟩ : BufTy).Contents (Elt F)) (k_main_v70 A) (k_main_cst_15 A)

def k_main_v72 (A : Cert.Spec.Args F) : (⟨S1x72, .f32⟩ : BufTy).Contents (Elt F) :=
  (broadcastInDim S1x72 ![1] bcast_S72_S1x72_1 : (⟨S72, .f32⟩ : BufTy).Contents (Elt F) → (⟨S1x72, .f32⟩ : BufTy).Contents (Elt F)) (k_main_v71 A)

def k_main_cst_16 (A : Cert.Spec.Args F) : (⟨S_, .f32⟩ : BufTy).Contents (Elt F) :=
  (constant S_ .f32 0x47435000#32)

def k_main_v73 (A : Cert.Spec.Args F) : (⟨S1x72, .f32⟩ : BufTy).Contents (Elt F) :=
  (broadcastInDim S1x72 ![] bcast_S_S1x72 : (⟨S_, .f32⟩ : BufTy).Contents (Elt F) → (⟨S1x72, .f32⟩ : BufTy).Contents (Elt F)) (k_main_cst_16 A)

def k_main_v74 (A : Cert.Spec.Args F) : (⟨S1x72, .f32⟩ : BufTy).Contents (Elt F) :=
  (Host.divf : (⟨S1x72, .f32⟩ : BufTy).Contents (Elt F) → (⟨S1x72, .f32⟩ : BufTy).Contents (Elt F) → (⟨S1x72, .f32⟩ : BufTy).Contents (Elt F)) (k_main_v72 A) (k_main_v73 A)

def k_main_c_17 (A : Cert.Spec.Args F) : (⟨S_, .i32⟩ : BufTy).Contents (Elt F) :=
  (constantI S_ 32 0#32)

def k_main_call1_cst (A : Cert.Spec.Args F) : (⟨S_, .f32⟩ : BufTy).Contents (Elt F) :=
  (constant S_ .f32 0x00000000#32)

def k_main_call1_v0 (A : Cert.Spec.Args F) : (⟨S72, .f32⟩ : BufTy).Contents (Elt F) :=
  (fun x v => Host.reduceAdd x v reducesTo_S50000x72_S72_d0 h_S_) (k_main_v70 A) (k_main_call1_cst A)

def k_main_call1_v1 (A : Cert.Spec.Args F) : (⟨S1x72, .f32⟩ : BufTy).Contents (Elt F) :=
  (broadcastInDim S1x72 ![1] bcast_S72_S1x72_1) (k_main_call1_v0 A)

def k_main_call1_cst_0 (A : Cert.Spec.Args F) : (⟨S_, .f32⟩ : BufTy).Contents (Elt F) :=
  (constant S_ .f32 0x47435000#32)

def k_main_call1_v2 (A : Cert.Spec.Args F) : (⟨S1x72, .f32⟩ : BufTy).Contents (Elt F) :=
  (broadcastInDim S1x72 ![] bcast_S_S1x72) (k_main_call1_cst_0 A)

def k_main_call1_v3 (A : Cert.Spec.Args F) : (⟨S1x72, .f32⟩ : BufTy).Contents (Elt F) :=
  Host.divf (k_main_call1_v1 A) (k_main_call1_v2 A)

def k_main_call1_v4 (A : Cert.Spec.Args F) : (⟨S50000x72, .f32⟩ : BufTy).Contents (Elt F) :=
  (broadcastInDim S50000x72 ![0, 1] bcast_S1x72_S50000x72_0_1) (k_main_call1_v3 A)

def k_main_call1_v5 (A : Cert.Spec.Args F) : (⟨S50000x72, .f32⟩ : BufTy).Contents (Elt F) :=
  subf (k_main_v70 A) (k_main_call1_v4 A)

def k_main_call1_v6 (A : Cert.Spec.Args F) : (⟨S50000x72, .f32⟩ : BufTy).Contents (Elt F) :=
  mulf (k_main_call1_v5 A) (k_main_call1_v5 A)

def k_main_call1_v7 (A : Cert.Spec.Args F) : (⟨S_, .f32⟩ : BufTy).Contents (Elt F) :=
  (sitofp .f32) (k_main_c_17 A)

def k_main_call1_cst_1 (A : Cert.Spec.Args F) : (⟨S_, .f32⟩ : BufTy).Contents (Elt F) :=
  (constant S_ .f32 0x47435000#32)

def k_main_call1_v8 (A : Cert.Spec.Args F) : (⟨S_, .f32⟩ : BufTy).Contents (Elt F) :=
  subf (k_main_call1_cst_1 A) (k_main_call1_v7 A)

def k_main_call1_cst_2 (A : Cert.Spec.Args F) : (⟨S_, .f32⟩ : BufTy).Contents (Elt F) :=
  (constant S_ .f32 0x00000000#32)

def k_main_call1_v9 (A : Cert.Spec.Args F) : (⟨S72, .f32⟩ : BufTy).Contents (Elt F) :=
  (fun x v => Host.reduceAdd x v reducesTo_S50000x72_S72_d0 h_S_) (k_main_call1_v6 A) (k_main_call1_cst_2 A)

def k_main_call1_v10 (A : Cert.Spec.Args F) : (⟨S1x72, .f32⟩ : BufTy).Contents (Elt F) :=
  (broadcastInDim S1x72 ![1] bcast_S72_S1x72_1) (k_main_call1_v9 A)

def k_main_call1_v11 (A : Cert.Spec.Args F) : (⟨S1x72, .f32⟩ : BufTy).Contents (Elt F) :=
  (broadcastInDim S1x72 ![] bcast_S_S1x72) (k_main_call1_v8 A)

def k_main_call1_v12 (A : Cert.Spec.Args F) : (⟨S1x72, .f32⟩ : BufTy).Contents (Elt F) :=
  Host.divf (k_main_call1_v10 A) (k_main_call1_v11 A)

def k_main_call1_cst_3 (A : Cert.Spec.Args F) : (⟨S_, .f32⟩ : BufTy).Contents (Elt F) :=
  (constant S_ .f32 0x00000000#32)

def k_main_call1_v13 (A : Cert.Spec.Args F) : (⟨S_, .i1⟩ : BufTy).Contents (Elt F) :=
  (cmpf .ogt) (k_main_call1_v8 A) (k_main_call1_cst_3 A)

def k_main_call1_cst_4 (A : Cert.Spec.Args F) : (⟨S_, .f32⟩ : BufTy).Contents (Elt F) :=
  (constant S_ .f32 0x7FC00000#32)

def k_main_call1_call0_v0 (A : Cert.Spec.Args F) : (⟨S_, .f32⟩ : BufTy).Contents (Elt F) :=
  id (k_main_call1_cst_4 A)

def k_main_call1_call0_v1 (A : Cert.Spec.Args F) : (⟨S1x72, .f32⟩ : BufTy).Contents (Elt F) :=
  (broadcastInDim S1x72 ![] bcast_S_S1x72) (k_main_call1_call0_v0 A)

def k_main_v75 (A : Cert.Spec.Args F) : (⟨S1x72, .f32⟩ : BufTy).Contents (Elt F) :=
  (fun p a b => select (broadcastInDim S1x72 ![] bcast_S_S1x72 p) a b) (k_main_call1_v13 A) (k_main_call1_v12 A) (k_main_call1_call0_v1 A)

def k_main_v76 (A : Cert.Spec.Args F) : (⟨S1x72, .f32⟩ : BufTy).Contents (Elt F) :=
  shapeCast S1x72 A.a11 shapeCasts_S72_S1x72

def k_main_v77 (A : Cert.Spec.Args F) : (⟨S1x72, .f32⟩ : BufTy).Contents (Elt F) :=
  shapeCast S1x72 A.a12 shapeCasts_S72_S1x72

def k_main_v78 (A : Cert.Spec.Args F) : (⟨S1x72, .f32⟩ : BufTy).Contents (Elt F) :=
  shapeCast S1x72 A.a14 shapeCasts_S72_S1x72

/-- The argument arrays of device `c` in a memory of the kernel program. -/
def kerArgs (m : (ℓ : Loc nD τ sig) → Buf (Elt F) ℓ) (c : Dev nD) : Cert.Spec.Args F where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)
  a19 := m ((c.tc : Thread nD τ).loc main_arg19)

end Cert.KSpec

end
-- ==== Proof.Mid.lean ====
/-
  The four dense stages of the layer, each result at one index as plain arithmetic on the extended reals
  (sums over the contracted index; the order of the additions is the kernels').
  Stage 0, per edge e and feature c:  z = ((Σₖ hᵢ[e,k]·W[k,c] + Σₖ hⱼ[e,k]·W[72+k,c]) + ψ(n(e))·W[144,c]) + ψ(d(e))·W[145,c],
     with ψ(s) = sign s · log(|s| + 1), n(e) = 2·δ₀² − Σ_q δ_q² for δ = xᵢ − xⱼ, d(e) = 2·xᵢ₀xⱼ₀ − Σ_q xᵢ_q xⱼ_q.
  Stage 1, per edge: batch-norm with given mean and variance, ReLU, a linear layer and ReLU (e₂), the gate σ(e₂·w + b),
     m = e₂·gate, then trans = clip(δ · (ReLU(m·Wx₁ + b)·wx₂), −100, 100).
  Stage 2, per node: z_h = ((Σ h·W[k] + Σ agg·W[72+k]) + Σ attr·W[144+k]) + b.
  Stage 3, per node: h_out = h + (Σₖ ReLU(bn z_h)[k]·W[k,c] + b[c]).
-/
import proofs.«152136_j87351044866445_1_alg».proof.Proof.Spec
import Idealize.ShloMosaic.Lib.ValueIdx
import Mathlib.Algebra.BigOperators.Fin

noncomputable section

namespace Cert.Mid

open Idealize.ShloMosaic Idealize.ShloMosaic.ValueIdx
open scoped BigOperators

/-- The float literals of the two programs, as the extended reals their patterns denote. -/
def one : EReal := Ideal.ofBits .f32 0x3F800000#32
def two : EReal := Ideal.ofBits .f32 0x40000000#32
def zero : EReal := Ideal.ofBits .f32 0x00000000#32
def eps : EReal := Ideal.ofBits .f32 0x3727C5AC#32
def lo : EReal := Ideal.ofBits .f32 0xC2C80000#32
def hi : EReal := Ideal.ofBits .f32 0x42C80000#32

/-- ψ(s) = sign s · log(|s| + 1). -/
def psi (s : EReal) : EReal := Ideal.sign s * Ideal.log (max s (-s) + one)

/-- 2·p₀ − Σ_q p_q: the Minkowski form of a 4-vector of products. -/
def mink (p : Fin 4 → EReal) : EReal := two * p 0 - ∑ q : Fin 4, p q

/-- Stage 0: the first edge linear layer over [hᵢ, hⱼ, ψ(‖xᵢ − xⱼ‖²), ψ(⟨xᵢ, xⱼ⟩)], the weight's rows taken where they lie. -/
def z0 {E : Nat} (hi hj : Fin E → Fin 72 → EReal) (xi xj : Fin E → Fin 4 → EReal) (W : Fin 146 → Fin 72 → EReal)
    (e : Fin E) (c : Fin 72) : EReal :=
  (((∑ k : Fin 72, hi e k * W ⟨k.val, by omega⟩ c) + (∑ k : Fin 72, hj e k * W ⟨72 + k.val, by omega⟩ c))
    + psi (mink fun q => (xi e q - xj e q) * (xi e q - xj e q)) * W ⟨144, by omega⟩ c)
    + psi (mink fun q => xi e q * xj e q) * W ⟨145, by omega⟩ c

/-- Batch-norm of one entry with given statistics. -/
def bn (z mu var g b : EReal) : EReal := ((z - mu) * Ideal.rsqrt (var + eps)) * g + b

/-- What stage 1 reads besides the edge's own rows. -/
structure EdgeP where
  mu : Fin 72 → EReal
  var : Fin 72 → EReal
  g : Fin 72 → EReal
  b : Fin 72 → EReal
  We2 : Fin 72 → Fin 72 → EReal
  be2 : Fin 72 → EReal
  Wm : Fin 72 → EReal
  bm : EReal
  Wx1 : Fin 72 → Fin 72 → EReal
  bx1 : Fin 72 → EReal
  Wx2 : Fin 72 → EReal

section Edge
variable {E : Nat} (z : Fin E → Fin 72 → EReal) (P : EdgeP)

def e1 (e : Fin E) (c : Fin 72) : EReal := max (bn (z e c) (P.mu c) (P.var c) (P.g c) (P.b c)) zero
def e2 (e : Fin E) (c : Fin 72) : EReal := max ((∑ k : Fin 72, e1 z P e k * P.We2 k c) + P.be2 c) zero
def gate (e : Fin E) : EReal := Ideal.logistic ((∑ k : Fin 72, e2 z P e k * P.Wm k) + P.bm)
/-- The message m. -/
def mOut (e : Fin E) (c : Fin 72) : EReal := e2 z P e c * gate z P e
def hx (e : Fin E) (c : Fin 72) : EReal := max ((∑ k : Fin 72, mOut z P e k * P.Wx1 k c) + P.bx1 c) zero
def px (e : Fin E) : EReal := ∑ k : Fin 72, hx z P e k * P.Wx2 k
/-- The clipped displacement. -/
def trans (xd : Fin E → Fin 4 → EReal) (e : Fin E) (q : Fin 4) : EReal := min hi (max lo (xd e q * px z P e))
end Edge

/-- Stage 2: the first node linear layer over [h, agg, attr]. -/
def zh {N : Nat} (h agg : Fin N → Fin 72 → EReal) (attr : Fin N → Fin 8 → EReal) (W : Fin 152 → Fin 72 → EReal) (b : Fin 72 → EReal)
    (n : Fin N) (c : Fin 72) : EReal :=
  (((∑ k : Fin 72, h n k * W ⟨k.val, by omega⟩ c) + (∑ k : Fin 72, agg n k * W ⟨72 + k.val, by omega⟩ c))
    + (∑ k : Fin 8, attr n k * W ⟨144 + k.val, by omega⟩ c)) + b c

/-- Stage 3: batch-norm, ReLU, the second node linear layer, the residual. -/
def hout {N : Nat} (zh h : Fin N → Fin 72 → EReal) (mu var g b : Fin 72 → EReal) (W : Fin 72 → Fin 72 → EReal) (b2 : Fin 72 → EReal)
    (n : Fin N) (c : Fin 72) : EReal :=
  h n c + ((∑ k : Fin 72, max (bn (zh n k) (mu k) (var k) (g k) (b k)) zero * W k c) + b2 c)

/-! ## The stages' operands, read off the reference's buffers -/

section Operands
variable [Cert.ReferenceIdeal.Facts] (A : Cert.Spec.Args Ideal)

def arr2 {a b : Nat} (x : (⟨2, ![a, b]⟩ : Shape).Idx → EReal) : Fin a → Fin b → EReal := fun i j => x (ix2 i j)
def arr1 {a : Nat} (x : (⟨1, ![a]⟩ : Shape).Idx → EReal) : Fin a → EReal := fun i => x (ix1 i)

/-- Stage 1's operands: the batch statistics of z, the affine pair, the three small layers. -/
def edgeP : EdgeP where
  mu := arr1 (Cert.Spec.r_main_v79 A)
  var := arr1 (Cert.Spec.r_main_v80 A)
  g := arr1 A.a5
  b := arr1 A.a6
  We2 := arr2 A.a7
  be2 := arr1 A.a8
  Wm := fun k => A.a18 (ix2 k (0 : Fin 1))
  bm := A.a19 (ix1 (0 : Fin 1))
  Wx1 := arr2 A.a15
  bx1 := arr1 A.a16
  Wx2 := fun k => A.a17 (ix2 k (0 : Fin 1))

end Operands

end Cert.Mid

end
-- ==== Proof.Stage0.lean ====
/-
  The reference's first edge layer read at an index: the matrix product of the concatenated edge features
  [h[i], h[j], ψ(‖x[i] − x[j]‖²), ψ(⟨x[i], x[j]⟩)] with the 146-row weight is, entry by entry, the sum over the
  146 rows split where the four pieces lie; and the displacement x[i] − x[j].
-/
import proofs.«152136_j87351044866445_1_alg».proof.Proof.Mid
import Idealize.ShloMosaic.Lib.ValueIdx
import Idealize.ShloMosaic.Lib.Pipeline.Value
import Idealize.ShloMosaic.Lib.IdealHost
import Idealize.ShloMosaic.PureOps.Ideal.Laws

noncomputable section

namespace Cert.Spec.Stage0

open Idealize.ShloMosaic Idealize.ShloMosaic.ValueIdx Cert.Mid
open Cert.ReferenceIdeal Cert.ReferenceIdeal.Facts₀ Cert.ReferenceIdeal.Facts
open scoped BigOperators

variable [Cert.ReferenceIdeal.Facts] (A : Cert.Spec.Args Ideal)

/-! ## The matrix product [E, 146] · [146, 72] at an entry -/

/-- The left operand is read at the output's row … -/
theorem lhs_0 (i : S1600000x72.Idx) (q : dot_S1600000x146_S146x72_S1600000x72_1_0_0_1_n_n.contr.Idx) :
    (dot_S1600000x146_S146x72_S1600000x72_1_0_0_1_n_n.lhsIdx i q 0).val = (i 0).val := by
  unfold DotDims.lhsIdx
  rw [dif_neg (show ¬(0 : Fin S1600000x146.rank) ∈ dot_S1600000x146_S146x72_S1600000x72_1_0_0_1_n_n.lhsBatch from List.not_mem_nil),
    dif_pos (show (0 : Fin S1600000x146.rank) ∈ dot_S1600000x146_S146x72_S1600000x72_1_0_0_1_n_n.lhsNonContracting from List.mem_singleton.mpr rfl)]
  rfl
/-- … and at the contracted position along its columns. -/
theorem lhs_1 (i : S1600000x72.Idx) (q : dot_S1600000x146_S146x72_S1600000x72_1_0_0_1_n_n.contr.Idx) :
    (dot_S1600000x146_S146x72_S1600000x72_1_0_0_1_n_n.lhsIdx i q 1).val = (q ⟨0, Nat.one_pos⟩).val :=
  dot_S1600000x146_S146x72_S1600000x72_1_0_0_1_n_n.lhsIdx_val_of_single rfl i q
/-- The right operand is read at the contracted position along its rows … -/
theorem rhs_0 (i : S1600000x72.Idx) (q : dot_S1600000x146_S146x72_S1600000x72_1_0_0_1_n_n.contr.Idx) :
    (dot_S1600000x146_S146x72_S1600000x72_1_0_0_1_n_n.rhsIdx i q 0).val = (q ⟨0, Nat.one_pos⟩).val :=
  dot_S1600000x146_S146x72_S1600000x72_1_0_0_1_n_n.rhsIdx_val_of_single rfl i q
/-- … and at the output's column. -/
theorem rhs_1 (i : S1600000x72.Idx) (q : dot_S1600000x146_S146x72_S1600000x72_1_0_0_1_n_n.contr.Idx) :
    (dot_S1600000x146_S146x72_S1600000x72_1_0_0_1_n_n.rhsIdx i q 1).val = (i 1).val := by
  unfold DotDims.rhsIdx
  rw [dif_neg (show ¬(1 : Fin S146x72.rank) ∈ dot_S1600000x146_S146x72_S1600000x72_1_0_0_1_n_n.rhsBatch from List.not_mem_nil),
    dif_pos (show (1 : Fin S146x72.rank) ∈ dot_S1600000x146_S146x72_S1600000x72_1_0_0_1_n_n.rhsNonContracting from List.mem_singleton.mpr rfl)]
  rfl

/-- The product at entry (e, c): Σₖ l[e, k] · r[k, c] over the 146 contracted positions. -/
theorem dot_apply (l : FVec Ideal S1600000x146 .f32) (r : FVec Ideal S146x72 .f32) (e : Fin 1600000) (c : Fin 72) :
    Host.dotGeneral (F := Ideal) dot_S1600000x146_S146x72_S1600000x72_1_0_0_1_n_n none l r (ix2 e c) = ∑ k : Fin 146, l (ix2 e k) * r (ix2 k c) := by
  simp only [Host.dotGeneral]
  rw [Ideal.dotGeneral_apply, ← Equiv.sum_comp (ValueIdx.contrEquiv1 dot_S1600000x146_S146x72_S1600000x72_1_0_0_1_n_n 146 rfl rfl).symm]
  refine Finset.sum_congr rfl fun k _ => ?_
  have hk := ValueIdx.contrEquiv1_symm_val dot_S1600000x146_S146x72_S1600000x72_1_0_0_1_n_n 146 rfl rfl k
  have el : dot_S1600000x146_S146x72_S1600000x72_1_0_0_1_n_n.lhsIdx (ix2 e c) ((ValueIdx.contrEquiv1 dot_S1600000x146_S146x72_S1600000x72_1_0_0_1_n_n 146 rfl rfl).symm k) = ix2 e k :=
    funext fun a => Fin.ext (by
      match a with
      | ⟨0, _⟩ => exact lhs_0 _ _
      | ⟨1, _⟩ => exact (lhs_1 _ _).trans hk)
  have er : dot_S1600000x146_S146x72_S1600000x72_1_0_0_1_n_n.rhsIdx (ix2 e c) ((ValueIdx.contrEquiv1 dot_S1600000x146_S146x72_S1600000x72_1_0_0_1_n_n 146 rfl rfl).symm k) = ix2 k c :=
    funext fun a => Fin.ext (by
      match a with
      | ⟨0, _⟩ => exact (rhs_0 _ _).trans hk
      | ⟨1, _⟩ => exact rhs_1 _ _)
  rw [el, er]

/-- A sum over 146 positions, cut where the four pieces of the concatenated row lie: 72 + 72 + 1 + 1. Addition in a
    commutative monoid only: nothing is assumed finite. -/
theorem sum_split {M : Type*} [AddCommMonoid M] (f : Fin 146 → M) :
    ∑ k : Fin 146, f k
      = (((∑ k : Fin 72, f ⟨k.val, by omega⟩) + (∑ k : Fin 72, f ⟨72 + k.val, by omega⟩)) + f ⟨144, by omega⟩)
          + f ⟨145, by omega⟩ := by
  rw [Fin.sum_univ_castSucc (n := 145), Fin.sum_univ_castSucc (n := 144)]
  have h := Fin.sum_univ_add (a := 72) (b := 72) (fun k : Fin (72 + 72) => f (Fin.castSucc (Fin.castSucc k)))
  refine congrArg₂ (· + ·) (congrArg₂ (· + ·) ?_ rfl) rfl
  exact h

/-! ## The concatenated row [x0 | x1 | x2 | x3] at each of its four spans -/

section Cat
variable (x0 x1 : FVec Ideal S1600000x72 .f32) (x2 x3 : FVec Ideal S1600000x1 .f32)

/-- At a position k below 72: the first piece at k. -/
theorem cat_0 (e : Fin 1600000) (k : Fin 72) :
    concatenate S1600000x146 1 [⟨S1600000x72, x0⟩, ⟨S1600000x72, x1⟩, ⟨S1600000x1, x2⟩, ⟨S1600000x1, x3⟩] concatenates_S1600000x72_S1600000x72_S1600000x1_S1600000x1_S1600000x146_d1
        (ix2 e (⟨k.val, by omega⟩ : Fin 146)) = x0 (ix2 e k) := by
  refine concatenate_apply_piece (1 : Fin S1600000x146.rank) [⟨S1600000x72, x0⟩, ⟨S1600000x72, x1⟩, ⟨S1600000x1, x2⟩, ⟨S1600000x1, x3⟩] concatenates_S1600000x72_S1600000x72_S1600000x1_S1600000x1_S1600000x146_d1 _ 0 (show 0 < 4 by omega)
    S1600000x72 x0 rfl rfl 0 rfl (ix2 e k) ?_ ?_
  · intro b hb
    match b with
    | ⟨0, _⟩ => rfl
    | ⟨1, _⟩ => exact absurd rfl hb
  · show 0 + k.val = k.val
    omega

/-- At a position 72 + k: the second piece at k. -/
theorem cat_1 (e : Fin 1600000) (k : Fin 72) :
    concatenate S1600000x146 1 [⟨S1600000x72, x0⟩, ⟨S1600000x72, x1⟩, ⟨S1600000x1, x2⟩, ⟨S1600000x1, x3⟩] concatenates_S1600000x72_S1600000x72_S1600000x1_S1600000x1_S1600000x146_d1
        (ix2 e (⟨72 + k.val, by omega⟩ : Fin 146)) = x1 (ix2 e k) := by
  refine concatenate_apply_piece (1 : Fin S1600000x146.rank) [⟨S1600000x72, x0⟩, ⟨S1600000x72, x1⟩, ⟨S1600000x1, x2⟩, ⟨S1600000x1, x3⟩] concatenates_S1600000x72_S1600000x72_S1600000x1_S1600000x1_S1600000x146_d1 _ 1 (show 1 < 4 by omega)
    S1600000x72 x1 rfl rfl 72 rfl (ix2 e k) ?_ ?_
  · intro b hb
    match b with
    | ⟨0, _⟩ => rfl
    | ⟨1, _⟩ => exact absurd rfl hb
  · rfl

/-- At position 144: the third piece's one column. -/
theorem cat_2 (e : Fin 1600000) :
    concatenate S1600000x146 1 [⟨S1600000x72, x0⟩, ⟨S1600000x72, x1⟩, ⟨S1600000x1, x2⟩, ⟨S1600000x1, x3⟩] concatenates_S1600000x72_S1600000x72_S1600000x1_S1600000x1_S1600000x146_d1
        (ix2 e (⟨144, by omega⟩ : Fin 146)) = x2 (ix2 e (0 : Fin 1)) := by
  refine concatenate_apply_piece (1 : Fin S1600000x146.rank) [⟨S1600000x72, x0⟩, ⟨S1600000x72, x1⟩, ⟨S1600000x1, x2⟩, ⟨S1600000x1, x3⟩] concatenates_S1600000x72_S1600000x72_S1600000x1_S1600000x1_S1600000x146_d1 _ 2 (show 2 < 4 by omega)
    S1600000x1 x2 rfl rfl 144 rfl (ix2 e (0 : Fin 1)) ?_ ?_
  · intro b hb
    match b with
    | ⟨0, _⟩ => rfl
    | ⟨1, _⟩ => exact absurd rfl hb
  · rfl

/-- At position 145: the fourth piece's one column. -/
theorem cat_3 (e : Fin 1600000) :
    concatenate S1600000x146 1 [⟨S1600000x72, x0⟩, ⟨S1600000x72, x1⟩, ⟨S1600000x1, x2⟩, ⟨S1600000x1, x3⟩] concatenates_S1600000x72_S1600000x72_S1600000x1_S1600000x1_S1600000x146_d1
        (ix2 e (⟨145, by omega⟩ : Fin 146)) = x3 (ix2 e (0 : Fin 1)) := by
  refine concatenate_apply_piece (1 : Fin S1600000x146.rank) [⟨S1600000x72, x0⟩, ⟨S1600000x72, x1⟩, ⟨S1600000x1, x2⟩, ⟨S1600000x1, x3⟩] concatenates_S1600000x72_S1600000x72_S1600000x1_S1600000x1_S1600000x146_d1 _ 3 (show 3 < 4 by omega)
    S1600000x1 x3 rfl rfl 145 rfl (ix2 e (0 : Fin 1)) ?_ ?_
  · intro b hb
    match b with
    | ⟨0, _⟩ => rfl
    | ⟨1, _⟩ => exact absurd rfl hb
  · rfl
end Cat

/-! ## ψ of a Minkowski form, as the reference spells it on arrays over the edges -/

/-- A float literal broadcast along the edges reads the literal. -/
theorem lit_apply (w : BitVec 32) (e : Fin 1600000) :
    broadcastInDim S1600000 ![] bcast_S_S1600000 (constant (F := Ideal) S_ .f32 w) (ix1 e) = Ideal.ofBits .f32 w := by
  rw [broadcastInDim_scalar_apply]; rfl

/-- A vector over the edges made a one-column matrix reads the vector's entry. -/
theorem col_apply (y : FVec Ideal S1600000 .f32) (e : Fin 1600000) :
    broadcastInDim S1600000x1 ![0] bcast_S1600000_S1600000x1_0 y (ix2 e (0 : Fin 1)) = y (ix1 e) := by
  refine broadcastInDim_apply _ _ _ _ (ix1 e) fun a => ?_
  match a with
  | ⟨0, _⟩ => rfl

/-- Column 0 of a four-column array, as a vector over the edges. -/
theorem col0_apply (p : FVec Ideal S1600000x4 .f32) (e : Fin 1600000) :
    shapeCast S1600000 (extractStridedSlice S1600000x1 ![0, 0] p slices_S1600000x4_S1600000x1_0_0)
        shapeCasts_S1600000x1_S1600000 (ix1 e)
      = p (ix2 e (0 : Fin 4)) := by
  refine (shapeCast_apply _ shapeCasts_S1600000x1_S1600000 (ix1 e) (ix2 e (0 : Fin 1)) ?_).trans ?_
  · rw [Shape.rowMajor_val_one, Shape.rowMajor_val_two]
    show e.val * 1 + 0 = e.val
    omega
  · refine extractStridedSlice_apply _ _ _ _ (ix2 e (0 : Fin 4)) fun a => ?_
    match a with
    | ⟨0, _⟩ => show e.val = 0 + e.val; omega
    | ⟨1, _⟩ => rfl

/-- The row sums of a four-column array from the zero literal: 0 + Σ_q p[e, q] = Σ_q p[e, q]. -/
theorem rowsum_apply (p : FVec Ideal S1600000x4 .f32) (e : Fin 1600000) :
    Host.reduceAdd p (constant (F := Ideal) S_ .f32 0x00000000#32) reducesTo_S1600000x4_S1600000_d1 h_S_ (ix1 e)
      = ∑ q : Fin 4, p (ix2 e q) := by
  have hR : S1600000x4.Reduces [1] S1600000 := by decide
  rw [hostReduceAdd_apply, Ideal.hostReduceAdd_single _ hR]
  show Ideal.ofBits .f32 0x00000000#32 + _ = _
  rw [Ideal.ofBits_zero_f32, zero_add]
  refine Finset.sum_congr rfl fun q _ => congrArg p (funext fun a => Fin.ext ?_)
  match a with
  | ⟨0, _⟩ => rfl
  | ⟨1, _⟩ => rfl

/-- 2·p[e, 0] − Σ_q p[e, q]: the Minkowski form of row e of a four-column array of products. -/
theorem mink_apply (p : FVec Ideal S1600000x4 .f32) (e : Fin 1600000) :
    subf (mulf (broadcastInDim S1600000 ![] bcast_S_S1600000 (constant (F := Ideal) S_ .f32 0x40000000#32))
            (shapeCast S1600000 (extractStridedSlice S1600000x1 ![0, 0] p slices_S1600000x4_S1600000x1_0_0)
              shapeCasts_S1600000x1_S1600000))
          (Host.reduceAdd p (constant (F := Ideal) S_ .f32 0x00000000#32) reducesTo_S1600000x4_S1600000_d1 h_S_) (ix1 e)
      = mink fun q => p (ix2 e q) := by
  rw [subf_apply, mulf_apply, lit_apply, col0_apply, rowsum_apply]
  rfl

/-- sign s · log(|s| + 1) entrywise, |s| being max s (−s). -/
theorem psi_apply (s : FVec Ideal S1600000 .f32) (e : Fin 1600000) :
    mulf (Host.sign s)
        (Host.log (addf (Host.absf s)
          (broadcastInDim S1600000 ![] bcast_S_S1600000 (constant (F := Ideal) S_ .f32 0x3F800000#32)))) (ix1 e)
      = psi (s (ix1 e)) := by
  show Ideal.sign (s (ix1 e)) * Ideal.log (max (s (ix1 e)) (-(s (ix1 e)))
    + broadcastInDim S1600000 ![] bcast_S_S1600000 (constant (F := Ideal) S_ .f32 0x3F800000#32) (ix1 e)) = _
  rw [lit_apply]
  rfl

/-! ## The reference's buffers -/

/-- The two gathers of x by the first index row are one array (the same operations printed twice), and so for the second row. -/
theorem xi_again : Cert.Spec.r_main_v39 A = Cert.Spec.r_main_v10 A := by
  rfl
theorem xj_again : Cert.Spec.r_main_v46 A = Cert.Spec.r_main_v17 A := by
  rfl

/-- The displacement at an entry. -/
theorem xd_apply (e : Fin 1600000) (q : Fin 4) :
    Cert.Spec.r_main_v18 A (ix2 e q) = Cert.Spec.r_main_v10 A (ix2 e q) - Cert.Spec.r_main_v17 A (ix2 e q) := by
  rfl

/-- The third piece: ψ of the Minkowski norm of the displacement. -/
theorem psi_norm_apply (e : Fin 1600000) :
    Cert.Spec.r_main_v32 A (ix2 e (0 : Fin 1))
      = psi (mink fun q => (Cert.Spec.r_main_v10 A (ix2 e q) - Cert.Spec.r_main_v17 A (ix2 e q))
          * (Cert.Spec.r_main_v10 A (ix2 e q) - Cert.Spec.r_main_v17 A (ix2 e q))) := by
  unfold Cert.Spec.r_main_v32
  rw [col_apply]
  unfold Cert.Spec.r_main_v31 Cert.Spec.r_main_v26 Cert.Spec.r_main_v30 Cert.Spec.r_main_v29 Cert.Spec.r_main_v27
    Cert.Spec.r_main_v28 Cert.Spec.r_main_cst_4
  refine (psi_apply (Cert.Spec.r_main_v25 A) e).trans (congrArg psi ?_)
  unfold Cert.Spec.r_main_v25 Cert.Spec.r_main_v23 Cert.Spec.r_main_v24 Cert.Spec.r_main_v22 Cert.Spec.r_main_v21
    Cert.Spec.r_main_v20 Cert.Spec.r_main_cst Cert.Spec.r_main_cst_3
  exact mink_apply (Cert.Spec.r_main_v19 A) e

/-- The fourth piece: ψ of the Minkowski product of the two positions. -/
theorem psi_prod_apply (e : Fin 1600000) :
    Cert.Spec.r_main_v60 A (ix2 e (0 : Fin 1))
      = psi (mink fun q => Cert.Spec.r_main_v10 A (ix2 e q) * Cert.Spec.r_main_v17 A (ix2 e q)) := by
  unfold Cert.Spec.r_main_v60
  rw [col_apply]
  unfold Cert.Spec.r_main_v59 Cert.Spec.r_main_v54 Cert.Spec.r_main_v58 Cert.Spec.r_main_v57 Cert.Spec.r_main_v55
    Cert.Spec.r_main_v56 Cert.Spec.r_main_cst_11
  refine (psi_apply (Cert.Spec.r_main_v53 A) e).trans (congrArg psi ?_)
  unfold Cert.Spec.r_main_v53 Cert.Spec.r_main_v51 Cert.Spec.r_main_v52 Cert.Spec.r_main_v50 Cert.Spec.r_main_v49
    Cert.Spec.r_main_v48 Cert.Spec.r_main_cst_9 Cert.Spec.r_main_cst_10
  refine (mink_apply (Cert.Spec.r_main_v47 A) e).trans ?_
  unfold Cert.Spec.r_main_v47
  rw [xi_again, xj_again]
  rfl

/-- z at an entry. -/
theorem z_apply (e : Fin 1600000) (c : Fin 72) :
    Cert.Spec.r_main_v76 A (ix2 e c)
      = z0 (arr2 (Cert.Spec.r_main_v67 A)) (arr2 (Cert.Spec.r_main_v74 A)) (arr2 (Cert.Spec.r_main_v10 A)) (arr2 (Cert.Spec.r_main_v17 A)) (arr2 A.a4) e c := by
  unfold Cert.Spec.r_main_v76
  refine (dot_apply (Cert.Spec.r_main_v75 A) A.a4 e c).trans ?_
  refine (sum_split _).trans ?_
  unfold Cert.Spec.r_main_v75
  simp only [cat_0, cat_1, cat_2, cat_3]
  rw [psi_norm_apply, psi_prod_apply]
  rfl

end Cert.Spec.Stage0

end
-- ==== Proof.Glue.lean ====
/-
  The kernel program's host glue against the reference's buffers. The gathers of h and x by the (wrapped) edge
  indices, the segment sum of the messages and the coordinate update are the same operations in both programs, so
  the arrays are equal; the slices of the two tall weights and the row forms [1, n] of the bias-like vectors are the
  arguments' own entries at the shifted or flattened index.
-/
import proofs.«152136_j87351044866445_1_alg».proof.Proof.KSpec
import Idealize.ShloMosaic.Lib.ValueIdx
import Idealize.ShloMosaic.Lib.Pipeline.Value
import Idealize.ShloMosaic.Lib.ValueLayout
import Idealize.ShloMosaic.PureOps.Ideal.Laws

noncomputable section

namespace Cert.Glue

open Idealize.ShloMosaic Idealize.ShloMosaic.ValueIdx
open Cert.KSpec Cert.Spec

variable [Cert.KernelIdeal.Facts] [Cert.ReferenceIdeal.Facts] (A : Cert.Spec.Args Ideal)

/-! ## The same operations in both programs -/

/-- The first row of the edge index array, as a vector: the edges' target nodes. -/
theorem row0_eq : k_main_v0 A = r_main_v0 A := by
  unfold k_main_v0 r_main_v0; rfl
theorem i_eq : k_main_v1 A = r_main_v1 A := by
  unfold k_main_v1 r_main_v1; rw [row0_eq]
/-- The second row: the edges' source nodes. -/
theorem row1_eq : k_main_v2 A = r_main_v2 A := by
  unfold k_main_v2 r_main_v2; rfl
theorem j_eq : k_main_v3 A = r_main_v3 A := by
  unfold k_main_v3 r_main_v3; rw [row1_eq]

/-- A negative index is wrapped by the number of nodes; the wrapped target index as a column. -/
theorem wrap_i_h : k_main_v9 A = r_main_v66 A := by
  unfold k_main_v9 r_main_v66 k_main_v8 r_main_v65 k_main_v5 r_main_v62 k_main_v7 r_main_v64
    k_main_v4 r_main_v61 k_main_v6 r_main_v63 k_main_c r_main_c_12 k_main_c_0 r_main_c_13
  rw [i_eq]
theorem hi_eq : k_main_v10 A = r_main_v67 A := by
  unfold k_main_v10 r_main_v67; rw [wrap_i_h]; rfl

/-- The wrapped source index as a column. -/
theorem wrap_j_h : k_main_v16 A = r_main_v73 A := by
  unfold k_main_v16 r_main_v73 k_main_v15 r_main_v72 k_main_v12 r_main_v69 k_main_v14 r_main_v71
    k_main_v11 r_main_v68 k_main_v13 r_main_v70 k_main_c_1 r_main_c_14 k_main_c_2 r_main_c_15
  rw [j_eq]
theorem hj_eq : k_main_v17 A = r_main_v74 A := by
  unfold k_main_v17 r_main_v74; rw [wrap_j_h]; rfl

/-- The same two columns, made again for the gathers of the coordinates. -/
theorem wrap_i_x : k_main_v23 A = r_main_v9 A := by
  unfold k_main_v23 r_main_v9 k_main_v22 r_main_v8 k_main_v19 r_main_v5 k_main_v21 r_main_v7
    k_main_v18 r_main_v4 k_main_v20 r_main_v6 k_main_c_3 r_main_c k_main_c_4 r_main_c_0
  rw [i_eq]
theorem xi_eq : k_main_v24 A = r_main_v10 A := by
  unfold k_main_v24 r_main_v10; rw [wrap_i_x]; rfl
theorem wrap_j_x : k_main_v30 A = r_main_v16 A := by
  unfold k_main_v30 r_main_v16 k_main_v29 r_main_v15 k_main_v26 r_main_v12 k_main_v28 r_main_v14
    k_main_v25 r_main_v11 k_main_v27 r_main_v13 k_main_c_5 r_main_c_1 k_main_c_6 r_main_c_2
  rw [j_eq]
theorem xj_eq : k_main_v31 A = r_main_v17 A := by
  unfold k_main_v31 r_main_v17; rw [wrap_j_x]; rfl

/-- The zero array the messages are added into. -/
theorem zero_h_eq : k_main_v48 A = r_main_v138 A := by
  unfold k_main_v48 r_main_v138 k_main_cst_9 r_main_cst_29; rfl
/-- The unwrapped target index as a column: the segment ids. -/
theorem seg_h_eq : k_main_v49 A = r_main_v139 A := by
  unfold k_main_v49 r_main_v139; rw [i_eq]
/-- The segment sum of the messages over the first index row. -/
theorem agg_eq : k_main_v50 A = r_main_v140 A := by
  unfold k_main_v50 r_main_v140 k_main_v47_0; rw [zero_h_eq, seg_h_eq]; rfl

/-- The segment sum of the coordinate translations. -/
theorem zero_x_eq : k_main_v51 A = r_main_v127 A := by
  unfold k_main_v51 r_main_v127 k_main_cst_10 r_main_cst_26; rfl
theorem seg_x_eq : k_main_v52 A = r_main_v128 A := by
  unfold k_main_v52 r_main_v128; rw [i_eq]
theorem trans_sum_eq : k_main_v53 A = r_main_v129 A := by
  unfold k_main_v53 r_main_v129 k_main_v47_1; rw [zero_x_eq, seg_x_eq]; rfl

/-- The number of edges into each node: a segment sum of ones. -/
theorem ones_eq : k_main_v54 A = r_main_v123 A := by
  unfold k_main_v54 r_main_v123 k_main_cst_11 r_main_cst_24; rfl
theorem zero_c_eq : k_main_v55 A = r_main_v124 A := by
  unfold k_main_v55 r_main_v124 k_main_cst_12 r_main_cst_25; rfl
theorem seg_c_eq : k_main_v56 A = r_main_v125 A := by
  unfold k_main_v56 r_main_v125; rw [i_eq]
theorem count_eq : k_main_v57 A = r_main_v126 A := by
  unfold k_main_v57 r_main_v126; rw [ones_eq, zero_c_eq, seg_c_eq]; rfl
/-- The count, at least one, spread over the four coordinate columns. -/
theorem count1_eq : k_main_v59 A = r_main_v131 A := by
  unfold k_main_v59 r_main_v131 k_main_v58 r_main_v130 k_main_cst_13 r_main_cst_27; rw [count_eq]
theorem count_col_eq : k_main_v60 A = r_main_v132 A := by
  unfold k_main_v60 r_main_v132; rw [count1_eq]
theorem count_wide_eq : k_main_v61 A = r_main_v133 A := by
  unfold k_main_v61 r_main_v133; rw [count_col_eq]
theorem mean_eq : k_main_v62 A = r_main_v134 A := by
  unfold k_main_v62 r_main_v134; rw [trans_sum_eq, count_wide_eq]
theorem scaled_eq : k_main_v64 A = r_main_v136 A := by
  unfold k_main_v64 r_main_v136 k_main_v63 r_main_v135 k_main_cst_14 r_main_cst_28; rw [mean_eq]
/-- The coordinate update x + Σtrans / max(count, 1). -/
theorem x_out_eq : k_main_v65 A = r_main_v137 A := by
  unfold k_main_v65 r_main_v137; rw [scaled_eq]

/-! ## Slices of the tall weights -/
theorem We1_hi (k c : Fin 72) : k_main_v32 A (ix2 k c) = A.a4 (ix2 (⟨k.val, by omega⟩ : Fin 146) c) := by
  unfold k_main_v32
  exact slice2_axis0_apply 0 A.a4 _ k c _ (Nat.zero_add _).symm
theorem We1_hj (k c : Fin 72) : k_main_v33 A (ix2 k c) = A.a4 (ix2 (⟨72 + k.val, by omega⟩ : Fin 146) c) := by
  unfold k_main_v33
  exact slice2_axis0_apply 72 A.a4 _ k c _ rfl
theorem We1_norm (c : Fin 72) : k_main_v34 A (ix2 (0 : Fin 1) c) = A.a4 (ix2 (⟨144, by omega⟩ : Fin 146) c) := by
  unfold k_main_v34
  exact slice2_axis0_apply 144 A.a4 _ (0 : Fin 1) c _ rfl
theorem We1_dot (c : Fin 72) : k_main_v35 A (ix2 (0 : Fin 1) c) = A.a4 (ix2 (⟨145, by omega⟩ : Fin 146) c) := by
  unfold k_main_v35
  exact slice2_axis0_apply 145 A.a4 _ (0 : Fin 1) c _ rfl
theorem Wh1_h (k c : Fin 72) : k_main_v66 A (ix2 k c) = A.a9 (ix2 (⟨k.val, by omega⟩ : Fin 152) c) := by
  unfold k_main_v66
  exact slice2_axis0_apply 0 A.a9 _ k c _ (Nat.zero_add _).symm
theorem Wh1_agg (k c : Fin 72) : k_main_v67 A (ix2 k c) = A.a9 (ix2 (⟨72 + k.val, by omega⟩ : Fin 152) c) := by
  unfold k_main_v67
  exact slice2_axis0_apply 72 A.a9 _ k c _ rfl
theorem Wh1_attr (k : Fin 8) (c : Fin 72) : k_main_v68 A (ix2 k c) = A.a9 (ix2 (⟨144 + k.val, by omega⟩ : Fin 152) c) := by
  unfold k_main_v68
  exact slice2_axis0_apply 144 A.a9 _ k c _ rfl

/-! ## Vectors as one-row matrices -/
theorem gamma_e (c : Fin 72) : k_main_v42 A (ix2 (0 : Fin 1) c) = A.a5 (ix1 c) := by
  unfold k_main_v42
  exact shapeCast_a_1a_apply A.a5 _ (0 : Fin 1) c
theorem beta_e (c : Fin 72) : k_main_v43 A (ix2 (0 : Fin 1) c) = A.a6 (ix1 c) := by
  unfold k_main_v43
  exact shapeCast_a_1a_apply A.a6 _ (0 : Fin 1) c
theorem be2_row (c : Fin 72) : k_main_v44 A (ix2 (0 : Fin 1) c) = A.a8 (ix1 c) := by
  unfold k_main_v44
  exact shapeCast_a_1a_apply A.a8 _ (0 : Fin 1) c
theorem bm_cell : k_main_v45 A (ix2 (0 : Fin 1) (0 : Fin 1)) = A.a19 (ix1 (0 : Fin 1)) := by
  unfold k_main_v45
  exact shapeCast_a_1a_apply A.a19 _ (0 : Fin 1) (0 : Fin 1)
theorem bx1_row (c : Fin 72) : k_main_v46 A (ix2 (0 : Fin 1) c) = A.a16 (ix1 c) := by
  unfold k_main_v46
  exact shapeCast_a_1a_apply A.a16 _ (0 : Fin 1) c
theorem bh1_row (c : Fin 72) : k_main_v69 A (ix2 (0 : Fin 1) c) = A.a10 (ix1 c) := by
  unfold k_main_v69
  exact shapeCast_a_1a_apply A.a10 _ (0 : Fin 1) c
theorem gamma_h (c : Fin 72) : k_main_v76 A (ix2 (0 : Fin 1) c) = A.a11 (ix1 c) := by
  unfold k_main_v76
  exact shapeCast_a_1a_apply A.a11 _ (0 : Fin 1) c
theorem beta_h (c : Fin 72) : k_main_v77 A (ix2 (0 : Fin 1) c) = A.a12 (ix1 c) := by
  unfold k_main_v77
  exact shapeCast_a_1a_apply A.a12 _ (0 : Fin 1) c
theorem bh2_row (c : Fin 72) : k_main_v78 A (ix2 (0 : Fin 1) c) = A.a14 (ix1 c) := by
  unfold k_main_v78
  exact shapeCast_a_1a_apply A.a14 _ (0 : Fin 1) c

end Cert.Glue

end
-- ==== Proof.Region0.lean ====
/-
  The first pallas_call (edge tiles of 8000 rows, 200 grid points): from the gathered rows h[i], h[j], x[i], x[j] and the four
  slices of the first edge weight it leaves z and the displacement x[i] − x[j] — block t of each output is the body's value
  on block t of the row inputs, the blocks tile the arrays, and entry by entry the value is stage 0's.
-/
import proofs.«152136_j87351044866445_1_alg».proof.Proof.Gen.KernelIdeal.Frame
import proofs.«152136_j87351044866445_1_alg».proof.Proof.Gen.ReferenceIdeal
import proofs.«152136_j87351044866445_1_alg».proof.Proof.KSpec
import proofs.«152136_j87351044866445_1_alg».proof.Proof.Mid
import proofs.«152136_j87351044866445_1_alg».proof.Proof.Stage0
import proofs.«152136_j87351044866445_1_alg».proof.Proof.Glue
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KSpec

open Cert.Mid
open scoped BigOperators

/-! ## Layout operations of the body at an index -/

/-- A column [a, 1] cast to the vector [a] reads, at p, the column's entry (p, 0). -/
theorem cast_col_vec {α : Type} {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector [a] cast to the column [a, 1] reads, at (p, u), the vector's entry p. -/
theorem cast_vec_col {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column [a, 1] broadcast along the lanes to [a, b] reads, at (p, q), the column's entry (p, 0). -/
theorem bcast_col {α : Type} {a b : ℕ} (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-- Column 0 of a four-lane block, kept as a column. -/
theorem col0_apply (v : FVec Ideal S8000x4 .f32) (h : S8000x4.Slices ![0, 0] S8000x1) (p : Fin 8000) (u : Fin 1) :
    extractStridedSlice S8000x1 ![0, 0] v h (ix2 p u) = v (ix2 p (0 : Fin 4)) :=
  slice2_axis1_apply 0 v h p u (0 : Fin 4) (by show (0 : ℕ) = 0 + u.val; omega)

/-- The sum along the four lanes of a row. -/
theorem lane_sum (v : FVec Ideal S8000x4 .f32) (h : S8000x4.Reduces [1] S8000) (p : Fin 8000) :
    multiReduction .add [1] S8000 v 0x00000000#32 h (.inl rfl) rfl (ix1 p) = ∑ r : Fin 4, v (ix2 p r) :=
  (Ideal.multiReduction_add_single v 0x00000000#32 h (.inl rfl) rfl (ix1 p)).trans
    (Finset.sum_congr rfl fun r _ => congrArg v (funext fun a => Fin.ext (by
      match a with
      | ⟨0, _⟩ => rfl
      | ⟨1, _⟩ => rfl)))

/-! ## The two matrix products -/

theorem lhs_mm_0 (i : S8000x72.Idx) (q : dot_S8000x72_S72x72_S8000x72_1_0_0_1_n_n.contr.Idx) :
    (dot_S8000x72_S72x72_S8000x72_1_0_0_1_n_n.lhsIdx i q 0).val = (i 0).val := by
  unfold DotDims.lhsIdx
  rw [dif_neg (show ¬(0 : Fin S8000x72.rank) ∈ dot_S8000x72_S72x72_S8000x72_1_0_0_1_n_n.lhsBatch from List.not_mem_nil),
    dif_pos (show (0 : Fin S8000x72.rank) ∈ dot_S8000x72_S72x72_S8000x72_1_0_0_1_n_n.lhsNonContracting from List.mem_singleton.mpr rfl)]
  rfl

theorem lhs_mm_1 (i : S8000x72.Idx) (q : dot_S8000x72_S72x72_S8000x72_1_0_0_1_n_n.contr.Idx) :
    (dot_S8000x72_S72x72_S8000x72_1_0_0_1_n_n.lhsIdx i q 1).val = (q ⟨0, Nat.one_pos⟩).val :=
  dot_S8000x72_S72x72_S8000x72_1_0_0_1_n_n.lhsIdx_val_of_single rfl i q

theorem rhs_mm_0 (i : S8000x72.Idx) (q : dot_S8000x72_S72x72_S8000x72_1_0_0_1_n_n.contr.Idx) :
    (dot_S8000x72_S72x72_S8000x72_1_0_0_1_n_n.rhsIdx i q 0).val = (q ⟨0, Nat.one_pos⟩).val :=
  dot_S8000x72_S72x72_S8000x72_1_0_0_1_n_n.rhsIdx_val_of_single rfl i q

theorem rhs_mm_1 (i : S8000x72.Idx) (q : dot_S8000x72_S72x72_S8000x72_1_0_0_1_n_n.contr.Idx) :
    (dot_S8000x72_S72x72_S8000x72_1_0_0_1_n_n.rhsIdx i q 1).val = (i 1).val := by
  unfold DotDims.rhsIdx
  rw [dif_neg (show ¬(1 : Fin S72x72.rank) ∈ dot_S8000x72_S72x72_S8000x72_1_0_0_1_n_n.rhsBatch from List.not_mem_nil),
    dif_pos (show (1 : Fin S72x72.rank) ∈ dot_S8000x72_S72x72_S8000x72_1_0_0_1_n_n.rhsNonContracting from List.mem_singleton.mpr rfl)]
  rfl

/-- A row of the block against a column of the weight slice, into the zero accumulator. -/
theorem mm_apply (x : FVec Ideal S8000x72 .bf16) (w : FVec Ideal S72x72 .bf16) (p : Fin 8000) (q : Fin 72) :
    matmul dot_S8000x72_S72x72_S8000x72_1_0_0_1_n_n none x w (constant S8000x72 .f32 0x00000000#32) (ix2 p q)
      = ∑ k : Fin 72, x (ix2 p k) * w (ix2 k q) := by
  show FloatOps.matmul dot_S8000x72_S72x72_S8000x72_1_0_0_1_n_n none x w (constant S8000x72 .f32 0x00000000#32) (ix2 p q) = _
  rw [Ideal.matmul_constant_zero_apply,
    ← Equiv.sum_comp (contrEquiv1 dot_S8000x72_S72x72_S8000x72_1_0_0_1_n_n 72 rfl rfl).symm]
  refine Finset.sum_congr rfl fun k _ => ?_
  have hk := contrEquiv1_symm_val dot_S8000x72_S72x72_S8000x72_1_0_0_1_n_n 72 rfl rfl k
  have el : dot_S8000x72_S72x72_S8000x72_1_0_0_1_n_n.lhsIdx (ix2 p q)
      ((contrEquiv1 dot_S8000x72_S72x72_S8000x72_1_0_0_1_n_n 72 rfl rfl).symm k) = ix2 p k :=
    funext fun a => Fin.ext (by
      match a with
      | ⟨0, _⟩ => exact lhs_mm_0 _ _
      | ⟨1, _⟩ => exact (lhs_mm_1 _ _).trans hk)
  have er : dot_S8000x72_S72x72_S8000x72_1_0_0_1_n_n.rhsIdx (ix2 p q)
      ((contrEquiv1 dot_S8000x72_S72x72_S8000x72_1_0_0_1_n_n 72 rfl rfl).symm k) = ix2 k q :=
    funext fun a => Fin.ext (by
      match a with
      | ⟨0, _⟩ => exact (rhs_mm_0 _ _).trans hk
      | ⟨1, _⟩ => exact rhs_mm_1 _ _)
  rw [el, er]

/-! ## The body's values at an index -/

theorem absf_at {s : Shape} {φ : FTy} (x : FVec Ideal s φ) (i : s.Idx) : absf x i = FloatOps.absf (x i) := rfl
theorem log_at {s : Shape} {φ : FTy} (x : FVec Ideal s φ) (i : s.Idx) : log x i = FloatOps.log (x i) := rfl

/-- The displacement block. -/
theorem pay6_eq (x2 x3 : Vec Ideal S8000x4 .f32) : k0_pay6 x2 x3 = fun j => x2 j - x3 j := by
  unfold k0_pay6 k0_pay4 k0_pay5
  simp only [shapeCast_self]
  rfl

theorem pay6_apply (x2 x3 : Vec Ideal S8000x4 .f32) (p : Fin 8000) (r : Fin 4) :
    k0_pay6 x2 x3 (ix2 p r) = x2 (ix2 p r) - x3 (ix2 p r) := by
  rw [pay6_eq]

/-- The Minkowski form of the lane products xᵢ·xⱼ of a row. -/
theorem pay7_apply (x2 x3 : Vec Ideal S8000x4 .f32) (p : Fin 8000) :
    k0_pay7 x2 x3 (ix1 p) = mink fun r => x2 (ix2 p r) * x3 (ix2 p r) := by
  unfold k0_pay7 k0_pay4 k0_pay5
  simp only [shapeCast_self]
  show Scalar.ofBits (F := Ideal) .f32 0x40000000#32 * shapeCast S8000 (extractStridedSlice S8000x1 ![0, 0] (mulf x2 x3) _) _ (ix1 p)
      - multiReduction .add [1] S8000 (mulf x2 x3) 0x00000000#32 _ (.inl rfl) rfl (ix1 p) = _
  rw [cast_col_vec, col0_apply, lane_sum]
  rfl

/-- ψ of the Minkowski form of the squared displacement of a row, as a column. -/
theorem pay8_apply (x2 x3 : Vec Ideal S8000x4 .f32) (p : Fin 8000) (u : Fin 1) :
    k0_pay8 x2 x3 (ix2 p u) = psi (mink fun r => (x2 (ix2 p r) - x3 (ix2 p r)) * (x2 (ix2 p r) - x3 (ix2 p r))) := by
  have hn : ∀ (d : FVec Ideal S8000x4 .f32) (h1 : S8000x4.Slices ![0, 0] S8000x1) (h2 : S8000x1.ShapeCasts S8000) (h3 : S8000x4.Reduces [1] S8000),
      subf (mulf (broadcast S8000 (Scalar.ofBits (F := Ideal) .f32 0x40000000#32)) (shapeCast S8000 (extractStridedSlice S8000x1 ![0, 0] (mulf d d) h1) h2))
        (multiReduction .add [1] S8000 (mulf d d) 0x00000000#32 h3 (.inl rfl) rfl) (ix1 p) = mink fun r => d (ix2 p r) * d (ix2 p r) := by
    intro d h1 h2 h3
    show Scalar.ofBits (F := Ideal) .f32 0x40000000#32 * shapeCast S8000 (extractStridedSlice S8000x1 ![0, 0] (mulf d d) h1) h2 (ix1 p)
      - multiReduction .add [1] S8000 (mulf d d) 0x00000000#32 h3 (.inl rfl) rfl (ix1 p) = _
    rw [cast_col_vec, col0_apply, lane_sum]
    rfl
  unfold k0_pay8
  rw [pay6_eq]
  dsimp only
  rw [cast_vec_col]
  simp only [mulf_apply, addf_apply, absf_at, log_at, select_apply, cmpf_apply, broadcast_apply, constant_apply]
  rw [hn]
  exact congrArg₂ (· * ·) (Ideal.jnp_sign_eq_sign_f32 _) rfl

/-- z on a block: the two matrix products, then ψ of the two Minkowski forms against the last two weight rows. -/
theorem pay1_apply (x0 x1 : Vec Ideal S8000x72 .f32) (x2 x3 : Vec Ideal S8000x4 .f32) (x4 x5 : Vec Ideal S72x72 .f32)
    (x6 x7 : Vec Ideal S1x72 .f32) (p : Fin 8000) (q : Fin 72) :
    k0_pay1 (k0_pay2 x0) (k0_pay3 x1) (k0_pay7 x2 x3) (k0_pay8 x2 x3) (k0_pay9 x2 x3) (k0_pay10 x2 x3)
        (Scalar.ofBits .f32 0x00000000#32) x4 x5 x6 x7 (ix2 p q)
      = (((∑ k : Fin 72, x0 (ix2 p k) * x4 (ix2 k q)) + (∑ k : Fin 72, x1 (ix2 p k) * x5 (ix2 k q)))
          + psi (mink fun r => (x2 (ix2 p r) - x3 (ix2 p r)) * (x2 (ix2 p r) - x3 (ix2 p r))) * x6 (ix2 (0 : Fin 1) q))
          + psi (mink fun r => x2 (ix2 p r) * x3 (ix2 p r)) * x7 (ix2 (0 : Fin 1) q) := by
  unfold k0_pay1 k0_pay2 k0_pay3 k0_pay9 k0_pay10
  simp only [shapeCast_self]
  simp only [addf_apply, mulf_apply]
  rw [mm_apply, mm_apply, bcast_col, broadcastTo_1b_ab_apply, bcast_col, broadcastTo_1b_ab_apply, cast_vec_col, pay8_apply]
  simp only [mulf_apply, addf_apply, absf_at, log_at, select_apply, cmpf_apply, broadcast_apply, constant_apply, truncf_apply]
  rw [pay7_apply]
  exact congrArg₂ (· + ·) rfl (congrArg₂ (· * ·) (congrArg₂ (· * ·) (Ideal.jnp_sign_eq_sign_f32 _) rfl) rfl)

/-! ## The blocks as rows of the arrays -/

variable (V : (c : Dev nD) → (b : Ref sig .tc) → Buf (Elt Ideal) ((c : Thread nD τ).loc b)) (c : Dev nD) (A : Cert.Spec.Args Ideal)

theorem hz : (![0, 0] : Fin 2 → Nat) = fun _ => 0 := funext fun a => by fin_cases a <;> rfl

theorem t_lt (t : Fin cfg0.N) : t.val < 200 := lt_of_lt_of_eq t.isLt N_0

/-- Row p of block t is row 8000·t + p of the edge arrays. -/
def row (t : Fin cfg0.N) (p : Fin 8000) : Fin 1600000 := ⟨8000 * t.val + p.val, by have := t_lt t; have := p.isLt; omega⟩

/-- The index maps over the grid: the row windows and the two outputs move with the point, the weight slices stay. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem emb0 (t : Fin cfg0.N) (p : Fin 8000) (k : Fin 72) :
    ((cfg0.win 0).blk t).view.emb (ix2 p k) = (ix2 (row t p) k : S1600000x72.Idx) := by
  obtain ⟨e0, e1⟩ := (idx_facts t).1
  funext a; apply Fin.ext
  match a with
  | ⟨0, _⟩ => show win0_0.index t (0 : Fin 2) * 8000 + 1 * p.val = 8000 * t.val + p.val; omega
  | ⟨1, _⟩ => show win0_0.index t (1 : Fin 2) * 72 + 1 * k.val = k.val; omega

theorem emb1 (t : Fin cfg0.N) (p : Fin 8000) (k : Fin 72) :
    ((cfg0.win 1).blk t).view.emb (ix2 p k) = (ix2 (row t p) k : S1600000x72.Idx) := by
  obtain ⟨e0, e1⟩ := (idx_facts t).2.1
  funext a; apply Fin.ext
  match a with
  | ⟨0, _⟩ => show win0_1.index t (0 : Fin 2) * 8000 + 1 * p.val = 8000 * t.val + p.val; omega
  | ⟨1, _⟩ => show win0_1.index t (1 : Fin 2) * 72 + 1 * k.val = k.val; omega

theorem emb2 (t : Fin cfg0.N) (p : Fin 8000) (r : Fin 4) :
    ((cfg0.win 2).blk t).view.emb (ix2 p r) = (ix2 (row t p) r : S1600000x4.Idx) := by
  obtain ⟨e0, e1⟩ := (idx_facts t).2.2.1
  funext a; apply Fin.ext
  match a with
  | ⟨0, _⟩ => show win0_2.index t (0 : Fin 2) * 8000 + 1 * p.val = 8000 * t.val + p.val; omega
  | ⟨1, _⟩ => show win0_2.index t (1 : Fin 2) * 4 + 1 * r.val = r.val; omega

theorem emb3 (t : Fin cfg0.N) (p : Fin 8000) (r : Fin 4) :
    ((cfg0.win 3).blk t).view.emb (ix2 p r) = (ix2 (row t p) r : S1600000x4.Idx) := by
  obtain ⟨e0, e1⟩ := (idx_facts t).2.2.2.1
  funext a; apply Fin.ext
  match a with
  | ⟨0, _⟩ => show win0_3.index t (0 : Fin 2) * 8000 + 1 * p.val = 8000 * t.val + p.val; omega
  | ⟨1, _⟩ => show win0_3.index t (1 : Fin 2) * 4 + 1 * r.val = r.val; omega

theorem emb4 (t : Fin cfg0.N) (k q : Fin 72) :
    ((cfg0.win 4).blk t).view.emb (ix2 k q) = (ix2 k q : S72x72.Idx) := by
  obtain ⟨e0, e1⟩ := (idx_facts t).2.2.2.2.1
  funext a; apply Fin.ext
  match a with
  | ⟨0, _⟩ => show win0_4.index t (0 : Fin 2) * 72 + 1 * k.val = k.val; omega
  | ⟨1, _⟩ => show win0_4.index t (1 : Fin 2) * 72 + 1 * q.val = q.val; omega

theorem emb5 (t : Fin cfg0.N) (k q : Fin 72) :
    ((cfg0.win 5).blk t).view.emb (ix2 k q) = (ix2 k q : S72x72.Idx) := by
  obtain ⟨e0, e1⟩ := (idx_facts t).2.2.2.2.2.1
  funext a; apply Fin.ext
  match a with
  | ⟨0, _⟩ => show win0_5.index t (0 : Fin 2) * 72 + 1 * k.val = k.val; omega
  | ⟨1, _⟩ => show win0_5.index t (1 : Fin 2) * 72 + 1 * q.val = q.val; omega

theorem emb6 (t : Fin cfg0.N) (u : Fin 1) (q : Fin 72) :
    ((cfg0.win 6).blk t).view.emb (ix2 u q) = (ix2 u q : S1x72.Idx) := by
  obtain ⟨e0, e1⟩ := (idx_facts t).2.2.2.2.2.2.1
  funext a; apply Fin.ext
  match a with
  | ⟨0, _⟩ => show win0_6.index t (0 : Fin 2) * 1 + 1 * u.val = u.val; omega
  | ⟨1, _⟩ => show win0_6.index t (1 : Fin 2) * 72 + 1 * q.val = q.val; omega

theorem emb7 (t : Fin cfg0.N) (u : Fin 1) (q : Fin 72) :
    ((cfg0.win 7).blk t).view.emb (ix2 u q) = (ix2 u q : S1x72.Idx) := by
  obtain ⟨e0, e1⟩ := (idx_facts t).2.2.2.2.2.2.2.1
  funext a; apply Fin.ext
  match a with
  | ⟨0, _⟩ => show win0_7.index t (0 : Fin 2) * 1 + 1 * u.val = u.val; omega
  | ⟨1, _⟩ => show win0_7.index t (1 : Fin 2) * 72 + 1 * q.val = q.val; omega

theorem emb8 (t : Fin cfg0.N) (p : Fin 8000) (q : Fin 72) :
    ((cfg0.win 8).blk t).view.emb (ix2 p q) = (ix2 (row t p) q : S1600000x72.Idx) := by
  obtain ⟨e0, e1⟩ := (idx_facts t).2.2.2.2.2.2.2.2.1
  funext a; apply Fin.ext
  match a with
  | ⟨0, _⟩ => show win0_8.index t (0 : Fin 2) * 8000 + 1 * p.val = 8000 * t.val + p.val; omega
  | ⟨1, _⟩ => show win0_8.index t (1 : Fin 2) * 72 + 1 * q.val = q.val; omega

theorem emb9 (t : Fin cfg0.N) (p : Fin 8000) (r : Fin 4) :
    ((cfg0.win 9).blk t).view.emb (ix2 p r) = (ix2 (row t p) r : S1600000x4.Idx) := by
  obtain ⟨e0, e1⟩ := (idx_facts t).2.2.2.2.2.2.2.2.2
  funext a; apply Fin.ext
  match a with
  | ⟨0, _⟩ => show win0_9.index t (0 : Fin 2) * 8000 + 1 * p.val = 8000 * t.val + p.val; omega
  | ⟨1, _⟩ => show win0_9.index t (1 : Fin 2) * 4 + 1 * r.val = r.val; omega

/-! Each input block, read at an entry, is its array at the row the block's rectangle names. -/

theorem rd0 (h0 : V c (Pipeline.arrRef spec0 0) = k_main_v10 A) (t : Fin cfg0.N) (p : Fin 8000) (k : Fin 72) :
    (iblk0 V c 0 t : Vec Ideal S8000x72 .f32) (ix2 p k) = k_main_v10 A (ix2 (row t p) k) := by
  unfold iblk0; rw [h0]
  show k_main_v10 A (((cfg0.win 0).blk t).view.emb (ix2 p k)) = _
  rw [emb0]
theorem rd1 (h1 : V c (Pipeline.arrRef spec0 1) = k_main_v17 A) (t : Fin cfg0.N) (p : Fin 8000) (k : Fin 72) :
    (iblk0 V c 1 t : Vec Ideal S8000x72 .f32) (ix2 p k) = k_main_v17 A (ix2 (row t p) k) := by
  unfold iblk0; rw [h1]
  show k_main_v17 A (((cfg0.win 1).blk t).view.emb (ix2 p k)) = _
  rw [emb1]
theorem rd2 (h2 : V c (Pipeline.arrRef spec0 2) = k_main_v24 A) (t : Fin cfg0.N) (p : Fin 8000) (r : Fin 4) :
    (iblk0 V c 2 t : Vec Ideal S8000x4 .f32) (ix2 p r) = k_main_v24 A (ix2 (row t p) r) := by
  unfold iblk0; rw [h2]
  show k_main_v24 A (((cfg0.win 2).blk t).view.emb (ix2 p r)) = _
  rw [emb2]
theorem rd3 (h3 : V c (Pipeline.arrRef spec0 3) = k_main_v31 A) (t : Fin cfg0.N) (p : Fin 8000) (r : Fin 4) :
    (iblk0 V c 3 t : Vec Ideal S8000x4 .f32) (ix2 p r) = k_main_v31 A (ix2 (row t p) r) := by
  unfold iblk0; rw [h3]
  show k_main_v31 A (((cfg0.win 3).blk t).view.emb (ix2 p r)) = _
  rw [emb3]
theorem rd4 (h4 : V c (Pipeline.arrRef spec0 4) = k_main_v32 A) (t : Fin cfg0.N) (k q : Fin 72) :
    (iblk0 V c 4 t : Vec Ideal S72x72 .f32) (ix2 k q) = k_main_v32 A (ix2 k q) := by
  unfold iblk0; rw [h4]
  show k_main_v32 A (((cfg0.win 4).blk t).view.emb (ix2 k q)) = _
  rw [emb4]
theorem rd5 (h5 : V c (Pipeline.arrRef spec0 5) = k_main_v33 A) (t : Fin cfg0.N) (k q : Fin 72) :
    (iblk0 V c 5 t : Vec Ideal S72x72 .f32) (ix2 k q) = k_main_v33 A (ix2 k q) := by
  unfold iblk0; rw [h5]
  show k_main_v33 A (((cfg0.win 5).blk t).view.emb (ix2 k q)) = _
  rw [emb5]
theorem rd6 (h6 : V c (Pipeline.arrRef spec0 6) = k_main_v34 A) (t : Fin cfg0.N) (u : Fin 1) (q : Fin 72) :
    (iblk0 V c 6 t : Vec Ideal S1x72 .f32) (ix2 u q) = k_main_v34 A (ix2 u q) := by
  unfold iblk0; rw [h6]
  show k_main_v34 A (((cfg0.win 6).blk t).view.emb (ix2 u q)) = _
  rw [emb6]
theorem rd7 (h7 : V c (Pipeline.arrRef spec0 7) = k_main_v35 A) (t : Fin cfg0.N) (u : Fin 1) (q : Fin 72) :
    (iblk0 V c 7 t : Vec Ideal S1x72 .f32) (ix2 u q) = k_main_v35 A (ix2 u q) := by
  unfold iblk0; rw [h7]
  show k_main_v35 A (((cfg0.win 7).blk t).view.emb (ix2 u q)) = _
  rw [emb7]

/-! ## What each point writes back -/

/-- Point t writes block t of the displacement. -/
theorem flushed9_eq
    (h2 : V c (Pipeline.arrRef spec0 2) = k_main_v24 A)
    (h3 : V c (Pipeline.arrRef spec0 3) = k_main_v31 A) (t : Fin cfg0.N) :
    (dat0 V c).flushed 9 t = ((cfg0.win 9).blk t).view.read (Elt Ideal) (k_main_v36_1 A) := by
  show (cfg0.win 9).cut (grid0.coords t) ((dat0 V c).after 9 t) = _
  rw [after0_9]
  unfold out0_9
  rw [View.canon_unit_zero hz]
  simp only [View.ld_unit_zero (S := S8000x4) hz]
  refine funext fun (j : S8000x4.Idx) => ?_
  obtain ⟨p, r, rfl⟩ : ∃ (p : Fin 8000) (r : Fin 4), j = ix2 p r := ⟨j 0, j 1, eq_ix2 j⟩
  show k0_pay6 (iblk0 V c 2 t) (iblk0 V c 3 t) (ix2 p r) = k_main_v36_1 A (((cfg0.win 9).blk t).view.emb (ix2 p r))
  rw [pay6_apply, emb9, rd2 V c A h2, rd3 V c A h3, Cert.Glue.xi_eq, Cert.Glue.xj_eq]
  unfold k_main_v36_1
  rw [Cert.Spec.Stage0.xd_apply]

/-- Point t writes block t of z. -/
theorem flushed8_eq
    (h0 : V c (Pipeline.arrRef spec0 0) = k_main_v10 A)
    (h1 : V c (Pipeline.arrRef spec0 1) = k_main_v17 A)
    (h2 : V c (Pipeline.arrRef spec0 2) = k_main_v24 A)
    (h3 : V c (Pipeline.arrRef spec0 3) = k_main_v31 A)
    (h4 : V c (Pipeline.arrRef spec0 4) = k_main_v32 A)
    (h5 : V c (Pipeline.arrRef spec0 5) = k_main_v33 A)
    (h6 : V c (Pipeline.arrRef spec0 6) = k_main_v34 A)
    (h7 : V c (Pipeline.arrRef spec0 7) = k_main_v35 A) (t : Fin cfg0.N) :
    (dat0 V c).flushed 8 t = ((cfg0.win 8).blk t).view.read (Elt Ideal) (k_main_v36_0 A) := by
  show (cfg0.win 8).cut (grid0.coords t) ((dat0 V c).after 8 t) = _
  rw [after0_8]
  unfold out0_8
  rw [View.canon_unit_zero hz]
  simp only [View.ld_unit_zero (S := S8000x72) hz, View.ld_unit_zero (S := S8000x4) hz, View.ld_unit_zero (S := S72x72) hz,
    View.ld_unit_zero (S := S1x72) hz]
  refine funext fun (j : S8000x72.Idx) => ?_
  obtain ⟨p, q, rfl⟩ : ∃ (p : Fin 8000) (q : Fin 72), j = ix2 p q := ⟨j 0, j 1, eq_ix2 j⟩
  show k0_pay1 (k0_pay2 (iblk0 V c 0 t)) (k0_pay3 (iblk0 V c 1 t)) (k0_pay7 (iblk0 V c 2 t) (iblk0 V c 3 t))
        (k0_pay8 (iblk0 V c 2 t) (iblk0 V c 3 t)) (k0_pay9 (iblk0 V c 2 t) (iblk0 V c 3 t)) (k0_pay10 (iblk0 V c 2 t) (iblk0 V c 3 t))
        (Scalar.ofBits .f32 0x00000000#32) (iblk0 V c 4 t) (iblk0 V c 5 t) (iblk0 V c 6 t) (iblk0 V c 7 t) (ix2 p q)
      = k_main_v36_0 A (((cfg0.win 8).blk t).view.emb (ix2 p q))
  rw [pay1_apply, emb8]
  simp only [rd0 V c A h0, rd1 V c A h1, rd2 V c A h2, rd3 V c A h3, rd4 V c A h4, rd5 V c A h5, rd6 V c A h6, rd7 V c A h7,
    Cert.Glue.hi_eq, Cert.Glue.hj_eq, Cert.Glue.xi_eq, Cert.Glue.xj_eq, Cert.Glue.We1_hi, Cert.Glue.We1_hj, Cert.Glue.We1_norm,
    Cert.Glue.We1_dot]
  unfold k_main_v36_0
  rw [Cert.Spec.Stage0.z_apply]
  rfl

/-! ## The blocks tile the arrays -/

theorem mem_blk8 (t : Fin cfg0.N) (i : S1600000x72.Idx) :
    i ∈ ((cfg0.win 8).blk t).view.set ↔ ∀ a : Fin 2, win0_8.index t a * S8000x72.size a ≤ (i a).val ∧ (i a).val < win0_8.index t a * S8000x72.size a + S8000x72.size a := by
  show i ∈ ((View.whole main_v36_0).slice (win0_8.rect t)).set ↔ _
  rw [View.set_slice_whole, Rect.mem_set_unit]
  exact Iff.rfl

theorem mem_blk9 (t : Fin cfg0.N) (i : S1600000x4.Idx) :
    i ∈ ((cfg0.win 9).blk t).view.set ↔ ∀ a : Fin 2, win0_9.index t a * S8000x4.size a ≤ (i a).val ∧ (i a).val < win0_9.index t a * S8000x4.size a + S8000x4.size a := by
  show i ∈ ((View.whole main_v36_1).slice (win0_9.rect t)).set ↔ _
  rw [View.set_slice_whole, Rect.mem_set_unit]
  exact Iff.rfl

/-- Row r lies in block r / 8000. -/
theorem cover8 (i : S1600000x72.Idx) : ∃ t : Fin cfg0.N, (cfg0.win 8).flush t = true ∧ i ∈ ((cfg0.win 8).blk t).view.set := by
  have hi0 : (i 0).val < 1600000 := (i 0).isLt
  have hi1 : (i 1).val < 72 := (i 1).isLt
  have hN : cfg0.N = 200 := N_0
  let t : Fin cfg0.N := ⟨(i 0).val / 8000, by rw [hN]; omega⟩
  have htv : t.val = (i 0).val / 8000 := rfl
  obtain ⟨e0, e1⟩ := (idx_facts t).2.2.2.2.2.2.2.2.1
  refine ⟨t, flush0_8 t, ?_⟩
  rw [mem_blk8]
  intro a
  match a with
  | ⟨0, _⟩ => show win0_8.index t (0 : Fin 2) * 8000 ≤ (i 0).val ∧ (i 0).val < win0_8.index t (0 : Fin 2) * 8000 + 8000; omega
  | ⟨1, _⟩ => show win0_8.index t (1 : Fin 2) * 72 ≤ (i 1).val ∧ (i 1).val < win0_8.index t (1 : Fin 2) * 72 + 72; omega

theorem cover9 (i : S1600000x4.Idx) : ∃ t : Fin cfg0.N, (cfg0.win 9).flush t = true ∧ i ∈ ((cfg0.win 9).blk t).view.set := by
  have hi0 : (i 0).val < 1600000 := (i 0).isLt
  have hi1 : (i 1).val < 4 := (i 1).isLt
  have hN : cfg0.N = 200 := N_0
  let t : Fin cfg0.N := ⟨(i 0).val / 8000, by rw [hN]; omega⟩
  have htv : t.val = (i 0).val / 8000 := rfl
  obtain ⟨e0, e1⟩ := (idx_facts t).2.2.2.2.2.2.2.2.2
  refine ⟨t, flush0_9 t, ?_⟩
  rw [mem_blk9]
  intro a
  match a with
  | ⟨0, _⟩ => show win0_9.index t (0 : Fin 2) * 8000 ≤ (i 0).val ∧ (i 0).val < win0_9.index t (0 : Fin 2) * 8000 + 8000; omega
  | ⟨1, _⟩ => show win0_9.index t (1 : Fin 2) * 4 ≤ (i 1).val ∧ (i 1).val < win0_9.index t (1 : Fin 2) * 4 + 4; omega

/-- The region's two output arrays, at any entry contents `V` whose input arrays are the kernel program's host values. -/
theorem arrays
    (h0 : V c (Pipeline.arrRef spec0 0) = k_main_v10 A)
    (h1 : V c (Pipeline.arrRef spec0 1) = k_main_v17 A)
    (h2 : V c (Pipeline.arrRef spec0 2) = k_main_v24 A)
    (h3 : V c (Pipeline.arrRef spec0 3) = k_main_v31 A)
    (h4 : V c (Pipeline.arrRef spec0 4) = k_main_v32 A)
    (h5 : V c (Pipeline.arrRef spec0 5) = k_main_v33 A)
    (h6 : V c (Pipeline.arrRef spec0 6) = k_main_v34 A)
    (h7 : V c (Pipeline.arrRef spec0 7) = k_main_v35 A) :
    (dat0 V c).arrAt 8 cfg0.N = k_main_v36_0 A ∧ (dat0 V c).arrAt 9 cfg0.N = k_main_v36_1 A :=
  ⟨(dat0 V c).arrAt_eq_of_cover 8 (k_main_v36_0 A) (fun t _ => flushed8_eq V c A h0 h1 h2 h3 h4 h5 h6 h7 t) cover8,
   (dat0 V c).arrAt_eq_of_cover 9 (k_main_v36_1 A) (fun t _ => flushed9_eq V c A h2 h3 t) cover9⟩

end Cert.KernelIdeal.Region0

end
-- ==== Proof.Stage1.lean ====
/-
  The reference's edge MLP read at an index: batch-norm with the batch statistics of z, ReLU, linear + ReLU, the sigmoid
  gate (printed as 1 / (1 + exp(−x)), which is the logistic function on the extended reals), the message m, and the
  clipped displacement.
-/
import proofs.«152136_j87351044866445_1_alg».proof.Proof.Mid
import Idealize.ShloMosaic.Lib.ValueIdx
import Idealize.ShloMosaic.Lib.Pipeline.Value
import Idealize.ShloMosaic.PureOps.Ideal.Laws

noncomputable section

namespace Cert.Spec.Stage1

open Idealize.ShloMosaic Idealize.ShloMosaic.ValueIdx Cert.Mid
open Cert.ReferenceIdeal Cert.ReferenceIdeal.Facts₀ Cert.ReferenceIdeal.Facts
open scoped BigOperators

variable [Cert.ReferenceIdeal.Facts] (A : Cert.Spec.Args Ideal)

/-! ## Broadcasts read at an entry -/

/-- A vector of 72 broadcast to one row and then to every row reads its entry c. -/
theorem bcast_vec (v : (⟨S72, .f32⟩ : BufTy).Contents (Elt Ideal)) (e : Fin 1600000) (c : Fin 72) :
    (broadcastInDim S1600000x72 ![0, 1] bcast_S1x72_S1600000x72_0_1
      (broadcastInDim S1x72 ![1] bcast_S72_S1x72_1 v)) (ix2 e c) = v (ix1 c) := by
  refine (broadcastInDim_apply _ _ _ (ix2 e c) (ix2 (0 : Fin 1) c) fun a => ?_).trans ?_
  · match a with
    | ⟨0, _⟩ => rfl
    | ⟨1, _⟩ => rfl
  · refine broadcastInDim_apply _ _ _ (ix2 (0 : Fin 1) c) (ix1 c) fun a => ?_
    match a with
    | ⟨0, _⟩ => rfl

/-- The one-entry vector broadcast to a 1 × 1 matrix and then to a column reads its entry. -/
theorem bcast_one (v : (⟨S1, .f32⟩ : BufTy).Contents (Elt Ideal)) (e : Fin 1600000) :
    (broadcastInDim S1600000x1 ![0, 1] bcast_S1x1_S1600000x1_0_1
      (broadcastInDim S1x1 ![1] bcast_S1_S1x1_1 v)) (ix2 e (0 : Fin 1)) = v (ix1 (0 : Fin 1)) := by
  refine (broadcastInDim_apply _ _ _ (ix2 e (0 : Fin 1)) (ix2 (0 : Fin 1) (0 : Fin 1)) fun a => ?_).trans ?_
  · match a with
    | ⟨0, _⟩ => rfl
    | ⟨1, _⟩ => rfl
  · refine broadcastInDim_apply _ _ _ (ix2 (0 : Fin 1) (0 : Fin 1)) (ix1 (0 : Fin 1)) fun a => ?_
    match a with
    | ⟨0, _⟩ => rfl

/-- A scalar broadcast to an array reads the scalar. -/
theorem bcast_s_72 (v : (⟨S_, .f32⟩ : BufTy).Contents (Elt Ideal)) (c : Fin 72) :
    (broadcastInDim S72 ![] bcast_S_S72 v) (ix1 c) = v ix0 :=
  broadcastInDim_apply _ _ _ (ix1 c) ix0 fun a => a.elim0

theorem bcast_s_E72 (v : (⟨S_, .f32⟩ : BufTy).Contents (Elt Ideal)) (e : Fin 1600000) (c : Fin 72) :
    (broadcastInDim S1600000x72 ![] bcast_S_S1600000x72 v) (ix2 e c) = v ix0 :=
  broadcastInDim_apply _ _ _ (ix2 e c) ix0 fun a => a.elim0

theorem bcast_s_E1 (v : (⟨S_, .f32⟩ : BufTy).Contents (Elt Ideal)) (e : Fin 1600000) :
    (broadcastInDim S1600000x1 ![] bcast_S_S1600000x1 v) (ix2 e (0 : Fin 1)) = v ix0 :=
  broadcastInDim_apply _ _ _ (ix2 e (0 : Fin 1)) ix0 fun a => a.elim0

theorem bcast_s_E4 (v : (⟨S_, .f32⟩ : BufTy).Contents (Elt Ideal)) (e : Fin 1600000) (q : Fin 4) :
    (broadcastInDim S1600000x4 ![] bcast_S_S1600000x4 v) (ix2 e q) = v ix0 :=
  broadcastInDim_apply _ _ _ (ix2 e q) ix0 fun a => a.elim0

/-- A column broadcast along the rows reads its row. -/
theorem bcast_col72 (v : (⟨S1600000x1, .f32⟩ : BufTy).Contents (Elt Ideal)) (e : Fin 1600000) (c : Fin 72) :
    (broadcastInDim S1600000x72 ![0, 1] bcast_S1600000x1_S1600000x72_0_1 v) (ix2 e c) = v (ix2 e (0 : Fin 1)) := by
  refine broadcastInDim_apply _ _ _ (ix2 e c) (ix2 e (0 : Fin 1)) fun a => ?_
  match a with
  | ⟨0, _⟩ => rfl
  | ⟨1, _⟩ => rfl

theorem bcast_col4 (v : (⟨S1600000x1, .f32⟩ : BufTy).Contents (Elt Ideal)) (e : Fin 1600000) (q : Fin 4) :
    (broadcastInDim S1600000x4 ![0, 1] bcast_S1600000x1_S1600000x4_0_1 v) (ix2 e q) = v (ix2 e (0 : Fin 1)) := by
  refine broadcastInDim_apply _ _ _ (ix2 e q) (ix2 e (0 : Fin 1)) fun a => ?_
  match a with
  | ⟨0, _⟩ => rfl
  | ⟨1, _⟩ => rfl

/-! ## The [E,72] × [72,72] product at an entry -/

theorem lhs_sq_0 (i : S1600000x72.Idx) (q : dot_S1600000x72_S72x72_S1600000x72_1_0_0_1_n_n.contr.Idx) :
    (dot_S1600000x72_S72x72_S1600000x72_1_0_0_1_n_n.lhsIdx i q 0).val = (i 0).val := by
  unfold DotDims.lhsIdx
  rw [dif_neg (show ¬(0 : Fin S1600000x72.rank) ∈ dot_S1600000x72_S72x72_S1600000x72_1_0_0_1_n_n.lhsBatch from List.not_mem_nil),
    dif_pos (show (0 : Fin S1600000x72.rank) ∈ dot_S1600000x72_S72x72_S1600000x72_1_0_0_1_n_n.lhsNonContracting from List.mem_singleton.mpr rfl)]
  rfl

theorem lhs_sq_1 (i : S1600000x72.Idx) (q : dot_S1600000x72_S72x72_S1600000x72_1_0_0_1_n_n.contr.Idx) :
    (dot_S1600000x72_S72x72_S1600000x72_1_0_0_1_n_n.lhsIdx i q 1).val = (q ⟨0, Nat.one_pos⟩).val :=
  dot_S1600000x72_S72x72_S1600000x72_1_0_0_1_n_n.lhsIdx_val_of_single rfl i q

theorem rhs_sq_0 (i : S1600000x72.Idx) (q : dot_S1600000x72_S72x72_S1600000x72_1_0_0_1_n_n.contr.Idx) :
    (dot_S1600000x72_S72x72_S1600000x72_1_0_0_1_n_n.rhsIdx i q 0).val = (q ⟨0, Nat.one_pos⟩).val :=
  dot_S1600000x72_S72x72_S1600000x72_1_0_0_1_n_n.rhsIdx_val_of_single rfl i q

theorem rhs_sq_1 (i : S1600000x72.Idx) (q : dot_S1600000x72_S72x72_S1600000x72_1_0_0_1_n_n.contr.Idx) :
    (dot_S1600000x72_S72x72_S1600000x72_1_0_0_1_n_n.rhsIdx i q 1).val = (i 1).val := by
  unfold DotDims.rhsIdx
  rw [dif_neg (show ¬(1 : Fin S72x72.rank) ∈ dot_S1600000x72_S72x72_S1600000x72_1_0_0_1_n_n.rhsBatch from List.not_mem_nil),
    dif_pos (show (1 : Fin S72x72.rank) ∈ dot_S1600000x72_S72x72_S1600000x72_1_0_0_1_n_n.rhsNonContracting from List.mem_singleton.mpr rfl)]
  rfl

/-- A row of the left factor against a column of the right one. -/
theorem dot_sq_apply (x : FVec Ideal S1600000x72 .f32) (w : FVec Ideal S72x72 .f32) (e : Fin 1600000) (c : Fin 72) :
    Host.dotGeneral dot_S1600000x72_S72x72_S1600000x72_1_0_0_1_n_n none x w (ix2 e c)
      = ∑ k : Fin 72, x (ix2 e k) * w (ix2 k c) := by
  show FloatOps.dotGeneral dot_S1600000x72_S72x72_S1600000x72_1_0_0_1_n_n none .single x w (ix2 e c) = _
  rw [Ideal.dotGeneral_apply,
    ← Equiv.sum_comp (contrEquiv1 dot_S1600000x72_S72x72_S1600000x72_1_0_0_1_n_n 72 rfl rfl).symm]
  refine Finset.sum_congr rfl fun k _ => ?_
  have hk := contrEquiv1_symm_val dot_S1600000x72_S72x72_S1600000x72_1_0_0_1_n_n 72 rfl rfl k
  have el : dot_S1600000x72_S72x72_S1600000x72_1_0_0_1_n_n.lhsIdx (ix2 e c)
      ((contrEquiv1 dot_S1600000x72_S72x72_S1600000x72_1_0_0_1_n_n 72 rfl rfl).symm k) = ix2 e k :=
    funext fun a => Fin.ext (by
      match a with
      | ⟨0, _⟩ => exact lhs_sq_0 _ _
      | ⟨1, _⟩ => exact (lhs_sq_1 _ _).trans hk)
  have er : dot_S1600000x72_S72x72_S1600000x72_1_0_0_1_n_n.rhsIdx (ix2 e c)
      ((contrEquiv1 dot_S1600000x72_S72x72_S1600000x72_1_0_0_1_n_n 72 rfl rfl).symm k) = ix2 k c :=
    funext fun a => Fin.ext (by
      match a with
      | ⟨0, _⟩ => exact (rhs_sq_0 _ _).trans hk
      | ⟨1, _⟩ => exact rhs_sq_1 _ _)
  rw [el, er]

/-! ## The [E,72] × [72,1] product at a row -/

theorem lhs_col_0 (i : S1600000x1.Idx) (q : dot_S1600000x72_S72x1_S1600000x1_1_0_0_1_n_n.contr.Idx) :
    (dot_S1600000x72_S72x1_S1600000x1_1_0_0_1_n_n.lhsIdx i q 0).val = (i 0).val := by
  unfold DotDims.lhsIdx
  rw [dif_neg (show ¬(0 : Fin S1600000x72.rank) ∈ dot_S1600000x72_S72x1_S1600000x1_1_0_0_1_n_n.lhsBatch from List.not_mem_nil),
    dif_pos (show (0 : Fin S1600000x72.rank) ∈ dot_S1600000x72_S72x1_S1600000x1_1_0_0_1_n_n.lhsNonContracting from List.mem_singleton.mpr rfl)]
  rfl

theorem lhs_col_1 (i : S1600000x1.Idx) (q : dot_S1600000x72_S72x1_S1600000x1_1_0_0_1_n_n.contr.Idx) :
    (dot_S1600000x72_S72x1_S1600000x1_1_0_0_1_n_n.lhsIdx i q 1).val = (q ⟨0, Nat.one_pos⟩).val :=
  dot_S1600000x72_S72x1_S1600000x1_1_0_0_1_n_n.lhsIdx_val_of_single rfl i q

theorem rhs_col_0 (i : S1600000x1.Idx) (q : dot_S1600000x72_S72x1_S1600000x1_1_0_0_1_n_n.contr.Idx) :
    (dot_S1600000x72_S72x1_S1600000x1_1_0_0_1_n_n.rhsIdx i q 0).val = (q ⟨0, Nat.one_pos⟩).val :=
  dot_S1600000x72_S72x1_S1600000x1_1_0_0_1_n_n.rhsIdx_val_of_single rfl i q

theorem rhs_col_1 (i : S1600000x1.Idx) (q : dot_S1600000x72_S72x1_S1600000x1_1_0_0_1_n_n.contr.Idx) :
    (dot_S1600000x72_S72x1_S1600000x1_1_0_0_1_n_n.rhsIdx i q 1).val = (i 1).val := by
  unfold DotDims.rhsIdx
  rw [dif_neg (show ¬(1 : Fin S72x1.rank) ∈ dot_S1600000x72_S72x1_S1600000x1_1_0_0_1_n_n.rhsBatch from List.not_mem_nil),
    dif_pos (show (1 : Fin S72x1.rank) ∈ dot_S1600000x72_S72x1_S1600000x1_1_0_0_1_n_n.rhsNonContracting from List.mem_singleton.mpr rfl)]
  rfl

/-- A row of the left factor against the one column of the right one. -/
theorem dot_col_apply (x : FVec Ideal S1600000x72 .f32) (w : FVec Ideal S72x1 .f32) (e : Fin 1600000) :
    Host.dotGeneral dot_S1600000x72_S72x1_S1600000x1_1_0_0_1_n_n none x w (ix2 e (0 : Fin 1))
      = ∑ k : Fin 72, x (ix2 e k) * w (ix2 k (0 : Fin 1)) := by
  show FloatOps.dotGeneral dot_S1600000x72_S72x1_S1600000x1_1_0_0_1_n_n none .single x w (ix2 e (0 : Fin 1)) = _
  rw [Ideal.dotGeneral_apply,
    ← Equiv.sum_comp (contrEquiv1 dot_S1600000x72_S72x1_S1600000x1_1_0_0_1_n_n 72 rfl rfl).symm]
  refine Finset.sum_congr rfl fun k _ => ?_
  have hk := contrEquiv1_symm_val dot_S1600000x72_S72x1_S1600000x1_1_0_0_1_n_n 72 rfl rfl k
  have el : dot_S1600000x72_S72x1_S1600000x1_1_0_0_1_n_n.lhsIdx (ix2 e (0 : Fin 1))
      ((contrEquiv1 dot_S1600000x72_S72x1_S1600000x1_1_0_0_1_n_n 72 rfl rfl).symm k) = ix2 e k :=
    funext fun a => Fin.ext (by
      match a with
      | ⟨0, _⟩ => exact lhs_col_0 _ _
      | ⟨1, _⟩ => exact (lhs_col_1 _ _).trans hk)
  have er : dot_S1600000x72_S72x1_S1600000x1_1_0_0_1_n_n.rhsIdx (ix2 e (0 : Fin 1))
      ((contrEquiv1 dot_S1600000x72_S72x1_S1600000x1_1_0_0_1_n_n 72 rfl rfl).symm k) = ix2 k (0 : Fin 1) :=
    funext fun a => Fin.ext (by
      match a with
      | ⟨0, _⟩ => exact (rhs_col_0 _ _).trans hk
      | ⟨1, _⟩ => exact rhs_col_1 _ _)
  rw [el, er]

/-! ## The literal 1.0 -/

theorem one_eq : Ideal.ofBits .f32 0x3F800000#32 = (1 : EReal) := by
  simp [Ideal.ofBits, Ideal.ieee, -EReal.coe_mul]; norm_num

/-! ## Batch-norm and ReLU at an entry -/

theorem v82_apply (e : Fin 1600000) (c : Fin 72) : r_main_v82 A (ix2 e c) = r_main_v79 A (ix1 c) :=
  bcast_vec _ e c

theorem v85_apply (c : Fin 72) : r_main_v85 A (ix1 c) = r_main_v80 A (ix1 c) + eps := by
  show r_main_v80 A (ix1 c) + r_main_v84 A (ix1 c) = _
  rw [show r_main_v84 A (ix1 c) = eps from bcast_s_72 _ c]

theorem v88_apply (e : Fin 1600000) (c : Fin 72) :
    r_main_v88 A (ix2 e c) = Ideal.rsqrt (r_main_v80 A (ix1 c) + eps) := by
  refine (bcast_vec _ e c).trans ?_
  show Ideal.rsqrt (r_main_v85 A (ix1 c)) = _
  rw [v85_apply]

theorem v91_apply (e : Fin 1600000) (c : Fin 72) : r_main_v91 A (ix2 e c) = A.a5 (ix1 c) :=
  bcast_vec _ e c

theorem v94_apply (e : Fin 1600000) (c : Fin 72) : r_main_v94 A (ix2 e c) = A.a6 (ix1 c) :=
  bcast_vec _ e c

/-- The first edge activation: ReLU of the batch-norm of z. -/
theorem e1_apply (e : Fin 1600000) (c : Fin 72) :
    r_main_v96 A (ix2 e c) = e1 (arr2 (r_main_v76 A)) (edgeP A) e c := by
  show max ((((r_main_v76 A (ix2 e c) - r_main_v82 A (ix2 e c)) * r_main_v88 A (ix2 e c)) * r_main_v91 A (ix2 e c))
      + r_main_v94 A (ix2 e c)) (r_main_call1_v0 A (ix2 e c)) = _
  rw [v82_apply, v88_apply, v91_apply, v94_apply, show r_main_call1_v0 A (ix2 e c) = zero from bcast_s_E72 _ e c]
  rfl

/-! ## The second edge layer at an entry -/

theorem v99_apply (e : Fin 1600000) (c : Fin 72) : r_main_v99 A (ix2 e c) = A.a8 (ix1 c) :=
  bcast_vec _ e c

theorem e2_apply (e : Fin 1600000) (c : Fin 72) :
    r_main_v101 A (ix2 e c) = e2 (arr2 (r_main_v76 A)) (edgeP A) e c := by
  show max (r_main_v97 A (ix2 e c) + r_main_v99 A (ix2 e c)) (r_main_call2_v0 A (ix2 e c)) = _
  rw [show r_main_v97 A (ix2 e c) = _ from dot_sq_apply (r_main_v96 A) A.a7 e c, v99_apply,
    show r_main_call2_v0 A (ix2 e c) = zero from bcast_s_E72 _ e c]
  simp only [e1_apply]
  rfl

/-! ## The gate at a row -/

theorem gate_apply (e : Fin 1600000) :
    r_main_v111 A (ix2 e (0 : Fin 1)) = gate (arr2 (r_main_v76 A)) (edgeP A) e := by
  show Ideal.div (r_main_v110 A (ix2 e (0 : Fin 1)))
      (r_main_v108 A (ix2 e (0 : Fin 1)) + Ideal.exp (-(r_main_v102 A (ix2 e (0 : Fin 1)) + r_main_v104 A (ix2 e (0 : Fin 1))))) = _
  rw [show r_main_v110 A (ix2 e (0 : Fin 1)) = Ideal.ofBits .f32 0x3F800000#32 from bcast_s_E1 _ e,
    show r_main_v108 A (ix2 e (0 : Fin 1)) = Ideal.ofBits .f32 0x3F800000#32 from bcast_s_E1 _ e,
    show r_main_v104 A (ix2 e (0 : Fin 1)) = A.a19 (ix1 (0 : Fin 1)) from bcast_one _ e,
    show r_main_v102 A (ix2 e (0 : Fin 1)) = _ from dot_col_apply (r_main_v101 A) A.a18 e, one_eq]
  simp only [e2_apply]
  rfl

/-- The message at an entry. -/
theorem m_apply (e : Fin 1600000) (c : Fin 72) :
    Cert.Spec.r_main_v113 A (ix2 e c) = mOut (arr2 (Cert.Spec.r_main_v76 A)) (edgeP A) e c := by
  show r_main_v101 A (ix2 e c) * r_main_v112 A (ix2 e c) = _
  rw [show r_main_v112 A (ix2 e c) = r_main_v111 A (ix2 e (0 : Fin 1)) from bcast_col72 _ e c, e2_apply, gate_apply]
  rfl

/-! ## The displacement's scale and the clip -/

theorem hx_apply (e : Fin 1600000) (c : Fin 72) :
    r_main_v118 A (ix2 e c) = hx (arr2 (r_main_v76 A)) (edgeP A) e c := by
  show max (r_main_v114 A (ix2 e c) + r_main_v116 A (ix2 e c)) (r_main_call3_v0 A (ix2 e c)) = _
  rw [show r_main_v114 A (ix2 e c) = _ from dot_sq_apply (r_main_v113 A) A.a15 e c,
    show r_main_v116 A (ix2 e c) = A.a16 (ix1 c) from bcast_vec _ e c,
    show r_main_call3_v0 A (ix2 e c) = zero from bcast_s_E72 _ e c]
  simp only [m_apply]
  rfl

theorem px_apply (e : Fin 1600000) :
    r_main_v119 A (ix2 e (0 : Fin 1)) = px (arr2 (r_main_v76 A)) (edgeP A) e := by
  rw [show r_main_v119 A (ix2 e (0 : Fin 1)) = _ from dot_col_apply (r_main_v118 A) A.a17 e]
  simp only [hx_apply]
  rfl

/-- The clipped displacement at an entry. -/
theorem trans_apply (e : Fin 1600000) (q : Fin 4) :
    Cert.Spec.r_main_v122 A (ix2 e q) = trans (arr2 (Cert.Spec.r_main_v76 A)) (edgeP A) (arr2 (Cert.Spec.r_main_v18 A)) e q := by
  show min (r_main_call4_v4 A (ix2 e q)) (max (r_main_call4_v1 A (ix2 e q)) (r_main_v18 A (ix2 e q) * r_main_v120 A (ix2 e q))) = _
  rw [show r_main_call4_v4 A (ix2 e q) = hi from bcast_s_E4 _ e q,
    show r_main_call4_v1 A (ix2 e q) = lo from bcast_s_E4 _ e q,
    show r_main_v120 A (ix2 e q) = r_main_v119 A (ix2 e (0 : Fin 1)) from bcast_col4 _ e q, px_apply]
  rfl

end Cert.Spec.Stage1

end
-- ==== Proof.GlueStat.lean ====
/-
  The batch statistics. The kernel program keeps the mean and the (biased) variance of a column as a row [1, 72]
  (keepdims), the reference as a vector [72]: the same column sums divided by the same count, so entry (0, c) of the
  one is entry c of the other — for z over the edges and for z_h over the nodes.
-/
import proofs.«152136_j87351044866445_1_alg».proof.Proof.KSpec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.GlueStat

open Idealize.ShloMosaic Idealize.ShloMosaic.ValueIdx
open Cert.KSpec Cert.Spec

/-- A vector [72] kept as a row [1, 72] (a broadcast along the new leading unit axis) reads, at (0, c), the vector
    at c: axis 0 of the vector has extent 72, not 1, so its coordinate is the row's coordinate on axis 1. -/
theorem row_of_vec {α : Type} (h : (⟨1, ![72]⟩ : Shape).BroadcastsInDim ⟨2, ![1, 72]⟩ ![1])
    (v : (⟨1, ![72]⟩ : Shape).Idx → α) (c : Fin 72) :
    broadcastInDim ⟨2, ![1, 72]⟩ ![1] h v (ix2 (0 : Fin 1) c) = v (ix1 c) :=
  broadcastInDim_apply ![1] h v (ix2 (0 : Fin 1) c) (ix1 c) fun a => match a with | ⟨0, _⟩ => rfl

variable [Cert.KernelIdeal.Facts] [Cert.ReferenceIdeal.Facts] (A : Cert.Spec.Args Ideal)

/-! ## The shared prefixes

Up to the point where the column sums are given their final shape, the two programs apply the same operations to the
same array (z, resp. z_h): the column sums of the array; the column sums of the squared deviations from the keepdims
mean; the scalar count n − 0; the scalar predicate n − 0 > 0. The two spellings of each shape are the same literal and
the side conditions are propositions, so each pair is one array, by unfolding. -/

/-- Column sums of z. -/
theorem sum_e : k_main_v37 A = r_main_v77 A := rfl
/-- Column sums of the squared deviations of z from its column means. -/
theorem sqsum_e : k_main_call0_v9 A = r_main_call0_v9 A := rfl
/-- The scalar count of rows of z, less the zero degrees of freedom removed. -/
theorem count_e : k_main_call0_v8 A = r_main_call0_v8 A := rfl
/-- The scalar predicate "the count is positive" for z. -/
theorem pred_e : k_main_call0_v13 A = r_main_call0_v12 A := rfl

/-- Column sums of z_h. -/
theorem sum_h : k_main_v71 A = r_main_v146 A := rfl
/-- Column sums of the squared deviations of z_h from its column means. -/
theorem sqsum_h : k_main_call1_v9 A = r_main_call5_v9 A := rfl
/-- The scalar count of rows of z_h, less the zero degrees of freedom removed. -/
theorem count_h : k_main_call1_v8 A = r_main_call5_v8 A := rfl
/-- The scalar predicate "the count is positive" for z_h. -/
theorem pred_h : k_main_call1_v13 A = r_main_call5_v12 A := rfl

/-! ## The differing tails, read at an index

The mean: the row of column sums at (0, c) is the vector of column sums at c, and the divisor is one scalar broadcast
on both sides. The variance: a select on a broadcast scalar predicate reads that scalar at every index; its first
branch is the quotient of the column sum of squared deviations at c by the broadcast scalar count, its second branch
a broadcast scalar constant; the predicate, the sums, the count and the constant are the same on both sides. -/

theorem mean_e (c : Fin 72) : k_main_v40 A (ix2 (0 : Fin 1) c) = r_main_v79 A (ix1 c) := by
  unfold k_main_v40 r_main_v79 k_main_v38 k_main_v39 r_main_v78
  rw [hostDivf_apply, hostDivf_apply, row_of_vec, broadcastInDim_scalar_apply, broadcastInDim_scalar_apply, sum_e]
  rfl
theorem var_e (c : Fin 72) : k_main_v41 A (ix2 (0 : Fin 1) c) = r_main_v80 A (ix1 c) := by
  unfold k_main_v41 r_main_v80
  beta_reduce
  rw [select_apply, select_apply]
  unfold k_main_call0_v12 r_main_call0_v11 k_main_call0_v10 k_main_call0_v11 r_main_call0_v10
    k_main_call0_call0_v1 r_main_call0_call0_v1
  rw [hostDivf_apply, hostDivf_apply, row_of_vec]
  simp only [broadcastInDim_scalar_apply]
  rw [sqsum_e, count_e, pred_e]
  rfl
theorem mean_h (c : Fin 72) : k_main_v74 A (ix2 (0 : Fin 1) c) = r_main_v148 A (ix1 c) := by
  unfold k_main_v74 r_main_v148 k_main_v72 k_main_v73 r_main_v147
  rw [hostDivf_apply, hostDivf_apply, row_of_vec, broadcastInDim_scalar_apply, broadcastInDim_scalar_apply, sum_h]
  rfl
theorem var_h (c : Fin 72) : k_main_v75 A (ix2 (0 : Fin 1) c) = r_main_v149 A (ix1 c) := by
  unfold k_main_v75 r_main_v149
  beta_reduce
  rw [select_apply, select_apply]
  unfold k_main_call1_v12 r_main_call5_v11 k_main_call1_v10 k_main_call1_v11 r_main_call5_v10
    k_main_call1_call0_v1 r_main_call5_call0_v1
  rw [hostDivf_apply, hostDivf_apply, row_of_vec]
  simp only [broadcastInDim_scalar_apply]
  rw [sqsum_h, count_h, pred_h]
  rfl

end Cert.GlueStat

end
-- ==== Proof.Region1.lean ====
/-
  The second pallas_call (edge tiles of 8000 rows): from z, the displacement, the batch statistics of z as rows, the affine
  pair and the three small layers it leaves the message m and the clipped displacement — entry by entry stage 1's values.

  The body's stores are read at one entry of the tile, layer by layer (batch-norm, ReLU, linear + ReLU, the gate, the
  message; then linear + ReLU, the weight column, the clipped product with the displacement), against the stage's formulas
  at the edge the tile's row stands for; tile t of the two row-tiled inputs and of the two outputs starts at row 8000·t,
  the small blocks are their whole arrays; the 200 tiles cover the 1600000 rows.
-/
import proofs.«152136_j87351044866445_1_alg».proof.Proof.Gen.KernelIdeal.Frame
import proofs.«152136_j87351044866445_1_alg».proof.Proof.Gen.ReferenceIdeal
import proofs.«152136_j87351044866445_1_alg».proof.Proof.KSpec
import proofs.«152136_j87351044866445_1_alg».proof.Proof.Mid
import proofs.«152136_j87351044866445_1_alg».proof.Proof.Stage1
import proofs.«152136_j87351044866445_1_alg».proof.Proof.Glue
import proofs.«152136_j87351044866445_1_alg».proof.Proof.GlueStat
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KSpec
open Cert.KernelIdeal.Facts₀ Cert.KernelIdeal.Facts
open scoped BigOperators

/-! ## Broadcasts of the small blocks read at an entry -/

/-- A row broadcast over the tile's rows reads its entry on the column. -/
theorem bcast_row (v : FVec Ideal S1x72 .f32) (h : S1x72.Broadcasts S8000x72) (p : Fin 8000) (q : Fin 72) :
    broadcastTo S8000x72 v h (ix2 p q) = v (ix2 (0 : Fin 1) q) :=
  broadcastTo_1b_ab_apply v h p q

/-- A column broadcast along the rows reads its row. -/
theorem bcast_col72 (v : FVec Ideal S8000x1 .f32) (h : S8000x1.Broadcasts S8000x72) (p : Fin 8000) (q : Fin 72) :
    broadcastTo S8000x72 v h (ix2 p q) = v (ix2 p (0 : Fin 1)) := by
  refine broadcastTo_apply v h (ix2 p q) (ix2 p (0 : Fin 1)) fun a => ?_
  match a with
  | ⟨0, _⟩ => rfl
  | ⟨1, _⟩ => rfl

theorem bcast_col4 (v : FVec Ideal S8000x1 .f32) (h : S8000x1.Broadcasts S8000x4) (p : Fin 8000) (q : Fin 4) :
    broadcastTo S8000x4 v h (ix2 p q) = v (ix2 p (0 : Fin 1)) := by
  refine broadcastTo_apply v h (ix2 p q) (ix2 p (0 : Fin 1)) fun a => ?_
  match a with
  | ⟨0, _⟩ => rfl
  | ⟨1, _⟩ => rfl

/-- The one cell broadcast to a column reads the cell. -/
theorem bcast_cell (v : FVec Ideal S1x1 .f32) (h : S1x1.Broadcasts S8000x1) (p : Fin 8000) :
    broadcastTo S8000x1 v h (ix2 p (0 : Fin 1)) = v (ix2 (0 : Fin 1) (0 : Fin 1)) := by
  refine broadcastTo_apply v h (ix2 p (0 : Fin 1)) (ix2 (0 : Fin 1) (0 : Fin 1)) fun a => ?_
  match a with
  | ⟨0, _⟩ => rfl
  | ⟨1, _⟩ => rfl

/-! ## The tile's [8000,72] × [72,72] product at an entry -/

theorem lhs_sq_0 (i : S8000x72.Idx) (q : dot_S8000x72_S72x72_S8000x72_1_0_0_1_n_n.contr.Idx) :
    (dot_S8000x72_S72x72_S8000x72_1_0_0_1_n_n.lhsIdx i q 0).val = (i 0).val := by
  unfold DotDims.lhsIdx
  rw [dif_neg (show ¬(0 : Fin S8000x72.rank) ∈ dot_S8000x72_S72x72_S8000x72_1_0_0_1_n_n.lhsBatch from List.not_mem_nil),
    dif_pos (show (0 : Fin S8000x72.rank) ∈ dot_S8000x72_S72x72_S8000x72_1_0_0_1_n_n.lhsNonContracting from List.mem_singleton.mpr rfl)]
  rfl

theorem lhs_sq_1 (i : S8000x72.Idx) (q : dot_S8000x72_S72x72_S8000x72_1_0_0_1_n_n.contr.Idx) :
    (dot_S8000x72_S72x72_S8000x72_1_0_0_1_n_n.lhsIdx i q 1).val = (q ⟨0, Nat.one_pos⟩).val :=
  dot_S8000x72_S72x72_S8000x72_1_0_0_1_n_n.lhsIdx_val_of_single rfl i q

theorem rhs_sq_0 (i : S8000x72.Idx) (q : dot_S8000x72_S72x72_S8000x72_1_0_0_1_n_n.contr.Idx) :
    (dot_S8000x72_S72x72_S8000x72_1_0_0_1_n_n.rhsIdx i q 0).val = (q ⟨0, Nat.one_pos⟩).val :=
  dot_S8000x72_S72x72_S8000x72_1_0_0_1_n_n.rhsIdx_val_of_single rfl i q

theorem rhs_sq_1 (i : S8000x72.Idx) (q : dot_S8000x72_S72x72_S8000x72_1_0_0_1_n_n.contr.Idx) :
    (dot_S8000x72_S72x72_S8000x72_1_0_0_1_n_n.rhsIdx i q 1).val = (i 1).val := by
  unfold DotDims.rhsIdx
  rw [dif_neg (show ¬(1 : Fin S72x72.rank) ∈ dot_S8000x72_S72x72_S8000x72_1_0_0_1_n_n.rhsBatch from List.not_mem_nil),
    dif_pos (show (1 : Fin S72x72.rank) ∈ dot_S8000x72_S72x72_S8000x72_1_0_0_1_n_n.rhsNonContracting from List.mem_singleton.mpr rfl)]
  rfl

/-- Into the zero accumulator: a row of the left factor against a column of the right one. -/
theorem mm_sq_apply (x : FVec Ideal S8000x72 .bf16) (w : FVec Ideal S72x72 .bf16) (p : Fin 8000) (q : Fin 72) :
    matmul dot_S8000x72_S72x72_S8000x72_1_0_0_1_n_n none x w (constant S8000x72 .f32 0x00000000#32) (ix2 p q)
      = ∑ k : Fin 72, x (ix2 p k) * w (ix2 k q) := by
  show FloatOps.matmul dot_S8000x72_S72x72_S8000x72_1_0_0_1_n_n none x w (constant S8000x72 .f32 0x00000000#32) (ix2 p q) = _
  rw [Ideal.matmul_constant_zero_apply,
    ← Equiv.sum_comp (contrEquiv1 dot_S8000x72_S72x72_S8000x72_1_0_0_1_n_n 72 rfl rfl).symm]
  refine Finset.sum_congr rfl fun k _ => ?_
  have hk := contrEquiv1_symm_val dot_S8000x72_S72x72_S8000x72_1_0_0_1_n_n 72 rfl rfl k
  have el : dot_S8000x72_S72x72_S8000x72_1_0_0_1_n_n.lhsIdx (ix2 p q)
      ((contrEquiv1 dot_S8000x72_S72x72_S8000x72_1_0_0_1_n_n 72 rfl rfl).symm k) = ix2 p k :=
    funext fun a => Fin.ext (by
      match a with
      | ⟨0, _⟩ => exact lhs_sq_0 _ _
      | ⟨1, _⟩ => exact (lhs_sq_1 _ _).trans hk)
  have er : dot_S8000x72_S72x72_S8000x72_1_0_0_1_n_n.rhsIdx (ix2 p q)
      ((contrEquiv1 dot_S8000x72_S72x72_S8000x72_1_0_0_1_n_n 72 rfl rfl).symm k) = ix2 k q :=
    funext fun a => Fin.ext (by
      match a with
      | ⟨0, _⟩ => exact (rhs_sq_0 _ _).trans hk
      | ⟨1, _⟩ => exact rhs_sq_1 _ _)
  rw [el, er]

/-! ## The tile's [8000,72] × [72,1] product at a row -/

theorem lhs_col_0 (i : S8000x1.Idx) (q : dot_S8000x72_S72x1_S8000x1_1_0_0_1_n_n.contr.Idx) :
    (dot_S8000x72_S72x1_S8000x1_1_0_0_1_n_n.lhsIdx i q 0).val = (i 0).val := by
  unfold DotDims.lhsIdx
  rw [dif_neg (show ¬(0 : Fin S8000x72.rank) ∈ dot_S8000x72_S72x1_S8000x1_1_0_0_1_n_n.lhsBatch from List.not_mem_nil),
    dif_pos (show (0 : Fin S8000x72.rank) ∈ dot_S8000x72_S72x1_S8000x1_1_0_0_1_n_n.lhsNonContracting from List.mem_singleton.mpr rfl)]
  rfl

theorem lhs_col_1 (i : S8000x1.Idx) (q : dot_S8000x72_S72x1_S8000x1_1_0_0_1_n_n.contr.Idx) :
    (dot_S8000x72_S72x1_S8000x1_1_0_0_1_n_n.lhsIdx i q 1).val = (q ⟨0, Nat.one_pos⟩).val :=
  dot_S8000x72_S72x1_S8000x1_1_0_0_1_n_n.lhsIdx_val_of_single rfl i q

theorem rhs_col_0 (i : S8000x1.Idx) (q : dot_S8000x72_S72x1_S8000x1_1_0_0_1_n_n.contr.Idx) :
    (dot_S8000x72_S72x1_S8000x1_1_0_0_1_n_n.rhsIdx i q 0).val = (q ⟨0, Nat.one_pos⟩).val :=
  dot_S8000x72_S72x1_S8000x1_1_0_0_1_n_n.rhsIdx_val_of_single rfl i q

theorem rhs_col_1 (i : S8000x1.Idx) (q : dot_S8000x72_S72x1_S8000x1_1_0_0_1_n_n.contr.Idx) :
    (dot_S8000x72_S72x1_S8000x1_1_0_0_1_n_n.rhsIdx i q 1).val = (i 1).val := by
  unfold DotDims.rhsIdx
  rw [dif_neg (show ¬(1 : Fin S72x1.rank) ∈ dot_S8000x72_S72x1_S8000x1_1_0_0_1_n_n.rhsBatch from List.not_mem_nil),
    dif_pos (show (1 : Fin S72x1.rank) ∈ dot_S8000x72_S72x1_S8000x1_1_0_0_1_n_n.rhsNonContracting from List.mem_singleton.mpr rfl)]
  rfl

/-- Into the zero accumulator: a row of the left factor against the one column. -/
theorem mm_col_apply (x : FVec Ideal S8000x72 .bf16) (w : FVec Ideal S72x1 .bf16) (p : Fin 8000) :
    matmul dot_S8000x72_S72x1_S8000x1_1_0_0_1_n_n none x w (constant S8000x1 .f32 0x00000000#32) (ix2 p (0 : Fin 1))
      = ∑ k : Fin 72, x (ix2 p k) * w (ix2 k (0 : Fin 1)) := by
  show FloatOps.matmul dot_S8000x72_S72x1_S8000x1_1_0_0_1_n_n none x w (constant S8000x1 .f32 0x00000000#32) (ix2 p (0 : Fin 1)) = _
  rw [Ideal.matmul_constant_zero_apply,
    ← Equiv.sum_comp (contrEquiv1 dot_S8000x72_S72x1_S8000x1_1_0_0_1_n_n 72 rfl rfl).symm]
  refine Finset.sum_congr rfl fun k _ => ?_
  have hk := contrEquiv1_symm_val dot_S8000x72_S72x1_S8000x1_1_0_0_1_n_n 72 rfl rfl k
  have el : dot_S8000x72_S72x1_S8000x1_1_0_0_1_n_n.lhsIdx (ix2 p (0 : Fin 1))
      ((contrEquiv1 dot_S8000x72_S72x1_S8000x1_1_0_0_1_n_n 72 rfl rfl).symm k) = ix2 p k :=
    funext fun a => Fin.ext (by
      match a with
      | ⟨0, _⟩ => exact lhs_col_0 _ _
      | ⟨1, _⟩ => exact (lhs_col_1 _ _).trans hk)
  have er : dot_S8000x72_S72x1_S8000x1_1_0_0_1_n_n.rhsIdx (ix2 p (0 : Fin 1))
      ((contrEquiv1 dot_S8000x72_S72x1_S8000x1_1_0_0_1_n_n 72 rfl rfl).symm k) = ix2 k (0 : Fin 1) :=
    funext fun a => Fin.ext (by
      match a with
      | ⟨0, _⟩ => exact (rhs_col_0 _ _).trans hk
      | ⟨1, _⟩ => exact rhs_col_1 _ _)
  rw [el, er]

/-! ## The tile's layers at an entry

Each layer of the body is read at one entry of the tile and compared with the stage's formula at the edge the tile's
row stands for: the tile's row of z is that edge's row, and the small blocks hold the stage's operands. -/

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-- The small blocks hold the stage's operands. -/
structure Holds (x2 x3 x4 x5 : Vec Ideal S1x72 .f32) (x6 : Vec Ideal S72x72 .f32) (x7 : Vec Ideal S1x72 .f32)
    (x8 : Vec Ideal S72x1 .f32) (x9 : Vec Ideal S1x1 .f32) (x10 : Vec Ideal S72x72 .f32) (x11 : Vec Ideal S1x72 .f32)
    (x12 : Vec Ideal S72x1 .f32) (P : Mid.EdgeP) : Prop where
  mu : ∀ c : Fin 72, x2 (ix2 (0 : Fin 1) c) = P.mu c
  var : ∀ c : Fin 72, x3 (ix2 (0 : Fin 1) c) = P.var c
  g : ∀ c : Fin 72, x4 (ix2 (0 : Fin 1) c) = P.g c
  b : ∀ c : Fin 72, x5 (ix2 (0 : Fin 1) c) = P.b c
  We2 : ∀ k c : Fin 72, x6 (ix2 k c) = P.We2 k c
  be2 : ∀ c : Fin 72, x7 (ix2 (0 : Fin 1) c) = P.be2 c
  Wm : ∀ k : Fin 72, x8 (ix2 k (0 : Fin 1)) = P.Wm k
  bm : x9 (ix2 (0 : Fin 1) (0 : Fin 1)) = P.bm
  Wx1 : ∀ k c : Fin 72, x10 (ix2 k c) = P.Wx1 k c
  bx1 : ∀ c : Fin 72, x11 (ix2 (0 : Fin 1) c) = P.bx1 c
  Wx2 : ∀ k : Fin 72, x12 (ix2 k (0 : Fin 1)) = P.Wx2 k

section Tile
variable {E : Nat} (Z : Fin E → Fin 72 → EReal) (Xd : Fin E → Fin 4 → EReal) (P : Mid.EdgeP) (e : Fin E)
variable (x0 : Vec Ideal S8000x72 .f32) (x1 : Vec Ideal S8000x4 .f32) (x2 x3 x4 x5 : Vec Ideal S1x72 .f32)
  (x6 : Vec Ideal S72x72 .f32) (x7 : Vec Ideal S1x72 .f32) (x8 : Vec Ideal S72x1 .f32) (x9 : Vec Ideal S1x1 .f32)
  (x10 : Vec Ideal S72x72 .f32) (x11 : Vec Ideal S1x72 .f32) (x12 : Vec Ideal S72x1 .f32)

/-- Batch-norm, ReLU, the second linear layer and ReLU. -/
theorem e2_blk (H : Holds x2 x3 x4 x5 x6 x7 x8 x9 x10 x11 x12 P) (p : Fin 8000) (hz : ∀ k, x0 (ix2 p k) = Z e k) (q : Fin 72) :
    k1_pay3 x0 x2 x3 x4 x5 x6 x7 (ix2 p q) = Mid.e2 Z P e q := by
  unfold k1_pay3
  simp only [maximumf_apply, addf_apply, mulf_apply, subf_apply, truncf_apply, rsqrt_apply, broadcast_apply, mm_sq_apply,
    bcast_row, shapeCast_self, hz, H.mu, H.var, H.g, H.b, H.We2, H.be2]
  rfl

/-- The gate's argument without its bias: e₂'s row against the gate's weight column. -/
theorem dot_blk (H : Holds x2 x3 x4 x5 x6 x7 x8 x9 x10 x11 x12 P) (p : Fin 8000) (hz : ∀ k, x0 (ix2 p k) = Z e k) :
    k1_pay4 x0 x2 x3 x4 x5 x6 x7 x8 (ix2 p (0 : Fin 1)) = ∑ k : Fin 72, Mid.e2 Z P e k * P.Wm k := by
  unfold k1_pay4
  simp only [mm_col_apply, truncf_apply, e2_blk Z P e x0 x2 x3 x4 x5 x6 x7 x8 x9 x10 x11 x12 H p hz, H.Wm]

/-- The message. -/
theorem m_blk (H : Holds x2 x3 x4 x5 x6 x7 x8 x9 x10 x11 x12 P) (p : Fin 8000) (hz : ∀ k, x0 (ix2 p k) = Z e k) (q : Fin 72) :
    k1_pay1 (k1_pay3 x0 x2 x3 x4 x5 x6 x7) (k1_pay4 x0 x2 x3 x4 x5 x6 x7 x8) x9 (ix2 p q) = Mid.mOut Z P e q := by
  unfold k1_pay1
  simp only [mulf_apply, addf_apply, logistic_apply, bcast_col72, bcast_cell, shapeCast_self,
    e2_blk Z P e x0 x2 x3 x4 x5 x6 x7 x8 x9 x10 x11 x12 H p hz, dot_blk Z P e x0 x2 x3 x4 x5 x6 x7 x8 x9 x10 x11 x12 H p hz, H.bm]
  rfl

/-- The clipped displacement. -/
theorem trans_blk (H : Holds x2 x3 x4 x5 x6 x7 x8 x9 x10 x11 x12 P) (p : Fin 8000) (hz : ∀ k, x0 (ix2 p k) = Z e k)
    (hx : ∀ q, x1 (ix2 p q) = Xd e q) (q : Fin 4) :
    k1_pay2 (k1_pay3 x0 x2 x3 x4 x5 x6 x7) (k1_pay4 x0 x2 x3 x4 x5 x6 x7 x8) x9 x10 x11 x12 x1 (ix2 p q) = Mid.trans Z P Xd e q := by
  unfold k1_pay2
  simp only [minimumf_apply, maximumf_apply, mulf_apply, addf_apply, truncf_apply, broadcast_apply, mm_sq_apply, mm_col_apply,
    bcast_row, bcast_col4, shapeCast_self, m_blk Z P e x0 x2 x3 x4 x5 x6 x7 x8 x9 x10 x11 x12 H p hz, H.Wx1, H.bx1, H.Wx2, hx]
  rfl

end Tile

/-! ## The tiles' places -/

theorem hz : (![0, 0] : Fin 2 → Nat) = fun _ => 0 := funext fun a => by fin_cases a <;> rfl

/-! The printed index maps over the 200 grid points: z, the displacement and the two outputs sit at tile t, every small
block at tile 0. -/
theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx2 : ∀ t : Fin cfg1.N, win1_2.index t (0 : Fin 2) = 0 ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N, win1_7.index t (0 : Fin 2) = 0 ∧ win1_7.index t (1 : Fin 2) = 0 :=
  (by decide +kernel : ∀ t : Fin grid1.N, _)
theorem idx8 : ∀ t : Fin cfg1.N, win1_8.index t (0 : Fin 2) = 0 ∧ win1_8.index t (1 : Fin 2) = 0 :=
  (by decide +kernel : ∀ t : Fin grid1.N, _)
theorem idx9 : ∀ t : Fin cfg1.N, win1_9.index t (0 : Fin 2) = 0 ∧ win1_9.index t (1 : Fin 2) = 0 :=
  (by decide +kernel : ∀ t : Fin grid1.N, _)
theorem idx10 : ∀ t : Fin cfg1.N, win1_10.index t (0 : Fin 2) = 0 ∧ win1_10.index t (1 : Fin 2) = 0 :=
  (by decide +kernel : ∀ t : Fin grid1.N, _)
theorem idx11 : ∀ t : Fin cfg1.N, win1_11.index t (0 : Fin 2) = 0 ∧ win1_11.index t (1 : Fin 2) = 0 :=
  (by decide +kernel : ∀ t : Fin grid1.N, _)
theorem idx12 : ∀ t : Fin cfg1.N, win1_12.index t (0 : Fin 2) = 0 ∧ win1_12.index t (1 : Fin 2) = 0 :=
  (by decide +kernel : ∀ t : Fin grid1.N, _)
theorem idx13 : ∀ t : Fin cfg1.N, win1_13.index t (0 : Fin 2) = t.val ∧ win1_13.index t (1 : Fin 2) = 0 :=
  (by decide +kernel : ∀ t : Fin grid1.N, _)
theorem idx14 : ∀ t : Fin cfg1.N, win1_14.index t (0 : Fin 2) = t.val ∧ win1_14.index t (1 : Fin 2) = 0 :=
  (by decide +kernel : ∀ t : Fin grid1.N, _)

/-! A row-tiled window's tile t starts at row 8000·t. -/
theorem emb_rows0 (t : Fin cfg1.N) (p : Fin 8000) (q : Fin 72) (n : Fin 1600000) (hn : n.val = t.val * 8000 + p.val) :
    ((cfg1.win 0).blk t).view.emb (ix2 p q) = ix2 n q := by
  obtain ⟨e0, e1⟩ := idx0 t
  funext a; apply Fin.ext
  match a with
  | ⟨0, _⟩ => show win1_0.index t (0 : Fin 2) * 8000 + 1 * p.val = n.val; omega
  | ⟨1, _⟩ => show win1_0.index t (1 : Fin 2) * 72 + 1 * q.val = q.val; omega
theorem emb_rows1 (t : Fin cfg1.N) (p : Fin 8000) (q : Fin 4) (n : Fin 1600000) (hn : n.val = t.val * 8000 + p.val) :
    ((cfg1.win 1).blk t).view.emb (ix2 p q) = ix2 n q := by
  obtain ⟨e0, e1⟩ := idx1 t
  funext a; apply Fin.ext
  match a with
  | ⟨0, _⟩ => show win1_1.index t (0 : Fin 2) * 8000 + 1 * p.val = n.val; omega
  | ⟨1, _⟩ => show win1_1.index t (1 : Fin 2) * 4 + 1 * q.val = q.val; omega
theorem emb_rows13 (t : Fin cfg1.N) (p : Fin 8000) (q : Fin 72) (n : Fin 1600000) (hn : n.val = t.val * 8000 + p.val) :
    ((cfg1.win 13).blk t).view.emb (ix2 p q) = ix2 n q := by
  obtain ⟨e0, e1⟩ := idx13 t
  funext a; apply Fin.ext
  match a with
  | ⟨0, _⟩ => show win1_13.index t (0 : Fin 2) * 8000 + 1 * p.val = n.val; omega
  | ⟨1, _⟩ => show win1_13.index t (1 : Fin 2) * 72 + 1 * q.val = q.val; omega
theorem emb_rows14 (t : Fin cfg1.N) (p : Fin 8000) (q : Fin 4) (n : Fin 1600000) (hn : n.val = t.val * 8000 + p.val) :
    ((cfg1.win 14).blk t).view.emb (ix2 p q) = ix2 n q := by
  obtain ⟨e0, e1⟩ := idx14 t
  funext a; apply Fin.ext
  match a with
  | ⟨0, _⟩ => show win1_14.index t (0 : Fin 2) * 8000 + 1 * p.val = n.val; omega
  | ⟨1, _⟩ => show win1_14.index t (1 : Fin 2) * 4 + 1 * q.val = q.val; omega

/-! The one-row blocks, the two square weights, the two weight columns and the one cell are read whole at every point. -/
theorem emb_row2 (t : Fin cfg1.N) (k : Fin 72) : ((cfg1.win 2).blk t).view.emb (ix2 (0 : Fin 1) k) = ix2 (0 : Fin 1) k := by
  obtain ⟨e0, e1⟩ := idx2 t
  funext a; apply Fin.ext
  match a with
  | ⟨0, _⟩ => show win1_2.index t (0 : Fin 2) * 1 + 1 * (0 : Fin 1).val = (0 : Fin 1).val; omega
  | ⟨1, _⟩ => show win1_2.index t (1 : Fin 2) * 72 + 1 * k.val = k.val; omega
theorem emb_row3 (t : Fin cfg1.N) (k : Fin 72) : ((cfg1.win 3).blk t).view.emb (ix2 (0 : Fin 1) k) = ix2 (0 : Fin 1) k := by
  obtain ⟨e0, e1⟩ := idx3 t
  funext a; apply Fin.ext
  match a with
  | ⟨0, _⟩ => show win1_3.index t (0 : Fin 2) * 1 + 1 * (0 : Fin 1).val = (0 : Fin 1).val; omega
  | ⟨1, _⟩ => show win1_3.index t (1 : Fin 2) * 72 + 1 * k.val = k.val; omega
theorem emb_row4 (t : Fin cfg1.N) (k : Fin 72) : ((cfg1.win 4).blk t).view.emb (ix2 (0 : Fin 1) k) = ix2 (0 : Fin 1) k := by
  obtain ⟨e0, e1⟩ := idx4 t
  funext a; apply Fin.ext
  match a with
  | ⟨0, _⟩ => show win1_4.index t (0 : Fin 2) * 1 + 1 * (0 : Fin 1).val = (0 : Fin 1).val; omega
  | ⟨1, _⟩ => show win1_4.index t (1 : Fin 2) * 72 + 1 * k.val = k.val; omega
theorem emb_row5 (t : Fin cfg1.N) (k : Fin 72) : ((cfg1.win 5).blk t).view.emb (ix2 (0 : Fin 1) k) = ix2 (0 : Fin 1) k := by
  obtain ⟨e0, e1⟩ := idx5 t
  funext a; apply Fin.ext
  match a with
  | ⟨0, _⟩ => show win1_5.index t (0 : Fin 2) * 1 + 1 * (0 : Fin 1).val = (0 : Fin 1).val; omega
  | ⟨1, _⟩ => show win1_5.index t (1 : Fin 2) * 72 + 1 * k.val = k.val; omega
theorem emb_row7 (t : Fin cfg1.N) (k : Fin 72) : ((cfg1.win 7).blk t).view.emb (ix2 (0 : Fin 1) k) = ix2 (0 : Fin 1) k := by
  obtain ⟨e0, e1⟩ := idx7 t
  funext a; apply Fin.ext
  match a with
  | ⟨0, _⟩ => show win1_7.index t (0 : Fin 2) * 1 + 1 * (0 : Fin 1).val = (0 : Fin 1).val; omega
  | ⟨1, _⟩ => show win1_7.index t (1 : Fin 2) * 72 + 1 * k.val = k.val; omega
theorem emb_row11 (t : Fin cfg1.N) (k : Fin 72) : ((cfg1.win 11).blk t).view.emb (ix2 (0 : Fin 1) k) = ix2 (0 : Fin 1) k := by
  obtain ⟨e0, e1⟩ := idx11 t
  funext a; apply Fin.ext
  match a with
  | ⟨0, _⟩ => show win1_11.index t (0 : Fin 2) * 1 + 1 * (0 : Fin 1).val = (0 : Fin 1).val; omega
  | ⟨1, _⟩ => show win1_11.index t (1 : Fin 2) * 72 + 1 * k.val = k.val; omega
theorem emb_sq6 (t : Fin cfg1.N) (k q : Fin 72) : ((cfg1.win 6).blk t).view.emb (ix2 k q) = ix2 k q := by
  obtain ⟨e0, e1⟩ := idx6 t
  funext a; apply Fin.ext
  match a with
  | ⟨0, _⟩ => show win1_6.index t (0 : Fin 2) * 72 + 1 * k.val = k.val; omega
  | ⟨1, _⟩ => show win1_6.index t (1 : Fin 2) * 72 + 1 * q.val = q.val; omega
theorem emb_sq10 (t : Fin cfg1.N) (k q : Fin 72) : ((cfg1.win 10).blk t).view.emb (ix2 k q) = ix2 k q := by
  obtain ⟨e0, e1⟩ := idx10 t
  funext a; apply Fin.ext
  match a with
  | ⟨0, _⟩ => show win1_10.index t (0 : Fin 2) * 72 + 1 * k.val = k.val; omega
  | ⟨1, _⟩ => show win1_10.index t (1 : Fin 2) * 72 + 1 * q.val = q.val; omega
theorem emb_col8 (t : Fin cfg1.N) (k : Fin 72) : ((cfg1.win 8).blk t).view.emb (ix2 k (0 : Fin 1)) = ix2 k (0 : Fin 1) := by
  obtain ⟨e0, e1⟩ := idx8 t
  funext a; apply Fin.ext
  match a with
  | ⟨0, _⟩ => show win1_8.index t (0 : Fin 2) * 72 + 1 * k.val = k.val; omega
  | ⟨1, _⟩ => show win1_8.index t (1 : Fin 2) * 1 + 1 * (0 : Fin 1).val = (0 : Fin 1).val; omega
theorem emb_col12 (t : Fin cfg1.N) (k : Fin 72) : ((cfg1.win 12).blk t).view.emb (ix2 k (0 : Fin 1)) = ix2 k (0 : Fin 1) := by
  obtain ⟨e0, e1⟩ := idx12 t
  funext a; apply Fin.ext
  match a with
  | ⟨0, _⟩ => show win1_12.index t (0 : Fin 2) * 72 + 1 * k.val = k.val; omega
  | ⟨1, _⟩ => show win1_12.index t (1 : Fin 2) * 1 + 1 * (0 : Fin 1).val = (0 : Fin 1).val; omega
theorem emb_cell9 (t : Fin cfg1.N) : ((cfg1.win 9).blk t).view.emb (ix2 (0 : Fin 1) (0 : Fin 1)) = ix2 (0 : Fin 1) (0 : Fin 1) := by
  obtain ⟨e0, e1⟩ := idx9 t
  funext a; apply Fin.ext
  match a with
  | ⟨0, _⟩ => show win1_9.index t (0 : Fin 2) * 1 + 1 * (0 : Fin 1).val = (0 : Fin 1).val; omega
  | ⟨1, _⟩ => show win1_9.index t (1 : Fin 2) * 1 + 1 * (0 : Fin 1).val = (0 : Fin 1).val; omega

/-- An index of the message array lies in point t's tile iff each coordinate lies in the tile's range on its axis. -/
theorem mem_blk13 (t : Fin cfg1.N) (i : S1600000x72.Idx) :
    i ∈ ((cfg1.win 13).blk t).view.set ↔ ∀ a : Fin 2, win1_13.index t a * S8000x72.size a ≤ (i a).val ∧ (i a).val < win1_13.index t a * S8000x72.size a + S8000x72.size a := by
  show i ∈ ((View.whole main_v47_0).slice (win1_13.rect t)).set ↔ _
  rw [View.set_slice_whole, Rect.mem_set_unit]
  exact Iff.rfl

theorem mem_blk14 (t : Fin cfg1.N) (i : S1600000x4.Idx) :
    i ∈ ((cfg1.win 14).blk t).view.set ↔ ∀ a : Fin 2, win1_14.index t a * S8000x4.size a ≤ (i a).val ∧ (i a).val < win1_14.index t a * S8000x4.size a + S8000x4.size a := by
  show i ∈ ((View.whole main_v47_1).slice (win1_14.rect t)).set ↔ _
  rw [View.set_slice_whole, Rect.mem_set_unit]
  exact Iff.rfl

/-- Row r lies in tile r / 8000. -/
theorem cover13 (i : S1600000x72.Idx) : ∃ t : Fin cfg1.N, (cfg1.win 13).flush t = true ∧ i ∈ ((cfg1.win 13).blk t).view.set := by
  have hN : cfg1.N = 200 := N_1
  have hi0 : (i 0).val < 1600000 := (i 0).isLt
  have hi1 : (i 1).val < 72 := (i 1).isLt
  refine ⟨⟨(i 0).val / 8000, by omega⟩, flush1_13 _, ?_⟩
  rw [mem_blk13]
  obtain ⟨e0, e1⟩ := idx13 ⟨(i 0).val / 8000, by omega⟩
  intro a
  match a with
  | ⟨0, _⟩ => show win1_13.index _ (0 : Fin 2) * 8000 ≤ (i 0).val ∧ (i 0).val < win1_13.index _ (0 : Fin 2) * 8000 + 8000; rw [e0]; show (i 0).val / 8000 * 8000 ≤ (i 0).val ∧ (i 0).val < (i 0).val / 8000 * 8000 + 8000; omega
  | ⟨1, _⟩ => show win1_13.index _ (1 : Fin 2) * 72 ≤ (i 1).val ∧ (i 1).val < win1_13.index _ (1 : Fin 2) * 72 + 72; rw [e1]; omega

theorem cover14 (i : S1600000x4.Idx) : ∃ t : Fin cfg1.N, (cfg1.win 14).flush t = true ∧ i ∈ ((cfg1.win 14).blk t).view.set := by
  have hN : cfg1.N = 200 := N_1
  have hi0 : (i 0).val < 1600000 := (i 0).isLt
  have hi1 : (i 1).val < 4 := (i 1).isLt
  refine ⟨⟨(i 0).val / 8000, by omega⟩, flush1_14 _, ?_⟩
  rw [mem_blk14]
  obtain ⟨e0, e1⟩ := idx14 ⟨(i 0).val / 8000, by omega⟩
  intro a
  match a with
  | ⟨0, _⟩ => show win1_14.index _ (0 : Fin 2) * 8000 ≤ (i 0).val ∧ (i 0).val < win1_14.index _ (0 : Fin 2) * 8000 + 8000; rw [e0]; show (i 0).val / 8000 * 8000 ≤ (i 0).val ∧ (i 0).val < (i 0).val / 8000 * 8000 + 8000; omega
  | ⟨1, _⟩ => show win1_14.index _ (1 : Fin 2) * 4 ≤ (i 1).val ∧ (i 1).val < win1_14.index _ (1 : Fin 2) * 4 + 4; rw [e1]; omega

/-! ## The write-backs and the arrays -/

variable (V : (c : Dev nD) → (b : Ref sig .tc) → Buf (Elt Ideal) ((c : Thread nD τ).loc b)) (c : Dev nD) (A : Cert.Spec.Args Ideal)

/-! At every point each small block is its whole array, and the host's row forms and statistics are the reference's
vectors entry by entry: the small blocks hold the stage's operands. -/

theorem blk_mu (h2 : V c (Pipeline.arrRef spec1 2) = k_main_v40 A) (t : Fin cfg1.N) (k : Fin 72) :
    iblk1 V c 2 t (ix2 (0 : Fin 1) k) = (Mid.edgeP A).mu k := by
  unfold iblk1; rw [View.read_apply, h2, emb_row2 t k]; exact Cert.GlueStat.mean_e A k

theorem blk_var (h3 : V c (Pipeline.arrRef spec1 3) = k_main_v41 A) (t : Fin cfg1.N) (k : Fin 72) :
    iblk1 V c 3 t (ix2 (0 : Fin 1) k) = (Mid.edgeP A).var k := by
  unfold iblk1; rw [View.read_apply, h3, emb_row3 t k]; exact Cert.GlueStat.var_e A k

theorem blk_g (h4 : V c (Pipeline.arrRef spec1 4) = k_main_v42 A) (t : Fin cfg1.N) (k : Fin 72) :
    iblk1 V c 4 t (ix2 (0 : Fin 1) k) = (Mid.edgeP A).g k := by
  unfold iblk1; rw [View.read_apply, h4, emb_row4 t k]; exact Cert.Glue.gamma_e A k

theorem blk_b (h5 : V c (Pipeline.arrRef spec1 5) = k_main_v43 A) (t : Fin cfg1.N) (k : Fin 72) :
    iblk1 V c 5 t (ix2 (0 : Fin 1) k) = (Mid.edgeP A).b k := by
  unfold iblk1; rw [View.read_apply, h5, emb_row5 t k]; exact Cert.Glue.beta_e A k

theorem blk_We2 (h6 : V c (Pipeline.arrRef spec1 6) = A.a7) (t : Fin cfg1.N) (k q : Fin 72) :
    iblk1 V c 6 t (ix2 k q) = (Mid.edgeP A).We2 k q := by
  unfold iblk1; rw [View.read_apply, h6, emb_sq6 t k q]; rfl

theorem blk_be2 (h7 : V c (Pipeline.arrRef spec1 7) = k_main_v44 A) (t : Fin cfg1.N) (k : Fin 72) :
    iblk1 V c 7 t (ix2 (0 : Fin 1) k) = (Mid.edgeP A).be2 k := by
  unfold iblk1; rw [View.read_apply, h7, emb_row7 t k]; exact Cert.Glue.be2_row A k

theorem blk_Wm (h8 : V c (Pipeline.arrRef spec1 8) = A.a18) (t : Fin cfg1.N) (k : Fin 72) :
    iblk1 V c 8 t (ix2 k (0 : Fin 1)) = (Mid.edgeP A).Wm k := by
  unfold iblk1; rw [View.read_apply, h8, emb_col8 t k]; rfl

theorem blk_bm (h9 : V c (Pipeline.arrRef spec1 9) = k_main_v45 A) (t : Fin cfg1.N) :
    iblk1 V c 9 t (ix2 (0 : Fin 1) (0 : Fin 1)) = (Mid.edgeP A).bm := by
  unfold iblk1; rw [View.read_apply, h9, emb_cell9 t]; exact Cert.Glue.bm_cell A

theorem blk_Wx1 (h10 : V c (Pipeline.arrRef spec1 10) = A.a15) (t : Fin cfg1.N) (k q : Fin 72) :
    iblk1 V c 10 t (ix2 k q) = (Mid.edgeP A).Wx1 k q := by
  unfold iblk1; rw [View.read_apply, h10, emb_sq10 t k q]; rfl

theorem blk_bx1 (h11 : V c (Pipeline.arrRef spec1 11) = k_main_v46 A) (t : Fin cfg1.N) (k : Fin 72) :
    iblk1 V c 11 t (ix2 (0 : Fin 1) k) = (Mid.edgeP A).bx1 k := by
  unfold iblk1; rw [View.read_apply, h11, emb_row11 t k]; exact Cert.Glue.bx1_row A k

theorem blk_Wx2 (h12 : V c (Pipeline.arrRef spec1 12) = A.a17) (t : Fin cfg1.N) (k : Fin 72) :
    iblk1 V c 12 t (ix2 k (0 : Fin 1)) = (Mid.edgeP A).Wx2 k := by
  unfold iblk1; rw [View.read_apply, h12, emb_col12 t k]; rfl

theorem holds_at
    (h2 : V c (Pipeline.arrRef spec1 2) = k_main_v40 A)
    (h3 : V c (Pipeline.arrRef spec1 3) = k_main_v41 A)
    (h4 : V c (Pipeline.arrRef spec1 4) = k_main_v42 A)
    (h5 : V c (Pipeline.arrRef spec1 5) = k_main_v43 A)
    (h6 : V c (Pipeline.arrRef spec1 6) = A.a7)
    (h7 : V c (Pipeline.arrRef spec1 7) = k_main_v44 A)
    (h8 : V c (Pipeline.arrRef spec1 8) = A.a18)
    (h9 : V c (Pipeline.arrRef spec1 9) = k_main_v45 A)
    (h10 : V c (Pipeline.arrRef spec1 10) = A.a15)
    (h11 : V c (Pipeline.arrRef spec1 11) = k_main_v46 A)
    (h12 : V c (Pipeline.arrRef spec1 12) = A.a17) (t : Fin cfg1.N) :
    Holds (iblk1 V c 2 t) (iblk1 V c 3 t) (iblk1 V c 4 t) (iblk1 V c 5 t) (iblk1 V c 6 t) (iblk1 V c 7 t) (iblk1 V c 8 t)
      (iblk1 V c 9 t) (iblk1 V c 10 t) (iblk1 V c 11 t) (iblk1 V c 12 t) (Mid.edgeP A) :=
  ⟨blk_mu V c A h2 t, blk_var V c A h3 t, blk_g V c A h4 t, blk_b V c A h5 t, blk_We2 V c A h6 t, blk_be2 V c A h7 t,
    blk_Wm V c A h8 t, blk_bm V c A h9 t, blk_Wx1 V c A h10 t, blk_bx1 V c A h11 t, blk_Wx2 V c A h12 t⟩

/-- The tile of z at point t holds rows 8000·t … of z. -/
theorem blk_z (h0 : V c (Pipeline.arrRef spec1 0) = k_main_v36_0 A) (t : Fin cfg1.N) (p : Fin 8000) (n : Fin 1600000)
    (hn : n.val = t.val * 8000 + p.val) (k : Fin 72) :
    iblk1 V c 0 t (ix2 p k) = Mid.arr2 (Cert.Spec.r_main_v76 A) n k := by
  unfold iblk1; rw [View.read_apply, h0, emb_rows0 t p k n hn]; rfl

/-- The tile of the displacement at point t holds the same rows of it. -/
theorem blk_xd (h1 : V c (Pipeline.arrRef spec1 1) = k_main_v36_1 A) (t : Fin cfg1.N) (p : Fin 8000) (n : Fin 1600000)
    (hn : n.val = t.val * 8000 + p.val) (q : Fin 4) :
    iblk1 V c 1 t (ix2 p q) = Mid.arr2 (Cert.Spec.r_main_v18 A) n q := by
  unfold iblk1; rw [View.read_apply, h1, emb_rows1 t p q n hn]; rfl

/-- The stored message entry at row p of tile t is stage 1's message at row 8000·t + p. -/
theorem m_at
    (h0 : V c (Pipeline.arrRef spec1 0) = k_main_v36_0 A)
    (h1 : V c (Pipeline.arrRef spec1 1) = k_main_v36_1 A)
    (h2 : V c (Pipeline.arrRef spec1 2) = k_main_v40 A)
    (h3 : V c (Pipeline.arrRef spec1 3) = k_main_v41 A)
    (h4 : V c (Pipeline.arrRef spec1 4) = k_main_v42 A)
    (h5 : V c (Pipeline.arrRef spec1 5) = k_main_v43 A)
    (h6 : V c (Pipeline.arrRef spec1 6) = A.a7)
    (h7 : V c (Pipeline.arrRef spec1 7) = k_main_v44 A)
    (h8 : V c (Pipeline.arrRef spec1 8) = A.a18)
    (h9 : V c (Pipeline.arrRef spec1 9) = k_main_v45 A)
    (h10 : V c (Pipeline.arrRef spec1 10) = A.a15)
    (h11 : V c (Pipeline.arrRef spec1 11) = k_main_v46 A)
    (h12 : V c (Pipeline.arrRef spec1 12) = A.a17) (t : Fin cfg1.N) (p : Fin 8000) (n : Fin 1600000) (hn : n.val = t.val * 8000 + p.val) (q : Fin 72) :
    k1_pay1 (k1_pay3 (iblk1 V c 0 t) (iblk1 V c 2 t) (iblk1 V c 3 t) (iblk1 V c 4 t) (iblk1 V c 5 t) (iblk1 V c 6 t) (iblk1 V c 7 t))
        (k1_pay4 (iblk1 V c 0 t) (iblk1 V c 2 t) (iblk1 V c 3 t) (iblk1 V c 4 t) (iblk1 V c 5 t) (iblk1 V c 6 t) (iblk1 V c 7 t) (iblk1 V c 8 t))
        (iblk1 V c 9 t) (ix2 p q)
      = k_main_v47_0 A (ix2 n q) :=
  (m_blk (Mid.arr2 (Cert.Spec.r_main_v76 A)) (Mid.edgeP A) n (iblk1 V c 0 t) (iblk1 V c 2 t) (iblk1 V c 3 t) (iblk1 V c 4 t) (iblk1 V c 5 t) (iblk1 V c 6 t) (iblk1 V c 7 t) (iblk1 V c 8 t)
      (iblk1 V c 9 t) (iblk1 V c 10 t) (iblk1 V c 11 t) (iblk1 V c 12 t)
    (holds_at V c A h2 h3 h4 h5 h6 h7 h8 h9 h10 h11 h12 t) p (blk_z V c A h0 t p n hn) q).trans
    (Cert.Spec.Stage1.m_apply A n q).symm

/-- The stored displacement entry at row p of tile t is stage 1's clipped displacement at row 8000·t + p. -/
theorem trans_at
    (h0 : V c (Pipeline.arrRef spec1 0) = k_main_v36_0 A)
    (h1 : V c (Pipeline.arrRef spec1 1) = k_main_v36_1 A)
    (h2 : V c (Pipeline.arrRef spec1 2) = k_main_v40 A)
    (h3 : V c (Pipeline.arrRef spec1 3) = k_main_v41 A)
    (h4 : V c (Pipeline.arrRef spec1 4) = k_main_v42 A)
    (h5 : V c (Pipeline.arrRef spec1 5) = k_main_v43 A)
    (h6 : V c (Pipeline.arrRef spec1 6) = A.a7)
    (h7 : V c (Pipeline.arrRef spec1 7) = k_main_v44 A)
    (h8 : V c (Pipeline.arrRef spec1 8) = A.a18)
    (h9 : V c (Pipeline.arrRef spec1 9) = k_main_v45 A)
    (h10 : V c (Pipeline.arrRef spec1 10) = A.a15)
    (h11 : V c (Pipeline.arrRef spec1 11) = k_main_v46 A)
    (h12 : V c (Pipeline.arrRef spec1 12) = A.a17) (t : Fin cfg1.N) (p : Fin 8000) (n : Fin 1600000) (hn : n.val = t.val * 8000 + p.val) (q : Fin 4) :
    k1_pay2 (k1_pay3 (iblk1 V c 0 t) (iblk1 V c 2 t) (iblk1 V c 3 t) (iblk1 V c 4 t) (iblk1 V c 5 t) (iblk1 V c 6 t) (iblk1 V c 7 t))
        (k1_pay4 (iblk1 V c 0 t) (iblk1 V c 2 t) (iblk1 V c 3 t) (iblk1 V c 4 t) (iblk1 V c 5 t) (iblk1 V c 6 t) (iblk1 V c 7 t) (iblk1 V c 8 t))
        (iblk1 V c 9 t) (iblk1 V c 10 t) (iblk1 V c 11 t) (iblk1 V c 12 t) (iblk1 V c 1 t) (ix2 p q)
      = k_main_v47_1 A (ix2 n q) :=
  (trans_blk (Mid.arr2 (Cert.Spec.r_main_v76 A)) (Mid.arr2 (Cert.Spec.r_main_v18 A)) (Mid.edgeP A) n (iblk1 V c 0 t) (iblk1 V c 1 t)
    (iblk1 V c 2 t) (iblk1 V c 3 t) (iblk1 V c 4 t) (iblk1 V c 5 t) (iblk1 V c 6 t) (iblk1 V c 7 t) (iblk1 V c 8 t)
      (iblk1 V c 9 t) (iblk1 V c 10 t) (iblk1 V c 11 t) (iblk1 V c 12 t)
    (holds_at V c A h2 h3 h4 h5 h6 h7 h8 h9 h10 h11 h12 t) p (blk_z V c A h0 t p n hn) (blk_xd V c A h1 t p n hn) q).trans
    (Cert.Spec.Stage1.trans_apply A n q).symm

/-- What point t writes back to the message array is its tile t of stage 1's message. -/
theorem flushed13
    (h0 : V c (Pipeline.arrRef spec1 0) = k_main_v36_0 A)
    (h1 : V c (Pipeline.arrRef spec1 1) = k_main_v36_1 A)
    (h2 : V c (Pipeline.arrRef spec1 2) = k_main_v40 A)
    (h3 : V c (Pipeline.arrRef spec1 3) = k_main_v41 A)
    (h4 : V c (Pipeline.arrRef spec1 4) = k_main_v42 A)
    (h5 : V c (Pipeline.arrRef spec1 5) = k_main_v43 A)
    (h6 : V c (Pipeline.arrRef spec1 6) = A.a7)
    (h7 : V c (Pipeline.arrRef spec1 7) = k_main_v44 A)
    (h8 : V c (Pipeline.arrRef spec1 8) = A.a18)
    (h9 : V c (Pipeline.arrRef spec1 9) = k_main_v45 A)
    (h10 : V c (Pipeline.arrRef spec1 10) = A.a15)
    (h11 : V c (Pipeline.arrRef spec1 11) = k_main_v46 A)
    (h12 : V c (Pipeline.arrRef spec1 12) = A.a17) (t : Fin cfg1.N) :
    (dat1 V c).flushed 13 t = ((cfg1.win 13).blk t).view.read (Elt Ideal) (k_main_v47_0 A) := by
  show (cfg1.win 13).cut (grid1.coords t) ((dat1 V c).after 13 t) = _
  rw [after1_13]
  unfold out1_13
  rw [View.canon_unit_zero hz]
  simp only [View.ld_unit_zero (S := S8000x72) hz, View.ld_unit_zero (S := S1x72) hz, View.ld_unit_zero (S := S72x72) hz,
    View.ld_unit_zero (S := S72x1) hz, View.ld_unit_zero (S := S1x1) hz]
  funext j
  obtain ⟨p, q, rfl⟩ : ∃ (p : Fin 8000) (q : Fin 72), j = ix2 p q := ⟨j 0, j 1, eq_ix2 j⟩
  have hN : cfg1.N = 200 := N_1
  have ht : t.val < 200 := hN ▸ t.isLt
  obtain ⟨n, hn⟩ : ∃ n : Fin 1600000, n.val = t.val * 8000 + p.val := ⟨⟨t.val * 8000 + p.val, by have := p.isLt; omega⟩, rfl⟩
  refine (m_at V c A h0 h1 h2 h3 h4 h5 h6 h7 h8 h9 h10 h11 h12 t p n hn q).trans ?_
  rw [View.read_apply, emb_rows13 t p q n hn]
  rfl

/-- What point t writes back to the displacement array is its tile t of stage 1's clipped displacement. -/
theorem flushed14
    (h0 : V c (Pipeline.arrRef spec1 0) = k_main_v36_0 A)
    (h1 : V c (Pipeline.arrRef spec1 1) = k_main_v36_1 A)
    (h2 : V c (Pipeline.arrRef spec1 2) = k_main_v40 A)
    (h3 : V c (Pipeline.arrRef spec1 3) = k_main_v41 A)
    (h4 : V c (Pipeline.arrRef spec1 4) = k_main_v42 A)
    (h5 : V c (Pipeline.arrRef spec1 5) = k_main_v43 A)
    (h6 : V c (Pipeline.arrRef spec1 6) = A.a7)
    (h7 : V c (Pipeline.arrRef spec1 7) = k_main_v44 A)
    (h8 : V c (Pipeline.arrRef spec1 8) = A.a18)
    (h9 : V c (Pipeline.arrRef spec1 9) = k_main_v45 A)
    (h10 : V c (Pipeline.arrRef spec1 10) = A.a15)
    (h11 : V c (Pipeline.arrRef spec1 11) = k_main_v46 A)
    (h12 : V c (Pipeline.arrRef spec1 12) = A.a17) (t : Fin cfg1.N) :
    (dat1 V c).flushed 14 t = ((cfg1.win 14).blk t).view.read (Elt Ideal) (k_main_v47_1 A) := by
  show (cfg1.win 14).cut (grid1.coords t) ((dat1 V c).after 14 t) = _
  rw [after1_14]
  unfold out1_14
  rw [View.canon_unit_zero hz]
  simp only [View.ld_unit_zero (S := S8000x72) hz, View.ld_unit_zero (S := S1x72) hz, View.ld_unit_zero (S := S72x72) hz,
    View.ld_unit_zero (S := S72x1) hz, View.ld_unit_zero (S := S1x1) hz, View.ld_unit_zero (S := S8000x4) hz]
  funext j
  obtain ⟨p, q, rfl⟩ : ∃ (p : Fin 8000) (q : Fin 4), j = ix2 p q := ⟨j 0, j 1, eq_ix2 j⟩
  have hN : cfg1.N = 200 := N_1
  have ht : t.val < 200 := hN ▸ t.isLt
  obtain ⟨n, hn⟩ : ∃ n : Fin 1600000, n.val = t.val * 8000 + p.val := ⟨⟨t.val * 8000 + p.val, by have := p.isLt; omega⟩, rfl⟩
  refine (trans_at V c A h0 h1 h2 h3 h4 h5 h6 h7 h8 h9 h10 h11 h12 t p n hn q).trans ?_
  rw [View.read_apply, emb_rows14 t p q n hn]
  rfl

/-- The region's two output arrays. -/
theorem arrays
    (h0 : V c (Pipeline.arrRef spec1 0) = k_main_v36_0 A)
    (h1 : V c (Pipeline.arrRef spec1 1) = k_main_v36_1 A)
    (h2 : V c (Pipeline.arrRef spec1 2) = k_main_v40 A)
    (h3 : V c (Pipeline.arrRef spec1 3) = k_main_v41 A)
    (h4 : V c (Pipeline.arrRef spec1 4) = k_main_v42 A)
    (h5 : V c (Pipeline.arrRef spec1 5) = k_main_v43 A)
    (h6 : V c (Pipeline.arrRef spec1 6) = A.a7)
    (h7 : V c (Pipeline.arrRef spec1 7) = k_main_v44 A)
    (h8 : V c (Pipeline.arrRef spec1 8) = A.a18)
    (h9 : V c (Pipeline.arrRef spec1 9) = k_main_v45 A)
    (h10 : V c (Pipeline.arrRef spec1 10) = A.a15)
    (h11 : V c (Pipeline.arrRef spec1 11) = k_main_v46 A)
    (h12 : V c (Pipeline.arrRef spec1 12) = A.a17) :
    (dat1 V c).arrAt 13 cfg1.N = k_main_v47_0 A ∧ (dat1 V c).arrAt 14 cfg1.N = k_main_v47_1 A :=
  ⟨(dat1 V c).arrAt_eq_of_cover 13 (k_main_v47_0 A)
      (fun t _ => flushed13 V c A h0 h1 h2 h3 h4 h5 h6 h7 h8 h9 h10 h11 h12 t) cover13,
    (dat1 V c).arrAt_eq_of_cover 14 (k_main_v47_1 A)
      (fun t _ => flushed14 V c A h0 h1 h2 h3 h4 h5 h6 h7 h8 h9 h10 h11 h12 t) cover14⟩

end Cert.KernelIdeal.Region1

end
-- ==== Proof.Stage2.lean ====
/-
  The reference's first node layer read at an index: the matrix product of the concatenated node features [h, agg, attr]
  with the 152-row weight is the sum over the rows split where the three pieces lie, plus the bias.
-/
import proofs.«152136_j87351044866445_1_alg».proof.Proof.Mid
import Idealize.ShloMosaic.Lib.ValueIdx
import Idealize.ShloMosaic.Lib.Pipeline.Value
import Idealize.ShloMosaic.PureOps.Ideal.Laws
import Idealize.ShloMosaic.Lib.StackMember

noncomputable section

namespace Cert.Spec.Stage2

open Idealize.ShloMosaic Idealize.ShloMosaic.ValueIdx Cert.Mid
open Cert.ReferenceIdeal Cert.ReferenceIdeal.Facts₀ Cert.ReferenceIdeal.Facts
open scoped BigOperators

variable [Cert.ReferenceIdeal.Facts]

/-- The matrix product at an entry: its dimension numbers are the plain rows-by-columns ones, so the entry (n, c) is the
    sum over the 152 contracted columns of the products of the entries (n, k) and (k, c). -/
theorem dot_apply (l : FVec Ideal S50000x152 .f32) (r : FVec Ideal S152x72 .f32) (n : Fin 50000) (c : Fin 72) :
    Host.dotGeneral dot_S50000x152_S152x72_S50000x72_1_0_0_1_n_n none l r (ix2 n c)
      = ∑ k : Fin 152, l (ix2 n k) * r (ix2 k c) := by
  have hD : dot_S50000x152_S152x72_S50000x72_1_0_0_1_n_n = DotDims.plain 50000 152 72 := rfl
  rw [hD]
  exact StackMember.dotGeneral_plain_apply none l r n c

/-- A sum over 152 columns, cut where the three pieces lie: 152 = (72 + 72) + 8. Only the grouping of the additions
    changes, so nothing is asked of the summands. -/
theorem sum_split (f : Fin 152 → EReal) :
    ∑ k : Fin 152, f k
      = ((∑ k : Fin 72, f ⟨k.val, by omega⟩) + (∑ k : Fin 72, f ⟨72 + k.val, by omega⟩))
        + ∑ k : Fin 8, f ⟨144 + k.val, by omega⟩ := by
  have h1 := Fin.sum_univ_add (M := EReal) (a := 144) (b := 8) f
  have h2 := Fin.sum_univ_add (M := EReal) (a := 72) (b := 72) (fun i : Fin 144 => f (Fin.castAdd 8 i))
  rw [h1, h2]
  rfl

/-- The concatenation [h, agg, attr] along the columns, read in its first piece: columns 0 … 71 are h's. -/
theorem cat_0 (x0 x1 : FVec Ideal S50000x72 .f32) (x2 : FVec Ideal S50000x8 .f32) (n : Fin 50000) (k : Fin 72) :
    concatenate S50000x152 1 [⟨S50000x72, x0⟩, ⟨S50000x72, x1⟩, ⟨S50000x8, x2⟩]
        concatenates_S50000x72_S50000x72_S50000x8_S50000x152_d1 (ix2 n ⟨k.val, by omega⟩) = x0 (ix2 n k) := by
  refine concatenate_apply_piece (t := S50000x152) (1 : Fin 2) [⟨S50000x72, x0⟩, ⟨S50000x72, x1⟩, ⟨S50000x8, x2⟩] _ _ 0
    (by show 0 < 3; omega) S50000x72 x0 rfl rfl 0 rfl (ix2 n k) ?_ ?_
  · intro b hb
    match b with
    | ⟨0, _⟩ => rfl
    | ⟨1, _⟩ => exact absurd rfl hb
  · exact Nat.zero_add _

/-- … in its second piece: columns 72 … 143 are agg's, 72 columns on. -/
theorem cat_1 (x0 x1 : FVec Ideal S50000x72 .f32) (x2 : FVec Ideal S50000x8 .f32) (n : Fin 50000) (k : Fin 72) :
    concatenate S50000x152 1 [⟨S50000x72, x0⟩, ⟨S50000x72, x1⟩, ⟨S50000x8, x2⟩]
        concatenates_S50000x72_S50000x72_S50000x8_S50000x152_d1 (ix2 n ⟨72 + k.val, by omega⟩) = x1 (ix2 n k) := by
  refine concatenate_apply_piece (t := S50000x152) (1 : Fin 2) [⟨S50000x72, x0⟩, ⟨S50000x72, x1⟩, ⟨S50000x8, x2⟩] _ _ 1
    (by show 1 < 3; omega) S50000x72 x1 rfl rfl 72 rfl (ix2 n k) ?_ ?_
  · intro b hb
    match b with
    | ⟨0, _⟩ => rfl
    | ⟨1, _⟩ => exact absurd rfl hb
  · rfl

/-- … and in its third piece: columns 144 … 151 are attr's, 144 columns on. -/
theorem cat_2 (x0 x1 : FVec Ideal S50000x72 .f32) (x2 : FVec Ideal S50000x8 .f32) (n : Fin 50000) (k : Fin 8) :
    concatenate S50000x152 1 [⟨S50000x72, x0⟩, ⟨S50000x72, x1⟩, ⟨S50000x8, x2⟩]
        concatenates_S50000x72_S50000x72_S50000x8_S50000x152_d1 (ix2 n ⟨144 + k.val, by omega⟩) = x2 (ix2 n k) := by
  refine concatenate_apply_piece (t := S50000x152) (1 : Fin 2) [⟨S50000x72, x0⟩, ⟨S50000x72, x1⟩, ⟨S50000x8, x2⟩] _ _ 2
    (by show 2 < 3; omega) S50000x8 x2 rfl rfl 144 rfl (ix2 n k) ?_ ?_
  · intro b hb
    match b with
    | ⟨0, _⟩ => rfl
    | ⟨1, _⟩ => exact absurd rfl hb
  · rfl

/-- The bias, broadcast to one row and then down the rows, read at an entry (n, c): the bias at c. -/
theorem bias_apply (b : FVec Ideal S72 .f32) (n : Fin 50000) (c : Fin 72) :
    broadcastInDim S50000x72 ![0, 1] bcast_S1x72_S50000x72_0_1 (broadcastInDim S1x72 ![1] bcast_S72_S1x72_1 b) (ix2 n c)
      = b (ix1 c) := by
  refine (broadcastInDim_apply _ _ _ (ix2 n c) (ix2 (0 : Fin 1) c) ?_).trans ?_
  · intro a
    match a with
    | ⟨0, _⟩ => rfl
    | ⟨1, _⟩ => rfl
  · refine broadcastInDim_apply _ _ _ (ix2 (0 : Fin 1) c) (ix1 c) ?_
    intro a
    match a with
    | ⟨0, _⟩ => rfl

variable (A : Cert.Spec.Args Ideal)

/-- z_h at an entry. -/
theorem zh_apply (n : Fin 50000) (c : Fin 72) :
    Cert.Spec.r_main_v145 A (ix2 n c)
      = zh (arr2 A.a0) (arr2 (Cert.Spec.r_main_v140 A)) (arr2 A.a2) (arr2 A.a9) (arr1 A.a10) n c := by
  -- the sum of the product and the broadcast bias, each read at (n, c)
  unfold Cert.Spec.r_main_v145
  rw [addf_apply]
  unfold Cert.Spec.r_main_v144 Cert.Spec.r_main_v143 Cert.Spec.r_main_v142 Cert.Spec.r_main_v141
  -- the aggregated messages stay a variable
  generalize Cert.Spec.r_main_v140 A = agg
  beta_reduce
  -- the product as a sum over the 152 columns, cut 72 + 72 + 8; each stretch reads its own piece
  rw [bias_apply, dot_apply, sum_split]
  simp only [cat_0, cat_1, cat_2]
  rfl

end Cert.Spec.Stage2

end
-- ==== Proof.Region2.lean ====
/-
  The third pallas_call (node tiles of 5000 rows, 10 grid points): from h, the aggregated messages, the node attributes, the
  three slices of the first node weight and its bias it leaves z_h — entry by entry stage 2's value.
-/
import proofs.«152136_j87351044866445_1_alg».proof.Proof.Gen.KernelIdeal.Frame
import proofs.«152136_j87351044866445_1_alg».proof.Proof.Gen.ReferenceIdeal
import proofs.«152136_j87351044866445_1_alg».proof.Proof.KSpec
import proofs.«152136_j87351044866445_1_alg».proof.Proof.Mid
import proofs.«152136_j87351044866445_1_alg».proof.Proof.Stage2
import proofs.«152136_j87351044866445_1_alg».proof.Proof.Glue
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KSpec

open scoped BigOperators

/-! ## The two contraction records read at an index -/

theorem lhs_big_0 (i : S5000x72.Idx) (q : dot_S5000x72_S72x72_S5000x72_1_0_0_1_n_n.contr.Idx) :
    (dot_S5000x72_S72x72_S5000x72_1_0_0_1_n_n.lhsIdx i q 0).val = (i 0).val := by
  unfold DotDims.lhsIdx
  rw [dif_neg (show ¬(0 : Fin S5000x72.rank) ∈ dot_S5000x72_S72x72_S5000x72_1_0_0_1_n_n.lhsBatch by decide),
    dif_pos (show (0 : Fin S5000x72.rank) ∈ dot_S5000x72_S72x72_S5000x72_1_0_0_1_n_n.lhsNonContracting by decide)]
  rfl
theorem lhs_big_1 (i : S5000x72.Idx) (q : dot_S5000x72_S72x72_S5000x72_1_0_0_1_n_n.contr.Idx) :
    (dot_S5000x72_S72x72_S5000x72_1_0_0_1_n_n.lhsIdx i q 1).val = (q ⟨0, by decide⟩).val :=
  dot_S5000x72_S72x72_S5000x72_1_0_0_1_n_n.lhsIdx_val_of_single rfl i q
theorem rhs_big_0 (i : S5000x72.Idx) (q : dot_S5000x72_S72x72_S5000x72_1_0_0_1_n_n.contr.Idx) :
    (dot_S5000x72_S72x72_S5000x72_1_0_0_1_n_n.rhsIdx i q 0).val = (q ⟨0, by decide⟩).val :=
  dot_S5000x72_S72x72_S5000x72_1_0_0_1_n_n.rhsIdx_val_of_single rfl i q
theorem rhs_big_1 (i : S5000x72.Idx) (q : dot_S5000x72_S72x72_S5000x72_1_0_0_1_n_n.contr.Idx) :
    (dot_S5000x72_S72x72_S5000x72_1_0_0_1_n_n.rhsIdx i q 1).val = (i 1).val := by
  unfold DotDims.rhsIdx
  rw [dif_neg (show ¬(1 : Fin S72x72.rank) ∈ dot_S5000x72_S72x72_S5000x72_1_0_0_1_n_n.rhsBatch by decide),
    dif_pos (show (1 : Fin S72x72.rank) ∈ dot_S5000x72_S72x72_S5000x72_1_0_0_1_n_n.rhsNonContracting by decide)]
  rfl

/-- A 5000×72 by 72×72 product into the zero accumulator, at (p, q): the sum over the 72 contracted coordinates. -/
theorem matmul_big_apply {φ₁ φ₂ : FTy} (a : FVec Ideal S5000x72 φ₁) (b : FVec Ideal S72x72 φ₂) (p : Fin 5000) (q : Fin 72) :
    matmul dot_S5000x72_S72x72_S5000x72_1_0_0_1_n_n none a b (constant S5000x72 .f32 0x00000000#32) (ix2 p q)
      = ∑ k : Fin 72, a (ix2 p k) * b (ix2 k q) := by
  simp only [matmul]
  rw [Ideal.matmul_constant_zero_apply,
    ← Equiv.sum_comp (contrEquiv1 dot_S5000x72_S72x72_S5000x72_1_0_0_1_n_n 72 rfl rfl).symm]
  refine Finset.sum_congr rfl fun k _ => ?_
  have hk := contrEquiv1_symm_val dot_S5000x72_S72x72_S5000x72_1_0_0_1_n_n 72 rfl rfl k
  have el : dot_S5000x72_S72x72_S5000x72_1_0_0_1_n_n.lhsIdx (ix2 p q)
      ((contrEquiv1 dot_S5000x72_S72x72_S5000x72_1_0_0_1_n_n 72 rfl rfl).symm k) = ix2 p k :=
    funext fun ax => Fin.ext (by
      match ax with
      | ⟨0, _⟩ => exact lhs_big_0 _ _
      | ⟨1, _⟩ => exact (lhs_big_1 _ _).trans hk)
  have er : dot_S5000x72_S72x72_S5000x72_1_0_0_1_n_n.rhsIdx (ix2 p q)
      ((contrEquiv1 dot_S5000x72_S72x72_S5000x72_1_0_0_1_n_n 72 rfl rfl).symm k) = ix2 k q :=
    funext fun ax => Fin.ext (by
      match ax with
      | ⟨0, _⟩ => exact (rhs_big_0 _ _).trans hk
      | ⟨1, _⟩ => exact rhs_big_1 _ _)
  rw [el, er]

theorem lhs_small_0 (i : S5000x72.Idx) (q : dot_S5000x8_S8x72_S5000x72_1_0_0_1_n_n.contr.Idx) :
    (dot_S5000x8_S8x72_S5000x72_1_0_0_1_n_n.lhsIdx i q 0).val = (i 0).val := by
  unfold DotDims.lhsIdx
  rw [dif_neg (show ¬(0 : Fin S5000x8.rank) ∈ dot_S5000x8_S8x72_S5000x72_1_0_0_1_n_n.lhsBatch by decide),
    dif_pos (show (0 : Fin S5000x8.rank) ∈ dot_S5000x8_S8x72_S5000x72_1_0_0_1_n_n.lhsNonContracting by decide)]
  rfl
theorem lhs_small_1 (i : S5000x72.Idx) (q : dot_S5000x8_S8x72_S5000x72_1_0_0_1_n_n.contr.Idx) :
    (dot_S5000x8_S8x72_S5000x72_1_0_0_1_n_n.lhsIdx i q 1).val = (q ⟨0, by decide⟩).val :=
  dot_S5000x8_S8x72_S5000x72_1_0_0_1_n_n.lhsIdx_val_of_single rfl i q
theorem rhs_small_0 (i : S5000x72.Idx) (q : dot_S5000x8_S8x72_S5000x72_1_0_0_1_n_n.contr.Idx) :
    (dot_S5000x8_S8x72_S5000x72_1_0_0_1_n_n.rhsIdx i q 0).val = (q ⟨0, by decide⟩).val :=
  dot_S5000x8_S8x72_S5000x72_1_0_0_1_n_n.rhsIdx_val_of_single rfl i q
theorem rhs_small_1 (i : S5000x72.Idx) (q : dot_S5000x8_S8x72_S5000x72_1_0_0_1_n_n.contr.Idx) :
    (dot_S5000x8_S8x72_S5000x72_1_0_0_1_n_n.rhsIdx i q 1).val = (i 1).val := by
  unfold DotDims.rhsIdx
  rw [dif_neg (show ¬(1 : Fin S8x72.rank) ∈ dot_S5000x8_S8x72_S5000x72_1_0_0_1_n_n.rhsBatch by decide),
    dif_pos (show (1 : Fin S8x72.rank) ∈ dot_S5000x8_S8x72_S5000x72_1_0_0_1_n_n.rhsNonContracting by decide)]
  rfl

/-- A 5000×8 by 8×72 product into the zero accumulator, at (p, q): the sum over the 8 contracted coordinates. -/
theorem matmul_small_apply {φ₁ φ₂ : FTy} (a : FVec Ideal S5000x8 φ₁) (b : FVec Ideal S8x72 φ₂) (p : Fin 5000) (q : Fin 72) :
    matmul dot_S5000x8_S8x72_S5000x72_1_0_0_1_n_n none a b (constant S5000x72 .f32 0x00000000#32) (ix2 p q)
      = ∑ k : Fin 8, a (ix2 p k) * b (ix2 k q) := by
  simp only [matmul]
  rw [Ideal.matmul_constant_zero_apply,
    ← Equiv.sum_comp (contrEquiv1 dot_S5000x8_S8x72_S5000x72_1_0_0_1_n_n 8 rfl rfl).symm]
  refine Finset.sum_congr rfl fun k _ => ?_
  have hk := contrEquiv1_symm_val dot_S5000x8_S8x72_S5000x72_1_0_0_1_n_n 8 rfl rfl k
  have el : dot_S5000x8_S8x72_S5000x72_1_0_0_1_n_n.lhsIdx (ix2 p q)
      ((contrEquiv1 dot_S5000x8_S8x72_S5000x72_1_0_0_1_n_n 8 rfl rfl).symm k) = ix2 p k :=
    funext fun ax => Fin.ext (by
      match ax with
      | ⟨0, _⟩ => exact lhs_small_0 _ _
      | ⟨1, _⟩ => exact (lhs_small_1 _ _).trans hk)
  have er : dot_S5000x8_S8x72_S5000x72_1_0_0_1_n_n.rhsIdx (ix2 p q)
      ((contrEquiv1 dot_S5000x8_S8x72_S5000x72_1_0_0_1_n_n 8 rfl rfl).symm k) = ix2 k q :=
    funext fun ax => Fin.ext (by
      match ax with
      | ⟨0, _⟩ => exact (rhs_small_0 _ _).trans hk
      | ⟨1, _⟩ => exact rhs_small_1 _ _)
  rw [el, er]

/-! ## The body's one store at an index -/

/-- The stored block at (p, q): the three products summed in the body's order, plus the bias row. -/
theorem pay_apply (x0 x1 : Vec Ideal S5000x72 .f32) (x2 : Vec Ideal S5000x8 .f32) (x3 x4 : Vec Ideal S72x72 .f32)
    (x5 : Vec Ideal S8x72 .f32) (x6 : Vec Ideal S1x72 .f32) (p : Fin 5000) (q : Fin 72) :
    (k2_pay1 (F := Ideal) x0 x1 x2 x3 x4 x5 x6) (ix2 p q)
      = (((∑ k : Fin 72, x0 (ix2 p k) * x3 (ix2 k q)) + (∑ k : Fin 72, x1 (ix2 p k) * x4 (ix2 k q)))
          + (∑ k : Fin 8, x2 (ix2 p k) * x5 (ix2 k q))) + x6 (ix2 (0 : Fin 1) q) := by
  unfold k2_pay1
  simp only [shapeCast_self, addf_apply, matmul_big_apply, matmul_small_apply, truncf_apply, broadcastTo_1b_ab_apply]

/-! ## Where each window's block lies -/

theorem zero_offsets : (![0, 0] : Fin 2 → Nat) = fun _ => 0 :=
  funext fun a => by match a with | ⟨0, _⟩ => rfl | ⟨1, _⟩ => rfl

/-- The index maps over the ten grid points: the three node windows and the output move down by one block of rows per
    point, the weight slices and the bias row stay. -/
theorem index_maps : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

theorem point_lt (t : Fin cfg2.N) : t.val < 10 := lt_of_lt_of_eq t.isLt N_2

/-- Row p of h's block at point t is row 5000·t + p of h. -/
theorem place_h (t : Fin cfg2.N) (p : Fin 5000) (k : Fin 72) (n : Fin 50000) (hn : n.val = t.val * 5000 + p.val) :
    ((cfg2.win 0).blk t).view.emb (ix2 p k) = ix2 n k := by
  obtain ⟨⟨e0, e1⟩, -⟩ := index_maps t
  funext a; apply Fin.ext
  match a with
  | ⟨0, _⟩ => show win2_0.index t (0 : Fin 2) * 5000 + 1 * p.val = n.val; rw [e0, hn]; omega
  | ⟨1, _⟩ => show win2_0.index t (1 : Fin 2) * 72 + 1 * k.val = k.val; rw [e1]; omega

/-- The aggregated messages' block likewise. -/
theorem place_agg (t : Fin cfg2.N) (p : Fin 5000) (k : Fin 72) (n : Fin 50000) (hn : n.val = t.val * 5000 + p.val) :
    ((cfg2.win 1).blk t).view.emb (ix2 p k) = ix2 n k := by
  obtain ⟨-, ⟨e0, e1⟩, -⟩ := index_maps t
  funext a; apply Fin.ext
  match a with
  | ⟨0, _⟩ => show win2_1.index t (0 : Fin 2) * 5000 + 1 * p.val = n.val; rw [e0, hn]; omega
  | ⟨1, _⟩ => show win2_1.index t (1 : Fin 2) * 72 + 1 * k.val = k.val; rw [e1]; omega

/-- The node attributes' block likewise. -/
theorem place_attr (t : Fin cfg2.N) (p : Fin 5000) (k : Fin 8) (n : Fin 50000) (hn : n.val = t.val * 5000 + p.val) :
    ((cfg2.win 2).blk t).view.emb (ix2 p k) = ix2 n k := by
  obtain ⟨-, -, ⟨e0, e1⟩, -⟩ := index_maps t
  funext a; apply Fin.ext
  match a with
  | ⟨0, _⟩ => show win2_2.index t (0 : Fin 2) * 5000 + 1 * p.val = n.val; rw [e0, hn]; omega
  | ⟨1, _⟩ => show win2_2.index t (1 : Fin 2) * 8 + 1 * k.val = k.val; rw [e1]; omega

/-- Each weight slice is one block, read whole at every point. -/
theorem place_w_h (t : Fin cfg2.N) (k q : Fin 72) : ((cfg2.win 3).blk t).view.emb (ix2 k q) = ix2 k q := by
  obtain ⟨-, -, -, ⟨e0, e1⟩, -⟩ := index_maps t
  funext a; apply Fin.ext
  match a with
  | ⟨0, _⟩ => show win2_3.index t (0 : Fin 2) * 72 + 1 * k.val = k.val; rw [e0]; omega
  | ⟨1, _⟩ => show win2_3.index t (1 : Fin 2) * 72 + 1 * q.val = q.val; rw [e1]; omega

theorem place_w_agg (t : Fin cfg2.N) (k q : Fin 72) : ((cfg2.win 4).blk t).view.emb (ix2 k q) = ix2 k q := by
  obtain ⟨-, -, -, -, ⟨e0, e1⟩, -⟩ := index_maps t
  funext a; apply Fin.ext
  match a with
  | ⟨0, _⟩ => show win2_4.index t (0 : Fin 2) * 72 + 1 * k.val = k.val; rw [e0]; omega
  | ⟨1, _⟩ => show win2_4.index t (1 : Fin 2) * 72 + 1 * q.val = q.val; rw [e1]; omega

theorem place_w_attr (t : Fin cfg2.N) (k : Fin 8) (q : Fin 72) : ((cfg2.win 5).blk t).view.emb (ix2 k q) = ix2 k q := by
  obtain ⟨-, -, -, -, -, ⟨e0, e1⟩, -⟩ := index_maps t
  funext a; apply Fin.ext
  match a with
  | ⟨0, _⟩ => show win2_5.index t (0 : Fin 2) * 8 + 1 * k.val = k.val; rw [e0]; omega
  | ⟨1, _⟩ => show win2_5.index t (1 : Fin 2) * 72 + 1 * q.val = q.val; rw [e1]; omega

/-- The bias row likewise. -/
theorem place_bias (t : Fin cfg2.N) (q : Fin 72) : ((cfg2.win 6).blk t).view.emb (ix2 (0 : Fin 1) q) = ix2 (0 : Fin 1) q := by
  obtain ⟨-, -, -, -, -, -, ⟨e0, e1⟩, -⟩ := index_maps t
  funext a; apply Fin.ext
  match a with
  | ⟨0, _⟩ => show win2_6.index t (0 : Fin 2) * 1 + 1 * 0 = 0; rw [e0]
  | ⟨1, _⟩ => show win2_6.index t (1 : Fin 2) * 72 + 1 * q.val = q.val; rw [e1]; omega

/-- Row p of the output's block at point t is row 5000·t + p of z_h. -/
theorem place_out (t : Fin cfg2.N) (p : Fin 5000) (q : Fin 72) (n : Fin 50000) (hn : n.val = t.val * 5000 + p.val) :
    ((cfg2.win 7).blk t).view.emb (ix2 p q) = ix2 n q := by
  obtain ⟨-, -, -, -, -, -, -, ⟨e0, e1⟩⟩ := index_maps t
  funext a; apply Fin.ext
  match a with
  | ⟨0, _⟩ => show win2_7.index t (0 : Fin 2) * 5000 + 1 * p.val = n.val; rw [e0, hn]; omega
  | ⟨1, _⟩ => show win2_7.index t (1 : Fin 2) * 72 + 1 * q.val = q.val; rw [e1]; omega

/-! ## The output's blocks cover z_h -/

/-- An index lies in point t's block of the output iff each coordinate lies in the block's range on its axis. -/
theorem mem_out_blk (t : Fin cfg2.N) (i : S50000x72.Idx) :
    i ∈ ((cfg2.win 7).blk t).view.set
      ↔ ∀ a : Fin 2, win2_7.index t a * S5000x72.size a ≤ (i a).val ∧ (i a).val < win2_7.index t a * S5000x72.size a + S5000x72.size a := by
  show i ∈ ((View.whole main_v70).slice (win2_7.rect t)).set ↔ _
  rw [View.set_slice_whole, Rect.mem_set_unit]
  exact Iff.rfl

/-- Row r lies in the block of point r / 5000. -/
theorem cover (i : S50000x72.Idx) : ∃ t : Fin cfg2.N, (cfg2.win 7).flush t = true ∧ i ∈ ((cfg2.win 7).blk t).view.set := by
  have hN : cfg2.N = 10 := N_2
  have hi0 : (i 0).val < 50000 := idx2_lt0 i
  have hi1 : (i 1).val < 72 := idx2_lt1 i
  refine ⟨⟨(i 0).val / 5000, by omega⟩, flush2_7 _, ?_⟩
  rw [mem_out_blk]
  obtain ⟨-, -, -, -, -, -, -, ⟨e0, e1⟩⟩ := index_maps ⟨(i 0).val / 5000, by omega⟩
  intro a
  match a with
  | ⟨0, _⟩ =>
    show win2_7.index _ (0 : Fin 2) * 5000 ≤ (i 0).val ∧ (i 0).val < win2_7.index _ (0 : Fin 2) * 5000 + 5000
    rw [e0]
    show (i 0).val / 5000 * 5000 ≤ (i 0).val ∧ (i 0).val < (i 0).val / 5000 * 5000 + 5000
    omega
  | ⟨1, _⟩ =>
    show win2_7.index _ (1 : Fin 2) * 72 ≤ (i 1).val ∧ (i 1).val < win2_7.index _ (1 : Fin 2) * 72 + 72
    rw [e1]; omega

/-! ## What a point writes back, and the array -/

variable (V : (c : Dev nD) → (b : Ref sig .tc) → Buf (Elt Ideal) ((c : Thread nD τ).loc b)) (c : Dev nD) (A : Cert.Spec.Args Ideal)

/-- Each input block at point t, read at an entry, is the array it is a block of at the entry's place. -/
theorem read_h (h0 : V c (Pipeline.arrRef spec2 0) = A.a0) (t : Fin cfg2.N) (p : Fin 5000) (k : Fin 72) (n : Fin 50000)
    (hn : n.val = t.val * 5000 + p.val) : iblk2 V c 0 t (ix2 p k) = A.a0 (ix2 n k) := by
  unfold iblk2; rw [View.read_apply, h0, place_h t p k n hn]; exact cast_eq _ _

theorem read_agg (h1 : V c (Pipeline.arrRef spec2 1) = k_main_v50 A) (t : Fin cfg2.N) (p : Fin 5000) (k : Fin 72) (n : Fin 50000)
    (hn : n.val = t.val * 5000 + p.val) : iblk2 V c 1 t (ix2 p k) = k_main_v50 A (ix2 n k) := by
  unfold iblk2; rw [View.read_apply, h1, place_agg t p k n hn]; exact cast_eq _ _

theorem read_attr (h2 : V c (Pipeline.arrRef spec2 2) = A.a2) (t : Fin cfg2.N) (p : Fin 5000) (k : Fin 8) (n : Fin 50000)
    (hn : n.val = t.val * 5000 + p.val) : iblk2 V c 2 t (ix2 p k) = A.a2 (ix2 n k) := by
  unfold iblk2; rw [View.read_apply, h2, place_attr t p k n hn]; exact cast_eq _ _

theorem read_w_h (h3 : V c (Pipeline.arrRef spec2 3) = k_main_v66 A) (t : Fin cfg2.N) (k q : Fin 72) :
    iblk2 V c 3 t (ix2 k q) = k_main_v66 A (ix2 k q) := by
  unfold iblk2; rw [View.read_apply, h3, place_w_h t k q]; exact cast_eq _ _

theorem read_w_agg (h4 : V c (Pipeline.arrRef spec2 4) = k_main_v67 A) (t : Fin cfg2.N) (k q : Fin 72) :
    iblk2 V c 4 t (ix2 k q) = k_main_v67 A (ix2 k q) := by
  unfold iblk2; rw [View.read_apply, h4, place_w_agg t k q]; exact cast_eq _ _

theorem read_w_attr (h5 : V c (Pipeline.arrRef spec2 5) = k_main_v68 A) (t : Fin cfg2.N) (k : Fin 8) (q : Fin 72) :
    iblk2 V c 5 t (ix2 k q) = k_main_v68 A (ix2 k q) := by
  unfold iblk2; rw [View.read_apply, h5, place_w_attr t k q]; exact cast_eq _ _

theorem read_bias (h6 : V c (Pipeline.arrRef spec2 6) = k_main_v69 A) (t : Fin cfg2.N) (q : Fin 72) :
    iblk2 V c 6 t (ix2 (0 : Fin 1) q) = k_main_v69 A (ix2 (0 : Fin 1) q) := by
  unfold iblk2; rw [View.read_apply, h6, place_bias t q]; exact cast_eq _ _

/-- The node layer's value, read where the kernel program's host values lie. -/
theorem zh_value (n : Fin 50000) (q : Fin 72) :
    k_main_v70 A (ix2 n q)
      = (((∑ k : Fin 72, A.a0 (ix2 n k) * k_main_v66 A (ix2 k q)) + (∑ k : Fin 72, k_main_v50 A (ix2 n k) * k_main_v67 A (ix2 k q)))
          + (∑ k : Fin 8, A.a2 (ix2 n k) * k_main_v68 A (ix2 k q))) + k_main_v69 A (ix2 (0 : Fin 1) q) := by
  unfold k_main_v70
  rw [Cert.Spec.Stage2.zh_apply]
  unfold Cert.Mid.zh Cert.Mid.arr2 Cert.Mid.arr1
  simp only [Cert.Glue.Wh1_h, Cert.Glue.Wh1_agg, Cert.Glue.Wh1_attr, Cert.Glue.bh1_row, Cert.Glue.agg_eq]

/-- The stored block of point t at (p, q) is the node layer's value at row 5000·t + p. -/
theorem stored_apply
    (h0 : V c (Pipeline.arrRef spec2 0) = A.a0)
    (h1 : V c (Pipeline.arrRef spec2 1) = k_main_v50 A)
    (h2 : V c (Pipeline.arrRef spec2 2) = A.a2)
    (h3 : V c (Pipeline.arrRef spec2 3) = k_main_v66 A)
    (h4 : V c (Pipeline.arrRef spec2 4) = k_main_v67 A)
    (h5 : V c (Pipeline.arrRef spec2 5) = k_main_v68 A)
    (h6 : V c (Pipeline.arrRef spec2 6) = k_main_v69 A) (t : Fin cfg2.N) (p : Fin 5000) (q : Fin 72) (n : Fin 50000)
    (hn : n.val = t.val * 5000 + p.val) :
    k2_pay1 (F := Ideal) (iblk2 V c 0 t) (iblk2 V c 1 t) (iblk2 V c 2 t) (iblk2 V c 3 t) (iblk2 V c 4 t) (iblk2 V c 5 t)
        (iblk2 V c 6 t) (ix2 p q)
      = k_main_v70 A (ix2 n q) := by
  rw [pay_apply, zh_value, read_bias V c A h6 t q]
  simp only [fun k => read_h V c A h0 t p k n hn, fun k => read_agg V c A h1 t p k n hn,
    fun k => read_attr V c A h2 t p k n hn, fun k => read_w_h V c A h3 t k q, fun k => read_w_agg V c A h4 t k q,
    fun k => read_w_attr V c A h5 t k q]

/-- What point t writes back is block t of z_h. -/
theorem flushed_eq
    (h0 : V c (Pipeline.arrRef spec2 0) = A.a0)
    (h1 : V c (Pipeline.arrRef spec2 1) = k_main_v50 A)
    (h2 : V c (Pipeline.arrRef spec2 2) = A.a2)
    (h3 : V c (Pipeline.arrRef spec2 3) = k_main_v66 A)
    (h4 : V c (Pipeline.arrRef spec2 4) = k_main_v67 A)
    (h5 : V c (Pipeline.arrRef spec2 5) = k_main_v68 A)
    (h6 : V c (Pipeline.arrRef spec2 6) = k_main_v69 A) (t : Fin cfg2.N) :
    (dat2 V c).flushed 7 t = ((cfg2.win 7).blk t).view.read (Elt Ideal) (k_main_v70 A) := by
  show (cfg2.win 7).cut (grid2.coords t) ((dat2 V c).after 7 t) = _
  rw [after2_7]
  unfold out2_7
  rw [View.canon_unit_zero zero_offsets]
  simp only [View.ld_unit_zero (S := S5000x72) zero_offsets, View.ld_unit_zero (S := S5000x8) zero_offsets,
    View.ld_unit_zero (S := S72x72) zero_offsets, View.ld_unit_zero (S := S8x72) zero_offsets,
    View.ld_unit_zero (S := S1x72) zero_offsets]
  funext j
  obtain ⟨p, q, rfl⟩ : ∃ (p : Fin 5000) (q : Fin 72), j = ix2 p q := ⟨j 0, j 1, eq_ix2 j⟩
  have ht : t.val < 10 := point_lt t
  obtain ⟨n, hn⟩ : ∃ n : Fin 50000, n.val = t.val * 5000 + p.val :=
    ⟨⟨t.val * 5000 + p.val, by have := p.isLt; omega⟩, rfl⟩
  refine (stored_apply V c A h0 h1 h2 h3 h4 h5 h6 t p q n hn).trans ?_
  rw [View.read_apply, place_out t p q n hn]
  exact (cast_eq _ _).symm

/-- The region's output array. -/
theorem arrays
    (h0 : V c (Pipeline.arrRef spec2 0) = A.a0)
    (h1 : V c (Pipeline.arrRef spec2 1) = k_main_v50 A)
    (h2 : V c (Pipeline.arrRef spec2 2) = A.a2)
    (h3 : V c (Pipeline.arrRef spec2 3) = k_main_v66 A)
    (h4 : V c (Pipeline.arrRef spec2 4) = k_main_v67 A)
    (h5 : V c (Pipeline.arrRef spec2 5) = k_main_v68 A)
    (h6 : V c (Pipeline.arrRef spec2 6) = k_main_v69 A) :
    (dat2 V c).arrAt 7 cfg2.N = k_main_v70 A :=
  (dat2 V c).arrAt_eq_of_cover 7 (k_main_v70 A) (fun t _ => flushed_eq V c A h0 h1 h2 h3 h4 h5 h6 t) cover

end Cert.KernelIdeal.Region2

end
-- ==== Proof.Stage3.lean ====
/-
  The reference's node output read at an index: batch-norm with the batch statistics of z_h, ReLU, the second node layer,
  and the residual; the reference adds the bias last, (h + Σ) + b, which is h + (Σ + b).
-/
import proofs.«152136_j87351044866445_1_alg».proof.Proof.Mid
import Idealize.ShloMosaic.Lib.ValueIdx
import Idealize.ShloMosaic.Lib.Pipeline.Value
import Idealize.ShloMosaic.PureOps.Ideal.Laws

noncomputable section

namespace Cert.Spec.Stage3

open Idealize.ShloMosaic Idealize.ShloMosaic.ValueIdx Cert.Mid
open Cert.ReferenceIdeal Cert.ReferenceIdeal.Facts₀ Cert.ReferenceIdeal.Facts
open scoped BigOperators

variable [Cert.ReferenceIdeal.Facts] (A : Cert.Spec.Args Ideal)

/-! ## Broadcasts read at an entry -/

/-- A vector of 72 entries laid as one row and then repeated down 50000 rows reads, at (n, c), its entry c. -/
theorem rowBcast_apply (v : S72.Idx → EReal) (n : Fin 50000) (c : Fin 72) :
    broadcastInDim S50000x72 ![0, 1] bcast_S1x72_S50000x72_0_1 (broadcastInDim S1x72 ![1] bcast_S72_S1x72_1 v) (ix2 n c)
      = v (ix1 c) := by
  refine (broadcastInDim_apply _ _ _ (ix2 n c) (ix2 (0 : Fin 1) c) fun a => ?_).trans ?_
  · match a with
    | ⟨0, _⟩ => rfl
    | ⟨1, _⟩ => rfl
  · exact broadcastInDim_apply _ _ v (ix2 (0 : Fin 1) c) (ix1 c) fun a => by
      match a with
      | ⟨0, _⟩ => rfl

/-- A scalar literal repeated over the whole [50000, 72] array reads the literal's value everywhere. -/
theorem scalarBcast2_apply (w : BitVec 32) (j : S50000x72.Idx) :
    broadcastInDim S50000x72 ![] bcast_S_S50000x72 (constant (F := Ideal) S_ .f32 w) j = Ideal.ofBits .f32 w :=
  broadcastInDim_apply _ _ _ j ix0 fun a => a.elim0

/-- A scalar literal repeated over a vector of 72 entries reads the literal's value everywhere. -/
theorem scalarBcast1_apply (w : BitVec 32) (j : S72.Idx) :
    broadcastInDim S72 ![] bcast_S_S72 (constant (F := Ideal) S_ .f32 w) j = Ideal.ofBits .f32 w :=
  broadcastInDim_apply _ _ _ j ix0 fun a => a.elim0

/-! ## The second node layer's product at an entry -/

/-- The dimension numbers of the [50000, 72] × [72, 72] product: rows of the left, columns of the right, one contracted axis. -/
abbrev D2 : DotDims S50000x72 S72x72 S50000x72 := dot_S50000x72_S72x72_S50000x72_1_0_0_1_n_n

/-- One axis is contracted, of extent 72. -/
theorem D2_rank : D2.contr.rank = 1 := D2.rank_contr
theorem D2_pos : 0 < D2.contr.rank := D2_rank ▸ Nat.zero_lt_one
theorem D2_size : D2.contr.size ⟨0, by have := D2_rank; omega⟩ = 72 := D2.size_contr 0 Nat.zero_lt_one

theorem lhs_D2_0 (j : S50000x72.Idx) (k : D2.contr.Idx) : (D2.lhsIdx j k 0 : ℕ) = j 0 := by
  simp [DotDims.lhsIdx, D2, dot_S50000x72_S72x72_S50000x72_1_0_0_1_n_n]; rfl
theorem lhs_D2_1 (j : S50000x72.Idx) (k : D2.contr.Idx) : (D2.lhsIdx j k 1 : ℕ) = k ⟨0, D2_pos⟩ := by
  simp [DotDims.lhsIdx, D2, dot_S50000x72_S72x72_S50000x72_1_0_0_1_n_n]; rfl
theorem rhs_D2_0 (j : S50000x72.Idx) (k : D2.contr.Idx) : (D2.rhsIdx j k 0 : ℕ) = k ⟨0, D2_pos⟩ := by
  simp [DotDims.rhsIdx, D2, dot_S50000x72_S72x72_S50000x72_1_0_0_1_n_n]; rfl
theorem rhs_D2_1 (j : S50000x72.Idx) (k : D2.contr.Idx) : (D2.rhsIdx j k 1 : ℕ) = j 1 := by
  simp [DotDims.rhsIdx, D2, dot_S50000x72_S72x72_S50000x72_1_0_0_1_n_n]; rfl

/-- The contracted index is its one coordinate, a column of the left operand. -/
def contrD2 : D2.contr.Idx ≃ Fin 72 := contrEquiv1 D2 72 D2_rank D2_size

theorem lhsIdx_D2 (n : Fin 50000) (c k : Fin 72) : D2.lhsIdx (ix2 n c) (contrD2.symm k) = ix2 n k := by
  funext a
  match a with
  | ⟨0, _⟩ => exact Fin.ext (lhs_D2_0 _ _)
  | ⟨1, _⟩ => exact Fin.ext ((lhs_D2_1 _ _).trans (contrEquiv1_symm_val D2 72 D2_rank D2_size k))

theorem rhsIdx_D2 (n : Fin 50000) (c k : Fin 72) : D2.rhsIdx (ix2 n c) (contrD2.symm k) = ix2 k c := by
  funext a
  match a with
  | ⟨0, _⟩ => exact Fin.ext ((rhs_D2_0 _ _).trans (contrEquiv1_symm_val D2 72 D2_rank D2_size k))
  | ⟨1, _⟩ => exact Fin.ext (rhs_D2_1 _ _)

/-- The product at (n, c): the sum over k of left (n, k) times right (k, c). -/
theorem dot_D2_apply (l : FVec Ideal S50000x72 .f32) (r : FVec Ideal S72x72 .f32) (n : Fin 50000) (c : Fin 72) :
    Host.dotGeneral D2 none l r (ix2 n c) = ∑ k : Fin 72, l (ix2 n k) * r (ix2 k c) := by
  show FloatOps.dotGeneral D2 none .single l r (ix2 n c) = _
  rw [Ideal.dotGeneral_apply, ← Equiv.sum_comp contrD2.symm]
  refine Finset.sum_congr rfl fun k _ => ?_
  rw [lhsIdx_D2, rhsIdx_D2]

/-! ## The normalised, rectified entry, and the output -/

/-- ReLU of the batch-norm of z_h at (n, k): the statistics, the scale and the shift are read at column k. -/
theorem relu_bn_apply (n : Fin 50000) (k : Fin 72) :
    Cert.Spec.r_main_v165 A (ix2 n k)
      = max (bn (Cert.Spec.r_main_v145 A (ix2 n k)) (Cert.Spec.r_main_v148 A (ix1 k)) (Cert.Spec.r_main_v149 A (ix1 k))
          (A.a11 (ix1 k)) (A.a12 (ix1 k))) zero := by
  have h151 : Cert.Spec.r_main_v151 A (ix2 n k) = Cert.Spec.r_main_v148 A (ix1 k) := rowBcast_apply _ n k
  have h157 : Cert.Spec.r_main_v157 A (ix2 n k) = Cert.Spec.r_main_v155 A (ix1 k) := rowBcast_apply _ n k
  have h160 : Cert.Spec.r_main_v160 A (ix2 n k) = A.a11 (ix1 k) := rowBcast_apply _ n k
  have h163 : Cert.Spec.r_main_v163 A (ix2 n k) = A.a12 (ix1 k) := rowBcast_apply _ n k
  have h153 : Cert.Spec.r_main_v153 A (ix1 k) = eps := scalarBcast1_apply _ _
  have h0 : Cert.Spec.r_main_call6_v0 A (ix2 n k) = zero := scalarBcast2_apply _ _
  have h155 : Cert.Spec.r_main_v155 A (ix1 k)
      = Ideal.rsqrt (Cert.Spec.r_main_v149 A (ix1 k) + Cert.Spec.r_main_v153 A (ix1 k)) := rfl
  show max ((((Cert.Spec.r_main_v145 A (ix2 n k) - Cert.Spec.r_main_v151 A (ix2 n k)) * Cert.Spec.r_main_v157 A (ix2 n k))
      * Cert.Spec.r_main_v160 A (ix2 n k)) + Cert.Spec.r_main_v163 A (ix2 n k)) (Cert.Spec.r_main_call6_v0 A (ix2 n k)) = _
  rw [h151, h157, h160, h163, h0, h155, h153]
  rfl

/-- h_out at an entry. -/
theorem hout_apply (n : Fin 50000) (c : Fin 72) :
    Cert.Spec.r_main_v170 A (ix2 n c)
      = hout (arr2 (Cert.Spec.r_main_v145 A)) (arr2 A.a0) (arr1 (Cert.Spec.r_main_v148 A)) (arr1 (Cert.Spec.r_main_v149 A)) (arr1 A.a11) (arr1 A.a12) (arr2 A.a13) (arr1 A.a14) n c := by
  have h169 : Cert.Spec.r_main_v169 A (ix2 n c) = A.a14 (ix1 c) := rowBcast_apply _ n c
  have h166 : Cert.Spec.r_main_v166 A (ix2 n c)
      = ∑ k : Fin 72, Cert.Spec.r_main_v165 A (ix2 n k) * A.a13 (ix2 k c) := dot_D2_apply _ _ n c
  show (A.a0 (ix2 n c) + Cert.Spec.r_main_v166 A (ix2 n c)) + Cert.Spec.r_main_v169 A (ix2 n c) = _
  rw [h166, h169, add_assoc]
  simp only [relu_bn_apply]
  rfl

end Cert.Spec.Stage3

end
-- ==== Proof.Region3.lean ====
/-
  The fourth pallas_call (node tiles of 5000 rows): from z_h, h, the batch statistics of z_h as rows, the affine pair, the second
  node weight and its bias it leaves h_out — entry by entry stage 3's value.
-/
import proofs.«152136_j87351044866445_1_alg».proof.Proof.Gen.KernelIdeal.Frame
import proofs.«152136_j87351044866445_1_alg».proof.Proof.Gen.ReferenceIdeal
import proofs.«152136_j87351044866445_1_alg».proof.Proof.KSpec
import proofs.«152136_j87351044866445_1_alg».proof.Proof.Mid
import proofs.«152136_j87351044866445_1_alg».proof.Proof.Stage3
import proofs.«152136_j87351044866445_1_alg».proof.Proof.Glue
import proofs.«152136_j87351044866445_1_alg».proof.Proof.GlueStat
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KSpec
open scoped BigOperators

/-! ## The matrix product read at an entry -/

theorem lhs_mm_0 (i : S5000x72.Idx) (q : dot_S5000x72_S72x72_S5000x72_1_0_0_1_n_n.contr.Idx) :
    (dot_S5000x72_S72x72_S5000x72_1_0_0_1_n_n.lhsIdx i q 0).val = (i 0).val := by
  unfold DotDims.lhsIdx
  rw [dif_neg (show ¬(0 : Fin S5000x72.rank) ∈ dot_S5000x72_S72x72_S5000x72_1_0_0_1_n_n.lhsBatch by decide), dif_pos (show (0 : Fin S5000x72.rank) ∈ dot_S5000x72_S72x72_S5000x72_1_0_0_1_n_n.lhsNonContracting by decide)]
  rfl

theorem lhs_mm_1 (i : S5000x72.Idx) (q : dot_S5000x72_S72x72_S5000x72_1_0_0_1_n_n.contr.Idx) :
    (dot_S5000x72_S72x72_S5000x72_1_0_0_1_n_n.lhsIdx i q 1).val = (q ⟨0, by decide⟩).val :=
  dot_S5000x72_S72x72_S5000x72_1_0_0_1_n_n.lhsIdx_val_of_single rfl i q

theorem rhs_mm_0 (i : S5000x72.Idx) (q : dot_S5000x72_S72x72_S5000x72_1_0_0_1_n_n.contr.Idx) :
    (dot_S5000x72_S72x72_S5000x72_1_0_0_1_n_n.rhsIdx i q 0).val = (q ⟨0, by decide⟩).val :=
  dot_S5000x72_S72x72_S5000x72_1_0_0_1_n_n.rhsIdx_val_of_single rfl i q

theorem rhs_mm_1 (i : S5000x72.Idx) (q : dot_S5000x72_S72x72_S5000x72_1_0_0_1_n_n.contr.Idx) :
    (dot_S5000x72_S72x72_S5000x72_1_0_0_1_n_n.rhsIdx i q 1).val = (i 1).val := by
  unfold DotDims.rhsIdx
  rw [dif_neg (show ¬(1 : Fin S72x72.rank) ∈ dot_S5000x72_S72x72_S5000x72_1_0_0_1_n_n.rhsBatch by decide), dif_pos (show (1 : Fin S72x72.rank) ∈ dot_S5000x72_S72x72_S5000x72_1_0_0_1_n_n.rhsNonContracting by decide)]
  rfl

/-- The 72-term product into a zero accumulator, at row p and column q. -/
theorem matmul_at (x : FVec Ideal S5000x72 .bf16) (w : FVec Ideal S72x72 .bf16) (p : Fin 5000) (q : Fin 72) :
    matmul dot_S5000x72_S72x72_S5000x72_1_0_0_1_n_n none x w (constant S5000x72 .f32 0x00000000#32) (ix2 p q)
      = ∑ k : Fin 72, x (ix2 p k) * w (ix2 k q) := by
  show FloatOps.matmul dot_S5000x72_S72x72_S5000x72_1_0_0_1_n_n none x w (constant S5000x72 .f32 0x00000000#32) (ix2 p q) = _
  rw [Ideal.matmul_constant_zero_apply, ← Equiv.sum_comp (contrEquiv1 dot_S5000x72_S72x72_S5000x72_1_0_0_1_n_n 72 rfl rfl).symm]
  refine Finset.sum_congr rfl fun k _ => ?_
  have hk := contrEquiv1_symm_val dot_S5000x72_S72x72_S5000x72_1_0_0_1_n_n 72 rfl rfl k
  have el : dot_S5000x72_S72x72_S5000x72_1_0_0_1_n_n.lhsIdx (ix2 p q) ((contrEquiv1 dot_S5000x72_S72x72_S5000x72_1_0_0_1_n_n 72 rfl rfl).symm k) = ix2 p k := funext fun a => Fin.ext (by
    match a with
    | ⟨0, _⟩ => exact lhs_mm_0 _ _
    | ⟨1, _⟩ => exact (lhs_mm_1 _ _).trans hk)
  have er : dot_S5000x72_S72x72_S5000x72_1_0_0_1_n_n.rhsIdx (ix2 p q) ((contrEquiv1 dot_S5000x72_S72x72_S5000x72_1_0_0_1_n_n 72 rfl rfl).symm k) = ix2 k q := funext fun a => Fin.ext (by
    match a with
    | ⟨0, _⟩ => exact (rhs_mm_0 _ _).trans hk
    | ⟨1, _⟩ => exact rhs_mm_1 _ _)
  rw [el, er]

/-! ## The body's one store at an entry -/

/-- Row p, column q of the stored tile: the residual row plus the product of the normalised, rectified row with the
    weight plus the bias. -/
theorem pay_apply (v0 : Vec Ideal S5000x72 .f32) (v2 v4 v6 v8 : Vec Ideal S1x72 .f32) (v24 : Vec Ideal S72x72 .f32)
    (v27 : Vec Ideal S1x72 .f32) (v31 : Vec Ideal S5000x72 .f32) (p : Fin 5000) (q : Fin 72) :
    (k3_pay1 (F := Ideal) v0 v2 v4 v6 v8 v24 v27 v31) (ix2 p q)
      = v31 (ix2 p q) + ((∑ k : Fin 72,
          max (Cert.Mid.bn (v0 (ix2 p k)) (v2 (ix2 (0 : Fin 1) k)) (v4 (ix2 (0 : Fin 1) k)) (v6 (ix2 (0 : Fin 1) k)) (v8 (ix2 (0 : Fin 1) k))) Cert.Mid.zero
            * v24 (ix2 k q)) + v27 (ix2 (0 : Fin 1) q)) := by
  unfold k3_pay1
  simp only [shapeCast_self]
  rw [addf_apply, addf_apply, matmul_at, broadcastTo_1b_ab_apply]
  refine congrArg (fun s => v31 (ix2 p q) + (s + v27 (ix2 (0 : Fin 1) q))) (Finset.sum_congr rfl fun k _ => ?_)
  rw [truncf_apply, truncf_apply, maximumf_apply, addf_apply, mulf_apply, mulf_apply, subf_apply,
    broadcastTo_1b_ab_apply, broadcastTo_1b_ab_apply, broadcastTo_1b_ab_apply, broadcastTo_1b_ab_apply]
  rfl

/-! ## The tiles' places -/

theorem hz : (![0, 0] : Fin 2 → Nat) = fun _ => 0 := funext fun a => by fin_cases a <;> rfl

/-- The printed index maps over the ten grid points: the two row-tiled inputs and the output sit at tile t, the rows and
    the weight at tile 0. -/
theorem idx_facts : ∀ t : Fin cfg3.N,
    win3_8.index t (0 : Fin 2) = t.val ∧ win3_8.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- A row-tiled window's tile t starts at row 5000·t. -/
theorem emb_rows0 (t : Fin cfg3.N) (p : Fin 5000) (q : Fin 72) (n : Fin 50000) (hn : n.val = t.val * 5000 + p.val) :
    ((cfg3.win 0).blk t).view.emb (ix2 p q) = ix2 n q := by
  obtain ⟨-, -, e0, e1, -⟩ := idx_facts t
  funext a; apply Fin.ext
  match a with
  | ⟨0, _⟩ => show win3_0.index t (0 : Fin 2) * 5000 + 1 * p.val = n.val; rw [e0, hn]; omega
  | ⟨1, _⟩ => show win3_0.index t (1 : Fin 2) * 72 + 1 * q.val = q.val; rw [e1]; omega

theorem emb_rows1 (t : Fin cfg3.N) (p : Fin 5000) (q : Fin 72) (n : Fin 50000) (hn : n.val = t.val * 5000 + p.val) :
    ((cfg3.win 1).blk t).view.emb (ix2 p q) = ix2 n q := by
  obtain ⟨-, -, -, -, e0, e1, -⟩ := idx_facts t
  funext a; apply Fin.ext
  match a with
  | ⟨0, _⟩ => show win3_1.index t (0 : Fin 2) * 5000 + 1 * p.val = n.val; rw [e0, hn]; omega
  | ⟨1, _⟩ => show win3_1.index t (1 : Fin 2) * 72 + 1 * q.val = q.val; rw [e1]; omega

theorem emb_rows8 (t : Fin cfg3.N) (p : Fin 5000) (q : Fin 72) (n : Fin 50000) (hn : n.val = t.val * 5000 + p.val) :
    ((cfg3.win 8).blk t).view.emb (ix2 p q) = ix2 n q := by
  obtain ⟨e0, e1, -⟩ := idx_facts t
  funext a; apply Fin.ext
  match a with
  | ⟨0, _⟩ => show win3_8.index t (0 : Fin 2) * 5000 + 1 * p.val = n.val; rw [e0, hn]; omega
  | ⟨1, _⟩ => show win3_8.index t (1 : Fin 2) * 72 + 1 * q.val = q.val; rw [e1]; omega

/-- The one-row windows and the weight are read whole at every point. -/
theorem emb_row2 (t : Fin cfg3.N) (k : Fin 72) : ((cfg3.win 2).blk t).view.emb (ix2 (0 : Fin 1) k) = ix2 (0 : Fin 1) k := by
  obtain ⟨-, -, -, -, -, -, e0, e1, -⟩ := idx_facts t
  funext a; apply Fin.ext
  match a with
  | ⟨0, _⟩ => show win3_2.index t (0 : Fin 2) * 1 + 1 * 0 = 0; rw [e0]
  | ⟨1, _⟩ => show win3_2.index t (1 : Fin 2) * 72 + 1 * k.val = k.val; rw [e1]; omega

theorem emb_row3 (t : Fin cfg3.N) (k : Fin 72) : ((cfg3.win 3).blk t).view.emb (ix2 (0 : Fin 1) k) = ix2 (0 : Fin 1) k := by
  obtain ⟨-, -, -, -, -, -, -, -, e0, e1, -⟩ := idx_facts t
  funext a; apply Fin.ext
  match a with
  | ⟨0, _⟩ => show win3_3.index t (0 : Fin 2) * 1 + 1 * 0 = 0; rw [e0]
  | ⟨1, _⟩ => show win3_3.index t (1 : Fin 2) * 72 + 1 * k.val = k.val; rw [e1]; omega

theorem emb_row4 (t : Fin cfg3.N) (k : Fin 72) : ((cfg3.win 4).blk t).view.emb (ix2 (0 : Fin 1) k) = ix2 (0 : Fin 1) k := by
  obtain ⟨-, -, -, -, -, -, -, -, -, -, e0, e1, -⟩ := idx_facts t
  funext a; apply Fin.ext
  match a with
  | ⟨0, _⟩ => show win3_4.index t (0 : Fin 2) * 1 + 1 * 0 = 0; rw [e0]
  | ⟨1, _⟩ => show win3_4.index t (1 : Fin 2) * 72 + 1 * k.val = k.val; rw [e1]; omega

theorem emb_row5 (t : Fin cfg3.N) (k : Fin 72) : ((cfg3.win 5).blk t).view.emb (ix2 (0 : Fin 1) k) = ix2 (0 : Fin 1) k := by
  obtain ⟨-, -, -, -, -, -, -, -, -, -, -, -, e0, e1, -⟩ := idx_facts t
  funext a; apply Fin.ext
  match a with
  | ⟨0, _⟩ => show win3_5.index t (0 : Fin 2) * 1 + 1 * 0 = 0; rw [e0]
  | ⟨1, _⟩ => show win3_5.index t (1 : Fin 2) * 72 + 1 * k.val = k.val; rw [e1]; omega

theorem emb_w6 (t : Fin cfg3.N) (k q : Fin 72) : ((cfg3.win 6).blk t).view.emb (ix2 k q) = ix2 k q := by
  obtain ⟨-, -, -, -, -, -, -, -, -, -, -, -, -, -, e0, e1, -⟩ := idx_facts t
  funext a; apply Fin.ext
  match a with
  | ⟨0, _⟩ => show win3_6.index t (0 : Fin 2) * 72 + 1 * k.val = k.val; rw [e0]; omega
  | ⟨1, _⟩ => show win3_6.index t (1 : Fin 2) * 72 + 1 * q.val = q.val; rw [e1]; omega

theorem emb_row7 (t : Fin cfg3.N) (k : Fin 72) : ((cfg3.win 7).blk t).view.emb (ix2 (0 : Fin 1) k) = ix2 (0 : Fin 1) k := by
  obtain ⟨-, -, -, -, -, -, -, -, -, -, -, -, -, -, -, -, e0, e1⟩ := idx_facts t
  funext a; apply Fin.ext
  match a with
  | ⟨0, _⟩ => show win3_7.index t (0 : Fin 2) * 1 + 1 * 0 = 0; rw [e0]
  | ⟨1, _⟩ => show win3_7.index t (1 : Fin 2) * 72 + 1 * k.val = k.val; rw [e1]; omega

/-- An index of the array lies in point t's tile iff each coordinate lies in the tile's range on its axis. -/
theorem mem_blk (t : Fin cfg3.N) (i : S50000x72.Idx) :
    i ∈ ((cfg3.win 8).blk t).view.set ↔ ∀ a : Fin 2, win3_8.index t a * S5000x72.size a ≤ (i a).val ∧ (i a).val < win3_8.index t a * S5000x72.size a + S5000x72.size a := by
  show i ∈ ((View.whole main_v79).slice (win3_8.rect t)).set ↔ _
  rw [View.set_slice_whole, Rect.mem_set_unit]
  exact Iff.rfl

/-- Row r lies in tile r / 5000. -/
theorem cover (i : S50000x72.Idx) : ∃ t : Fin cfg3.N, (cfg3.win 8).flush t = true ∧ i ∈ ((cfg3.win 8).blk t).view.set := by
  have hN : cfg3.N = 10 := N_3
  have hi0 : (i 0).val < 50000 := (i 0).isLt
  have hi1 : (i 1).val < 72 := (i 1).isLt
  refine ⟨⟨(i 0).val / 5000, by omega⟩, flush3_8 _, ?_⟩
  rw [mem_blk]
  obtain ⟨e0, e1, -⟩ := idx_facts ⟨(i 0).val / 5000, by omega⟩
  intro a
  match a with
  | ⟨0, _⟩ => show win3_8.index _ (0 : Fin 2) * 5000 ≤ (i 0).val ∧ (i 0).val < win3_8.index _ (0 : Fin 2) * 5000 + 5000; rw [e0]; show (i 0).val / 5000 * 5000 ≤ (i 0).val ∧ (i 0).val < (i 0).val / 5000 * 5000 + 5000; omega
  | ⟨1, _⟩ => show win3_8.index _ (1 : Fin 2) * 72 ≤ (i 1).val ∧ (i 1).val < win3_8.index _ (1 : Fin 2) * 72 + 72; rw [e1]; omega

/-! ## The write-backs and the array -/

variable (V : (c : Dev nD) → (b : Ref sig .tc) → Buf (Elt Ideal) ((c : Thread nD τ).loc b)) (c : Dev nD) (A : Cert.Spec.Args Ideal)

/-- What point t writes back is tile t of the node output: the stored entry, with each operand read where its tile
    lies, is stage 3's value at row 5000·t + p. -/
theorem flushed_eq
    (h0 : V c (Pipeline.arrRef spec3 0) = k_main_v70 A)
    (h1 : V c (Pipeline.arrRef spec3 1) = A.a0)
    (h2 : V c (Pipeline.arrRef spec3 2) = k_main_v74 A)
    (h3 : V c (Pipeline.arrRef spec3 3) = k_main_v75 A)
    (h4 : V c (Pipeline.arrRef spec3 4) = k_main_v76 A)
    (h5 : V c (Pipeline.arrRef spec3 5) = k_main_v77 A)
    (h6 : V c (Pipeline.arrRef spec3 6) = A.a13)
    (h7 : V c (Pipeline.arrRef spec3 7) = k_main_v78 A) (t : Fin cfg3.N) :
    (dat3 V c).flushed 8 t = ((cfg3.win 8).blk t).view.read (Elt Ideal) (k_main_v79 A) := by
  show (cfg3.win 8).cut (grid3.coords t) ((dat3 V c).after 8 t) = _
  rw [after3_8]
  unfold out3_8
  rw [View.canon_unit_zero hz]
  simp only [View.ld_unit_zero (S := S5000x72) hz, View.ld_unit_zero (S := S1x72) hz, View.ld_unit_zero (S := S72x72) hz]
  funext j
  obtain ⟨p, q, rfl⟩ : ∃ (p : Fin 5000) (q : Fin 72), j = ix2 p q := ⟨j 0, j 1, eq_ix2 j⟩
  refine (pay_apply (iblk3 V c 0 t) (iblk3 V c 2 t) (iblk3 V c 3 t) (iblk3 V c 4 t) (iblk3 V c 5 t) (iblk3 V c 6 t) (iblk3 V c 7 t) (iblk3 V c 1 t) p q).trans ?_
  have hN : cfg3.N = 10 := N_3
  have ht : t.val < 10 := hN ▸ t.isLt
  obtain ⟨n, hn⟩ : ∃ n : Fin 50000, n.val = t.val * 5000 + p.val := ⟨⟨t.val * 5000 + p.val, by have := p.isLt; omega⟩, rfl⟩
  have b0 : ∀ k : Fin 72, iblk3 V c 0 t (ix2 p k) = Cert.Spec.r_main_v145 A (ix2 n k) := fun k => by
    unfold iblk3; rw [View.read_apply, h0, emb_rows0 t p k n hn]; rfl
  have b1 : iblk3 V c 1 t (ix2 p q) = A.a0 (ix2 n q) := by
    unfold iblk3; rw [View.read_apply, h1, emb_rows1 t p q n hn]; rfl
  have b2 : ∀ k : Fin 72, iblk3 V c 2 t (ix2 (0 : Fin 1) k) = Cert.Spec.r_main_v148 A (ix1 k) := fun k => by
    unfold iblk3; rw [View.read_apply, h2, emb_row2 t k]; exact Cert.GlueStat.mean_h A k
  have b3 : ∀ k : Fin 72, iblk3 V c 3 t (ix2 (0 : Fin 1) k) = Cert.Spec.r_main_v149 A (ix1 k) := fun k => by
    unfold iblk3; rw [View.read_apply, h3, emb_row3 t k]; exact Cert.GlueStat.var_h A k
  have b4 : ∀ k : Fin 72, iblk3 V c 4 t (ix2 (0 : Fin 1) k) = A.a11 (ix1 k) := fun k => by
    unfold iblk3; rw [View.read_apply, h4, emb_row4 t k]; exact Cert.Glue.gamma_h A k
  have b5 : ∀ k : Fin 72, iblk3 V c 5 t (ix2 (0 : Fin 1) k) = A.a12 (ix1 k) := fun k => by
    unfold iblk3; rw [View.read_apply, h5, emb_row5 t k]; exact Cert.Glue.beta_h A k
  have b6 : ∀ k : Fin 72, iblk3 V c 6 t (ix2 k q) = A.a13 (ix2 k q) := fun k => by
    unfold iblk3; rw [View.read_apply, h6, emb_w6 t k q]; rfl
  have b7 : iblk3 V c 7 t (ix2 (0 : Fin 1) q) = A.a14 (ix1 q) := by
    unfold iblk3; rw [View.read_apply, h7, emb_row7 t q]; exact Cert.Glue.bh2_row A q
  rw [b1, b7, View.read_apply, emb_rows8 t p q n hn]
  simp only [b0, b2, b3, b4, b5, b6]
  show _ = Cert.Spec.r_main_v170 A (ix2 n q)
  rw [Cert.Spec.Stage3.hout_apply]
  rfl

/-- The region's output array. -/
theorem arrays
    (h0 : V c (Pipeline.arrRef spec3 0) = k_main_v70 A)
    (h1 : V c (Pipeline.arrRef spec3 1) = A.a0)
    (h2 : V c (Pipeline.arrRef spec3 2) = k_main_v74 A)
    (h3 : V c (Pipeline.arrRef spec3 3) = k_main_v75 A)
    (h4 : V c (Pipeline.arrRef spec3 4) = k_main_v76 A)
    (h5 : V c (Pipeline.arrRef spec3 5) = k_main_v77 A)
    (h6 : V c (Pipeline.arrRef spec3 6) = A.a13)
    (h7 : V c (Pipeline.arrRef spec3 7) = k_main_v78 A) :
    (dat3 V c).arrAt 8 cfg3.N = k_main_v79 A :=
  (dat3 V c).arrAt_eq_of_cover 8 (k_main_v79 A) (fun t _ => flushed_eq V c A h0 h1 h2 h3 h4 h5 h6 h7 t) cover

end Cert.KernelIdeal.Region3

end
-- ==== Proof.Fold.lean ====
/-
  The kernel program's run, boundary by boundary: before each pallas_call every input array of the call holds the host
  value the kernel program's dataflow gives it (a host stretch writes each buffer with its operation applied to its
  operands; a pallas_call leaves the arrays it does not write as they were), each call's outputs are the stage's
  values, and so the three results end at their values of the launch arguments.
-/
import proofs.«152136_j87351044866445_1_alg».proof.Proof.Gen.KernelIdeal.Frame
import proofs.«152136_j87351044866445_1_alg».proof.Proof.Gen.ReferenceIdeal
import proofs.«152136_j87351044866445_1_alg».proof.Proof.KSpec
import proofs.«152136_j87351044866445_1_alg».proof.Proof.Region0
import proofs.«152136_j87351044866445_1_alg».proof.Proof.Region1
import proofs.«152136_j87351044866445_1_alg».proof.Proof.Region2
import proofs.«152136_j87351044866445_1_alg».proof.Proof.Region3
import Idealize.ShloMosaic.Lib.StableHlo.Run

set_option maxRecDepth 16384
set_option maxHeartbeats 1000000

noncomputable section

namespace Cert.KernelIdeal.Fold

open Idealize.ShloMosaic Idealize.ShloMosaic.TcCoe
open Idealize.SL.Sem
open Cert.KernelIdeal Cert.KernelIdeal.Gen Cert.KSpec

variable (m : (ℓ : Loc nD τ sig) → Buf (Elt Ideal) ℓ) (ρ : Dev nD → PrngReg)

/-- A buffer read after one or several host stretches in a row: the stretches' folds are opened down to the contents at
    the previous pallas_call's exit (or at the launch) — each operation's result at its own buffer is its function of
    its operands' contents, and at any other buffer what was there. -/
local macro "fold_step" : tactic =>
  `(tactic| (dsimp only [W1, W3, W4, W5, W7, W9, W10, W11, hostOps0, hostOps1, hostOps1_1, hostOps1_2, hostOps2, hostOps3,
               hostOps3_1, hostOps3_2]
             after_results_simp))

/-! ## The variance function's body: its values are read and written at buffers of their own types -/

/-- A value written to a typed reference's buffer and read back is the value. -/
theorem ofBuf_toBuf {T : BufTy} (x : StableHlo.TRef sig T) (v : T.Contents (Elt Ideal)) : x.ofBuf (x.toBuf v) = v := by
  obtain ⟨r, h1, h2, h3⟩ := x
  subst h1
  rfl

theorem ofBuf_v36_0 (h1 h2 h3) (v : main_v36_0.ty.Contents (Elt Ideal)) :
    (StableHlo.TRef.of main_v36_0 h1 h2 h3 : StableHlo.TRef sig ⟨S1600000x72, .f32⟩).ofBuf v = v := rfl
theorem ofBuf_c_8 (h1 h2 h3) (v : main_c_8.ty.Contents (Elt Ideal)) :
    (StableHlo.TRef.of main_c_8 h1 h2 h3 : StableHlo.TRef sig ⟨S_, .i32⟩).ofBuf v = v := rfl
theorem toBuf_v41 (h1 h2 h3) (v : (⟨S1x72, .f32⟩ : BufTy).Contents (Elt Ideal)) :
    (StableHlo.TRef.of main_v41 h1 h2 h3 : StableHlo.TRef sig ⟨S1x72, .f32⟩).toBuf v = v := rfl
theorem ofBuf_v70 (h1 h2 h3) (v : main_v70.ty.Contents (Elt Ideal)) :
    (StableHlo.TRef.of main_v70 h1 h2 h3 : StableHlo.TRef sig ⟨S50000x72, .f32⟩).ofBuf v = v := rfl
theorem ofBuf_c_17 (h1 h2 h3) (v : main_c_17.ty.Contents (Elt Ideal)) :
    (StableHlo.TRef.of main_c_17 h1 h2 h3 : StableHlo.TRef sig ⟨S_, .i32⟩).ofBuf v = v := rfl
theorem toBuf_v75 (h1 h2 h3) (v : (⟨S1x72, .f32⟩ : BufTy).Contents (Elt Ideal)) :
    (StableHlo.TRef.of main_v75 h1 h2 h3 : StableHlo.TRef sig ⟨S1x72, .f32⟩).toBuf v = v := rfl

/-! ## Before the first pallas_call: the gathered rows, the slices of the first edge weight, and the arguments -/

theorem W1_arg0 (c : Dev nD) : W1 m ρ c (Proc.devRef .tc main_arg0) = (kerArgs m c).a0 := by fold_step; rfl
theorem W1_arg1 (c : Dev nD) : W1 m ρ c (Proc.devRef .tc main_arg1) = (kerArgs m c).a1 := by fold_step; rfl
theorem W1_arg2 (c : Dev nD) : W1 m ρ c (Proc.devRef .tc main_arg2) = (kerArgs m c).a2 := by fold_step; rfl
theorem W1_arg5 (c : Dev nD) : W1 m ρ c (Proc.devRef .tc main_arg5) = (kerArgs m c).a5 := by fold_step; rfl
theorem W1_arg6 (c : Dev nD) : W1 m ρ c (Proc.devRef .tc main_arg6) = (kerArgs m c).a6 := by fold_step; rfl
theorem W1_arg7 (c : Dev nD) : W1 m ρ c (Proc.devRef .tc main_arg7) = (kerArgs m c).a7 := by fold_step; rfl
theorem W1_arg8 (c : Dev nD) : W1 m ρ c (Proc.devRef .tc main_arg8) = (kerArgs m c).a8 := by fold_step; rfl
theorem W1_arg9 (c : Dev nD) : W1 m ρ c (Proc.devRef .tc main_arg9) = (kerArgs m c).a9 := by fold_step; rfl
theorem W1_arg10 (c : Dev nD) : W1 m ρ c (Proc.devRef .tc main_arg10) = (kerArgs m c).a10 := by fold_step; rfl
theorem W1_arg11 (c : Dev nD) : W1 m ρ c (Proc.devRef .tc main_arg11) = (kerArgs m c).a11 := by fold_step; rfl
theorem W1_arg12 (c : Dev nD) : W1 m ρ c (Proc.devRef .tc main_arg12) = (kerArgs m c).a12 := by fold_step; rfl
theorem W1_arg13 (c : Dev nD) : W1 m ρ c (Proc.devRef .tc main_arg13) = (kerArgs m c).a13 := by fold_step; rfl
theorem W1_arg14 (c : Dev nD) : W1 m ρ c (Proc.devRef .tc main_arg14) = (kerArgs m c).a14 := by fold_step; rfl
theorem W1_arg15 (c : Dev nD) : W1 m ρ c (Proc.devRef .tc main_arg15) = (kerArgs m c).a15 := by fold_step; rfl
theorem W1_arg16 (c : Dev nD) : W1 m ρ c (Proc.devRef .tc main_arg16) = (kerArgs m c).a16 := by fold_step; rfl
theorem W1_arg17 (c : Dev nD) : W1 m ρ c (Proc.devRef .tc main_arg17) = (kerArgs m c).a17 := by fold_step; rfl
theorem W1_arg18 (c : Dev nD) : W1 m ρ c (Proc.devRef .tc main_arg18) = (kerArgs m c).a18 := by fold_step; rfl
theorem W1_arg19 (c : Dev nD) : W1 m ρ c (Proc.devRef .tc main_arg19) = (kerArgs m c).a19 := by fold_step; rfl

/-- The first row of the edge index, as the scatters read it later. -/
theorem W1_v1 (c : Dev nD) : W1 m ρ c (Proc.devRef .tc main_v1) = k_main_v1 (kerArgs m c) := by fold_step; rfl
/-- h[i]: the node features gathered at the wrapped first index row. -/
theorem W1_v10 (c : Dev nD) : W1 m ρ c (Proc.devRef .tc main_v10) = k_main_v10 (kerArgs m c) := by fold_step; rfl
/-- h[j]. -/
theorem W1_v17 (c : Dev nD) : W1 m ρ c (Proc.devRef .tc main_v17) = k_main_v17 (kerArgs m c) := by fold_step; rfl
/-- x[i]. -/
theorem W1_v24 (c : Dev nD) : W1 m ρ c (Proc.devRef .tc main_v24) = k_main_v24 (kerArgs m c) := by fold_step; rfl
/-- x[j]. -/
theorem W1_v31 (c : Dev nD) : W1 m ρ c (Proc.devRef .tc main_v31) = k_main_v31 (kerArgs m c) := by fold_step; rfl
theorem W1_v32 (c : Dev nD) : W1 m ρ c (Proc.devRef .tc main_v32) = k_main_v32 (kerArgs m c) := by fold_step; rfl
theorem W1_v33 (c : Dev nD) : W1 m ρ c (Proc.devRef .tc main_v33) = k_main_v33 (kerArgs m c) := by fold_step; rfl
theorem W1_v34 (c : Dev nD) : W1 m ρ c (Proc.devRef .tc main_v34) = k_main_v34 (kerArgs m c) := by fold_step; rfl
theorem W1_v35 (c : Dev nD) : W1 m ρ c (Proc.devRef .tc main_v35) = k_main_v35 (kerArgs m c) := by fold_step; rfl

/-! ## After the first pallas_call: z and the displacement; every other buffer as entered -/

theorem W2_out (c : Dev nD) :
    W2 m ρ c (Proc.devRef .tc main_v36_0) = k_main_v36_0 (kerArgs m c)
      ∧ W2 m ρ c (Proc.devRef .tc main_v36_1) = k_main_v36_1 (kerArgs m c) := by
  have h := Region0.arrays (V1 m ρ) c (kerArgs m c) (W1_v10 m ρ c) (W1_v17 m ρ c) (W1_v24 m ρ c) (W1_v31 m ρ c)
    (W1_v32 m ρ c) (W1_v33 m ρ c) (W1_v34 m ρ c) (W1_v35 m ρ c)
  exact ⟨(W2_arr m ρ c 8).trans h.1, (W2_arr m ρ c 9).trans h.2⟩
theorem W2_v36_0 (c : Dev nD) : W2 m ρ c (Proc.devRef .tc main_v36_0) = k_main_v36_0 (kerArgs m c) := (W2_out m ρ c).1
theorem W2_v36_1 (c : Dev nD) : W2 m ρ c (Proc.devRef .tc main_v36_1) = k_main_v36_1 (kerArgs m c) := (W2_out m ρ c).2

theorem W2_v1 (c : Dev nD) : W2 m ρ c (Proc.devRef .tc main_v1) = k_main_v1 (kerArgs m c) :=
  (W2_of_ne m ρ c main_v1 (by decide)).trans (W1_v1 m ρ c)
theorem W2_arg0 (c : Dev nD) : W2 m ρ c (Proc.devRef .tc main_arg0) = (kerArgs m c).a0 :=
  (W2_of_ne m ρ c main_arg0 (by decide)).trans (W1_arg0 m ρ c)
theorem W2_arg1 (c : Dev nD) : W2 m ρ c (Proc.devRef .tc main_arg1) = (kerArgs m c).a1 :=
  (W2_of_ne m ρ c main_arg1 (by decide)).trans (W1_arg1 m ρ c)
theorem W2_arg2 (c : Dev nD) : W2 m ρ c (Proc.devRef .tc main_arg2) = (kerArgs m c).a2 :=
  (W2_of_ne m ρ c main_arg2 (by decide)).trans (W1_arg2 m ρ c)
theorem W2_arg5 (c : Dev nD) : W2 m ρ c (Proc.devRef .tc main_arg5) = (kerArgs m c).a5 :=
  (W2_of_ne m ρ c main_arg5 (by decide)).trans (W1_arg5 m ρ c)
theorem W2_arg6 (c : Dev nD) : W2 m ρ c (Proc.devRef .tc main_arg6) = (kerArgs m c).a6 :=
  (W2_of_ne m ρ c main_arg6 (by decide)).trans (W1_arg6 m ρ c)
theorem W2_arg7 (c : Dev nD) : W2 m ρ c (Proc.devRef .tc main_arg7) = (kerArgs m c).a7 :=
  (W2_of_ne m ρ c main_arg7 (by decide)).trans (W1_arg7 m ρ c)
theorem W2_arg8 (c : Dev nD) : W2 m ρ c (Proc.devRef .tc main_arg8) = (kerArgs m c).a8 :=
  (W2_of_ne m ρ c main_arg8 (by decide)).trans (W1_arg8 m ρ c)
theorem W2_arg9 (c : Dev nD) : W2 m ρ c (Proc.devRef .tc main_arg9) = (kerArgs m c).a9 :=
  (W2_of_ne m ρ c main_arg9 (by decide)).trans (W1_arg9 m ρ c)
theorem W2_arg10 (c : Dev nD) : W2 m ρ c (Proc.devRef .tc main_arg10) = (kerArgs m c).a10 :=
  (W2_of_ne m ρ c main_arg10 (by decide)).trans (W1_arg10 m ρ c)
theorem W2_arg11 (c : Dev nD) : W2 m ρ c (Proc.devRef .tc main_arg11) = (kerArgs m c).a11 :=
  (W2_of_ne m ρ c main_arg11 (by decide)).trans (W1_arg11 m ρ c)
theorem W2_arg12 (c : Dev nD) : W2 m ρ c (Proc.devRef .tc main_arg12) = (kerArgs m c).a12 :=
  (W2_of_ne m ρ c main_arg12 (by decide)).trans (W1_arg12 m ρ c)
theorem W2_arg13 (c : Dev nD) : W2 m ρ c (Proc.devRef .tc main_arg13) = (kerArgs m c).a13 :=
  (W2_of_ne m ρ c main_arg13 (by decide)).trans (W1_arg13 m ρ c)
theorem W2_arg14 (c : Dev nD) : W2 m ρ c (Proc.devRef .tc main_arg14) = (kerArgs m c).a14 :=
  (W2_of_ne m ρ c main_arg14 (by decide)).trans (W1_arg14 m ρ c)
theorem W2_arg15 (c : Dev nD) : W2 m ρ c (Proc.devRef .tc main_arg15) = (kerArgs m c).a15 :=
  (W2_of_ne m ρ c main_arg15 (by decide)).trans (W1_arg15 m ρ c)
theorem W2_arg16 (c : Dev nD) : W2 m ρ c (Proc.devRef .tc main_arg16) = (kerArgs m c).a16 :=
  (W2_of_ne m ρ c main_arg16 (by decide)).trans (W1_arg16 m ρ c)
theorem W2_arg17 (c : Dev nD) : W2 m ρ c (Proc.devRef .tc main_arg17) = (kerArgs m c).a17 :=
  (W2_of_ne m ρ c main_arg17 (by decide)).trans (W1_arg17 m ρ c)
theorem W2_arg18 (c : Dev nD) : W2 m ρ c (Proc.devRef .tc main_arg18) = (kerArgs m c).a18 :=
  (W2_of_ne m ρ c main_arg18 (by decide)).trans (W1_arg18 m ρ c)
theorem W2_arg19 (c : Dev nD) : W2 m ρ c (Proc.devRef .tc main_arg19) = (kerArgs m c).a19 :=
  (W2_of_ne m ρ c main_arg19 (by decide)).trans (W1_arg19 m ρ c)

/-! ## Before the second pallas_call: the batch statistics of z as rows, the reshaped small parameters -/

theorem W5_v36_0 (c : Dev nD) : W5 m ρ c (Proc.devRef .tc main_v36_0) = k_main_v36_0 (kerArgs m c) := by
  fold_step; exact W2_v36_0 m ρ c
theorem W5_v36_1 (c : Dev nD) : W5 m ρ c (Proc.devRef .tc main_v36_1) = k_main_v36_1 (kerArgs m c) := by
  fold_step; exact W2_v36_1 m ρ c
theorem W5_v1 (c : Dev nD) : W5 m ρ c (Proc.devRef .tc main_v1) = k_main_v1 (kerArgs m c) := by
  fold_step; exact W2_v1 m ρ c
theorem W5_arg0 (c : Dev nD) : W5 m ρ c (Proc.devRef .tc main_arg0) = (kerArgs m c).a0 := by
  fold_step; exact W2_arg0 m ρ c
theorem W5_arg1 (c : Dev nD) : W5 m ρ c (Proc.devRef .tc main_arg1) = (kerArgs m c).a1 := by
  fold_step; exact W2_arg1 m ρ c
theorem W5_arg2 (c : Dev nD) : W5 m ρ c (Proc.devRef .tc main_arg2) = (kerArgs m c).a2 := by
  fold_step; exact W2_arg2 m ρ c
theorem W5_arg7 (c : Dev nD) : W5 m ρ c (Proc.devRef .tc main_arg7) = (kerArgs m c).a7 := by
  fold_step; exact W2_arg7 m ρ c
theorem W5_arg9 (c : Dev nD) : W5 m ρ c (Proc.devRef .tc main_arg9) = (kerArgs m c).a9 := by
  fold_step; exact W2_arg9 m ρ c
theorem W5_arg10 (c : Dev nD) : W5 m ρ c (Proc.devRef .tc main_arg10) = (kerArgs m c).a10 := by
  fold_step; exact W2_arg10 m ρ c
theorem W5_arg11 (c : Dev nD) : W5 m ρ c (Proc.devRef .tc main_arg11) = (kerArgs m c).a11 := by
  fold_step; exact W2_arg11 m ρ c
theorem W5_arg12 (c : Dev nD) : W5 m ρ c (Proc.devRef .tc main_arg12) = (kerArgs m c).a12 := by
  fold_step; exact W2_arg12 m ρ c
theorem W5_arg13 (c : Dev nD) : W5 m ρ c (Proc.devRef .tc main_arg13) = (kerArgs m c).a13 := by
  fold_step; exact W2_arg13 m ρ c
theorem W5_arg14 (c : Dev nD) : W5 m ρ c (Proc.devRef .tc main_arg14) = (kerArgs m c).a14 := by
  fold_step; exact W2_arg14 m ρ c
theorem W5_arg15 (c : Dev nD) : W5 m ρ c (Proc.devRef .tc main_arg15) = (kerArgs m c).a15 := by
  fold_step; exact W2_arg15 m ρ c
theorem W5_arg17 (c : Dev nD) : W5 m ρ c (Proc.devRef .tc main_arg17) = (kerArgs m c).a17 := by
  fold_step; exact W2_arg17 m ρ c
theorem W5_arg18 (c : Dev nD) : W5 m ρ c (Proc.devRef .tc main_arg18) = (kerArgs m c).a18 := by
  fold_step; exact W2_arg18 m ρ c

/-- The column means of z, as a row. -/
theorem W5_v40 (c : Dev nD) : W5 m ρ c (Proc.devRef .tc main_v40) = k_main_v40 (kerArgs m c) := by
  fold_step; rw [W2_v36_0 m ρ c]; rfl
theorem W5_v42 (c : Dev nD) : W5 m ρ c (Proc.devRef .tc main_v42) = k_main_v42 (kerArgs m c) := by
  fold_step; rw [W2_arg5 m ρ c]; rfl
theorem W5_v43 (c : Dev nD) : W5 m ρ c (Proc.devRef .tc main_v43) = k_main_v43 (kerArgs m c) := by
  fold_step; rw [W2_arg6 m ρ c]; rfl
theorem W5_v44 (c : Dev nD) : W5 m ρ c (Proc.devRef .tc main_v44) = k_main_v44 (kerArgs m c) := by
  fold_step; rw [W2_arg8 m ρ c]; rfl
theorem W5_v45 (c : Dev nD) : W5 m ρ c (Proc.devRef .tc main_v45) = k_main_v45 (kerArgs m c) := by
  fold_step; rw [W2_arg19 m ρ c]; rfl
theorem W5_v46 (c : Dev nD) : W5 m ρ c (Proc.devRef .tc main_v46) = k_main_v46 (kerArgs m c) := by
  fold_step; rw [W2_arg16 m ρ c]; rfl

/-- The column variances of z (the mean subtracted, squared, averaged), as a row. -/
theorem W5_v41 (c : Dev nD) : W5 m ρ c (Proc.devRef .tc main_v41) = k_main_v41 (kerArgs m c) := by
  fold_step
  simp only [ofBuf_toBuf, ofBuf_v36_0, ofBuf_c_8, toBuf_v41]
  rw [W2_v36_0 m ρ c]
  unfold k_main_v41 k_main_call0_v13 k_main_call0_v12 k_main_call0_call0_v1 k_main_call0_call0_v0 k_main_call0_cst_4
    k_main_call0_cst_3 k_main_call0_v11 k_main_call0_v10 k_main_call0_v9 k_main_call0_cst_2 k_main_call0_v8
    k_main_call0_cst_1 k_main_call0_v7 k_main_call0_v6 k_main_call0_v5 k_main_call0_v4 k_main_call0_v3 k_main_call0_v2
    k_main_call0_cst_0 k_main_call0_v1 k_main_call0_v0 k_main_call0_cst k_main_c_8
  with_reducible rfl

/-! ## After the second pallas_call: the message and the clipped displacement -/

theorem W6_out (c : Dev nD) :
    W6 m ρ c (Proc.devRef .tc main_v47_0) = k_main_v47_0 (kerArgs m c)
      ∧ W6 m ρ c (Proc.devRef .tc main_v47_1) = k_main_v47_1 (kerArgs m c) := by
  have h := Region1.arrays (V5 m ρ) c (kerArgs m c) (W5_v36_0 m ρ c) (W5_v36_1 m ρ c) (W5_v40 m ρ c) (W5_v41 m ρ c)
    (W5_v42 m ρ c) (W5_v43 m ρ c) (W5_arg7 m ρ c) (W5_v44 m ρ c) (W5_arg18 m ρ c) (W5_v45 m ρ c) (W5_arg15 m ρ c)
    (W5_v46 m ρ c) (W5_arg17 m ρ c)
  exact ⟨(W6_arr m ρ c 13).trans h.1, (W6_arr m ρ c 14).trans h.2⟩
theorem W6_v47_0 (c : Dev nD) : W6 m ρ c (Proc.devRef .tc main_v47_0) = k_main_v47_0 (kerArgs m c) := (W6_out m ρ c).1
theorem W6_v47_1 (c : Dev nD) : W6 m ρ c (Proc.devRef .tc main_v47_1) = k_main_v47_1 (kerArgs m c) := (W6_out m ρ c).2

theorem W6_v1 (c : Dev nD) : W6 m ρ c (Proc.devRef .tc main_v1) = k_main_v1 (kerArgs m c) :=
  (W6_of_ne m ρ c main_v1 (by decide)).trans (W5_v1 m ρ c)
theorem W6_arg0 (c : Dev nD) : W6 m ρ c (Proc.devRef .tc main_arg0) = (kerArgs m c).a0 :=
  (W6_of_ne m ρ c main_arg0 (by decide)).trans (W5_arg0 m ρ c)
theorem W6_arg1 (c : Dev nD) : W6 m ρ c (Proc.devRef .tc main_arg1) = (kerArgs m c).a1 :=
  (W6_of_ne m ρ c main_arg1 (by decide)).trans (W5_arg1 m ρ c)
theorem W6_arg2 (c : Dev nD) : W6 m ρ c (Proc.devRef .tc main_arg2) = (kerArgs m c).a2 :=
  (W6_of_ne m ρ c main_arg2 (by decide)).trans (W5_arg2 m ρ c)
theorem W6_arg9 (c : Dev nD) : W6 m ρ c (Proc.devRef .tc main_arg9) = (kerArgs m c).a9 :=
  (W6_of_ne m ρ c main_arg9 (by decide)).trans (W5_arg9 m ρ c)
theorem W6_arg10 (c : Dev nD) : W6 m ρ c (Proc.devRef .tc main_arg10) = (kerArgs m c).a10 :=
  (W6_of_ne m ρ c main_arg10 (by decide)).trans (W5_arg10 m ρ c)
theorem W6_arg11 (c : Dev nD) : W6 m ρ c (Proc.devRef .tc main_arg11) = (kerArgs m c).a11 :=
  (W6_of_ne m ρ c main_arg11 (by decide)).trans (W5_arg11 m ρ c)
theorem W6_arg12 (c : Dev nD) : W6 m ρ c (Proc.devRef .tc main_arg12) = (kerArgs m c).a12 :=
  (W6_of_ne m ρ c main_arg12 (by decide)).trans (W5_arg12 m ρ c)
theorem W6_arg13 (c : Dev nD) : W6 m ρ c (Proc.devRef .tc main_arg13) = (kerArgs m c).a13 :=
  (W6_of_ne m ρ c main_arg13 (by decide)).trans (W5_arg13 m ρ c)
theorem W6_arg14 (c : Dev nD) : W6 m ρ c (Proc.devRef .tc main_arg14) = (kerArgs m c).a14 :=
  (W6_of_ne m ρ c main_arg14 (by decide)).trans (W5_arg14 m ρ c)

/-! ## Before the third pallas_call: the aggregated messages, the coordinate update, the slices of the first node weight -/

theorem W7_v47_0 (c : Dev nD) : W7 m ρ c (Proc.devRef .tc main_v47_0) = k_main_v47_0 (kerArgs m c) := by
  fold_step; exact W6_v47_0 m ρ c
theorem W7_arg0 (c : Dev nD) : W7 m ρ c (Proc.devRef .tc main_arg0) = (kerArgs m c).a0 := by
  fold_step; exact W6_arg0 m ρ c
theorem W7_arg2 (c : Dev nD) : W7 m ρ c (Proc.devRef .tc main_arg2) = (kerArgs m c).a2 := by
  fold_step; exact W6_arg2 m ρ c
theorem W7_arg11 (c : Dev nD) : W7 m ρ c (Proc.devRef .tc main_arg11) = (kerArgs m c).a11 := by
  fold_step; exact W6_arg11 m ρ c
theorem W7_arg12 (c : Dev nD) : W7 m ρ c (Proc.devRef .tc main_arg12) = (kerArgs m c).a12 := by
  fold_step; exact W6_arg12 m ρ c
theorem W7_arg13 (c : Dev nD) : W7 m ρ c (Proc.devRef .tc main_arg13) = (kerArgs m c).a13 := by
  fold_step; exact W6_arg13 m ρ c
theorem W7_arg14 (c : Dev nD) : W7 m ρ c (Proc.devRef .tc main_arg14) = (kerArgs m c).a14 := by
  fold_step; exact W6_arg14 m ρ c

/-- The messages summed over the edges of each first endpoint. -/
theorem W7_v50 (c : Dev nD) : W7 m ρ c (Proc.devRef .tc main_v50) = k_main_v50 (kerArgs m c) := by
  fold_step; rw [W6_v1 m ρ c, W6_v47_0 m ρ c]; rfl
/-- The coordinates moved by the mean clipped displacement of each node's edges. -/
theorem W7_v65 (c : Dev nD) : W7 m ρ c (Proc.devRef .tc main_v65) = k_main_v65 (kerArgs m c) := by
  fold_step; rw [W6_v1 m ρ c, W6_v47_1 m ρ c, W6_arg1 m ρ c]; rfl
theorem W7_v66 (c : Dev nD) : W7 m ρ c (Proc.devRef .tc main_v66) = k_main_v66 (kerArgs m c) := by
  fold_step; rw [W6_arg9 m ρ c]; rfl
theorem W7_v67 (c : Dev nD) : W7 m ρ c (Proc.devRef .tc main_v67) = k_main_v67 (kerArgs m c) := by
  fold_step; rw [W6_arg9 m ρ c]; rfl
theorem W7_v68 (c : Dev nD) : W7 m ρ c (Proc.devRef .tc main_v68) = k_main_v68 (kerArgs m c) := by
  fold_step; rw [W6_arg9 m ρ c]; rfl
theorem W7_v69 (c : Dev nD) : W7 m ρ c (Proc.devRef .tc main_v69) = k_main_v69 (kerArgs m c) := by
  fold_step; rw [W6_arg10 m ρ c]; rfl

/-! ## After the third pallas_call: z_h -/

theorem W8_v70 (c : Dev nD) : W8 m ρ c (Proc.devRef .tc main_v70) = k_main_v70 (kerArgs m c) :=
  (W8_arr m ρ c 7).trans (Region2.arrays (V7 m ρ) c (kerArgs m c) (W7_arg0 m ρ c) (W7_v50 m ρ c) (W7_arg2 m ρ c)
    (W7_v66 m ρ c) (W7_v67 m ρ c) (W7_v68 m ρ c) (W7_v69 m ρ c))

/-- The node features are an input window of the third pallas_call: the call leaves them as entered. -/
theorem W8_arg0 (c : Dev nD) : W8 m ρ c (Proc.devRef .tc main_arg0) = (kerArgs m c).a0 :=
  calc W8 m ρ c (Proc.devRef .tc main_arg0)
    _ = W7 m ρ c (Proc.devRef .tc main_arg0) :=
        (W8_arr m ρ c 0).trans (((dat2 (V7 m ρ) c).arrAt_in 0 rfl _).trans (A_eq2 (V7 m ρ) c 0))
    _ = (kerArgs m c).a0 := W7_arg0 m ρ c
theorem W8_v47_0 (c : Dev nD) : W8 m ρ c (Proc.devRef .tc main_v47_0) = k_main_v47_0 (kerArgs m c) :=
  (W8_of_ne m ρ c main_v47_0 (by decide)).trans (W7_v47_0 m ρ c)
theorem W8_v65 (c : Dev nD) : W8 m ρ c (Proc.devRef .tc main_v65) = k_main_v65 (kerArgs m c) :=
  (W8_of_ne m ρ c main_v65 (by decide)).trans (W7_v65 m ρ c)
theorem W8_arg11 (c : Dev nD) : W8 m ρ c (Proc.devRef .tc main_arg11) = (kerArgs m c).a11 :=
  (W8_of_ne m ρ c main_arg11 (by decide)).trans (W7_arg11 m ρ c)
theorem W8_arg12 (c : Dev nD) : W8 m ρ c (Proc.devRef .tc main_arg12) = (kerArgs m c).a12 :=
  (W8_of_ne m ρ c main_arg12 (by decide)).trans (W7_arg12 m ρ c)
theorem W8_arg13 (c : Dev nD) : W8 m ρ c (Proc.devRef .tc main_arg13) = (kerArgs m c).a13 :=
  (W8_of_ne m ρ c main_arg13 (by decide)).trans (W7_arg13 m ρ c)
theorem W8_arg14 (c : Dev nD) : W8 m ρ c (Proc.devRef .tc main_arg14) = (kerArgs m c).a14 :=
  (W8_of_ne m ρ c main_arg14 (by decide)).trans (W7_arg14 m ρ c)

/-! ## Before the fourth pallas_call: the batch statistics of z_h as rows, the reshaped small parameters -/

theorem W11_v70 (c : Dev nD) : W11 m ρ c (Proc.devRef .tc main_v70) = k_main_v70 (kerArgs m c) := by
  fold_step; exact W8_v70 m ρ c
theorem W11_v47_0 (c : Dev nD) : W11 m ρ c (Proc.devRef .tc main_v47_0) = k_main_v47_0 (kerArgs m c) := by
  fold_step; exact W8_v47_0 m ρ c
theorem W11_v65 (c : Dev nD) : W11 m ρ c (Proc.devRef .tc main_v65) = k_main_v65 (kerArgs m c) := by
  fold_step; exact W8_v65 m ρ c
theorem W11_arg0 (c : Dev nD) : W11 m ρ c (Proc.devRef .tc main_arg0) = (kerArgs m c).a0 := by
  fold_step; exact W8_arg0 m ρ c
theorem W11_arg13 (c : Dev nD) : W11 m ρ c (Proc.devRef .tc main_arg13) = (kerArgs m c).a13 := by
  fold_step; exact W8_arg13 m ρ c

/-- The column means of z_h, as a row. -/
theorem W11_v74 (c : Dev nD) : W11 m ρ c (Proc.devRef .tc main_v74) = k_main_v74 (kerArgs m c) := by
  fold_step; rw [W8_v70 m ρ c]; rfl
theorem W11_v76 (c : Dev nD) : W11 m ρ c (Proc.devRef .tc main_v76) = k_main_v76 (kerArgs m c) := by
  fold_step; rw [W8_arg11 m ρ c]; rfl
theorem W11_v77 (c : Dev nD) : W11 m ρ c (Proc.devRef .tc main_v77) = k_main_v77 (kerArgs m c) := by
  fold_step; rw [W8_arg12 m ρ c]; rfl
theorem W11_v78 (c : Dev nD) : W11 m ρ c (Proc.devRef .tc main_v78) = k_main_v78 (kerArgs m c) := by
  fold_step; rw [W8_arg14 m ρ c]; rfl

/-- The column variances of z_h, as a row. -/
theorem W11_v75 (c : Dev nD) : W11 m ρ c (Proc.devRef .tc main_v75) = k_main_v75 (kerArgs m c) := by
  fold_step
  simp only [ofBuf_toBuf, ofBuf_v70, ofBuf_c_17, toBuf_v75]
  rw [W8_v70 m ρ c]
  unfold k_main_v75 k_main_call1_v13 k_main_call1_v12 k_main_call1_call0_v1 k_main_call1_call0_v0 k_main_call1_cst_4
    k_main_call1_cst_3 k_main_call1_v11 k_main_call1_v10 k_main_call1_v9 k_main_call1_cst_2 k_main_call1_v8
    k_main_call1_cst_1 k_main_call1_v7 k_main_call1_v6 k_main_call1_v5 k_main_call1_v4 k_main_call1_v3 k_main_call1_v2
    k_main_call1_cst_0 k_main_call1_v1 k_main_call1_v0 k_main_call1_cst k_main_c_17
  with_reducible rfl

/-! ## The three results -/

/-- After the last pallas_call the node output holds h_out of the launch arguments. -/
theorem h_out (c : Dev nD) : W12 m ρ c (Proc.devRef .tc main_v79) = k_main_v79 (kerArgs m c) :=
  (W12_arr m ρ c 8).trans (Region3.arrays (V11 m ρ) c (kerArgs m c) (W11_v70 m ρ c) (W11_arg0 m ρ c) (W11_v74 m ρ c)
    (W11_v75 m ρ c) (W11_v76 m ρ c) (W11_v77 m ρ c) (W11_arg13 m ρ c) (W11_v78 m ρ c))

/-- The coordinate update is written by the host stretch after the second pallas_call and not touched again. -/
theorem x_out (c : Dev nD) : W12 m ρ c (Proc.devRef .tc main_v65) = k_main_v65 (kerArgs m c) :=
  (W12_of_ne m ρ c main_v65 (by decide)).trans (W11_v65 m ρ c)

/-- The message is the second pallas_call's first output and is not touched again. -/
theorem msg (c : Dev nD) : W12 m ρ c (Proc.devRef .tc main_v47_0) = k_main_v47_0 (kerArgs m c) :=
  (W12_of_ne m ρ c main_v47_0 (by decide)).trans (W11_v47_0 m ρ c)

end Cert.KernelIdeal.Fold

end
-- ==== Proof.RefRunLine.lean ====
/-
  A line of host operations in single-assignment form: each operation writes one buffer, no buffer is written twice,
  and an operation reads only buffers written before it or never written. Running such a line from any valuation,
  every buffer ends holding its operation's function applied to the FINAL contents of its operands, and a buffer no
  operation writes ends as it began. The facts here are about an arbitrary list of operations together with the list of
  the buffers they write; which buffer is written where is then decided over references.
-/
import Idealize.ShloMosaic.Lib.StableHlo.Run
import Mathlib.Data.List.Forall2

noncomputable section

namespace Cert.ReferenceIdeal.RefRun

open Idealize.ShloMosaic Idealize.ShloMosaic.TcCoe Idealize.SL.Sem Idealize.ShloMosaic.StableHlo

section Line

variable {τ : Topo} {sig : RefSig} {Val : EltTy → Type}

/-- Two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operation by operation, the one buffer each writes. -/
abbrev Writes (ops : List (HloOp τ sig Val)) (wr : List (Ref sig .tc)) : Prop :=
  List.Forall₂ (fun (o : HloOp τ sig Val) (w : Ref sig .tc) => o.writes = {Proc.devRef (τ := τ) .tc w}) ops wr

/-- A buffer none of the line's operations writes keeps its contents. -/
theorem after_frame {ops : List (HloOp τ sig Val)} {wr : List (Ref sig .tc)} (h : Writes ops wr)
    (V : Valuation τ sig Val) {r : Ref sig .tc} (hr : r ∉ wr) :
    after ops V (Proc.devRef .tc r) = V (Proc.devRef .tc r) := by
  induction h generalizing V with
  | nil => rfl
  | @cons o w ops wr ho _ ih =>
    rw [after_cons, ih _ (fun hm => hr (List.mem_cons_of_mem _ hm)),
      o.result_of_not_mem V (by rw [ho, Finset.mem_singleton]; exact devRef_ne_of_ne (fun e => hr (e ▸ List.mem_cons_self)))]

/-- A buffer not written from position k on holds at the end what it held after the first k operations. -/
theorem after_at {ops : List (HloOp τ sig Val)} {wr : List (Ref sig .tc)} (h : Writes ops wr)
    (V : Valuation τ sig Val) (k : Nat) {r : Ref sig .tc} (hr : r ∉ wr.drop k) :
    after ops V (Proc.devRef .tc r) = after (ops.take k) V (Proc.devRef .tc r) := by
  conv_lhs => rw [← List.take_append_drop k ops, after_append]
  exact after_frame (List.forall₂_drop k h) _ hr

/-- The first k+1 operations are the first k and then the k-th. -/
theorem after_take_succ {ops : List (HloOp τ sig Val)} {k : Nat} {op : HloOp τ sig Val} (hk : ops[k]? = some op)
    (V : Valuation τ sig Val) : after (ops.take (k + 1)) V = op.result (after (ops.take k) V) := by
  rw [List.take_succ, hk, after_append]; rfl

end Line

section Ssa

variable {τ : Topo} {sig : RefSig} {Val : EltTy → Type}
variable {ops : List (HloOp τ sig Val)} {wr : List (Ref sig .tc)}

/-- At the end of a line in single-assignment form each buffer holds its operation's function of its operands' final
    contents: the operation at position k writes y (not written again after k), its operands are not written from k on. -/
theorem ssa_nullary (h : Writes ops wr) (V : Valuation τ sig Val) (k : Nat) {y : Ref sig .tc} {v : y.ty.Contents Val} {hy}
    (hk : ops[k]? = some (nullary y v hy)) (hy' : y ∉ wr.drop (k + 1)) :
    after ops V (Proc.devRef .tc y) = v := by
  rw [after_at h V (k + 1) hy', after_take_succ hk, nullary_result]

theorem ssa_unary (h : Writes ops wr) (V : Valuation τ sig Val) (k : Nat) {x y : Ref sig .tc}
    {f : x.ty.Contents Val → y.ty.Contents Val} {hx hy}
    (hk : ops[k]? = some (unary x y f hx hy)) (hy' : y ∉ wr.drop (k + 1)) (hx' : x ∉ wr.drop k) :
    after ops V (Proc.devRef .tc y) = f (after ops V (Proc.devRef .tc x)) := by
  rw [after_at h V (k + 1) hy', after_take_succ hk, unary_result, after_at h V k hx']

theorem ssa_binary (h : Writes ops wr) (V : Valuation τ sig Val) (k : Nat) {a b y : Ref sig .tc}
    {f : a.ty.Contents Val → b.ty.Contents Val → y.ty.Contents Val} {ha hb hy}
    (hk : ops[k]? = some (binary a b y f ha hb hy)) (hy' : y ∉ wr.drop (k + 1)) (ha' : a ∉ wr.drop k) (hb' : b ∉ wr.drop k) :
    after ops V (Proc.devRef .tc y) = f (after ops V (Proc.devRef .tc a)) (after ops V (Proc.devRef .tc b)) := by
  rw [after_at h V (k + 1) hy', after_take_succ hk, binary_result, after_at h V k ha', after_at h V k hb']

theorem ssa_ternary (h : Writes ops wr) (V : Valuation τ sig Val) (k : Nat) {c a b y : Ref sig .tc}
    {f : c.ty.Contents Val → a.ty.Contents Val → b.ty.Contents Val → y.ty.Contents Val} {hc ha hb hy}
    (hk : ops[k]? = some (ternary c a b y f hc ha hb hy)) (hy' : y ∉ wr.drop (k + 1))
    (hc' : c ∉ wr.drop k) (ha' : a ∉ wr.drop k) (hb' : b ∉ wr.drop k) :
    after ops V (Proc.devRef .tc y)
      = f (after ops V (Proc.devRef .tc c)) (after ops V (Proc.devRef .tc a)) (after ops V (Proc.devRef .tc b)) := by
  rw [after_at h V (k + 1) hy', after_take_succ hk, ternary_result, after_at h V k hc', after_at h V k ha', after_at h V k hb']

theorem ssa_reshape (h : Writes ops wr) (V : Valuation τ sig Val) (k : Nat) {x y : Ref sig .tc} {he hn hx hy}
    (hk : ops[k]? = some (reshape x y he hn hx hy)) (hy' : y ∉ wr.drop (k + 1)) (hx' : x ∉ wr.drop k) :
    after ops V (Proc.devRef .tc y) = fun i => he ▸ shapeCast y.ty.shape (after ops V (Proc.devRef .tc x)) hn i := by
  rw [after_at h V (k + 1) hy', after_take_succ hk, reshape_result, after_at h V k hx']

theorem ssa_nary (h : Writes ops wr) (V : Valuation τ sig Val) (k : Nat) {n : Nat} {xs : Fin n → Ref sig .tc} {y : Ref sig .tc}
    {f : ((j : Fin n) → (xs j).ty.Contents Val) → y.ty.Contents Val} {hxs hy}
    (hk : ops[k]? = some (nary xs y f hxs hy)) (hy' : y ∉ wr.drop (k + 1)) (hx' : ∀ j, xs j ∉ wr.drop k) :
    after ops V (Proc.devRef .tc y) = f (fun j => after ops V (Proc.devRef .tc (xs j))) := by
  rw [after_at h V (k + 1) hy', after_take_succ hk, nary_result]
  congr 1; funext j; exact (after_at h V k (hx' j)).symm

end Ssa

end Cert.ReferenceIdeal.RefRun

end
-- ==== Proof.RefRunOps0.lean ====
/-
  Window 0 of the reference's @main as a list: its host operations in order, the body of each function it calls written
  out at the call over that call's own buffers; beside it the list of the buffers these operations write, one each.
  The window is the straight line of the list; every operation touches TensorCore buffers only, determines its result,
  and writes exactly the buffer listed for it.
-/
import proofs.«152136_j87351044866445_1_alg».proof.Proof.Gen.ReferenceIdeal
import proofs.«152136_j87351044866445_1_alg».proof.Proof.RefRunLine

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0 (the bodies of the functions it calls written out over the call's buffers), in order. -/
def ops0 : List (HloOp τ sig (Elt F)) :=
  [ unary main_arg3 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg3 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg1 main_v9 main_v10 ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)),
    nullary main_c_1 (constantI S_ 32 0#32),
    unary main_c_1 main_v11 (broadcastInDim S1600000 ![] bcast_S_S1600000 : (⟨S_, .i32⟩ : BufTy).Contents (Elt F) → (⟨S1600000, .i32⟩ : BufTy).Contents (Elt F)),
    binary main_v3 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 50000#32),
    unary main_c_2 main_v13 (broadcastInDim S1600000 ![] bcast_S_S1600000 : (⟨S_, .i32⟩ : BufTy).Contents (Elt F) → (⟨S1600000, .i32⟩ : BufTy).Contents (Elt F)),
    binary main_v3 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v3 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_arg1 main_v16 main_v17 ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)),
    binary main_v10 main_v17 main_v18 (subf : (⟨S1600000x4, .f32⟩ : BufTy).Contents (Elt F) → (⟨S1600000x4, .f32⟩ : BufTy).Contents (Elt F) → (⟨S1600000x4, .f32⟩ : BufTy).Contents (Elt F)),
    binary main_v18 main_v18 main_v19 (mulf : (⟨S1600000x4, .f32⟩ : BufTy).Contents (Elt F) → (⟨S1600000x4, .f32⟩ : BufTy).Contents (Elt F) → (⟨S1600000x4, .f32⟩ : BufTy).Contents (Elt F)),
    unary main_v19 main_v20 ((extractStridedSlice S1600000x1 ![0, 0] · slices_S1600000x4_S1600000x1_0_0) : (⟨S1600000x4, .f32⟩ : BufTy).Contents (Elt F) → (⟨S1600000x1, .f32⟩ : BufTy).Contents (Elt F)),
    reshape main_v20 main_v21 rfl shapeCasts_S1600000x1_S1600000,
    nullary main_cst (constant S_ .f32 0x40000000#32),
    unary main_cst main_v22 (broadcastInDim S1600000 ![] bcast_S_S1600000 : (⟨S_, .f32⟩ : BufTy).Contents (Elt F) → (⟨S1600000, .f32⟩ : BufTy).Contents (Elt F)),
    binary main_v22 main_v21 main_v23 (mulf : (⟨S1600000, .f32⟩ : BufTy).Contents (Elt F) → (⟨S1600000, .f32⟩ : BufTy).Contents (Elt F) → (⟨S1600000, .f32⟩ : BufTy).Contents (Elt F)),
    nullary main_cst_3 (constant S_ .f32 0x00000000#32),
    binary main_v19 main_cst_3 main_v24 ((fun x v => Host.reduceAdd x v reducesTo_S1600000x4_S1600000_d1 h_S_) : (⟨S1600000x4, .f32⟩ : BufTy).Contents (Elt F) → (⟨S_, .f32⟩ : BufTy).Contents (Elt F) → (⟨S1600000, .f32⟩ : BufTy).Contents (Elt F)),
    binary main_v23 main_v24 main_v25 (subf : (⟨S1600000, .f32⟩ : BufTy).Contents (Elt F) → (⟨S1600000, .f32⟩ : BufTy).Contents (Elt F) → (⟨S1600000, .f32⟩ : BufTy).Contents (Elt F)),
    unary main_v25 main_v26 (Host.sign : (⟨S1600000, .f32⟩ : BufTy).Contents (Elt F) → (⟨S1600000, .f32⟩ : BufTy).Contents (Elt F)),
    unary main_v25 main_v27 (Host.absf : (⟨S1600000, .f32⟩ : BufTy).Contents (Elt F) → (⟨S1600000, .f32⟩ : BufTy).Contents (Elt F)),
    nullary main_cst_4 (constant S_ .f32 0x3F800000#32),
    unary main_cst_4 main_v28 (broadcastInDim S1600000 ![] bcast_S_S1600000 : (⟨S_, .f32⟩ : BufTy).Contents (Elt F) → (⟨S1600000, .f32⟩ : BufTy).Contents (Elt F)),
    binary main_v27 main_v28 main_v29 (addf : (⟨S1600000, .f32⟩ : BufTy).Contents (Elt F) → (⟨S1600000, .f32⟩ : BufTy).Contents (Elt F) → (⟨S1600000, .f32⟩ : BufTy).Contents (Elt F)),
    unary main_v29 main_v30 (Host.log : (⟨S1600000, .f32⟩ : BufTy).Contents (Elt F) → (⟨S1600000, .f32⟩ : BufTy).Contents (Elt F)),
    binary main_v26 main_v30 main_v31 (mulf : (⟨S1600000, .f32⟩ : BufTy).Contents (Elt F) → (⟨S1600000, .f32⟩ : BufTy).Contents (Elt F) → (⟨S1600000, .f32⟩ : BufTy).Contents (Elt F)),
    unary main_v31 main_v32 (broadcastInDim S1600000x1 ![0] bcast_S1600000_S1600000x1_0 : (⟨S1600000, .f32⟩ : BufTy).Contents (Elt F) → (⟨S1600000x1, .f32⟩ : BufTy).Contents (Elt F)),
    nullary main_c_5 (constantI S_ 32 0#32),
    unary main_c_5 main_v33 (broadcastInDim S1600000 ![] bcast_S_S1600000 : (⟨S_, .i32⟩ : BufTy).Contents (Elt F) → (⟨S1600000, .i32⟩ : BufTy).Contents (Elt F)),
    binary main_v1 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 50000#32),
    unary main_c_6 main_v35 (broadcastInDim S1600000 ![] bcast_S_S1600000 : (⟨S_, .i32⟩ : BufTy).Contents (Elt F) → (⟨S1600000, .i32⟩ : BufTy).Contents (Elt F)),
    binary main_v1 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_v1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_arg1 main_v38 main_v39 ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)),
    nullary main_c_7 (constantI S_ 32 0#32),
    unary main_c_7 main_v40 (broadcastInDim S1600000 ![] bcast_S_S1600000 : (⟨S_, .i32⟩ : BufTy).Contents (Elt F) → (⟨S1600000, .i32⟩ : BufTy).Contents (Elt F)),
    binary main_v3 main_v40 main_v41 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 50000#32),
    unary main_c_8 main_v42 (broadcastInDim S1600000 ![] bcast_S_S1600000 : (⟨S_, .i32⟩ : BufTy).Contents (Elt F) → (⟨S1600000, .i32⟩ : BufTy).Contents (Elt F)),
    binary main_v3 main_v42 main_v43 (addi : (⟨S1600000, .i32⟩ : BufTy).Contents (Elt F) → (⟨S1600000, .i32⟩ : BufTy).Contents (Elt F) → (⟨S1600000, .i32⟩ : BufTy).Contents (Elt F)),
    ternary main_v41 main_v43 main_v3 main_v44 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v44 main_v45 (broadcastInDim S1600000x1 ![0] bcast_S1600000_S1600000x1_0 : (⟨S1600000, .i32⟩ : BufTy).Contents (Elt F) → (⟨S1600000x1, .i32⟩ : BufTy).Contents (Elt F)),
    binary main_arg1 main_v45 main_v46 ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)),
    binary main_v39 main_v46 main_v47 (mulf : (⟨S1600000x4, .f32⟩ : BufTy).Contents (Elt F) → (⟨S1600000x4, .f32⟩ : BufTy).Contents (Elt F) → (⟨S1600000x4, .f32⟩ : BufTy).Contents (Elt F)),
    unary main_v47 main_v48 ((extractStridedSlice S1600000x1 ![0, 0] · slices_S1600000x4_S1600000x1_0_0) : (⟨S1600000x4, .f32⟩ : BufTy).Contents (Elt F) → (⟨S1600000x1, .f32⟩ : BufTy).Contents (Elt F)) ]

/-- The buffer each of them writes. -/
def wr0 : List (Ref sig .tc) :=
  [ main_v0, main_v1, main_v2, main_v3, main_c, main_v4, main_v5, main_c_0,
    main_v6, main_v7, main_v8, main_v9, main_v10, main_c_1, main_v11, main_v12,
    main_c_2, main_v13, main_v14, main_v15, main_v16, main_v17, main_v18, main_v19,
    main_v20, main_v21, main_cst, main_v22, main_v23, main_cst_3, main_v24, main_v25,
    main_v26, main_v27, main_cst_4, main_v28, main_v29, main_v30, main_v31, main_v32,
    main_c_5, main_v33, main_v34, main_c_6, main_v35, main_v36, main_v37, main_v38,
    main_v39, main_c_7, main_v40, main_v41, main_c_8, main_v42, main_v43, main_v44,
    main_v45, main_v46, main_v47, main_v48 ]
set_option maxRecDepth 8192 in
/-- Window 0 is the straight line of its list: the called functions' definitions unfolded at their calls, both sides are
    one chain of operation steps. -/
theorem part0_eq (d : Dev nD) : main_part0 (F := F) d = seq ops0 := rfl

/-- Every operation of the window touches TensorCore buffers only. -/
theorem ops0_sub : (ops0 : List (HloOp τ sig (Elt F))).Forall fun op => op.bufs ⊆ tcRefs τ sig := by
  unfold ops0
  exact ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    unary_bufs_sub .., reshape_bufs_sub .., nullary_bufs_sub .., unary_bufs_sub .., binary_bufs_sub .., nullary_bufs_sub ..,
    binary_bufs_sub .., binary_bufs_sub .., unary_bufs_sub .., unary_bufs_sub .., nullary_bufs_sub .., unary_bufs_sub ..,
    binary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..⟩

/-- Every operation of the window determines its result. -/
theorem ops0_fresh : (ops0 : List (HloOp τ sig (Elt F))).Forall fun op => op.fresh = ∅ := by
  unfold ops0
  exact ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 4096 in
/-- Operation by operation, the window writes the listed buffers. -/
theorem ops0_writes : Writes (ops0 : List (HloOp τ sig (Elt F))) wr0 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))
end Cert.ReferenceIdeal.RefRun

end
-- ==== Proof.RefRunOps1.lean ====
/-
  Window 1 of the reference's @main as a list: its host operations in order, the body of each function it calls written
  out at the call over that call's own buffers; beside it the list of the buffers these operations write, one each.
  The window is the straight line of the list; every operation touches TensorCore buffers only, determines its result,
  and writes exactly the buffer listed for it.
-/
import proofs.«152136_j87351044866445_1_alg».proof.Proof.Gen.ReferenceIdeal
import proofs.«152136_j87351044866445_1_alg».proof.Proof.RefRunLine

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 1 (the bodies of the functions it calls written out over the call's buffers), in order. -/
def ops1 : List (HloOp τ sig (Elt F)) :=
  [ reshape main_v48 main_v49 rfl shapeCasts_S1600000x1_S1600000,
    nullary main_cst_9 (constant S_ .f32 0x40000000#32),
    unary main_cst_9 main_v50 (broadcastInDim S1600000 ![] bcast_S_S1600000 : (⟨S_, .f32⟩ : BufTy).Contents (Elt F) → (⟨S1600000, .f32⟩ : BufTy).Contents (Elt F)),
    binary main_v50 main_v49 main_v51 (mulf : (⟨S1600000, .f32⟩ : BufTy).Contents (Elt F) → (⟨S1600000, .f32⟩ : BufTy).Contents (Elt F) → (⟨S1600000, .f32⟩ : BufTy).Contents (Elt F)),
    nullary main_cst_10 (constant S_ .f32 0x00000000#32),
    binary main_v47 main_cst_10 main_v52 ((fun x v => Host.reduceAdd x v reducesTo_S1600000x4_S1600000_d1 h_S_) : (⟨S1600000x4, .f32⟩ : BufTy).Contents (Elt F) → (⟨S_, .f32⟩ : BufTy).Contents (Elt F) → (⟨S1600000, .f32⟩ : BufTy).Contents (Elt F)),
    binary main_v51 main_v52 main_v53 (subf : (⟨S1600000, .f32⟩ : BufTy).Contents (Elt F) → (⟨S1600000, .f32⟩ : BufTy).Contents (Elt F) → (⟨S1600000, .f32⟩ : BufTy).Contents (Elt F)),
    unary main_v53 main_v54 (Host.sign : (⟨S1600000, .f32⟩ : BufTy).Contents (Elt F) → (⟨S1600000, .f32⟩ : BufTy).Contents (Elt F)),
    unary main_v53 main_v55 (Host.absf : (⟨S1600000, .f32⟩ : BufTy).Contents (Elt F) → (⟨S1600000, .f32⟩ : BufTy).Contents (Elt F)),
    nullary main_cst_11 (constant S_ .f32 0x3F800000#32),
    unary main_cst_11 main_v56 (broadcastInDim S1600000 ![] bcast_S_S1600000 : (⟨S_, .f32⟩ : BufTy).Contents (Elt F) → (⟨S1600000, .f32⟩ : BufTy).Contents (Elt F)),
    binary main_v55 main_v56 main_v57 (addf : (⟨S1600000, .f32⟩ : BufTy).Contents (Elt F) → (⟨S1600000, .f32⟩ : BufTy).Contents (Elt F) → (⟨S1600000, .f32⟩ : BufTy).Contents (Elt F)),
    unary main_v57 main_v58 (Host.log : (⟨S1600000, .f32⟩ : BufTy).Contents (Elt F) → (⟨S1600000, .f32⟩ : BufTy).Contents (Elt F)),
    binary main_v54 main_v58 main_v59 (mulf : (⟨S1600000, .f32⟩ : BufTy).Contents (Elt F) → (⟨S1600000, .f32⟩ : BufTy).Contents (Elt F) → (⟨S1600000, .f32⟩ : BufTy).Contents (Elt F)),
    unary main_v59 main_v60 (broadcastInDim S1600000x1 ![0] bcast_S1600000_S1600000x1_0 : (⟨S1600000, .f32⟩ : BufTy).Contents (Elt F) → (⟨S1600000x1, .f32⟩ : BufTy).Contents (Elt F)),
    nullary main_c_12 (constantI S_ 32 0#32),
    unary main_c_12 main_v61 (broadcastInDim S1600000 ![] bcast_S_S1600000 : (⟨S_, .i32⟩ : BufTy).Contents (Elt F) → (⟨S1600000, .i32⟩ : BufTy).Contents (Elt F)),
    binary main_v1 main_v61 main_v62 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 50000#32),
    unary main_c_13 main_v63 (broadcastInDim S1600000 ![] bcast_S_S1600000 : (⟨S_, .i32⟩ : BufTy).Contents (Elt F) → (⟨S1600000, .i32⟩ : BufTy).Contents (Elt F)),
    binary main_v1 main_v63 main_v64 (addi : (⟨S1600000, .i32⟩ : BufTy).Contents (Elt F) → (⟨S1600000, .i32⟩ : BufTy).Contents (Elt F) → (⟨S1600000, .i32⟩ : BufTy).Contents (Elt F)),
    ternary main_v62 main_v64 main_v1 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v65 main_v66 (broadcastInDim S1600000x1 ![0] bcast_S1600000_S1600000x1_0 : (⟨S1600000, .i32⟩ : BufTy).Contents (Elt F) → (⟨S1600000x1, .i32⟩ : BufTy).Contents (Elt F)),
    binary main_arg0 main_v66 main_v67 ((fun x i => Host.gather gather_S50000x72_S1600000x1_S1600000x72_1_0_n_n_0_1_172 x i) : (⟨S50000x72, .f32⟩ : BufTy).Contents (Elt F) → (⟨S1600000x1, .i32⟩ : BufTy).Contents (Elt F) → (⟨S1600000x72, .f32⟩ : BufTy).Contents (Elt F)),
    nullary main_c_14 (constantI S_ 32 0#32),
    unary main_c_14 main_v68 (broadcastInDim S1600000 ![] bcast_S_S1600000 : (⟨S_, .i32⟩ : BufTy).Contents (Elt F) → (⟨S1600000, .i32⟩ : BufTy).Contents (Elt F)),
    binary main_v3 main_v68 main_v69 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 50000#32),
    unary main_c_15 main_v70 (broadcastInDim S1600000 ![] bcast_S_S1600000 : (⟨S_, .i32⟩ : BufTy).Contents (Elt F) → (⟨S1600000, .i32⟩ : BufTy).Contents (Elt F)),
    binary main_v3 main_v70 main_v71 (addi : (⟨S1600000, .i32⟩ : BufTy).Contents (Elt F) → (⟨S1600000, .i32⟩ : BufTy).Contents (Elt F) → (⟨S1600000, .i32⟩ : BufTy).Contents (Elt F)),
    ternary main_v69 main_v71 main_v3 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v72 main_v73 (broadcastInDim S1600000x1 ![0] bcast_S1600000_S1600000x1_0 : (⟨S1600000, .i32⟩ : BufTy).Contents (Elt F) → (⟨S1600000x1, .i32⟩ : BufTy).Contents (Elt F)),
    binary main_arg0 main_v73 main_v74 ((fun x i => Host.gather gather_S50000x72_S1600000x1_S1600000x72_1_0_n_n_0_1_172 x i) : (⟨S50000x72, .f32⟩ : BufTy).Contents (Elt F) → (⟨S1600000x1, .i32⟩ : BufTy).Contents (Elt F) → (⟨S1600000x72, .f32⟩ : BufTy).Contents (Elt F)),
    nary ![main_v67, main_v74, main_v32, main_v60] main_v75 (fun u => concatenate S1600000x146 1 [⟨S1600000x72, u 0⟩, ⟨S1600000x72, u 1⟩, ⟨S1600000x1, u 2⟩, ⟨S1600000x1, u 3⟩] concatenates_S1600000x72_S1600000x72_S1600000x1_S1600000x1_S1600000x146_d1),
    binary main_v75 main_arg4 main_v76 ((fun l r => Host.dotGeneral dot_S1600000x146_S146x72_S1600000x72_1_0_0_1_n_n none l r) : (⟨S1600000x146, .f32⟩ : BufTy).Contents (Elt F) → (⟨S146x72, .f32⟩ : BufTy).Contents (Elt F) → (⟨S1600000x72, .f32⟩ : BufTy).Contents (Elt F)),
    nullary main_cst_16 (constant S_ .f32 0x00000000#32),
    binary main_v76 main_cst_16 main_v77 ((fun x v => Host.reduceAdd x v reducesTo_S1600000x72_S72_d0 h_S_) : (⟨S1600000x72, .f32⟩ : BufTy).Contents (Elt F) → (⟨S_, .f32⟩ : BufTy).Contents (Elt F) → (⟨S72, .f32⟩ : BufTy).Contents (Elt F)),
    nullary main_cst_17 (constant S_ .f32 0x49C35000#32),
    unary main_cst_17 main_v78 (broadcastInDim S72 ![] bcast_S_S72 : (⟨S_, .f32⟩ : BufTy).Contents (Elt F) → (⟨S72, .f32⟩ : BufTy).Contents (Elt F)),
    binary main_v77 main_v78 main_v79 (Host.divf : (⟨S72, .f32⟩ : BufTy).Contents (Elt F) → (⟨S72, .f32⟩ : BufTy).Contents (Elt F) → (⟨S72, .f32⟩ : BufTy).Contents (Elt F)),
    nullary main_c_18 (constantI S_ 32 0#32),
    TRef.nullary main_call0.cst (constant S_ .f32 0x00000000#32),
    TRef.binary (.of main_v76) main_call0.cst main_call0.v0 (fun x v => Host.reduceAdd x v reducesTo_S1600000x72_S72_d0 h_S_),
    TRef.unary main_call0.v0 main_call0.v1 (broadcastInDim S1x72 ![1] bcast_S72_S1x72_1),
    TRef.nullary main_call0.cst_0 (constant S_ .f32 0x49C35000#32),
    TRef.unary main_call0.cst_0 main_call0.v2 (broadcastInDim S1x72 ![] bcast_S_S1x72),
    TRef.binary main_call0.v1 main_call0.v2 main_call0.v3 Host.divf,
    TRef.unary main_call0.v3 main_call0.v4 (broadcastInDim S1600000x72 ![0, 1] bcast_S1x72_S1600000x72_0_1),
    TRef.binary (.of main_v76) main_call0.v4 main_call0.v5 subf,
    TRef.binary main_call0.v5 main_call0.v5 main_call0.v6 mulf,
    TRef.unary (.of main_c_18) main_call0.v7 (sitofp .f32),
    TRef.nullary main_call0.cst_1 (constant S_ .f32 0x49C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1600000x72_S72_d0 h_S_),
    TRef.unary main_call0.v8 main_call0.v10 (broadcastInDim S72 ![] bcast_S_S72),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S72 ![] bcast_S_S72),
    TRef.ternary main_call0.v12 main_call0.v11 main_call0.call0.v1 main_call0.call0.v2 (fun p a b => select (broadcastInDim S72 ![] bcast_S_S72 p) a b),
    unary main_v79 main_v81 (broadcastInDim S1x72 ![1] bcast_S72_S1x72_1 : (⟨S72, .f32⟩ : BufTy).Contents (Elt F) → (⟨S1x72, .f32⟩ : BufTy).Contents (Elt F)),
    unary main_v81 main_v82 (broadcastInDim S1600000x72 ![0, 1] bcast_S1x72_S1600000x72_0_1 : (⟨S1x72, .f32⟩ : BufTy).Contents (Elt F) → (⟨S1600000x72, .f32⟩ : BufTy).Contents (Elt F)),
    binary main_v76 main_v82 main_v83 (subf : (⟨S1600000x72, .f32⟩ : BufTy).Contents (Elt F) → (⟨S1600000x72, .f32⟩ : BufTy).Contents (Elt F) → (⟨S1600000x72, .f32⟩ : BufTy).Contents (Elt F)),
    nullary main_cst_19 (constant S_ .f32 0x3727C5AC#32),
    unary main_cst_19 main_v84 (broadcastInDim S72 ![] bcast_S_S72 : (⟨S_, .f32⟩ : BufTy).Contents (Elt F) → (⟨S72, .f32⟩ : BufTy).Contents (Elt F)),
    binary main_v80 main_v84 main_v85 (addf : (⟨S72, .f32⟩ : BufTy).Contents (Elt F) → (⟨S72, .f32⟩ : BufTy).Contents (Elt F) → (⟨S72, .f32⟩ : BufTy).Contents (Elt F)),
    unary main_v85 main_v86 (Host.rsqrt : (⟨S72, .f32⟩ : BufTy).Contents (Elt F) → (⟨S72, .f32⟩ : BufTy).Contents (Elt F)),
    unary main_v86 main_v87 (broadcastInDim S1x72 ![1] bcast_S72_S1x72_1 : (⟨S72, .f32⟩ : BufTy).Contents (Elt F) → (⟨S1x72, .f32⟩ : BufTy).Contents (Elt F)),
    unary main_v87 main_v88 (broadcastInDim S1600000x72 ![0, 1] bcast_S1x72_S1600000x72_0_1 : (⟨S1x72, .f32⟩ : BufTy).Contents (Elt F) → (⟨S1600000x72, .f32⟩ : BufTy).Contents (Elt F)),
    binary main_v83 main_v88 main_v89 (mulf : (⟨S1600000x72, .f32⟩ : BufTy).Contents (Elt F) → (⟨S1600000x72, .f32⟩ : BufTy).Contents (Elt F) → (⟨S1600000x72, .f32⟩ : BufTy).Contents (Elt F)),
    unary main_arg5 main_v90 (broadcastInDim S1x72 ![1] bcast_S72_S1x72_1 : (⟨S72, .f32⟩ : BufTy).Contents (Elt F) → (⟨S1x72, .f32⟩ : BufTy).Contents (Elt F)),
    unary main_v90 main_v91 (broadcastInDim S1600000x72 ![0, 1] bcast_S1x72_S1600000x72_0_1 : (⟨S1x72, .f32⟩ : BufTy).Contents (Elt F) → (⟨S1600000x72, .f32⟩ : BufTy).Contents (Elt F)),
    binary main_v89 main_v91 main_v92 (mulf : (⟨S1600000x72, .f32⟩ : BufTy).Contents (Elt F) → (⟨S1600000x72, .f32⟩ : BufTy).Contents (Elt F) → (⟨S1600000x72, .f32⟩ : BufTy).Contents (Elt F)),
    unary main_arg6 main_v93 (broadcastInDim S1x72 ![1] bcast_S72_S1x72_1 : (⟨S72, .f32⟩ : BufTy).Contents (Elt F) → (⟨S1x72, .f32⟩ : BufTy).Contents (Elt F)),
    unary main_v93 main_v94 (broadcastInDim S1600000x72 ![0, 1] bcast_S1x72_S1600000x72_0_1 : (⟨S1x72, .f32⟩ : BufTy).Contents (Elt F) → (⟨S1600000x72, .f32⟩ : BufTy).Contents (Elt F)),
    binary main_v92 main_v94 main_v95 (addf : (⟨S1600000x72, .f32⟩ : BufTy).Contents (Elt F) → (⟨S1600000x72, .f32⟩ : BufTy).Contents (Elt F) → (⟨S1600000x72, .f32⟩ : BufTy).Contents (Elt F)),
    TRef.nullary main_call1.cst (constant S_ .f32 0x00000000#32),
    TRef.unary main_call1.cst main_call1.v0 (broadcastInDim S1600000x72 ![] bcast_S_S1600000x72),
    TRef.binary (.of main_v95) main_call1.v0 main_call1.v1 maximumf,
    binary main_v96 main_arg7 main_v97 ((fun l r => Host.dotGeneral dot_S1600000x72_S72x72_S1600000x72_1_0_0_1_n_n none l r) : (⟨S1600000x72, .f32⟩ : BufTy).Contents (Elt F) → (⟨S72x72, .f32⟩ : BufTy).Contents (Elt F) → (⟨S1600000x72, .f32⟩ : BufTy).Contents (Elt F)) ]

/-- The buffer each of them writes. -/
def wr1 : List (Ref sig .tc) :=
  [ main_v49, main_cst_9, main_v50, main_v51, main_cst_10, main_v52, main_v53, main_v54,
    main_v55, main_cst_11, main_v56, main_v57, main_v58, main_v59, main_v60, main_c_12,
    main_v61, main_v62, main_c_13, main_v63, main_v64, main_v65, main_v66, main_v67,
    main_c_14, main_v68, main_v69, main_c_15, main_v70, main_v71, main_v72, main_v73,
    main_v74, main_v75, main_v76, main_cst_16, main_v77, main_cst_17, main_v78, main_v79,
    main_c_18, main_call0_cst, main_call0_v0, main_call0_v1, main_call0_cst_0, main_call0_v2, main_call0_v3, main_call0_v4,
    main_call0_v5, main_call0_v6, main_call0_v7, main_call0_cst_1, main_call0_v8, main_call0_cst_2, main_call0_v9, main_call0_v10,
    main_call0_v11, main_call0_cst_3, main_call0_v12, main_call0_cst_4, main_call0_call0_v0, main_call0_call0_v1, main_v80, main_v81,
    main_v82, main_v83, main_cst_19, main_v84, main_v85, main_v86, main_v87, main_v88,
    main_v89, main_v90, main_v91, main_v92, main_v93, main_v94, main_v95, main_call1_cst,
    main_call1_v0, main_v96, main_v97 ]
set_option maxRecDepth 8192 in
/-- Window 1 is the straight line of its list: the called functions' definitions unfolded at their calls, both sides are
    one chain of operation steps. -/
theorem part1_eq (d : Dev nD) : main_part1 (F := F) d = seq ops1 := rfl

/-- Every operation of the window touches TensorCore buffers only. -/
theorem ops1_sub : (ops1 : List (HloOp τ sig (Elt F))).Forall fun op => op.bufs ⊆ tcRefs τ sig := by
  unfold ops1
  exact ⟨reshape_bufs_sub .., nullary_bufs_sub .., unary_bufs_sub .., binary_bufs_sub .., nullary_bufs_sub .., binary_bufs_sub ..,
    binary_bufs_sub .., unary_bufs_sub .., unary_bufs_sub .., nullary_bufs_sub .., unary_bufs_sub .., binary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub ..⟩

/-- Every operation of the window determines its result. -/
theorem ops1_fresh : (ops1 : List (HloOp τ sig (Elt F))).Forall fun op => op.fresh = ∅ := by
  unfold ops1
  exact ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

set_option maxRecDepth 4096 in
/-- Operation by operation, the window writes the listed buffers. -/
theorem ops1_writes : Writes (ops1 : List (HloOp τ sig (Elt F))) wr1 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))))))))))))))))))))))))))))))))))))))))))))))))))))))))))))))))
end Cert.ReferenceIdeal.RefRun

end
-- ==== Proof.RefRunOps2.lean ====
/-
  Window 2 of the reference's @main as a list: its host operations in order, the body of each function it calls written
  out at the call over that call's own buffers; beside it the list of the buffers these operations write, one each.
  The window is the straight line of the list; every operation touches TensorCore buffers only, determines its result,
  and writes exactly the buffer listed for it.
-/
import proofs.«152136_j87351044866445_1_alg».proof.Proof.Gen.ReferenceIdeal
import proofs.«152136_j87351044866445_1_alg».proof.Proof.RefRunLine

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 2 (the bodies of the functions it calls written out over the call's buffers), in order. -/
def ops2 : List (HloOp τ sig (Elt F)) :=
  [ unary main_arg8 main_v98 (broadcastInDim S1x72 ![1] bcast_S72_S1x72_1 : (⟨S72, .f32⟩ : BufTy).Contents (Elt F) → (⟨S1x72, .f32⟩ : BufTy).Contents (Elt F)),
    unary main_v98 main_v99 (broadcastInDim S1600000x72 ![0, 1] bcast_S1x72_S1600000x72_0_1 : (⟨S1x72, .f32⟩ : BufTy).Contents (Elt F) → (⟨S1600000x72, .f32⟩ : BufTy).Contents (Elt F)),
    binary main_v97 main_v99 main_v100 (addf : (⟨S1600000x72, .f32⟩ : BufTy).Contents (Elt F) → (⟨S1600000x72, .f32⟩ : BufTy).Contents (Elt F) → (⟨S1600000x72, .f32⟩ : BufTy).Contents (Elt F)),
    TRef.nullary main_call2.cst (constant S_ .f32 0x00000000#32),
    TRef.unary main_call2.cst main_call2.v0 (broadcastInDim S1600000x72 ![] bcast_S_S1600000x72),
    TRef.binary (.of main_v100) main_call2.v0 main_call2.v1 maximumf,
    binary main_v101 main_arg18 main_v102 ((fun l r => Host.dotGeneral dot_S1600000x72_S72x1_S1600000x1_1_0_0_1_n_n none l r) : (⟨S1600000x72, .f32⟩ : BufTy).Contents (Elt F) → (⟨S72x1, .f32⟩ : BufTy).Contents (Elt F) → (⟨S1600000x1, .f32⟩ : BufTy).Contents (Elt F)),
    unary main_arg19 main_v103 (broadcastInDim S1x1 ![1] bcast_S1_S1x1_1 : (⟨S1, .f32⟩ : BufTy).Contents (Elt F) → (⟨S1x1, .f32⟩ : BufTy).Contents (Elt F)),
    unary main_v103 main_v104 (broadcastInDim S1600000x1 ![0, 1] bcast_S1x1_S1600000x1_0_1 : (⟨S1x1, .f32⟩ : BufTy).Contents (Elt F) → (⟨S1600000x1, .f32⟩ : BufTy).Contents (Elt F)),
    binary main_v102 main_v104 main_v105 (addf : (⟨S1600000x1, .f32⟩ : BufTy).Contents (Elt F) → (⟨S1600000x1, .f32⟩ : BufTy).Contents (Elt F) → (⟨S1600000x1, .f32⟩ : BufTy).Contents (Elt F)),
    unary main_v105 main_v106 (Host.negf : (⟨S1600000x1, .f32⟩ : BufTy).Contents (Elt F) → (⟨S1600000x1, .f32⟩ : BufTy).Contents (Elt F)),
    unary main_v106 main_v107 (Host.exp : (⟨S1600000x1, .f32⟩ : BufTy).Contents (Elt F) → (⟨S1600000x1, .f32⟩ : BufTy).Contents (Elt F)),
    nullary main_cst_20 (constant S_ .f32 0x3F800000#32),
    unary main_cst_20 main_v108 (broadcastInDim S1600000x1 ![] bcast_S_S1600000x1 : (⟨S_, .f32⟩ : BufTy).Contents (Elt F) → (⟨S1600000x1, .f32⟩ : BufTy).Contents (Elt F)),
    binary main_v108 main_v107 main_v109 (addf : (⟨S1600000x1, .f32⟩ : BufTy).Contents (Elt F) → (⟨S1600000x1, .f32⟩ : BufTy).Contents (Elt F) → (⟨S1600000x1, .f32⟩ : BufTy).Contents (Elt F)),
    nullary main_cst_21 (constant S_ .f32 0x3F800000#32),
    unary main_cst_21 main_v110 (broadcastInDim S1600000x1 ![] bcast_S_S1600000x1 : (⟨S_, .f32⟩ : BufTy).Contents (Elt F) → (⟨S1600000x1, .f32⟩ : BufTy).Contents (Elt F)),
    binary main_v110 main_v109 main_v111 (Host.divf : (⟨S1600000x1, .f32⟩ : BufTy).Contents (Elt F) → (⟨S1600000x1, .f32⟩ : BufTy).Contents (Elt F) → (⟨S1600000x1, .f32⟩ : BufTy).Contents (Elt F)),
    unary main_v111 main_v112 (broadcastInDim S1600000x72 ![0, 1] bcast_S1600000x1_S1600000x72_0_1 : (⟨S1600000x1, .f32⟩ : BufTy).Contents (Elt F) → (⟨S1600000x72, .f32⟩ : BufTy).Contents (Elt F)),
    binary main_v101 main_v112 main_v113 (mulf : (⟨S1600000x72, .f32⟩ : BufTy).Contents (Elt F) → (⟨S1600000x72, .f32⟩ : BufTy).Contents (Elt F) → (⟨S1600000x72, .f32⟩ : BufTy).Contents (Elt F)),
    binary main_v113 main_arg15 main_v114 ((fun l r => Host.dotGeneral dot_S1600000x72_S72x72_S1600000x72_1_0_0_1_n_n none l r) : (⟨S1600000x72, .f32⟩ : BufTy).Contents (Elt F) → (⟨S72x72, .f32⟩ : BufTy).Contents (Elt F) → (⟨S1600000x72, .f32⟩ : BufTy).Contents (Elt F)),
    unary main_arg16 main_v115 (broadcastInDim S1x72 ![1] bcast_S72_S1x72_1 : (⟨S72, .f32⟩ : BufTy).Contents (Elt F) → (⟨S1x72, .f32⟩ : BufTy).Contents (Elt F)),
    unary main_v115 main_v116 (broadcastInDim S1600000x72 ![0, 1] bcast_S1x72_S1600000x72_0_1 : (⟨S1x72, .f32⟩ : BufTy).Contents (Elt F) → (⟨S1600000x72, .f32⟩ : BufTy).Contents (Elt F)),
    binary main_v114 main_v116 main_v117 (addf : (⟨S1600000x72, .f32⟩ : BufTy).Contents (Elt F) → (⟨S1600000x72, .f32⟩ : BufTy).Contents (Elt F) → (⟨S1600000x72, .f32⟩ : BufTy).Contents (Elt F)),
    TRef.nullary main_call3.cst (constant S_ .f32 0x00000000#32),
    TRef.unary main_call3.cst main_call3.v0 (broadcastInDim S1600000x72 ![] bcast_S_S1600000x72),
    TRef.binary (.of main_v117) main_call3.v0 main_call3.v1 maximumf,
    binary main_v118 main_arg17 main_v119 ((fun l r => Host.dotGeneral dot_S1600000x72_S72x1_S1600000x1_1_0_0_1_n_n none l r) : (⟨S1600000x72, .f32⟩ : BufTy).Contents (Elt F) → (⟨S72x1, .f32⟩ : BufTy).Contents (Elt F) → (⟨S1600000x1, .f32⟩ : BufTy).Contents (Elt F)),
    unary main_v119 main_v120 (broadcastInDim S1600000x4 ![0, 1] bcast_S1600000x1_S1600000x4_0_1 : (⟨S1600000x1, .f32⟩ : BufTy).Contents (Elt F) → (⟨S1600000x4, .f32⟩ : BufTy).Contents (Elt F)),
    binary main_v18 main_v120 main_v121 (mulf : (⟨S1600000x4, .f32⟩ : BufTy).Contents (Elt F) → (⟨S1600000x4, .f32⟩ : BufTy).Contents (Elt F) → (⟨S1600000x4, .f32⟩ : BufTy).Contents (Elt F)),
    nullary main_cst_22 (constant S_ .f32 0xC2C80000#32),
    nullary main_cst_23 (constant S_ .f32 0x42C80000#32),
    TRef.unary (.of main_cst_22) main_call4.v0 id,
    TRef.unary main_call4.v0 main_call4.v1 (broadcastInDim S1600000x4 ![] bcast_S_S1600000x4),
    TRef.binary main_call4.v1 (.of main_v121) main_call4.v2 maximumf,
    TRef.unary (.of main_cst_23) main_call4.v3 id,
    TRef.unary main_call4.v3 main_call4.v4 (broadcastInDim S1600000x4 ![] bcast_S_S1600000x4),
    TRef.binary main_call4.v4 main_call4.v2 main_call4.v5 minimumf,
    nullary main_cst_24 (constant S_ .f32 0x3F800000#32),
    unary main_cst_24 main_v123 (broadcastInDim S1600000 ![] bcast_S_S1600000 : (⟨S_, .f32⟩ : BufTy).Contents (Elt F) → (⟨S1600000, .f32⟩ : BufTy).Contents (Elt F)),
    nullary main_cst_25 (constant S_ .f32 0x00000000#32),
    unary main_cst_25 main_v124 (broadcastInDim S50000 ![] bcast_S_S50000 : (⟨S_, .f32⟩ : BufTy).Contents (Elt F) → (⟨S50000, .f32⟩ : BufTy).Contents (Elt F)),
    unary main_v1 main_v125 (broadcastInDim S1600000x1 ![0] bcast_S1600000_S1600000x1_0 : (⟨S1600000, .i32⟩ : BufTy).Contents (Elt F) → (⟨S1600000x1, .i32⟩ : BufTy).Contents (Elt F)),
    ternary main_v124 main_v125 main_v123 main_v126 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_26 (constant S_ .f32 0x00000000#32),
    unary main_cst_26 main_v127 (broadcastInDim S50000x4 ![] bcast_S_S50000x4 : (⟨S_, .f32⟩ : BufTy).Contents (Elt F) → (⟨S50000x4, .f32⟩ : BufTy).Contents (Elt F)),
    unary main_v1 main_v128 (broadcastInDim S1600000x1 ![0] bcast_S1600000_S1600000x1_0 : (⟨S1600000, .i32⟩ : BufTy).Contents (Elt F) → (⟨S1600000x1, .i32⟩ : BufTy).Contents (Elt F)),
    ternary main_v127 main_v128 main_v122 main_v129 ((fun x i u => Host.scatterAdd scatter_S50000x4_S1600000x1_S1600000x4_1_0_0_1 x i u) : (⟨S50000x4, .f32⟩ : BufTy).Contents (Elt F) → (⟨S1600000x1, .i32⟩ : BufTy).Contents (Elt F) → (⟨S1600000x4, .f32⟩ : BufTy).Contents (Elt F) → (⟨S50000x4, .f32⟩ : BufTy).Contents (Elt F)),
    nullary main_cst_27 (constant S_ .f32 0x3F800000#32),
    unary main_cst_27 main_v130 (broadcastInDim S50000 ![] bcast_S_S50000 : (⟨S_, .f32⟩ : BufTy).Contents (Elt F) → (⟨S50000, .f32⟩ : BufTy).Contents (Elt F)),
    binary main_v126 main_v130 main_v131 (maximumf : (⟨S50000, .f32⟩ : BufTy).Contents (Elt F) → (⟨S50000, .f32⟩ : BufTy).Contents (Elt F) → (⟨S50000, .f32⟩ : BufTy).Contents (Elt F)),
    unary main_v131 main_v132 (broadcastInDim S50000x1 ![0] bcast_S50000_S50000x1_0 : (⟨S50000, .f32⟩ : BufTy).Contents (Elt F) → (⟨S50000x1, .f32⟩ : BufTy).Contents (Elt F)),
    unary main_v132 main_v133 (broadcastInDim S50000x4 ![0, 1] bcast_S50000x1_S50000x4_0_1 : (⟨S50000x1, .f32⟩ : BufTy).Contents (Elt F) → (⟨S50000x4, .f32⟩ : BufTy).Contents (Elt F)),
    binary main_v129 main_v133 main_v134 (Host.divf : (⟨S50000x4, .f32⟩ : BufTy).Contents (Elt F) → (⟨S50000x4, .f32⟩ : BufTy).Contents (Elt F) → (⟨S50000x4, .f32⟩ : BufTy).Contents (Elt F)),
    nullary main_cst_28 (constant S_ .f32 0x3F800000#32),
    unary main_cst_28 main_v135 (broadcastInDim S50000x4 ![] bcast_S_S50000x4 : (⟨S_, .f32⟩ : BufTy).Contents (Elt F) → (⟨S50000x4, .f32⟩ : BufTy).Contents (Elt F)),
    binary main_v134 main_v135 main_v136 (mulf : (⟨S50000x4, .f32⟩ : BufTy).Contents (Elt F) → (⟨S50000x4, .f32⟩ : BufTy).Contents (Elt F) → (⟨S50000x4, .f32⟩ : BufTy).Contents (Elt F)),
    binary main_arg1 main_v136 main_v137 (addf : (⟨S50000x4, .f32⟩ : BufTy).Contents (Elt F) → (⟨S50000x4, .f32⟩ : BufTy).Contents (Elt F) → (⟨S50000x4, .f32⟩ : BufTy).Contents (Elt F)),
    nullary main_cst_29 (constant S_ .f32 0x00000000#32),
    unary main_cst_29 main_v138 (broadcastInDim S50000x72 ![] bcast_S_S50000x72 : (⟨S_, .f32⟩ : BufTy).Contents (Elt F) → (⟨S50000x72, .f32⟩ : BufTy).Contents (Elt F)),
    unary main_v1 main_v139 (broadcastInDim S1600000x1 ![0] bcast_S1600000_S1600000x1_0 : (⟨S1600000, .i32⟩ : BufTy).Contents (Elt F) → (⟨S1600000x1, .i32⟩ : BufTy).Contents (Elt F)),
    ternary main_v138 main_v139 main_v113 main_v140 ((fun x i u => Host.scatterAdd scatter_S50000x72_S1600000x1_S1600000x72_1_0_0_1 x i u) : (⟨S50000x72, .f32⟩ : BufTy).Contents (Elt F) → (⟨S1600000x1, .i32⟩ : BufTy).Contents (Elt F) → (⟨S1600000x72, .f32⟩ : BufTy).Contents (Elt F) → (⟨S50000x72, .f32⟩ : BufTy).Contents (Elt F)),
    nary ![main_arg0, main_v140, main_arg2] main_v141 (fun u => concatenate S50000x152 1 [⟨S50000x72, u 0⟩, ⟨S50000x72, u 1⟩, ⟨S50000x8, u 2⟩] concatenates_S50000x72_S50000x72_S50000x8_S50000x152_d1),
    binary main_v141 main_arg9 main_v142 ((fun l r => Host.dotGeneral dot_S50000x152_S152x72_S50000x72_1_0_0_1_n_n none l r) : (⟨S50000x152, .f32⟩ : BufTy).Contents (Elt F) → (⟨S152x72, .f32⟩ : BufTy).Contents (Elt F) → (⟨S50000x72, .f32⟩ : BufTy).Contents (Elt F)),
    unary main_arg10 main_v143 (broadcastInDim S1x72 ![1] bcast_S72_S1x72_1 : (⟨S72, .f32⟩ : BufTy).Contents (Elt F) → (⟨S1x72, .f32⟩ : BufTy).Contents (Elt F)),
    unary main_v143 main_v144 (broadcastInDim S50000x72 ![0, 1] bcast_S1x72_S50000x72_0_1 : (⟨S1x72, .f32⟩ : BufTy).Contents (Elt F) → (⟨S50000x72, .f32⟩ : BufTy).Contents (Elt F)),
    binary main_v142 main_v144 main_v145 (addf : (⟨S50000x72, .f32⟩ : BufTy).Contents (Elt F) → (⟨S50000x72, .f32⟩ : BufTy).Contents (Elt F) → (⟨S50000x72, .f32⟩ : BufTy).Contents (Elt F)),
    nullary main_cst_30 (constant S_ .f32 0x00000000#32),
    binary main_v145 main_cst_30 main_v146 ((fun x v => Host.reduceAdd x v reducesTo_S50000x72_S72_d0 h_S_) : (⟨S50000x72, .f32⟩ : BufTy).Contents (Elt F) → (⟨S_, .f32⟩ : BufTy).Contents (Elt F) → (⟨S72, .f32⟩ : BufTy).Contents (Elt F)) ]

/-- The buffer each of them writes. -/
def wr2 : List (Ref sig .tc) :=
  [ main_v98, main_v99, main_v100, main_call2_cst, main_call2_v0, main_v101, main_v102, main_v103,
    main_v104, main_v105, main_v106, main_v107, main_cst_20, main_v108, main_v109, main_cst_21,
    main_v110, main_v111, main_v112, main_v113, main_v114, main_v115, main_v116, main_v117,
    main_call3_cst, main_call3_v0, main_v118, main_v119, main_v120, main_v121, main_cst_22, main_cst_23,
    main_call4_v0, main_call4_v1, main_call4_v2, main_call4_v3, main_call4_v4, main_v122, main_cst_24, main_v123,
    main_cst_25, main_v124, main_v125, main_v126, main_cst_26, main_v127, main_v128, main_v129,
    main_cst_27, main_v130, main_v131, main_v132, main_v133, main_v134, main_cst_28, main_v135,
    main_v136, main_v137, main_cst_29, main_v138, main_v139, main_v140, main_v141, main_v142,
    main_v143, main_v144, main_v145, main_cst_30, main_v146 ]
set_option maxRecDepth 8192 in
/-- Window 2 is the straight line of its list: the called functions' definitions unfolded at their calls, both sides are
    one chain of operation steps. -/
theorem part2_eq (d : Dev nD) : main_part2 (F := F) d = seq ops2 := rfl

/-- Every operation of the window touches TensorCore buffers only. -/
theorem ops2_sub : (ops2 : List (HloOp τ sig (Elt F))).Forall fun op => op.bufs ⊆ tcRefs τ sig := by
  unfold ops2
  exact ⟨unary_bufs_sub .., unary_bufs_sub .., binary_bufs_sub .., nullary_bufs_sub .., unary_bufs_sub .., binary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., nullary_bufs_sub .., unary_bufs_sub .., nullary_bufs_sub .., unary_bufs_sub ..,
    unary_bufs_sub .., ternary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    nullary_bufs_sub .., unary_bufs_sub .., binary_bufs_sub .., binary_bufs_sub .., nullary_bufs_sub .., unary_bufs_sub ..,
    unary_bufs_sub .., ternary_bufs_sub .., nary_bufs_sub .., binary_bufs_sub .., unary_bufs_sub .., unary_bufs_sub ..,
    binary_bufs_sub .., nullary_bufs_sub .., binary_bufs_sub ..⟩

/-- Every operation of the window determines its result. -/
theorem ops2_fresh : (ops2 : List (HloOp τ sig (Elt F))).Forall fun op => op.fresh = ∅ := by
  unfold ops2
  exact ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl⟩

set_option maxRecDepth 4096 in
/-- Operation by operation, the window writes the listed buffers. -/
theorem ops2_writes : Writes (ops2 : List (HloOp τ sig (Elt F))) wr2 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))))))))))))))))))))))))))))))))))))))))))))))))))
end Cert.ReferenceIdeal.RefRun

end
-- ==== Proof.RefRunOps3.lean ====
/-
  Window 3 of the reference's @main as a list: its host operations in order, the body of each function it calls written
  out at the call over that call's own buffers; beside it the list of the buffers these operations write, one each.
  The window is the straight line of the list; every operation touches TensorCore buffers only, determines its result,
  and writes exactly the buffer listed for it.
-/
import proofs.«152136_j87351044866445_1_alg».proof.Proof.Gen.ReferenceIdeal
import proofs.«152136_j87351044866445_1_alg».proof.Proof.RefRunLine

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 3 (the bodies of the functions it calls written out over the call's buffers), in order. -/
def ops3 : List (HloOp τ sig (Elt F)) :=
  [ nullary main_cst_31 (constant S_ .f32 0x47435000#32),
    unary main_cst_31 main_v147 (broadcastInDim S72 ![] bcast_S_S72 : (⟨S_, .f32⟩ : BufTy).Contents (Elt F) → (⟨S72, .f32⟩ : BufTy).Contents (Elt F)),
    binary main_v146 main_v147 main_v148 (Host.divf : (⟨S72, .f32⟩ : BufTy).Contents (Elt F) → (⟨S72, .f32⟩ : BufTy).Contents (Elt F) → (⟨S72, .f32⟩ : BufTy).Contents (Elt F)),
    nullary main_c_32 (constantI S_ 32 0#32),
    TRef.nullary main_call5.cst (constant S_ .f32 0x00000000#32),
    TRef.binary (.of main_v145) main_call5.cst main_call5.v0 (fun x v => Host.reduceAdd x v reducesTo_S50000x72_S72_d0 h_S_),
    TRef.unary main_call5.v0 main_call5.v1 (broadcastInDim S1x72 ![1] bcast_S72_S1x72_1),
    TRef.nullary main_call5.cst_0 (constant S_ .f32 0x47435000#32),
    TRef.unary main_call5.cst_0 main_call5.v2 (broadcastInDim S1x72 ![] bcast_S_S1x72),
    TRef.binary main_call5.v1 main_call5.v2 main_call5.v3 Host.divf,
    TRef.unary main_call5.v3 main_call5.v4 (broadcastInDim S50000x72 ![0, 1] bcast_S1x72_S50000x72_0_1),
    TRef.binary (.of main_v145) main_call5.v4 main_call5.v5 subf,
    TRef.binary main_call5.v5 main_call5.v5 main_call5.v6 mulf,
    TRef.unary (.of main_c_32) main_call5.v7 (sitofp .f32),
    TRef.nullary main_call5.cst_1 (constant S_ .f32 0x47435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x72_S72_d0 h_S_),
    TRef.unary main_call5.v8 main_call5.v10 (broadcastInDim S72 ![] bcast_S_S72),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S72 ![] bcast_S_S72),
    TRef.ternary main_call5.v12 main_call5.v11 main_call5.call0.v1 main_call5.call0.v2 (fun p a b => select (broadcastInDim S72 ![] bcast_S_S72 p) a b),
    unary main_v148 main_v150 (broadcastInDim S1x72 ![1] bcast_S72_S1x72_1 : (⟨S72, .f32⟩ : BufTy).Contents (Elt F) → (⟨S1x72, .f32⟩ : BufTy).Contents (Elt F)),
    unary main_v150 main_v151 (broadcastInDim S50000x72 ![0, 1] bcast_S1x72_S50000x72_0_1 : (⟨S1x72, .f32⟩ : BufTy).Contents (Elt F) → (⟨S50000x72, .f32⟩ : BufTy).Contents (Elt F)),
    binary main_v145 main_v151 main_v152 (subf : (⟨S50000x72, .f32⟩ : BufTy).Contents (Elt F) → (⟨S50000x72, .f32⟩ : BufTy).Contents (Elt F) → (⟨S50000x72, .f32⟩ : BufTy).Contents (Elt F)),
    nullary main_cst_33 (constant S_ .f32 0x3727C5AC#32),
    unary main_cst_33 main_v153 (broadcastInDim S72 ![] bcast_S_S72 : (⟨S_, .f32⟩ : BufTy).Contents (Elt F) → (⟨S72, .f32⟩ : BufTy).Contents (Elt F)),
    binary main_v149 main_v153 main_v154 (addf : (⟨S72, .f32⟩ : BufTy).Contents (Elt F) → (⟨S72, .f32⟩ : BufTy).Contents (Elt F) → (⟨S72, .f32⟩ : BufTy).Contents (Elt F)),
    unary main_v154 main_v155 (Host.rsqrt : (⟨S72, .f32⟩ : BufTy).Contents (Elt F) → (⟨S72, .f32⟩ : BufTy).Contents (Elt F)),
    unary main_v155 main_v156 (broadcastInDim S1x72 ![1] bcast_S72_S1x72_1 : (⟨S72, .f32⟩ : BufTy).Contents (Elt F) → (⟨S1x72, .f32⟩ : BufTy).Contents (Elt F)),
    unary main_v156 main_v157 (broadcastInDim S50000x72 ![0, 1] bcast_S1x72_S50000x72_0_1 : (⟨S1x72, .f32⟩ : BufTy).Contents (Elt F) → (⟨S50000x72, .f32⟩ : BufTy).Contents (Elt F)),
    binary main_v152 main_v157 main_v158 (mulf : (⟨S50000x72, .f32⟩ : BufTy).Contents (Elt F) → (⟨S50000x72, .f32⟩ : BufTy).Contents (Elt F) → (⟨S50000x72, .f32⟩ : BufTy).Contents (Elt F)),
    unary main_arg11 main_v159 (broadcastInDim S1x72 ![1] bcast_S72_S1x72_1 : (⟨S72, .f32⟩ : BufTy).Contents (Elt F) → (⟨S1x72, .f32⟩ : BufTy).Contents (Elt F)),
    unary main_v159 main_v160 (broadcastInDim S50000x72 ![0, 1] bcast_S1x72_S50000x72_0_1 : (⟨S1x72, .f32⟩ : BufTy).Contents (Elt F) → (⟨S50000x72, .f32⟩ : BufTy).Contents (Elt F)),
    binary main_v158 main_v160 main_v161 (mulf : (⟨S50000x72, .f32⟩ : BufTy).Contents (Elt F) → (⟨S50000x72, .f32⟩ : BufTy).Contents (Elt F) → (⟨S50000x72, .f32⟩ : BufTy).Contents (Elt F)),
    unary main_arg12 main_v162 (broadcastInDim S1x72 ![1] bcast_S72_S1x72_1 : (⟨S72, .f32⟩ : BufTy).Contents (Elt F) → (⟨S1x72, .f32⟩ : BufTy).Contents (Elt F)),
    unary main_v162 main_v163 (broadcastInDim S50000x72 ![0, 1] bcast_S1x72_S50000x72_0_1 : (⟨S1x72, .f32⟩ : BufTy).Contents (Elt F) → (⟨S50000x72, .f32⟩ : BufTy).Contents (Elt F)),
    binary main_v161 main_v163 main_v164 (addf : (⟨S50000x72, .f32⟩ : BufTy).Contents (Elt F) → (⟨S50000x72, .f32⟩ : BufTy).Contents (Elt F) → (⟨S50000x72, .f32⟩ : BufTy).Contents (Elt F)),
    TRef.nullary main_call6.cst (constant S_ .f32 0x00000000#32),
    TRef.unary main_call6.cst main_call6.v0 (broadcastInDim S50000x72 ![] bcast_S_S50000x72),
    TRef.binary (.of main_v164) main_call6.v0 main_call6.v1 maximumf,
    binary main_v165 main_arg13 main_v166 ((fun l r => Host.dotGeneral dot_S50000x72_S72x72_S50000x72_1_0_0_1_n_n none l r) : (⟨S50000x72, .f32⟩ : BufTy).Contents (Elt F) → (⟨S72x72, .f32⟩ : BufTy).Contents (Elt F) → (⟨S50000x72, .f32⟩ : BufTy).Contents (Elt F)),
    binary main_arg0 main_v166 main_v167 (addf : (⟨S50000x72, .f32⟩ : BufTy).Contents (Elt F) → (⟨S50000x72, .f32⟩ : BufTy).Contents (Elt F) → (⟨S50000x72, .f32⟩ : BufTy).Contents (Elt F)),
    unary main_arg14 main_v168 (broadcastInDim S1x72 ![1] bcast_S72_S1x72_1 : (⟨S72, .f32⟩ : BufTy).Contents (Elt F) → (⟨S1x72, .f32⟩ : BufTy).Contents (Elt F)),
    unary main_v168 main_v169 (broadcastInDim S50000x72 ![0, 1] bcast_S1x72_S50000x72_0_1 : (⟨S1x72, .f32⟩ : BufTy).Contents (Elt F) → (⟨S50000x72, .f32⟩ : BufTy).Contents (Elt F)),
    binary main_v167 main_v169 main_v170 (addf : (⟨S50000x72, .f32⟩ : BufTy).Contents (Elt F) → (⟨S50000x72, .f32⟩ : BufTy).Contents (Elt F) → (⟨S50000x72, .f32⟩ : BufTy).Contents (Elt F)) ]

/-- The buffer each of them writes. -/
def wr3 : List (Ref sig .tc) :=
  [ main_cst_31, main_v147, main_v148, main_c_32, main_call5_cst, main_call5_v0, main_call5_v1, main_call5_cst_0,
    main_call5_v2, main_call5_v3, main_call5_v4, main_call5_v5, main_call5_v6, main_call5_v7, main_call5_cst_1, main_call5_v8,
    main_call5_cst_2, main_call5_v9, main_call5_v10, main_call5_v11, main_call5_cst_3, main_call5_v12, main_call5_cst_4, main_call5_call0_v0,
    main_call5_call0_v1, main_v149, main_v150, main_v151, main_v152, main_cst_33, main_v153, main_v154,
    main_v155, main_v156, main_v157, main_v158, main_v159, main_v160, main_v161, main_v162,
    main_v163, main_v164, main_call6_cst, main_call6_v0, main_v165, main_v166, main_v167, main_v168,
    main_v169, main_v170 ]
set_option maxRecDepth 8192 in
/-- Window 3 is the straight line of its list: the called functions' definitions unfolded at their calls, both sides are
    one chain of operation steps. -/
theorem part3_eq (d : Dev nD) : main_part3 (F := F) d = seq ops3 := rfl

/-- Every operation of the window touches TensorCore buffers only. -/
theorem ops3_sub : (ops3 : List (HloOp τ sig (Elt F))).Forall fun op => op.bufs ⊆ tcRefs τ sig := by
  unfold ops3
  exact ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., binary_bufs_sub .., unary_bufs_sub ..,
    unary_bufs_sub .., binary_bufs_sub ..⟩

/-- Every operation of the window determines its result. -/
theorem ops3_fresh : (ops3 : List (HloOp τ sig (Elt F))).Forall fun op => op.fresh = ∅ := by
  unfold ops3
  exact ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 4096 in
/-- Operation by operation, the window writes the listed buffers. -/
theorem ops3_writes : Writes (ops3 : List (HloOp τ sig (Elt F))) wr3 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))
end Cert.ReferenceIdeal.RefRun

end
-- ==== Proof.RefRunRead.lean ====
/-
  The reference's @main is the straight line of its four windows' operations, in single-assignment form. So from any
  memory with zero counters every weakly fair execution terminates with each TensorCore buffer at the fold of the
  operations over its launch contents; and that fold, read buffer by buffer in program order — each buffer its
  operation's function of its operands' final contents, the operands already read — is the table of values Spec.lean
  names: the buffer of value %v ends at r_main_v of the launch contents of the arguments, the arguments as launched.
-/
import proofs.«152136_j87351044866445_1_alg».proof.Proof.Gen.ReferenceIdeal
import proofs.«152136_j87351044866445_1_alg».proof.Proof.Spec
import proofs.«152136_j87351044866445_1_alg».proof.Proof.RefRunLine
import proofs.«152136_j87351044866445_1_alg».proof.Proof.RefRunOps0
import proofs.«152136_j87351044866445_1_alg».proof.Proof.RefRunOps1
import proofs.«152136_j87351044866445_1_alg».proof.Proof.RefRunOps2
import proofs.«152136_j87351044866445_1_alg».proof.Proof.RefRunOps3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the four windows' one after the other. -/
def ops : List (HloOp τ sig (Elt F)) := ops0 ++ (ops1 ++ (ops2 ++ ops3))

/-- The buffer each of them writes. -/
def wr : List (Ref sig .tc) := wr0 ++ (wr1 ++ (wr2 ++ wr3))

/-- Operation by operation, the line writes the listed buffers. -/
theorem ops_writes : Writes (ops : List (HloOp τ sig (Elt F))) wr :=
  List.rel_append ops0_writes (List.rel_append ops1_writes (List.rel_append ops2_writes ops3_writes))

/-- @main is that straight line: its four windows in order, each the line of its own list. -/
theorem main_eq (d : Dev nD) : main (F := F) d = seq ops := by
  unfold ops
  rw [seq_append, seq_append, seq_append, ← part0_eq d, ← part1_eq d, ← part2_eq d, ← part3_eq d]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig := by
  rw [List.forall_iff_forall_mem]
  intro op h
  unfold ops at h
  rcases List.mem_append.mp h with h | h
  · exact List.forall_iff_forall_mem.mp ops0_sub op h
  rcases List.mem_append.mp h with h | h
  · exact List.forall_iff_forall_mem.mp ops1_sub op h
  rcases List.mem_append.mp h with h | h
  · exact List.forall_iff_forall_mem.mp ops2_sub op h
  · exact List.forall_iff_forall_mem.mp ops3_sub op h

/-- Every operation of the line determines its result. -/
theorem ops_fresh : ∀ op ∈ (ops : List (HloOp τ sig (Elt F))), op.fresh = ∅ := by
  intro op h
  unfold ops at h
  rcases List.mem_append.mp h with h | h
  · exact List.forall_iff_forall_mem.mp ops0_fresh op h
  rcases List.mem_append.mp h with h | h
  · exact List.forall_iff_forall_mem.mp ops1_fresh op h
  rcases List.mem_append.mp h with h | h
  · exact List.forall_iff_forall_mem.mp ops2_fresh op h
  · exact List.forall_iff_forall_mem.mp ops3_fresh op h

/-- From any memory with zero counters every weakly fair execution of @main terminates, each TensorCore buffer at the
    fold of the line's operations over the device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The fold, buffer by buffer

No operation writes an argument: it ends as launched. Every other buffer is written once, by the operation at its
position, from buffers read before it. -/

theorem A_main_arg0 (m : (ℓ : Loc nD τ sig) → Buf (Elt F) ℓ) (c : Dev nD) :
    after ops (launchContents m c) (Proc.devRef .tc main_arg0) = m ((c.tc : Thread nD τ).loc main_arg0) :=
  (after_at ops_writes _ 0 (by decide)).trans rfl

theorem A_main_arg1 (m : (ℓ : Loc nD τ sig) → Buf (Elt F) ℓ) (c : Dev nD) :
    after ops (launchContents m c) (Proc.devRef .tc main_arg1) = m ((c.tc : Thread nD τ).loc main_arg1) :=
  (after_at ops_writes _ 0 (by decide)).trans rfl

theorem A_main_arg2 (m : (ℓ : Loc nD τ sig) → Buf (Elt F) ℓ) (c : Dev nD) :
    after ops (launchContents m c) (Proc.devRef .tc main_arg2) = m ((c.tc : Thread nD τ).loc main_arg2) :=
  (after_at ops_writes _ 0 (by decide)).trans rfl

theorem A_main_arg3 (m : (ℓ : Loc nD τ sig) → Buf (Elt F) ℓ) (c : Dev nD) :
    after ops (launchContents m c) (Proc.devRef .tc main_arg3) = m ((c.tc : Thread nD τ).loc main_arg3) :=
  (after_at ops_writes _ 0 (by decide)).trans rfl

theorem A_main_arg4 (m : (ℓ : Loc nD τ sig) → Buf (Elt F) ℓ) (c : Dev nD) :
    after ops (launchContents m c) (Proc.devRef .tc main_arg4) = m ((c.tc : Thread nD τ).loc main_arg4) :=
  (after_at ops_writes _ 0 (by decide)).trans rfl

theorem A_main_arg5 (m : (ℓ : Loc nD τ sig) → Buf (Elt F) ℓ) (c : Dev nD) :
    after ops (launchContents m c) (Proc.devRef .tc main_arg5) = m ((c.tc : Thread nD τ).loc main_arg5) :=
  (after_at ops_writes _ 0 (by decide)).trans rfl

theorem A_main_arg6 (m : (ℓ : Loc nD τ sig) → Buf (Elt F) ℓ) (c : Dev nD) :
    after ops (launchContents m c) (Proc.devRef .tc main_arg6) = m ((c.tc : Thread nD τ).loc main_arg6) :=
  (after_at ops_writes _ 0 (by decide)).trans rfl

theorem A_main_arg7 (m : (ℓ : Loc nD τ sig) → Buf (Elt F) ℓ) (c : Dev nD) :
    after ops (launchContents m c) (Proc.devRef .tc main_arg7) = m ((c.tc : Thread nD τ).loc main_arg7) :=
  (after_at ops_writes _ 0 (by decide)).trans rfl

theorem A_main_arg8 (m : (ℓ : Loc nD τ sig) → Buf (Elt F) ℓ) (c : Dev nD) :
    after ops (launchContents m c) (Proc.devRef .tc main_arg8) = m ((c.tc : Thread nD τ).loc main_arg8) :=
  (after_at ops_writes _ 0 (by decide)).trans rfl

theorem A_main_arg9 (m : (ℓ : Loc nD τ sig) → Buf (Elt F) ℓ) (c : Dev nD) :
    after ops (launchContents m c) (Proc.devRef .tc main_arg9) = m ((c.tc : Thread nD τ).loc main_arg9) :=
  (after_at ops_writes _ 0 (by decide)).trans rfl

theorem A_main_arg10 (m : (ℓ : Loc nD τ sig) → Buf (Elt F) ℓ) (c : Dev nD) :
    after ops (launchContents m c) (Proc.devRef .tc main_arg10) = m ((c.tc : Thread nD τ).loc main_arg10) :=
  (after_at ops_writes _ 0 (by decide)).trans rfl

theorem A_main_arg11 (m : (ℓ : Loc nD τ sig) → Buf (Elt F) ℓ) (c : Dev nD) :
    after ops (launchContents m c) (Proc.devRef .tc main_arg11) = m ((c.tc : Thread nD τ).loc main_arg11) :=
  (after_at ops_writes _ 0 (by decide)).trans rfl

theorem A_main_arg12 (m : (ℓ : Loc nD τ sig) → Buf (Elt F) ℓ) (c : Dev nD) :
    after ops (launchContents m c) (Proc.devRef .tc main_arg12) = m ((c.tc : Thread nD τ).loc main_arg12) :=
  (after_at ops_writes _ 0 (by decide)).trans rfl

theorem A_main_arg13 (m : (ℓ : Loc nD τ sig) → Buf (Elt F) ℓ) (c : Dev nD) :
    after ops (launchContents m c) (Proc.devRef .tc main_arg13) = m ((c.tc : Thread nD τ).loc main_arg13) :=
  (after_at ops_writes _ 0 (by decide)).trans rfl

theorem A_main_arg14 (m : (ℓ : Loc nD τ sig) → Buf (Elt F) ℓ) (c : Dev nD) :
    after ops (launchContents m c) (Proc.devRef .tc main_arg14) = m ((c.tc : Thread nD τ).loc main_arg14) :=
  (after_at ops_writes _ 0 (by decide)).trans rfl

theorem A_main_arg15 (m : (ℓ : Loc nD τ sig) → Buf (Elt F) ℓ) (c : Dev nD) :
    after ops (launchContents m c) (Proc.devRef .tc main_arg15) = m ((c.tc : Thread nD τ).loc main_arg15) :=
  (after_at ops_writes _ 0 (by decide)).trans rfl

theorem A_main_arg16 (m : (ℓ : Loc nD τ sig) → Buf (Elt F) ℓ) (c : Dev nD) :
    after ops (launchContents m c) (Proc.devRef .tc main_arg16) = m ((c.tc : Thread nD τ).loc main_arg16) :=
  (after_at ops_writes _ 0 (by decide)).trans rfl

theorem A_main_arg17 (m : (ℓ : Loc nD τ sig) → Buf (Elt F) ℓ) (c : Dev nD) :
    after ops (launchContents m c) (Proc.devRef .tc main_arg17) = m ((c.tc : Thread nD τ).loc main_arg17) :=
  (after_at ops_writes _ 0 (by decide)).trans rfl

theorem A_main_arg18 (m : (ℓ : Loc nD τ sig) → Buf (Elt F) ℓ) (c : Dev nD) :
    after ops (launchContents m c) (Proc.devRef .tc main_arg18) = m ((c.tc : Thread nD τ).loc main_arg18) :=
  (after_at ops_writes _ 0 (by decide)).trans rfl

theorem A_main_arg19 (m : (ℓ : Loc nD τ sig) → Buf (Elt F) ℓ) (c : Dev nD) :
    after ops (launchContents m c) (Proc.devRef .tc main_arg19) = m ((c.tc : Thread nD τ).loc main_arg19) :=
  (after_at ops_writes _ 0 (by decide)).trans rfl

theorem R_main_arg0 (m : (ℓ : Loc nD τ sig) → Buf (Elt F) ℓ) (c : Dev nD) :
    after ops (launchContents m c) (Proc.devRef .tc main_arg0) = (Cert.Spec.refArgs m c).a0 :=
  (after_at ops_writes _ 0 (by decide)).trans rfl

theorem R_main_arg1 (m : (ℓ : Loc nD τ sig) → Buf (Elt F) ℓ) (c : Dev nD) :
    after ops (launchContents m c) (Proc.devRef .tc main_arg1) = (Cert.Spec.refArgs m c).a1 :=
  (after_at ops_writes _ 0 (by decide)).trans rfl

theorem R_main_arg2 (m : (ℓ : Loc nD τ sig) → Buf (Elt F) ℓ) (c : Dev nD) :
    after ops (launchContents m c) (Proc.devRef .tc main_arg2) = (Cert.Spec.refArgs m c).a2 :=
  (after_at ops_writes _ 0 (by decide)).trans rfl

theorem R_main_arg3 (m : (ℓ : Loc nD τ sig) → Buf (Elt F) ℓ) (c : Dev nD) :
    after ops (launchContents m c) (Proc.devRef .tc main_arg3) = (Cert.Spec.refArgs m c).a3 :=
  (after_at ops_writes _ 0 (by decide)).trans rfl

theorem R_main_arg4 (m : (ℓ : Loc nD τ sig) → Buf (Elt F) ℓ) (c : Dev nD) :
    after ops (launchContents m c) (Proc.devRef .tc main_arg4) = (Cert.Spec.refArgs m c).a4 :=
  (after_at ops_writes _ 0 (by decide)).trans rfl

theorem R_main_arg5 (m : (ℓ : Loc nD τ sig) → Buf (Elt F) ℓ) (c : Dev nD) :
    after ops (launchContents m c) (Proc.devRef .tc main_arg5) = (Cert.Spec.refArgs m c).a5 :=
  (after_at ops_writes _ 0 (by decide)).trans rfl

theorem R_main_arg6 (m : (ℓ : Loc nD τ sig) → Buf (Elt F) ℓ) (c : Dev nD) :
    after ops (launchContents m c) (Proc.devRef .tc main_arg6) = (Cert.Spec.refArgs m c).a6 :=
  (after_at ops_writes _ 0 (by decide)).trans rfl

theorem R_main_arg7 (m : (ℓ : Loc nD τ sig) → Buf (Elt F) ℓ) (c : Dev nD) :
    after ops (launchContents m c) (Proc.devRef .tc main_arg7) = (Cert.Spec.refArgs m c).a7 :=
  (after_at ops_writes _ 0 (by decide)).trans rfl

theorem R_main_arg8 (m : (ℓ : Loc nD τ sig) → Buf (Elt F) ℓ) (c : Dev nD) :
    after ops (launchContents m c) (Proc.devRef .tc main_arg8) = (Cert.Spec.refArgs m c).a8 :=
  (after_at ops_writes _ 0 (by decide)).trans rfl

theorem R_main_arg9 (m : (ℓ : Loc nD τ sig) → Buf (Elt F) ℓ) (c : Dev nD) :
    after ops (launchContents m c) (Proc.devRef .tc main_arg9) = (Cert.Spec.refArgs m c).a9 :=
  (after_at ops_writes _ 0 (by decide)).trans rfl

theorem R_main_arg10 (m : (ℓ : Loc nD τ sig) → Buf (Elt F) ℓ) (c : Dev nD) :
    after ops (launchContents m c) (Proc.devRef .tc main_arg10) = (Cert.Spec.refArgs m c).a10 :=
  (after_at ops_writes _ 0 (by decide)).trans rfl

theorem R_main_arg11 (m : (ℓ : Loc nD τ sig) → Buf (Elt F) ℓ) (c : Dev nD) :
    after ops (launchContents m c) (Proc.devRef .tc main_arg11) = (Cert.Spec.refArgs m c).a11 :=
  (after_at ops_writes _ 0 (by decide)).trans rfl

theorem R_main_arg12 (m : (ℓ : Loc nD τ sig) → Buf (Elt F) ℓ) (c : Dev nD) :
    after ops (launchContents m c) (Proc.devRef .tc main_arg12) = (Cert.Spec.refArgs m c).a12 :=
  (after_at ops_writes _ 0 (by decide)).trans rfl

theorem R_main_arg13 (m : (ℓ : Loc nD τ sig) → Buf (Elt F) ℓ) (c : Dev nD) :
    after ops (launchContents m c) (Proc.devRef .tc main_arg13) = (Cert.Spec.refArgs m c).a13 :=
  (after_at ops_writes _ 0 (by decide)).trans rfl

theorem R_main_arg14 (m : (ℓ : Loc nD τ sig) → Buf (Elt F) ℓ) (c : Dev nD) :
    after ops (launchContents m c) (Proc.devRef .tc main_arg14) = (Cert.Spec.refArgs m c).a14 :=
  (after_at ops_writes _ 0 (by decide)).trans rfl

theorem R_main_arg15 (m : (ℓ : Loc nD τ sig) → Buf (Elt F) ℓ) (c : Dev nD) :
    after ops (launchContents m c) (Proc.devRef .tc main_arg15) = (Cert.Spec.refArgs m c).a15 :=
  (after_at ops_writes _ 0 (by decide)).trans rfl

theorem R_main_arg16 (m : (ℓ : Loc nD τ sig) → Buf (Elt F) ℓ) (c : Dev nD) :
    after ops (launchContents m c) (Proc.devRef .tc main_arg16) = (Cert.Spec.refArgs m c).a16 :=
  (after_at ops_writes _ 0 (by decide)).trans rfl

theorem R_main_arg17 (m : (ℓ : Loc nD τ sig) → Buf (Elt F) ℓ) (c : Dev nD) :
    after ops (launchContents m c) (Proc.devRef .tc main_arg17) = (Cert.Spec.refArgs m c).a17 :=
  (after_at ops_writes _ 0 (by decide)).trans rfl

theorem R_main_arg18 (m : (ℓ : Loc nD τ sig) → Buf (Elt F) ℓ) (c : Dev nD) :
    after ops (launchContents m c) (Proc.devRef .tc main_arg18) = (Cert.Spec.refArgs m c).a18 :=
  (after_at ops_writes _ 0 (by decide)).trans rfl

theorem R_main_arg19 (m : (ℓ : Loc nD τ sig) → Buf (Elt F) ℓ) (c : Dev nD) :
    after ops (launchContents m c) (Proc.devRef .tc main_arg19) = (Cert.Spec.refArgs m c).a19 :=
  (after_at ops_writes _ 0 (by decide)).trans rfl

theorem R_main_v0 (m : (ℓ : Loc nD τ sig) → Buf (Elt F) ℓ) (c : Dev nD) :
    after ops (launchContents m c) (Proc.devRef .tc main_v0) = Cert.Spec.r_main_v0 (Cert.Spec.refArgs m c) := by
  rw [ssa_unary ops_writes _ 0 rfl (by decide) (by decide), R_main_arg3 m c]; rfl

theorem R_main_v1 (m : (ℓ : Loc nD τ sig) → Buf (Elt F) ℓ) (c : Dev nD) :
    after ops (launchContents m c) (Proc.devRef .tc main_v1) = Cert.Spec.r_main_v1 (Cert.Spec.refArgs m c) := by
  rw [ssa_reshape ops_writes _ 1 rfl (by decide) (by decide), R_main_v0 m c]; rfl

theorem R_main_v2 (m : (ℓ : Loc nD τ sig) → Buf (Elt F) ℓ) (c : Dev nD) :
    after ops (launchContents m c) (Proc.devRef .tc main_v2) = Cert.Spec.r_main_v2 (Cert.Spec.refArgs m c) := by
  rw [ssa_unary ops_writes _ 2 rfl (by decide) (by decide), R_main_arg3 m c]; rfl

theorem R_main_v3 (m : (ℓ : Loc nD τ sig) → Buf (Elt F) ℓ) (c : Dev nD) :
    after ops (launchContents m c) (Proc.devRef .tc main_v3) = Cert.Spec.r_main_v3 (Cert.Spec.refArgs m c) := by
  rw [ssa_reshape ops_writes _ 3 rfl (by decide) (by decide), R_main_v2 m c]; rfl

theorem R_main_c (m : (ℓ : Loc nD τ sig) → Buf (Elt F) ℓ) (c : Dev nD) :
    after ops (launchContents m c) (Proc.devRef .tc main_c) = Cert.Spec.r_main_c (Cert.Spec.refArgs m c) := by
  rw [ssa_nullary ops_writes _ 4 rfl (by decide)]; rfl

theorem R_main_v4 (m : (ℓ : Loc nD τ sig) → Buf (Elt F) ℓ) (c : Dev nD) :
    after ops (launchContents m c) (Proc.devRef .tc main_v4) = Cert.Spec.r_main_v4 (Cert.Spec.refArgs m c) := by
  rw [ssa_unary ops_writes _ 5 rfl (by decide) (by decide), R_main_c m c]; rfl

theorem R_main_v5 (m : (ℓ : Loc nD τ sig) → Buf (Elt F) ℓ) (c : Dev nD) :
    after ops (launchContents m c) (Proc.devRef .tc main_v5) = Cert.Spec.r_main_v5 (Cert.Spec.refArgs m c) := by
  rw [ssa_binary ops_writes _ 6 rfl (by decide) (by decide) (by decide), R_main_v1 m c, R_main_v4 m c]; rfl

theorem R_main_c_0 (m : (ℓ : Loc nD τ sig) → Buf (Elt F) ℓ) (c : Dev nD) :
    after ops (launchContents m c) (Proc.devRef .tc main_c_0) = Cert.Spec.r_main_c_0 (Cert.Spec.refArgs m c) := by
  rw [ssa_nullary ops_writes _ 7 rfl (by decide)]; rfl

theorem R_main_v6 (m : (ℓ : Loc nD τ sig) → Buf (Elt F) ℓ) (c : Dev nD) :
    after ops (launchContents m c) (Proc.devRef .tc main_v6) = Cert.Spec.r_main_v6 (Cert.Spec.refArgs m c) := by
  rw [ssa_unary ops_writes _ 8 rfl (by decide) (by decide), R_main_c_0 m c]; rfl

theorem R_main_v7 (m : (ℓ : Loc nD τ sig) → Buf (Elt F) ℓ) (c : Dev nD) :
    after ops (launchContents m c) (Proc.devRef .tc main_v7) = Cert.Spec.r_main_v7 (Cert.Spec.refArgs m c) := by
  rw [ssa_binary ops_writes _ 9 rfl (by decide) (by decide) (by decide), R_main_v1 m c, R_main_v6 m c]; rfl

theorem R_main_v8 (m : (ℓ : Loc nD τ sig) → Buf (Elt F) ℓ) (c : Dev nD) :
    after ops (launchContents m c) (Proc.devRef .tc main_v8) = Cert.Spec.r_main_v8 (Cert.Spec.refArgs m c) := by
  rw [ssa_ternary ops_writes _ 10 rfl (by decide) (by decide) (by decide) (by decide), R_main_v5 m c, R_main_v7 m c, R_main_v1 m c]; rfl

theorem R_main_v9 (m : (ℓ : Loc nD τ sig) → Buf (Elt F) ℓ) (c : Dev nD) :
    after ops (launchContents m c) (Proc.devRef .tc main_v9) = Cert.Spec.r_main_v9 (Cert.Spec.refArgs m c) := by
  rw [ssa_unary ops_writes _ 11 rfl (by decide) (by decide), R_main_v8 m c]; rfl

theorem R_main_v10 (m : (ℓ : Loc nD τ sig) → Buf (Elt F) ℓ) (c : Dev nD) :
    after ops (launchContents m c) (Proc.devRef .tc main_v10) = Cert.Spec.r_main_v10 (Cert.Spec.refArgs m c) := by
  rw [ssa_binary ops_writes _ 12 rfl (by decide) (by decide) (by decide), R_main_arg1 m c, R_main_v9 m c]; rfl

theorem R_main_c_1 (m : (ℓ : Loc nD τ sig) → Buf (Elt F) ℓ) (c : Dev nD) :
    after ops (launchContents m c) (Proc.devRef .tc main_c_1) = Cert.Spec.r_main_c_1 (Cert.Spec.refArgs m c) := by
  rw [ssa_nullary ops_writes _ 13 rfl (by decide)]; rfl

theorem R_main_v11 (m : (ℓ : Loc nD τ sig) → Buf (Elt F) ℓ) (c : Dev nD) :
    after ops (launchContents m c) (Proc.devRef .tc main_v11) = Cert.Spec.r_main_v11 (Cert.Spec.refArgs m c) := by
  rw [ssa_unary ops_writes _ 14 rfl (by decide) (by decide), R_main_c_1 m c]; rfl

theorem R_main_v12 (m : (ℓ : Loc nD τ sig) → Buf (Elt F) ℓ) (c : Dev nD) :
    after ops (launchContents m c) (Proc.devRef .tc main_v12) = Cert.Spec.r_main_v12 (Cert.Spec.refArgs m c) := by
  rw [ssa_binary ops_writes _ 15 rfl (by decide) (by decide) (by decide), R_main_v3 m c, R_main_v11 m c]; rfl

theorem R_main_c_2 (m : (ℓ : Loc nD τ sig) → Buf (Elt F) ℓ) (c : Dev nD) :
    after ops (launchContents m c) (Proc.devRef .tc main_c_2) = Cert.Spec.r_main_c_2 (Cert.Spec.refArgs m c) := by
  rw [ssa_nullary ops_writes _ 16 rfl (by decide)]; rfl

theorem R_main_v13 (m : (ℓ : Loc nD τ sig) → Buf (Elt F) ℓ) (c : Dev nD) :
    after ops (launchContents m c) (Proc.devRef .tc main_v13) = Cert.Spec.r_main_v13 (Cert.Spec.refArgs m c) := by
  rw [ssa_unary ops_writes _ 17 rfl (by decide) (by decide), R_main_c_2 m c]; rfl

theorem R_main_v14 (m : (ℓ : Loc nD τ sig) → Buf (Elt F) ℓ) (c : Dev nD) :
    after ops (launchContents m c) (Proc.devRef .tc main_v14) = Cert.Spec.r_main_v14 (Cert.Spec.refArgs m c) := by
  rw [ssa_binary ops_writes _ 18 rfl (by decide) (by decide) (by decide), R_main_v3 m c, R_main_v13 m c]; rfl

theorem R_main_v15 (m : (ℓ : Loc nD τ sig) → Buf (Elt F) ℓ) (c : Dev nD) :
    after ops (launchContents m c) (Proc.devRef .tc main_v15) = Cert.Spec.r_main_v15 (Cert.Spec.refArgs m c) := by
  rw [ssa_ternary ops_writes _ 19 rfl (by decide) (by decide) (by decide) (by decide), R_main_v12 m c, R_main_v14 m c, R_main_v3 m c]; rfl

theorem R_main_v16 (m : (ℓ : Loc nD τ sig) → Buf (Elt F) ℓ) (c : Dev nD) :
    after ops (launchContents m c) (Proc.devRef .tc main_v16) = Cert.Spec.r_main_v16 (Cert.Spec.refArgs m c) := by
  rw [ssa_unary ops_writes _ 20 rfl (by decide) (by decide), R_main_v15 m c]; rfl

theorem R_main_v17 (m : (ℓ : Loc nD τ sig) → Buf (Elt F) ℓ) (c : Dev nD) :
    after ops (launchContents m c) (Proc.devRef .tc main_v17) = Cert.Spec.r_main_v17 (Cert.Spec.refArgs m c) := by
  rw [ssa_binary ops_writes _ 21 rfl (by decide) (by decide) (by decide), R_main_arg1 m c, R_main_v16 m c]; rfl

theorem R_main_v18 (m : (ℓ : Loc nD τ sig) → Buf (Elt F) ℓ) (c : Dev nD) :
    after ops (launchContents m c) (Proc.devRef .tc main_v18) = Cert.Spec.r_main_v18 (Cert.Spec.refArgs m c) := by
  rw [ssa_binary ops_writes _ 22 rfl (by decide) (by decide) (by decide), R_main_v10 m c, R_main_v17 m c]; rfl

theorem R_main_v19 (m : (ℓ : Loc nD τ sig) → Buf (Elt F) ℓ) (c : Dev nD) :
    after ops (launchContents m c) (Proc.devRef .tc main_v19) = Cert.Spec.r_main_v19 (Cert.Spec.refArgs m c) := by
  rw [ssa_binary ops_writes _ 23 rfl (by decide) (by decide) (by decide), R_main_v18 m c]; rfl

theorem R_main_v20 (m : (ℓ : Loc nD τ sig) → Buf (Elt F) ℓ) (c : Dev nD) :
    after ops (launchContents m c) (Proc.devRef .tc main_v20) = Cert.Spec.r_main_v20 (Cert.Spec.refArgs m c) := by
  rw [ssa_unary ops_writes _ 24 rfl (by decide) (by decide), R_main_v19 m c]; rfl

theorem R_main_v21 (m : (ℓ : Loc nD τ sig) → Buf (Elt F) ℓ) (c : Dev nD) :
    after ops (launchContents m c) (Proc.devRef .tc main_v21) = Cert.Spec.r_main_v21 (Cert.Spec.refArgs m c) := by
  rw [ssa_reshape ops_writes _ 25 rfl (by decide) (by decide), R_main_v20 m c]; rfl

theorem R_main_cst (m : (ℓ : Loc nD τ sig) → Buf (Elt F) ℓ) (c : Dev nD) :
    after ops (launchContents m c) (Proc.devRef .tc main_cst) = Cert.Spec.r_main_cst (Cert.Spec.refArgs m c) := by
  rw [ssa_nullary ops_writes _ 26 rfl (by decide)]; rfl

theorem R_main_v22 (m : (ℓ : Loc nD τ sig) → Buf (Elt F) ℓ) (c : Dev nD) :
    after ops (launchContents m c) (Proc.devRef .tc main_v22) = Cert.Spec.r_main_v22 (Cert.Spec.refArgs m c) := by
  rw [ssa_unary ops_writes _ 27 rfl (by decide) (by decide), R_main_cst m c]; rfl

theorem R_main_v23 (m : (ℓ : Loc nD τ sig) → Buf (Elt F) ℓ) (c : Dev nD) :
    after ops (launchContents m c) (Proc.devRef .tc main_v23) = Cert.Spec.r_main_v23 (Cert.Spec.refArgs m c) := by
  rw [ssa_binary ops_writes _ 28 rfl (by decide) (by decide) (by decide), R_main_v22 m c, R_main_v21 m c]; rfl

theorem R_main_cst_3 (m : (ℓ : Loc nD τ sig) → Buf (Elt F) ℓ) (c : Dev nD) :
    after ops (launchContents m c) (Proc.devRef .tc main_cst_3) = Cert.Spec.r_main_cst_3 (Cert.Spec.refArgs m c) := by
  rw [ssa_nullary ops_writes _ 29 rfl (by decide)]; rfl

theorem R_main_v24 (m : (ℓ : Loc nD τ sig) → Buf (Elt F) ℓ) (c : Dev nD) :
    after ops (launchContents m c) (Proc.devRef .tc main_v24) = Cert.Spec.r_main_v24 (Cert.Spec.refArgs m c) := by
  rw [ssa_binary ops_writes _ 30 rfl (by decide) (by decide) (by decide), R_main_v19 m c, R_main_cst_3 m c]; rfl

theorem R_main_v25 (m : (ℓ : Loc nD τ sig) → Buf (Elt F) ℓ) (c : Dev nD) :
    after ops (launchContents m c) (Proc.devRef .tc main_v25) = Cert.Spec.r_main_v25 (Cert.Spec.refArgs m c) := by
  rw [ssa_binary ops_writes _ 31 rfl (by decide) (by decide) (by decide), R_main_v23 m c, R_main_v24 m c]; rfl

theorem R_main_v26 (m : (ℓ : Loc nD τ sig) → Buf (Elt F) ℓ) (c : Dev nD) :
    after ops (launchContents m c) (Proc.devRef .tc main_v26) = Cert.Spec.r_main_v26 (Cert.Spec.refArgs m c) := by
  rw [ssa_unary ops_writes _ 32 rfl (by decide) (by decide), R_main_v25 m c]; rfl

theorem R_main_v27 (m : (ℓ : Loc nD τ sig) → Buf (Elt F) ℓ) (c : Dev nD) :
    after ops (launchContents m c) (Proc.devRef .tc main_v27) = Cert.Spec.r_main_v27 (Cert.Spec.refArgs m c) := by
  rw [ssa_unary ops_writes _ 33 rfl (by decide) (by decide), R_main_v25 m c]; rfl

theorem R_main_cst_4 (m : (ℓ : Loc nD τ sig) → Buf (Elt F) ℓ) (c : Dev nD) :
    after ops (launchContents m c) (Proc.devRef .tc main_cst_4) = Cert.Spec.r_main_cst_4 (Cert.Spec.refArgs m c) := by
  rw [ssa_nullary ops_writes _ 34 rfl (by decide)]; rfl

theorem R_main_v28 (m : (ℓ : Loc nD τ sig) → Buf (Elt F) ℓ) (c : Dev nD) :
    after ops (launchContents m c) (Proc.devRef .tc main_v28) = Cert.Spec.r_main_v28 (Cert.Spec.refArgs m c) := by
  rw [ssa_unary ops_writes _ 35 rfl (by decide) (by decide), R_main_cst_4 m c]; rfl

theorem R_main_v29 (m : (ℓ : Loc nD τ sig) → Buf (Elt F) ℓ) (c : Dev nD) :
    after ops (launchContents m c) (Proc.devRef .tc main_v29) = Cert.Spec.r_main_v29 (Cert.Spec.refArgs m c) := by
  rw [ssa_binary ops_writes _ 36 rfl (by decide) (by decide) (by decide), R_main_v27 m c, R_main_v28 m c]; rfl

theorem R_main_v30 (m : (ℓ : Loc nD τ sig) → Buf (Elt F) ℓ) (c : Dev nD) :
    after ops (launchContents m c) (Proc.devRef .tc main_v30) = Cert.Spec.r_main_v30 (Cert.Spec.refArgs m c) := by
  rw [ssa_unary ops_writes _ 37 rfl (by decide) (by decide), R_main_v29 m c]; rfl

theorem R_main_v31 (m : (ℓ : Loc nD τ sig) → Buf (Elt F) ℓ) (c : Dev nD) :
    after ops (launchContents m c) (Proc.devRef .tc main_v31) = Cert.Spec.r_main_v31 (Cert.Spec.refArgs m c) := by
  rw [ssa_binary ops_writes _ 38 rfl (by decide) (by decide) (by decide), R_main_v26 m c, R_main_v30 m c]; rfl

theorem R_main_v32 (m : (ℓ : Loc nD τ sig) → Buf (Elt F) ℓ) (c : Dev nD) :
    after ops (launchContents m c) (Proc.devRef .tc main_v32) = Cert.Spec.r_main_v32 (Cert.Spec.refArgs m c) := by
  rw [ssa_unary ops_writes _ 39 rfl (by decide) (by decide), R_main_v31 m c]; rfl

theorem R_main_c_5 (m : (ℓ : Loc nD τ sig) → Buf (Elt F) ℓ) (c : Dev nD) :
    after ops (launchContents m c) (Proc.devRef .tc main_c_5) = Cert.Spec.r_main_c_5 (Cert.Spec.refArgs m c) := by
  rw [ssa_nullary ops_writes _ 40 rfl (by decide)]; rfl

theorem R_main_v33 (m : (ℓ : Loc nD τ sig) → Buf (Elt F) ℓ) (c : Dev nD) :
    after ops (launchContents m c) (Proc.devRef .tc main_v33) = Cert.Spec.r_main_v33 (Cert.Spec.refArgs m c) := by
  rw [ssa_unary ops_writes _ 41 rfl (by decide) (by decide), R_main_c_5 m c]; rfl

theorem R_main_v34 (m : (ℓ : Loc nD τ sig) → Buf (Elt F) ℓ) (c : Dev nD) :
    after ops (launchContents m c) (Proc.devRef .tc main_v34) = Cert.Spec.r_main_v34 (Cert.Spec.refArgs m c) := by
  rw [ssa_binary ops_writes _ 42 rfl (by decide) (by decide) (by decide), R_main_v1 m c, R_main_v33 m c]; rfl

theorem R_main_c_6 (m : (ℓ : Loc nD τ sig) → Buf (Elt F) ℓ) (c : Dev nD) :
    after ops (launchContents m c) (Proc.devRef .tc main_c_6) = Cert.Spec.r_main_c_6 (Cert.Spec.refArgs m c) := by
  rw [ssa_nullary ops_writes _ 43 rfl (by decide)]; rfl

theorem R_main_v35 (m : (ℓ : Loc nD τ sig) → Buf (Elt F) ℓ) (c : Dev nD) :
    after ops (launchContents m c) (Proc.devRef .tc main_v35) = Cert.Spec.r_main_v35 (Cert.Spec.refArgs m c) := by
  rw [ssa_unary ops_writes _ 44 rfl (by decide) (by decide), R_main_c_6 m c]; rfl

theorem R_main_v36 (m : (ℓ : Loc nD τ sig) → Buf (Elt F) ℓ) (c : Dev nD) :
    after ops (launchContents m c) (Proc.devRef .tc main_v36) = Cert.Spec.r_main_v36 (Cert.Spec.refArgs m c) := by
  rw [ssa_binary ops_writes _ 45 rfl (by decide) (by decide) (by decide), R_main_v1 m c, R_main_v35 m c]; rfl

theorem R_main_v37 (m : (ℓ : Loc nD τ sig) → Buf (Elt F) ℓ) (c : Dev nD) :
    after ops (launchContents m c) (Proc.devRef .tc main_v37) = Cert.Spec.r_main_v37 (Cert.Spec.refArgs m c) := by
  rw [ssa_ternary ops_writes _ 46 rfl (by decide) (by decide) (by decide) (by decide), R_main_v34 m c, R_main_v36 m c, R_main_v1 m c]; rfl

theorem R_main_v38 (m : (ℓ : Loc nD τ sig) → Buf (Elt F) ℓ) (c : Dev nD) :
    after ops (launchContents m c) (Proc.devRef .tc main_v38) = Cert.Spec.r_main_v38 (Cert.Spec.refArgs m c) := by
  rw [ssa_unary ops_writes _ 47 rfl (by decide) (by decide), R_main_v37 m c]; rfl

theorem R_main_v39 (m : (ℓ : Loc nD τ sig) → Buf (Elt F) ℓ) (c : Dev nD) :
    after ops (launchContents m c) (Proc.devRef .tc main_v39) = Cert.Spec.r_main_v39 (Cert.Spec.refArgs m c) := by
  rw [ssa_binary ops_writes _ 48 rfl (by decide) (by decide) (by decide), R_main_arg1 m c, R_main_v38 m c]; rfl

theorem R_main_c_7 (m : (ℓ : Loc nD τ sig) → Buf (Elt F) ℓ) (c : Dev nD) :
    after ops (launchContents m c) (Proc.devRef .tc main_c_7) = Cert.Spec.r_main_c_7 (Cert.Spec.refArgs m c) := by
  rw [ssa_nullary ops_writes _ 49 rfl (by decide)]; rfl

theorem R_main_v40 (m : (ℓ : Loc nD τ sig) → Buf (Elt F) ℓ) (c : Dev nD) :
    after ops (launchContents m c) (Proc.devRef .tc main_v40) = Cert.Spec.r_main_v40 (Cert.Spec.refArgs m c) := by
  rw [ssa_unary ops_writes _ 50 rfl (by decide) (by decide), R_main_c_7 m c]; rfl

theorem R_main_v41 (m : (ℓ : Loc nD τ sig) → Buf (Elt F) ℓ) (c : Dev nD) :
    after ops (launchContents m c) (Proc.devRef .tc main_v41) = Cert.Spec.r_main_v41 (Cert.Spec.refArgs m c) := by
  rw [ssa_binary ops_writes _ 51 rfl (by decide) (by decide) (by decide), R_main_v3 m c, R_main_v40 m c]; rfl

theorem R_main_c_8 (m : (ℓ : Loc nD τ sig) → Buf (Elt F) ℓ) (c : Dev nD) :
    after ops (launchContents m c) (Proc.devRef .tc main_c_8) = Cert.Spec.r_main_c_8 (Cert.Spec.refArgs m c) := by
  rw [ssa_nullary ops_writes _ 52 rfl (by decide)]; rfl

theorem R_main_v42 (m : (ℓ : Loc nD τ sig) → Buf (Elt F) ℓ) (c : Dev nD) :
    after ops (launchContents m c) (Proc.devRef .tc main_v42) = Cert.Spec.r_main_v42 (Cert.Spec.refArgs m c) := by
  rw [ssa_unary ops_writes _ 53 rfl (by decide) (by decide), R_main_c_8 m c]; rfl

theorem R_main_v43 (m : (ℓ : Loc nD τ sig) → Buf (Elt F) ℓ) (c : Dev nD) :
    after ops (launchContents m c) (Proc.devRef .tc main_v43) = Cert.Spec.r_main_v43 (Cert.Spec.refArgs m c) := by
  rw [ssa_binary ops_writes _ 54 rfl (by decide) (by decide) (by decide), R_main_v3 m c, R_main_v42 m c]; rfl

theorem R_main_v44 (m : (ℓ : Loc nD τ sig) → Buf (Elt F) ℓ) (c : Dev nD) :
    after ops (launchContents m c) (Proc.devRef .tc main_v44) = Cert.Spec.r_main_v44 (Cert.Spec.refArgs m c) := by
  rw [ssa_ternary ops_writes _ 55 rfl (by decide) (by decide) (by decide) (by decide), R_main_v41 m c, R_main_v43 m c, R_main_v3 m c]; rfl

theorem R_main_v45 (m : (ℓ : Loc nD τ sig) → Buf (Elt F) ℓ) (c : Dev nD) :
    after ops (launchContents m c) (Proc.devRef .tc main_v45) = Cert.Spec.r_main_v45 (Cert.Spec.refArgs m c) := by
  rw [ssa_unary ops_writes _ 56 rfl (by decide) (by decide), R_main_v44 m c]; rfl

theorem R_main_v46 (m : (ℓ : Loc nD τ sig) → Buf (Elt F) ℓ) (c : Dev nD) :
    after ops (launchContents m c) (Proc.devRef .tc main_v46) = Cert.Spec.r_main_v46 (Cert.Spec.refArgs m c) := by
  rw [ssa_binary ops_writes _ 57 rfl (by decide) (by decide) (by decide), R_main_arg1 m c, R_main_v45 m c]; rfl

theorem R_main_v47 (m : (ℓ : Loc nD τ sig) → Buf (Elt F) ℓ) (c : Dev nD) :
    after ops (launchContents m c) (Proc.devRef .tc main_v47) = Cert.Spec.r_main_v47 (Cert.Spec.refArgs m c) := by
  rw [ssa_binary ops_writes _ 58 rfl (by decide) (by decide) (by decide), R_main_v39 m c, R_main_v46 m c]; rfl

theorem R_main_v48 (m : (ℓ : Loc nD τ sig) → Buf (Elt F) ℓ) (c : Dev nD) :
    after ops (launchContents m c) (Proc.devRef .tc main_v48) = Cert.Spec.r_main_v48 (Cert.Spec.refArgs m c) := by
  rw [ssa_unary ops_writes _ 59 rfl (by decide) (by decide), R_main_v47 m c]; rfl

theorem R_main_v49 (m : (ℓ : Loc nD τ sig) → Buf (Elt F) ℓ) (c : Dev nD) :
    after ops (launchContents m c) (Proc.devRef .tc main_v49) = Cert.Spec.r_main_v49 (Cert.Spec.refArgs m c) := by
  rw [ssa_reshape ops_writes _ 60 rfl (by decide) (by decide), R_main_v48 m c]; rfl

theorem R_main_cst_9 (m : (ℓ : Loc nD τ sig) → Buf (Elt F) ℓ) (c : Dev nD) :
    after ops (launchContents m c) (Proc.devRef .tc main_cst_9) = Cert.Spec.r_main_cst_9 (Cert.Spec.refArgs m c) := by
  rw [ssa_nullary ops_writes _ 61 rfl (by decide)]; rfl

theorem R_main_v50 (m : (ℓ : Loc nD τ sig) → Buf (Elt F) ℓ) (c : Dev nD) :
    after ops (launchContents m c) (Proc.devRef .tc main_v50) = Cert.Spec.r_main_v50 (Cert.Spec.refArgs m c) := by
  rw [ssa_unary ops_writes _ 62 rfl (by decide) (by decide), R_main_cst_9 m c]; rfl

theorem R_main_v51 (m : (ℓ : Loc nD τ sig) → Buf (Elt F) ℓ) (c : Dev nD) :
    after ops (launchContents m c) (Proc.devRef .tc main_v51) = Cert.Spec.r_main_v51 (Cert.Spec.refArgs m c) := by
  rw [ssa_binary ops_writes _ 63 rfl (by decide) (by decide) (by decide), R_main_v50 m c, R_main_v49 m c]; rfl

theorem R_main_cst_10 (m : (ℓ : Loc nD τ sig) → Buf (Elt F) ℓ) (c : Dev nD) :
    after ops (launchContents m c) (Proc.devRef .tc main_cst_10) = Cert.Spec.r_main_cst_10 (Cert.Spec.refArgs m c) := by
  rw [ssa_nullary ops_writes _ 64 rfl (by decide)]; rfl

theorem R_main_v52 (m : (ℓ : Loc nD τ sig) → Buf (Elt F) ℓ) (c : Dev nD) :
    after ops (launchContents m c) (Proc.devRef .tc main_v52) = Cert.Spec.r_main_v52 (Cert.Spec.refArgs m c) := by
  rw [ssa_binary ops_writes _ 65 rfl (by decide) (by decide) (by decide), R_main_v47 m c, R_main_cst_10 m c]; rfl

theorem R_main_v53 (m : (ℓ : Loc nD τ sig) → Buf (Elt F) ℓ) (c : Dev nD) :
    after ops (launchContents m c) (Proc.devRef .tc main_v53) = Cert.Spec.r_main_v53 (Cert.Spec.refArgs m c) := by
  rw [ssa_binary ops_writes _ 66 rfl (by decide) (by decide) (by decide), R_main_v51 m c, R_main_v52 m c]; rfl

theorem R_main_v54 (m : (ℓ : Loc nD τ sig) → Buf (Elt F) ℓ) (c : Dev nD) :
    after ops (launchContents m c) (Proc.devRef .tc main_v54) = Cert.Spec.r_main_v54 (Cert.Spec.refArgs m c) := by
  rw [ssa_unary ops_writes _ 67 rfl (by decide) (by decide), R_main_v53 m c]; rfl

theorem R_main_v55 (m : (ℓ : Loc nD τ sig) → Buf (Elt F) ℓ) (c : Dev nD) :
    after ops (launchContents m c) (Proc.devRef .tc main_v55) = Cert.Spec.r_main_v55 (Cert.Spec.refArgs m c) := by
  rw [ssa_unary ops_writes _ 68 rfl (by decide) (by decide), R_main_v53 m c]; rfl

theorem R_main_cst_11 (m : (ℓ : Loc nD τ sig) → Buf (Elt F) ℓ) (c : Dev nD) :
    after ops (launchContents m c) (Proc.devRef .tc main_cst_11) = Cert.Spec.r_main_cst_11 (Cert.Spec.refArgs m c) := by
  rw [ssa_nullary ops_writes _ 69 rfl (by decide)]; rfl

theorem R_main_v56 (m : (ℓ : Loc nD τ sig) → Buf (Elt F) ℓ) (c : Dev nD) :
    after ops (launchContents m c) (Proc.devRef .tc main_v56) = Cert.Spec.r_main_v56 (Cert.Spec.refArgs m c) := by
  rw [ssa_unary ops_writes _ 70 rfl (by decide) (by decide), R_main_cst_11 m c]; rfl

theorem R_main_v57 (m : (ℓ : Loc nD τ sig) → Buf (Elt F) ℓ) (c : Dev nD) :
    after ops (launchContents m c) (Proc.devRef .tc main_v57) = Cert.Spec.r_main_v57 (Cert.Spec.refArgs m c) := by
  rw [ssa_binary ops_writes _ 71 rfl (by decide) (by decide) (by decide), R_main_v55 m c, R_main_v56 m c]; rfl

theorem R_main_v58 (m : (ℓ : Loc nD τ sig) → Buf (Elt F) ℓ) (c : Dev nD) :
    after ops (launchContents m c) (Proc.devRef .tc main_v58) = Cert.Spec.r_main_v58 (Cert.Spec.refArgs m c) := by
  rw [ssa_unary ops_writes _ 72 rfl (by decide) (by decide), R_main_v57 m c]; rfl

theorem R_main_v59 (m : (ℓ : Loc nD τ sig) → Buf (Elt F) ℓ) (c : Dev nD) :
    after ops (launchContents m c) (Proc.devRef .tc main_v59) = Cert.Spec.r_main_v59 (Cert.Spec.refArgs m c) := by
  rw [ssa_binary ops_writes _ 73 rfl (by decide) (by decide) (by decide), R_main_v54 m c, R_main_v58 m c]; rfl

theorem R_main_v60 (m : (ℓ : Loc nD τ sig) → Buf (Elt F) ℓ) (c : Dev nD) :
    after ops (launchContents m c) (Proc.devRef .tc main_v60) = Cert.Spec.r_main_v60 (Cert.Spec.refArgs m c) := by
  rw [ssa_unary ops_writes _ 74 rfl (by decide) (by decide), R_main_v59 m c]; rfl

theorem R_main_c_12 (m : (ℓ : Loc nD τ sig) → Buf (Elt F) ℓ) (c : Dev nD) :
    after ops (launchContents m c) (Proc.devRef .tc main_c_12) = Cert.Spec.r_main_c_12 (Cert.Spec.refArgs m c) := by
  rw [ssa_nullary ops_writes _ 75 rfl (by decide)]; rfl

theorem R_main_v61 (m : (ℓ : Loc nD τ sig) → Buf (Elt F) ℓ) (c : Dev nD) :
    after ops (launchContents m c) (Proc.devRef .tc main_v61) = Cert.Spec.r_main_v61 (Cert.Spec.refArgs m c) := by
  rw [ssa_unary ops_writes _ 76 rfl (by decide) (by decide), R_main_c_12 m c]; rfl

theorem R_main_v62 (m : (ℓ : Loc nD τ sig) → Buf (Elt F) ℓ) (c : Dev nD) :
    after ops (launchContents m c) (Proc.devRef .tc main_v62) = Cert.Spec.r_main_v62 (Cert.Spec.refArgs m c) := by
  rw [ssa_binary ops_writes _ 77 rfl (by decide) (by decide) (by decide), R_main_v1 m c, R_main_v61 m c]; rfl

theorem R_main_c_13 (m : (ℓ : Loc nD τ sig) → Buf (Elt F) ℓ) (c : Dev nD) :
    after ops (launchContents m c) (Proc.devRef .tc main_c_13) = Cert.Spec.r_main_c_13 (Cert.Spec.refArgs m c) := by
  rw [ssa_nullary ops_writes _ 78 rfl (by decide)]; rfl

theorem R_main_v63 (m : (ℓ : Loc nD τ sig) → Buf (Elt F) ℓ) (c : Dev nD) :
    after ops (launchContents m c) (Proc.devRef .tc main_v63) = Cert.Spec.r_main_v63 (Cert.Spec.refArgs m c) := by
  rw [ssa_unary ops_writes _ 79 rfl (by decide) (by decide), R_main_c_13 m c]; rfl

theorem R_main_v64 (m : (ℓ : Loc nD τ sig) → Buf (Elt F) ℓ) (c : Dev nD) :
    after ops (launchContents m c) (Proc.devRef .tc main_v64) = Cert.Spec.r_main_v64 (Cert.Spec.refArgs m c) := by
  rw [ssa_binary ops_writes _ 80 rfl (by decide) (by decide) (by decide), R_main_v1 m c, R_main_v63 m c]; rfl

theorem R_main_v65 (m : (ℓ : Loc nD τ sig) → Buf (Elt F) ℓ) (c : Dev nD) :
    after ops (launchContents m c) (Proc.devRef .tc main_v65) = Cert.Spec.r_main_v65 (Cert.Spec.refArgs m c) := by
  rw [ssa_ternary ops_writes _ 81 rfl (by decide) (by decide) (by decide) (by decide), R_main_v62 m c, R_main_v64 m c, R_main_v1 m c]; rfl

theorem R_main_v66 (m : (ℓ : Loc nD τ sig) → Buf (Elt F) ℓ) (c : Dev nD) :
    after ops (launchContents m c) (Proc.devRef .tc main_v66) = Cert.Spec.r_main_v66 (Cert.Spec.refArgs m c) := by
  rw [ssa_unary ops_writes _ 82 rfl (by decide) (by decide), R_main_v65 m c]; rfl

theorem R_main_v67 (m : (ℓ : Loc nD τ sig) → Buf (Elt F) ℓ) (c : Dev nD) :
    after ops (launchContents m c) (Proc.devRef .tc main_v67) = Cert.Spec.r_main_v67 (Cert.Spec.refArgs m c) := by
  rw [ssa_binary ops_writes _ 83 rfl (by decide) (by decide) (by decide), R_main_arg0 m c, R_main_v66 m c]; rfl

theorem R_main_c_14 (m : (ℓ : Loc nD τ sig) → Buf (Elt F) ℓ) (c : Dev nD) :
    after ops (launchContents m c) (Proc.devRef .tc main_c_14) = Cert.Spec.r_main_c_14 (Cert.Spec.refArgs m c) := by
  rw [ssa_nullary ops_writes _ 84 rfl (by decide)]; rfl

theorem R_main_v68 (m : (ℓ : Loc nD τ sig) → Buf (Elt F) ℓ) (c : Dev nD) :
    after ops (launchContents m c) (Proc.devRef .tc main_v68) = Cert.Spec.r_main_v68 (Cert.Spec.refArgs m c) := by
  rw [ssa_unary ops_writes _ 85 rfl (by decide) (by decide), R_main_c_14 m c]; rfl

theorem R_main_v69 (m : (ℓ : Loc nD τ sig) → Buf (Elt F) ℓ) (c : Dev nD) :
    after ops (launchContents m c) (Proc.devRef .tc main_v69) = Cert.Spec.r_main_v69 (Cert.Spec.refArgs m c) := by
  rw [ssa_binary ops_writes _ 86 rfl (by decide) (by decide) (by decide), R_main_v3 m c, R_main_v68 m c]; rfl

theorem R_main_c_15 (m : (ℓ : Loc nD τ sig) → Buf (Elt F) ℓ) (c : Dev nD) :
    after ops (launchContents m c) (Proc.devRef .tc main_c_15) = Cert.Spec.r_main_c_15 (Cert.Spec.refArgs m c) := by
  rw [ssa_nullary ops_writes _ 87 rfl (by decide)]; rfl

theorem R_main_v70 (m : (ℓ : Loc nD τ sig) → Buf (Elt F) ℓ) (c : Dev nD) :
    after ops (launchContents m c) (Proc.devRef .tc main_v70) = Cert.Spec.r_main_v70 (Cert.Spec.refArgs m c) := by
  rw [ssa_unary ops_writes _ 88 rfl (by decide) (by decide), R_main_c_15 m c]; rfl

theorem R_main_v71 (m : (ℓ : Loc nD τ sig) → Buf (Elt F) ℓ) (c : Dev nD) :
    after ops (launchContents m c) (Proc.devRef .tc main_v71) = Cert.Spec.r_main_v71 (Cert.Spec.refArgs m c) := by
  rw [ssa_binary ops_writes _ 89 rfl (by decide) (by decide) (by decide), R_main_v3 m c, R_main_v70 m c]; rfl

theorem R_main_v72 (m : (ℓ : Loc nD τ sig) → Buf (Elt F) ℓ) (c : Dev nD) :
    after ops (launchContents m c) (Proc.devRef .tc main_v72) = Cert.Spec.r_main_v72 (Cert.Spec.refArgs m c) := by
  rw [ssa_ternary ops_writes _ 90 rfl (by decide) (by decide) (by decide) (by decide), R_main_v69 m c, R_main_v71 m c, R_main_v3 m c]; rfl

theorem R_main_v73 (m : (ℓ : Loc nD τ sig) → Buf (Elt F) ℓ) (c : Dev nD) :
    after ops (launchContents m c) (Proc.devRef .tc main_v73) = Cert.Spec.r_main_v73 (Cert.Spec.refArgs m c) := by
  rw [ssa_unary ops_writes _ 91 rfl (by decide) (by decide), R_main_v72 m c]; rfl

theorem R_main_v74 (m : (ℓ : Loc nD τ sig) → Buf (Elt F) ℓ) (c : Dev nD) :
    after ops (launchContents m c) (Proc.devRef .tc main_v74) = Cert.Spec.r_main_v74 (Cert.Spec.refArgs m c) := by
  rw [ssa_binary ops_writes _ 92 rfl (by decide) (by decide) (by decide), R_main_arg0 m c, R_main_v73 m c]; rfl

theorem R_main_v75 (m : (ℓ : Loc nD τ sig) → Buf (Elt F) ℓ) (c : Dev nD) :
    after ops (launchContents m c) (Proc.devRef .tc main_v75) = Cert.Spec.r_main_v75 (Cert.Spec.refArgs m c) := by
  rw [ssa_nary ops_writes _ 93 rfl (by decide) (by decide)]
  show concatenate S1600000x146 1 [⟨S1600000x72, after ops (launchContents m c) (Proc.devRef .tc main_v67)⟩, ⟨S1600000x72, after ops (launchContents m c) (Proc.devRef .tc main_v74)⟩, ⟨S1600000x1, after ops (launchContents m c) (Proc.devRef .tc main_v32)⟩, ⟨S1600000x1, after ops (launchContents m c) (Proc.devRef .tc main_v60)⟩] concatenates_S1600000x72_S1600000x72_S1600000x1_S1600000x1_S1600000x146_d1 = _
  rw [R_main_v67 m c, R_main_v74 m c, R_main_v32 m c, R_main_v60 m c]; rfl

theorem R_main_v76 (m : (ℓ : Loc nD τ sig) → Buf (Elt F) ℓ) (c : Dev nD) :
    after ops (launchContents m c) (Proc.devRef .tc main_v76) = Cert.Spec.r_main_v76 (Cert.Spec.refArgs m c) := by
  rw [ssa_binary ops_writes _ 94 rfl (by decide) (by decide) (by decide), R_main_v75 m c, R_main_arg4 m c]; rfl

theorem R_main_cst_16 (m : (ℓ : Loc nD τ sig) → Buf (Elt F) ℓ) (c : Dev nD) :
    after ops (launchContents m c) (Proc.devRef .tc main_cst_16) = Cert.Spec.r_main_cst_16 (Cert.Spec.refArgs m c) := by
  rw [ssa_nullary ops_writes _ 95 rfl (by decide)]; rfl

theorem R_main_v77 (m : (ℓ : Loc nD τ sig) → Buf (Elt F) ℓ) (c : Dev nD) :
    after ops (launchContents m c) (Proc.devRef .tc main_v77) = Cert.Spec.r_main_v77 (Cert.Spec.refArgs m c) := by
  rw [ssa_binary ops_writes _ 96 rfl (by decide) (by decide) (by decide), R_main_v76 m c, R_main_cst_16 m c]; rfl

theorem R_main_cst_17 (m : (ℓ : Loc nD τ sig) → Buf (Elt F) ℓ) (c : Dev nD) :
    after ops (launchContents m c) (Proc.devRef .tc main_cst_17) = Cert.Spec.r_main_cst_17 (Cert.Spec.refArgs m c) := by
  rw [ssa_nullary ops_writes _ 97 rfl (by decide)]; rfl

theorem R_main_v78 (m : (ℓ : Loc nD τ sig) → Buf (Elt F) ℓ) (c : Dev nD) :
    after ops (launchContents m c) (Proc.devRef .tc main_v78) = Cert.Spec.r_main_v78 (Cert.Spec.refArgs m c) := by
  rw [ssa_unary ops_writes _ 98 rfl (by decide) (by decide), R_main_cst_17 m c]; rfl

theorem R_main_v79 (m : (ℓ : Loc nD τ sig) → Buf (Elt F) ℓ) (c : Dev nD) :
    after ops (launchContents m c) (Proc.devRef .tc main_v79) = Cert.Spec.r_main_v79 (Cert.Spec.refArgs m c) := by
  rw [ssa_binary ops_writes _ 99 rfl (by decide) (by decide) (by decide), R_main_v77 m c, R_main_v78 m c]; rfl

theorem R_main_c_18 (m : (ℓ : Loc nD τ sig) → Buf (Elt F) ℓ) (c : Dev nD) :
    after ops (launchContents m c) (Proc.devRef .tc main_c_18) = Cert.Spec.r_main_c_18 (Cert.Spec.refArgs m c) := by
  rw [ssa_nullary ops_writes _ 100 rfl (by decide)]; rfl

theorem R_main_call0_cst (m : (ℓ : Loc nD τ sig) → Buf (Elt F) ℓ) (c : Dev nD) :
    after ops (launchContents m c) (Proc.devRef .tc main_call0_cst) = Cert.Spec.r_main_call0_cst (Cert.Spec.refArgs m c) := by
  rw [ssa_nullary ops_writes _ 101 rfl (by decide)]; rfl

theorem R_main_call0_v0 (m : (ℓ : Loc nD τ sig) → Buf (Elt F) ℓ) (c : Dev nD) :
    after ops (launchContents m c) (Proc.devRef .tc main_call0_v0) = Cert.Spec.r_main_call0_v0 (Cert.Spec.refArgs m c) := by
  rw [ssa_binary ops_writes _ 102 rfl (by decide) (by decide) (by decide), R_main_v76 m c, R_main_call0_cst m c]; rfl

theorem R_main_call0_v1 (m : (ℓ : Loc nD τ sig) → Buf (Elt F) ℓ) (c : Dev nD) :
    after ops (launchContents m c) (Proc.devRef .tc main_call0_v1) = Cert.Spec.r_main_call0_v1 (Cert.Spec.refArgs m c) := by
  rw [ssa_unary ops_writes _ 103 rfl (by decide) (by decide), R_main_call0_v0 m c]; rfl

theorem R_main_call0_cst_0 (m : (ℓ : Loc nD τ sig) → Buf (Elt F) ℓ) (c : Dev nD) :
    after ops (launchContents m c) (Proc.devRef .tc main_call0_cst_0) = Cert.Spec.r_main_call0_cst_0 (Cert.Spec.refArgs m c) := by
  rw [ssa_nullary ops_writes _ 104 rfl (by decide)]; rfl

theorem R_main_call0_v2 (m : (ℓ : Loc nD τ sig) → Buf (Elt F) ℓ) (c : Dev nD) :
    after ops (launchContents m c) (Proc.devRef .tc main_call0_v2) = Cert.Spec.r_main_call0_v2 (Cert.Spec.refArgs m c) := by
  rw [ssa_unary ops_writes _ 105 rfl (by decide) (by decide), R_main_call0_cst_0 m c]; rfl

theorem R_main_call0_v3 (m : (ℓ : Loc nD τ sig) → Buf (Elt F) ℓ) (c : Dev nD) :
    after ops (launchContents m c) (Proc.devRef .tc main_call0_v3) = Cert.Spec.r_main_call0_v3 (Cert.Spec.refArgs m c) := by
  rw [ssa_binary ops_writes _ 106 rfl (by decide) (by decide) (by decide), R_main_call0_v1 m c, R_main_call0_v2 m c]; rfl

theorem R_main_call0_v4 (m : (ℓ : Loc nD τ sig) → Buf (Elt F) ℓ) (c : Dev nD) :
    after ops (launchContents m c) (Proc.devRef .tc main_call0_v4) = Cert.Spec.r_main_call0_v4 (Cert.Spec.refArgs m c) := by
  rw [ssa_unary ops_writes _ 107 rfl (by decide) (by decide), R_main_call0_v3 m c]; rfl

theorem R_main_call0_v5 (m : (ℓ : Loc nD τ sig) → Buf (Elt F) ℓ) (c : Dev nD) :
    after ops (launchContents m c) (Proc.devRef .tc main_call0_v5) = Cert.Spec.r_main_call0_v5 (Cert.Spec.refArgs m c) := by
  rw [ssa_binary ops_writes _ 108 rfl (by decide) (by decide) (by decide), R_main_v76 m c, R_main_call0_v4 m c]; rfl

theorem R_main_call0_v6 (m : (ℓ : Loc nD τ sig) → Buf (Elt F) ℓ) (c : Dev nD) :
    after ops (launchContents m c) (Proc.devRef .tc main_call0_v6) = Cert.Spec.r_main_call0_v6 (Cert.Spec.refArgs m c) := by
  rw [ssa_binary ops_writes _ 109 rfl (by decide) (by decide) (by decide), R_main_call0_v5 m c]; rfl

theorem R_main_call0_v7 (m : (ℓ : Loc nD τ sig) → Buf (Elt F) ℓ) (c : Dev nD) :
    after ops (launchContents m c) (Proc.devRef .tc main_call0_v7) = Cert.Spec.r_main_call0_v7 (Cert.Spec.refArgs m c) := by
  rw [ssa_unary ops_writes _ 110 rfl (by decide) (by decide), R_main_c_18 m c]; rfl

theorem R_main_call0_cst_1 (m : (ℓ : Loc nD τ sig) → Buf (Elt F) ℓ) (c : Dev nD) :
    after ops (launchContents m c) (Proc.devRef .tc main_call0_cst_1) = Cert.Spec.r_main_call0_cst_1 (Cert.Spec.refArgs m c) := by
  rw [ssa_nullary ops_writes _ 111 rfl (by decide)]; rfl

theorem R_main_call0_v8 (m : (ℓ : Loc nD τ sig) → Buf (Elt F) ℓ) (c : Dev nD) :
    after ops (launchContents m c) (Proc.devRef .tc main_call0_v8) = Cert.Spec.r_main_call0_v8 (Cert.Spec.refArgs m c) := by
  rw [ssa_binary ops_writes _ 112 rfl (by decide) (by decide) (by decide), R_main_call0_cst_1 m c, R_main_call0_v7 m c]; rfl

theorem R_main_call0_cst_2 (m : (ℓ : Loc nD τ sig) → Buf (Elt F) ℓ) (c : Dev nD) :
    after ops (launchContents m c) (Proc.devRef .tc main_call0_cst_2) = Cert.Spec.r_main_call0_cst_2 (Cert.Spec.refArgs m c) := by
  rw [ssa_nullary ops_writes _ 113 rfl (by decide)]; rfl

theorem R_main_call0_v9 (m : (ℓ : Loc nD τ sig) → Buf (Elt F) ℓ) (c : Dev nD) :
    after ops (launchContents m c) (Proc.devRef .tc main_call0_v9) = Cert.Spec.r_main_call0_v9 (Cert.Spec.refArgs m c) := by
  rw [ssa_binary ops_writes _ 114 rfl (by decide) (by decide) (by decide), R_main_call0_v6 m c, R_main_call0_cst_2 m c]; rfl

theorem R_main_call0_v10 (m : (ℓ : Loc nD τ sig) → Buf (Elt F) ℓ) (c : Dev nD) :
    after ops (launchContents m c) (Proc.devRef .tc main_call0_v10) = Cert.Spec.r_main_call0_v10 (Cert.Spec.refArgs m c) := by
  rw [ssa_unary ops_writes _ 115 rfl (by decide) (by decide), R_main_call0_v8 m c]; rfl

theorem R_main_call0_v11 (m : (ℓ : Loc nD τ sig) → Buf (Elt F) ℓ) (c : Dev nD) :
    after ops (launchContents m c) (Proc.devRef .tc main_call0_v11) = Cert.Spec.r_main_call0_v11 (Cert.Spec.refArgs m c) := by
  rw [ssa_binary ops_writes _ 116 rfl (by decide) (by decide) (by decide), R_main_call0_v9 m c, R_main_call0_v10 m c]; rfl

theorem R_main_call0_cst_3 (m : (ℓ : Loc nD τ sig) → Buf (Elt F) ℓ) (c : Dev nD) :
    after ops (launchContents m c) (Proc.devRef .tc main_call0_cst_3) = Cert.Spec.r_main_call0_cst_3 (Cert.Spec.refArgs m c) := by
  rw [ssa_nullary ops_writes _ 117 rfl (by decide)]; rfl

theorem R_main_call0_v12 (m : (ℓ : Loc nD τ sig) → Buf (Elt F) ℓ) (c : Dev nD) :
    after ops (launchContents m c) (Proc.devRef .tc main_call0_v12) = Cert.Spec.r_main_call0_v12 (Cert.Spec.refArgs m c) := by
  rw [ssa_binary ops_writes _ 118 rfl (by decide) (by decide) (by decide), R_main_call0_v8 m c, R_main_call0_cst_3 m c]; rfl

theorem R_main_call0_cst_4 (m : (ℓ : Loc nD τ sig) → Buf (Elt F) ℓ) (c : Dev nD) :
    after ops (launchContents m c) (Proc.devRef .tc main_call0_cst_4) = Cert.Spec.r_main_call0_cst_4 (Cert.Spec.refArgs m c) := by
  rw [ssa_nullary ops_writes _ 119 rfl (by decide)]; rfl

theorem R_main_call0_call0_v0 (m : (ℓ : Loc nD τ sig) → Buf (Elt F) ℓ) (c : Dev nD) :
    after ops (launchContents m c) (Proc.devRef .tc main_call0_call0_v0) = Cert.Spec.r_main_call0_call0_v0 (Cert.Spec.refArgs m c) := by
  rw [ssa_unary ops_writes _ 120 rfl (by decide) (by decide), R_main_call0_cst_4 m c]; rfl

theorem R_main_call0_call0_v1 (m : (ℓ : Loc nD τ sig) → Buf (Elt F) ℓ) (c : Dev nD) :
    after ops (launchContents m c) (Proc.devRef .tc main_call0_call0_v1) = Cert.Spec.r_main_call0_call0_v1 (Cert.Spec.refArgs m c) := by
  rw [ssa_unary ops_writes _ 121 rfl (by decide) (by decide), R_main_call0_call0_v0 m c]; rfl

theorem R_main_v80 (m : (ℓ : Loc nD τ sig) → Buf (Elt F) ℓ) (c : Dev nD) :
    after ops (launchContents m c) (Proc.devRef .tc main_v80) = Cert.Spec.r_main_v80 (Cert.Spec.refArgs m c) := by
  rw [ssa_ternary ops_writes _ 122 rfl (by decide) (by decide) (by decide) (by decide), R_main_call0_v12 m c, R_main_call0_v11 m c, R_main_call0_call0_v1 m c]; rfl

theorem R_main_v81 (m : (ℓ : Loc nD τ sig) → Buf (Elt F) ℓ) (c : Dev nD) :
    after ops (launchContents m c) (Proc.devRef .tc main_v81) = Cert.Spec.r_main_v81 (Cert.Spec.refArgs m c) := by
  rw [ssa_unary ops_writes _ 123 rfl (by decide) (by decide), R_main_v79 m c]; rfl

theorem R_main_v82 (m : (ℓ : Loc nD τ sig) → Buf (Elt F) ℓ) (c : Dev nD) :
    after ops (launchContents m c) (Proc.devRef .tc main_v82) = Cert.Spec.r_main_v82 (Cert.Spec.refArgs m c) := by
  rw [ssa_unary ops_writes _ 124 rfl (by decide) (by decide), R_main_v81 m c]; rfl

theorem R_main_v83 (m : (ℓ : Loc nD τ sig) → Buf (Elt F) ℓ) (c : Dev nD) :
    after ops (launchContents m c) (Proc.devRef .tc main_v83) = Cert.Spec.r_main_v83 (Cert.Spec.refArgs m c) := by
  rw [ssa_binary ops_writes _ 125 rfl (by decide) (by decide) (by decide), R_main_v76 m c, R_main_v82 m c]; rfl

theorem R_main_cst_19 (m : (ℓ : Loc nD τ sig) → Buf (Elt F) ℓ) (c : Dev nD) :
    after ops (launchContents m c) (Proc.devRef .tc main_cst_19) = Cert.Spec.r_main_cst_19 (Cert.Spec.refArgs m c) := by
  rw [ssa_nullary ops_writes _ 126 rfl (by decide)]; rfl

theorem R_main_v84 (m : (ℓ : Loc nD τ sig) → Buf (Elt F) ℓ) (c : Dev nD) :
    after ops (launchContents m c) (Proc.devRef .tc main_v84) = Cert.Spec.r_main_v84 (Cert.Spec.refArgs m c) := by
  rw [ssa_unary ops_writes _ 127 rfl (by decide) (by decide), R_main_cst_19 m c]; rfl

theorem R_main_v85 (m : (ℓ : Loc nD τ sig) → Buf (Elt F) ℓ) (c : Dev nD) :
    after ops (launchContents m c) (Proc.devRef .tc main_v85) = Cert.Spec.r_main_v85 (Cert.Spec.refArgs m c) := by
  rw [ssa_binary ops_writes _ 128 rfl (by decide) (by decide) (by decide), R_main_v80 m c, R_main_v84 m c]; rfl

theorem R_main_v86 (m : (ℓ : Loc nD τ sig) → Buf (Elt F) ℓ) (c : Dev nD) :
    after ops (launchContents m c) (Proc.devRef .tc main_v86) = Cert.Spec.r_main_v86 (Cert.Spec.refArgs m c) := by
  rw [ssa_unary ops_writes _ 129 rfl (by decide) (by decide), R_main_v85 m c]; rfl

theorem R_main_v87 (m : (ℓ : Loc nD τ sig) → Buf (Elt F) ℓ) (c : Dev nD) :
    after ops (launchContents m c) (Proc.devRef .tc main_v87) = Cert.Spec.r_main_v87 (Cert.Spec.refArgs m c) := by
  rw [ssa_unary ops_writes _ 130 rfl (by decide) (by decide), R_main_v86 m c]; rfl

theorem R_main_v88 (m : (ℓ : Loc nD τ sig) → Buf (Elt F) ℓ) (c : Dev nD) :
    after ops (launchContents m c) (Proc.devRef .tc main_v88) = Cert.Spec.r_main_v88 (Cert.Spec.refArgs m c) := by
  rw [ssa_unary ops_writes _ 131 rfl (by decide) (by decide), R_main_v87 m c]; rfl

theorem R_main_v89 (m : (ℓ : Loc nD τ sig) → Buf (Elt F) ℓ) (c : Dev nD) :
    after ops (launchContents m c) (Proc.devRef .tc main_v89) = Cert.Spec.r_main_v89 (Cert.Spec.refArgs m c) := by
  rw [ssa_binary ops_writes _ 132 rfl (by decide) (by decide) (by decide), R_main_v83 m c, R_main_v88 m c]; rfl

theorem R_main_v90 (m : (ℓ : Loc nD τ sig) → Buf (Elt F) ℓ) (c : Dev nD) :
    after ops (launchContents m c) (Proc.devRef .tc main_v90) = Cert.Spec.r_main_v90 (Cert.Spec.refArgs m c) := by
  rw [ssa_unary ops_writes _ 133 rfl (by decide) (by decide), R_main_arg5 m c]; rfl

theorem R_main_v91 (m : (ℓ : Loc nD τ sig) → Buf (Elt F) ℓ) (c : Dev nD) :
    after ops (launchContents m c) (Proc.devRef .tc main_v91) = Cert.Spec.r_main_v91 (Cert.Spec.refArgs m c) := by
  rw [ssa_unary ops_writes _ 134 rfl (by decide) (by decide), R_main_v90 m c]; rfl

theorem R_main_v92 (m : (ℓ : Loc nD τ sig) → Buf (Elt F) ℓ) (c : Dev nD) :
    after ops (launchContents m c) (Proc.devRef .tc main_v92) = Cert.Spec.r_main_v92 (Cert.Spec.refArgs m c) := by
  rw [ssa_binary ops_writes _ 135 rfl (by decide) (by decide) (by decide), R_main_v89 m c, R_main_v91 m c]; rfl

theorem R_main_v93 (m : (ℓ : Loc nD τ sig) → Buf (Elt F) ℓ) (c : Dev nD) :
    after ops (launchContents m c) (Proc.devRef .tc main_v93) = Cert.Spec.r_main_v93 (Cert.Spec.refArgs m c) := by
  rw [ssa_unary ops_writes _ 136 rfl (by decide) (by decide), R_main_arg6 m c]; rfl

theorem R_main_v94 (m : (ℓ : Loc nD τ sig) → Buf (Elt F) ℓ) (c : Dev nD) :
    after ops (launchContents m c) (Proc.devRef .tc main_v94) = Cert.Spec.r_main_v94 (Cert.Spec.refArgs m c) := by
  rw [ssa_unary ops_writes _ 137 rfl (by decide) (by decide), R_main_v93 m c]; rfl

theorem R_main_v95 (m : (ℓ : Loc nD τ sig) → Buf (Elt F) ℓ) (c : Dev nD) :
    after ops (launchContents m c) (Proc.devRef .tc main_v95) = Cert.Spec.r_main_v95 (Cert.Spec.refArgs m c) := by
  rw [ssa_binary ops_writes _ 138 rfl (by decide) (by decide) (by decide), R_main_v92 m c, R_main_v94 m c]; rfl

theorem R_main_call1_cst (m : (ℓ : Loc nD τ sig) → Buf (Elt F) ℓ) (c : Dev nD) :
    after ops (launchContents m c) (Proc.devRef .tc main_call1_cst) = Cert.Spec.r_main_call1_cst (Cert.Spec.refArgs m c) := by
  rw [ssa_nullary ops_writes _ 139 rfl (by decide)]; rfl

theorem R_main_call1_v0 (m : (ℓ : Loc nD τ sig) → Buf (Elt F) ℓ) (c : Dev nD) :
    after ops (launchContents m c) (Proc.devRef .tc main_call1_v0) = Cert.Spec.r_main_call1_v0 (Cert.Spec.refArgs m c) := by
  rw [ssa_unary ops_writes _ 140 rfl (by decide) (by decide), R_main_call1_cst m c]; rfl

theorem R_main_v96 (m : (ℓ : Loc nD τ sig) → Buf (Elt F) ℓ) (c : Dev nD) :
    after ops (launchContents m c) (Proc.devRef .tc main_v96) = Cert.Spec.r_main_v96 (Cert.Spec.refArgs m c) := by
  rw [ssa_binary ops_writes _ 141 rfl (by decide) (by decide) (by decide), R_main_v95 m c, R_main_call1_v0 m c]; rfl

theorem R_main_v97 (m : (ℓ : Loc nD τ sig) → Buf (Elt F) ℓ) (c : Dev nD) :
    after ops (launchContents m c) (Proc.devRef .tc main_v97) = Cert.Spec.r_main_v97 (Cert.Spec.refArgs m c) := by
  rw [ssa_binary ops_writes _ 142 rfl (by decide) (by decide) (by decide), R_main_v96 m c, R_main_arg7 m c]; rfl

theorem R_main_v98 (m : (ℓ : Loc nD τ sig) → Buf (Elt F) ℓ) (c : Dev nD) :
    after ops (launchContents m c) (Proc.devRef .tc main_v98) = Cert.Spec.r_main_v98 (Cert.Spec.refArgs m c) := by
  rw [ssa_unary ops_writes _ 143 rfl (by decide) (by decide), R_main_arg8 m c]; rfl

theorem R_main_v99 (m : (ℓ : Loc nD τ sig) → Buf (Elt F) ℓ) (c : Dev nD) :
    after ops (launchContents m c) (Proc.devRef .tc main_v99) = Cert.Spec.r_main_v99 (Cert.Spec.refArgs m c) := by
  rw [ssa_unary ops_writes _ 144 rfl (by decide) (by decide), R_main_v98 m c]; rfl

theorem R_main_v100 (m : (ℓ : Loc nD τ sig) → Buf (Elt F) ℓ) (c : Dev nD) :
    after ops (launchContents m c) (Proc.devRef .tc main_v100) = Cert.Spec.r_main_v100 (Cert.Spec.refArgs m c) := by
  rw [ssa_binary ops_writes _ 145 rfl (by decide) (by decide) (by decide), R_main_v97 m c, R_main_v99 m c]; rfl

theorem R_main_call2_cst (m : (ℓ : Loc nD τ sig) → Buf (Elt F) ℓ) (c : Dev nD) :
    after ops (launchContents m c) (Proc.devRef .tc main_call2_cst) = Cert.Spec.r_main_call2_cst (Cert.Spec.refArgs m c) := by
  rw [ssa_nullary ops_writes _ 146 rfl (by decide)]; rfl

theorem R_main_call2_v0 (m : (ℓ : Loc nD τ sig) → Buf (Elt F) ℓ) (c : Dev nD) :
    after ops (launchContents m c) (Proc.devRef .tc main_call2_v0) = Cert.Spec.r_main_call2_v0 (Cert.Spec.refArgs m c) := by
  rw [ssa_unary ops_writes _ 147 rfl (by decide) (by decide), R_main_call2_cst m c]; rfl

theorem R_main_v101 (m : (ℓ : Loc nD τ sig) → Buf (Elt F) ℓ) (c : Dev nD) :
    after ops (launchContents m c) (Proc.devRef .tc main_v101) = Cert.Spec.r_main_v101 (Cert.Spec.refArgs m c) := by
  rw [ssa_binary ops_writes _ 148 rfl (by decide) (by decide) (by decide), R_main_v100 m c, R_main_call2_v0 m c]; rfl

theorem R_main_v102 (m : (ℓ : Loc nD τ sig) → Buf (Elt F) ℓ) (c : Dev nD) :
    after ops (launchContents m c) (Proc.devRef .tc main_v102) = Cert.Spec.r_main_v102 (Cert.Spec.refArgs m c) := by
  rw [ssa_binary ops_writes _ 149 rfl (by decide) (by decide) (by decide), R_main_v101 m c, R_main_arg18 m c]; rfl

theorem R_main_v103 (m : (ℓ : Loc nD τ sig) → Buf (Elt F) ℓ) (c : Dev nD) :
    after ops (launchContents m c) (Proc.devRef .tc main_v103) = Cert.Spec.r_main_v103 (Cert.Spec.refArgs m c) := by
  rw [ssa_unary ops_writes _ 150 rfl (by decide) (by decide), R_main_arg19 m c]; rfl

theorem R_main_v104 (m : (ℓ : Loc nD τ sig) → Buf (Elt F) ℓ) (c : Dev nD) :
    after ops (launchContents m c) (Proc.devRef .tc main_v104) = Cert.Spec.r_main_v104 (Cert.Spec.refArgs m c) := by
  rw [ssa_unary ops_writes _ 151 rfl (by decide) (by decide), R_main_v103 m c]; rfl

theorem R_main_v105 (m : (ℓ : Loc nD τ sig) → Buf (Elt F) ℓ) (c : Dev nD) :
    after ops (launchContents m c) (Proc.devRef .tc main_v105) = Cert.Spec.r_main_v105 (Cert.Spec.refArgs m c) := by
  rw [ssa_binary ops_writes _ 152 rfl (by decide) (by decide) (by decide), R_main_v102 m c, R_main_v104 m c]; rfl

theorem R_main_v106 (m : (ℓ : Loc nD τ sig) → Buf (Elt F) ℓ) (c : Dev nD) :
    after ops (launchContents m c) (Proc.devRef .tc main_v106) = Cert.Spec.r_main_v106 (Cert.Spec.refArgs m c) := by
  rw [ssa_unary ops_writes _ 153 rfl (by decide) (by decide), R_main_v105 m c]; rfl

theorem R_main_v107 (m : (ℓ : Loc nD τ sig) → Buf (Elt F) ℓ) (c : Dev nD) :
    after ops (launchContents m c) (Proc.devRef .tc main_v107) = Cert.Spec.r_main_v107 (Cert.Spec.refArgs m c) := by
  rw [ssa_unary ops_writes _ 154 rfl (by decide) (by decide), R_main_v106 m c]; rfl

theorem R_main_cst_20 (m : (ℓ : Loc nD τ sig) → Buf (Elt F) ℓ) (c : Dev nD) :
    after ops (launchContents m c) (Proc.devRef .tc main_cst_20) = Cert.Spec.r_main_cst_20 (Cert.Spec.refArgs m c) := by
  rw [ssa_nullary ops_writes _ 155 rfl (by decide)]; rfl

theorem R_main_v108 (m : (ℓ : Loc nD τ sig) → Buf (Elt F) ℓ) (c : Dev nD) :
    after ops (launchContents m c) (Proc.devRef .tc main_v108) = Cert.Spec.r_main_v108 (Cert.Spec.refArgs m c) := by
  rw [ssa_unary ops_writes _ 156 rfl (by decide) (by decide), R_main_cst_20 m c]; rfl

theorem R_main_v109 (m : (ℓ : Loc nD τ sig) → Buf (Elt F) ℓ) (c : Dev nD) :
    after ops (launchContents m c) (Proc.devRef .tc main_v109) = Cert.Spec.r_main_v109 (Cert.Spec.refArgs m c) := by
  rw [ssa_binary ops_writes _ 157 rfl (by decide) (by decide) (by decide), R_main_v108 m c, R_main_v107 m c]; rfl

theorem R_main_cst_21 (m : (ℓ : Loc nD τ sig) → Buf (Elt F) ℓ) (c : Dev nD) :
    after ops (launchContents m c) (Proc.devRef .tc main_cst_21) = Cert.Spec.r_main_cst_21 (Cert.Spec.refArgs m c) := by
  rw [ssa_nullary ops_writes _ 158 rfl (by decide)]; rfl

theorem R_main_v110 (m : (ℓ : Loc nD τ sig) → Buf (Elt F) ℓ) (c : Dev nD) :
    after ops (launchContents m c) (Proc.devRef .tc main_v110) = Cert.Spec.r_main_v110 (Cert.Spec.refArgs m c) := by
  rw [ssa_unary ops_writes _ 159 rfl (by decide) (by decide), R_main_cst_21 m c]; rfl

theorem R_main_v111 (m : (ℓ : Loc nD τ sig) → Buf (Elt F) ℓ) (c : Dev nD) :
    after ops (launchContents m c) (Proc.devRef .tc main_v111) = Cert.Spec.r_main_v111 (Cert.Spec.refArgs m c) := by
  rw [ssa_binary ops_writes _ 160 rfl (by decide) (by decide) (by decide), R_main_v110 m c, R_main_v109 m c]; rfl

theorem R_main_v112 (m : (ℓ : Loc nD τ sig) → Buf (Elt F) ℓ) (c : Dev nD) :
    after ops (launchContents m c) (Proc.devRef .tc main_v112) = Cert.Spec.r_main_v112 (Cert.Spec.refArgs m c) := by
  rw [ssa_unary ops_writes _ 161 rfl (by decide) (by decide), R_main_v111 m c]; rfl

theorem R_main_v113 (m : (ℓ : Loc nD τ sig) → Buf (Elt F) ℓ) (c : Dev nD) :
    after ops (launchContents m c) (Proc.devRef .tc main_v113) = Cert.Spec.r_main_v113 (Cert.Spec.refArgs m c) := by
  rw [ssa_binary ops_writes _ 162 rfl (by decide) (by decide) (by decide), R_main_v101 m c, R_main_v112 m c]; rfl

theorem R_main_v114 (m : (ℓ : Loc nD τ sig) → Buf (Elt F) ℓ) (c : Dev nD) :
    after ops (launchContents m c) (Proc.devRef .tc main_v114) = Cert.Spec.r_main_v114 (Cert.Spec.refArgs m c) := by
  rw [ssa_binary ops_writes _ 163 rfl (by decide) (by decide) (by decide), R_main_v113 m c, R_main_arg15 m c]; rfl

theorem R_main_v115 (m : (ℓ : Loc nD τ sig) → Buf (Elt F) ℓ) (c : Dev nD) :
    after ops (launchContents m c) (Proc.devRef .tc main_v115) = Cert.Spec.r_main_v115 (Cert.Spec.refArgs m c) := by
  rw [ssa_unary ops_writes _ 164 rfl (by decide) (by decide), R_main_arg16 m c]; rfl

theorem R_main_v116 (m : (ℓ : Loc nD τ sig) → Buf (Elt F) ℓ) (c : Dev nD) :
    after ops (launchContents m c) (Proc.devRef .tc main_v116) = Cert.Spec.r_main_v116 (Cert.Spec.refArgs m c) := by
  rw [ssa_unary ops_writes _ 165 rfl (by decide) (by decide), R_main_v115 m c]; rfl

theorem R_main_v117 (m : (ℓ : Loc nD τ sig) → Buf (Elt F) ℓ) (c : Dev nD) :
    after ops (launchContents m c) (Proc.devRef .tc main_v117) = Cert.Spec.r_main_v117 (Cert.Spec.refArgs m c) := by
  rw [ssa_binary ops_writes _ 166 rfl (by decide) (by decide) (by decide), R_main_v114 m c, R_main_v116 m c]; rfl

theorem R_main_call3_cst (m : (ℓ : Loc nD τ sig) → Buf (Elt F) ℓ) (c : Dev nD) :
    after ops (launchContents m c) (Proc.devRef .tc main_call3_cst) = Cert.Spec.r_main_call3_cst (Cert.Spec.refArgs m c) := by
  rw [ssa_nullary ops_writes _ 167 rfl (by decide)]; rfl

theorem R_main_call3_v0 (m : (ℓ : Loc nD τ sig) → Buf (Elt F) ℓ) (c : Dev nD) :
    after ops (launchContents m c) (Proc.devRef .tc main_call3_v0) = Cert.Spec.r_main_call3_v0 (Cert.Spec.refArgs m c) := by
  rw [ssa_unary ops_writes _ 168 rfl (by decide) (by decide), R_main_call3_cst m c]; rfl

theorem R_main_v118 (m : (ℓ : Loc nD τ sig) → Buf (Elt F) ℓ) (c : Dev nD) :
    after ops (launchContents m c) (Proc.devRef .tc main_v118) = Cert.Spec.r_main_v118 (Cert.Spec.refArgs m c) := by
  rw [ssa_binary ops_writes _ 169 rfl (by decide) (by decide) (by decide), R_main_v117 m c, R_main_call3_v0 m c]; rfl

theorem R_main_v119 (m : (ℓ : Loc nD τ sig) → Buf (Elt F) ℓ) (c : Dev nD) :
    after ops (launchContents m c) (Proc.devRef .tc main_v119) = Cert.Spec.r_main_v119 (Cert.Spec.refArgs m c) := by
  rw [ssa_binary ops_writes _ 170 rfl (by decide) (by decide) (by decide), R_main_v118 m c, R_main_arg17 m c]; rfl

theorem R_main_v120 (m : (ℓ : Loc nD τ sig) → Buf (Elt F) ℓ) (c : Dev nD) :
    after ops (launchContents m c) (Proc.devRef .tc main_v120) = Cert.Spec.r_main_v120 (Cert.Spec.refArgs m c) := by
  rw [ssa_unary ops_writes _ 171 rfl (by decide) (by decide), R_main_v119 m c]; rfl

theorem R_main_v121 (m : (ℓ : Loc nD τ sig) → Buf (Elt F) ℓ) (c : Dev nD) :
    after ops (launchContents m c) (Proc.devRef .tc main_v121) = Cert.Spec.r_main_v121 (Cert.Spec.refArgs m c) := by
  rw [ssa_binary ops_writes _ 172 rfl (by decide) (by decide) (by decide), R_main_v18 m c, R_main_v120 m c]; rfl

theorem R_main_cst_22 (m : (ℓ : Loc nD τ sig) → Buf (Elt F) ℓ) (c : Dev nD) :
    after ops (launchContents m c) (Proc.devRef .tc main_cst_22) = Cert.Spec.r_main_cst_22 (Cert.Spec.refArgs m c) := by
  rw [ssa_nullary ops_writes _ 173 rfl (by decide)]; rfl

theorem R_main_cst_23 (m : (ℓ : Loc nD τ sig) → Buf (Elt F) ℓ) (c : Dev nD) :
    after ops (launchContents m c) (Proc.devRef .tc main_cst_23) = Cert.Spec.r_main_cst_23 (Cert.Spec.refArgs m c) := by
  rw [ssa_nullary ops_writes _ 174 rfl (by decide)]; rfl

theorem R_main_call4_v0 (m : (ℓ : Loc nD τ sig) → Buf (Elt F) ℓ) (c : Dev nD) :
    after ops (launchContents m c) (Proc.devRef .tc main_call4_v0) = Cert.Spec.r_main_call4_v0 (Cert.Spec.refArgs m c) := by
  rw [ssa_unary ops_writes _ 175 rfl (by decide) (by decide), R_main_cst_22 m c]; rfl

theorem R_main_call4_v1 (m : (ℓ : Loc nD τ sig) → Buf (Elt F) ℓ) (c : Dev nD) :
    after ops (launchContents m c) (Proc.devRef .tc main_call4_v1) = Cert.Spec.r_main_call4_v1 (Cert.Spec.refArgs m c) := by
  rw [ssa_unary ops_writes _ 176 rfl (by decide) (by decide), R_main_call4_v0 m c]; rfl

theorem R_main_call4_v2 (m : (ℓ : Loc nD τ sig) → Buf (Elt F) ℓ) (c : Dev nD) :
    after ops (launchContents m c) (Proc.devRef .tc main_call4_v2) = Cert.Spec.r_main_call4_v2 (Cert.Spec.refArgs m c) := by
  rw [ssa_binary ops_writes _ 177 rfl (by decide) (by decide) (by decide), R_main_call4_v1 m c, R_main_v121 m c]; rfl

theorem R_main_call4_v3 (m : (ℓ : Loc nD τ sig) → Buf (Elt F) ℓ) (c : Dev nD) :
    after ops (launchContents m c) (Proc.devRef .tc main_call4_v3) = Cert.Spec.r_main_call4_v3 (Cert.Spec.refArgs m c) := by
  rw [ssa_unary ops_writes _ 178 rfl (by decide) (by decide), R_main_cst_23 m c]; rfl

theorem R_main_call4_v4 (m : (ℓ : Loc nD τ sig) → Buf (Elt F) ℓ) (c : Dev nD) :
    after ops (launchContents m c) (Proc.devRef .tc main_call4_v4) = Cert.Spec.r_main_call4_v4 (Cert.Spec.refArgs m c) := by
  rw [ssa_unary ops_writes _ 179 rfl (by decide) (by decide), R_main_call4_v3 m c]; rfl

theorem R_main_v122 (m : (ℓ : Loc nD τ sig) → Buf (Elt F) ℓ) (c : Dev nD) :
    after ops (launchContents m c) (Proc.devRef .tc main_v122) = Cert.Spec.r_main_v122 (Cert.Spec.refArgs m c) := by
  rw [ssa_binary ops_writes _ 180 rfl (by decide) (by decide) (by decide), R_main_call4_v4 m c, R_main_call4_v2 m c]; rfl

theorem R_main_cst_24 (m : (ℓ : Loc nD τ sig) → Buf (Elt F) ℓ) (c : Dev nD) :
    after ops (launchContents m c) (Proc.devRef .tc main_cst_24) = Cert.Spec.r_main_cst_24 (Cert.Spec.refArgs m c) := by
  rw [ssa_nullary ops_writes _ 181 rfl (by decide)]; rfl

theorem R_main_v123 (m : (ℓ : Loc nD τ sig) → Buf (Elt F) ℓ) (c : Dev nD) :
    after ops (launchContents m c) (Proc.devRef .tc main_v123) = Cert.Spec.r_main_v123 (Cert.Spec.refArgs m c) := by
  rw [ssa_unary ops_writes _ 182 rfl (by decide) (by decide), R_main_cst_24 m c]; rfl

theorem R_main_cst_25 (m : (ℓ : Loc nD τ sig) → Buf (Elt F) ℓ) (c : Dev nD) :
    after ops (launchContents m c) (Proc.devRef .tc main_cst_25) = Cert.Spec.r_main_cst_25 (Cert.Spec.refArgs m c) := by
  rw [ssa_nullary ops_writes _ 183 rfl (by decide)]; rfl

theorem R_main_v124 (m : (ℓ : Loc nD τ sig) → Buf (Elt F) ℓ) (c : Dev nD) :
    after ops (launchContents m c) (Proc.devRef .tc main_v124) = Cert.Spec.r_main_v124 (Cert.Spec.refArgs m c) := by
  rw [ssa_unary ops_writes _ 184 rfl (by decide) (by decide), R_main_cst_25 m c]; rfl

theorem R_main_v125 (m : (ℓ : Loc nD τ sig) → Buf (Elt F) ℓ) (c : Dev nD) :
    after ops (launchContents m c) (Proc.devRef .tc main_v125) = Cert.Spec.r_main_v125 (Cert.Spec.refArgs m c) := by
  rw [ssa_unary ops_writes _ 185 rfl (by decide) (by decide), R_main_v1 m c]; rfl

theorem R_main_v126 (m : (ℓ : Loc nD τ sig) → Buf (Elt F) ℓ) (c : Dev nD) :
    after ops (launchContents m c) (Proc.devRef .tc main_v126) = Cert.Spec.r_main_v126 (Cert.Spec.refArgs m c) := by
  rw [ssa_ternary ops_writes _ 186 rfl (by decide) (by decide) (by decide) (by decide), R_main_v124 m c, R_main_v125 m c, R_main_v123 m c]; rfl

theorem R_main_cst_26 (m : (ℓ : Loc nD τ sig) → Buf (Elt F) ℓ) (c : Dev nD) :
    after ops (launchContents m c) (Proc.devRef .tc main_cst_26) = Cert.Spec.r_main_cst_26 (Cert.Spec.refArgs m c) := by
  rw [ssa_nullary ops_writes _ 187 rfl (by decide)]; rfl

theorem R_main_v127 (m : (ℓ : Loc nD τ sig) → Buf (Elt F) ℓ) (c : Dev nD) :
    after ops (launchContents m c) (Proc.devRef .tc main_v127) = Cert.Spec.r_main_v127 (Cert.Spec.refArgs m c) := by
  rw [ssa_unary ops_writes _ 188 rfl (by decide) (by decide), R_main_cst_26 m c]; rfl

theorem R_main_v128 (m : (ℓ : Loc nD τ sig) → Buf (Elt F) ℓ) (c : Dev nD) :
    after ops (launchContents m c) (Proc.devRef .tc main_v128) = Cert.Spec.r_main_v128 (Cert.Spec.refArgs m c) := by
  rw [ssa_unary ops_writes _ 189 rfl (by decide) (by decide), R_main_v1 m c]; rfl

theorem R_main_v129 (m : (ℓ : Loc nD τ sig) → Buf (Elt F) ℓ) (c : Dev nD) :
    after ops (launchContents m c) (Proc.devRef .tc main_v129) = Cert.Spec.r_main_v129 (Cert.Spec.refArgs m c) := by
  rw [ssa_ternary ops_writes _ 190 rfl (by decide) (by decide) (by decide) (by decide), R_main_v127 m c, R_main_v128 m c, R_main_v122 m c]; rfl

theorem R_main_cst_27 (m : (ℓ : Loc nD τ sig) → Buf (Elt F) ℓ) (c : Dev nD) :
    after ops (launchContents m c) (Proc.devRef .tc main_cst_27) = Cert.Spec.r_main_cst_27 (Cert.Spec.refArgs m c) := by
  rw [ssa_nullary ops_writes _ 191 rfl (by decide)]; rfl

theorem R_main_v130 (m : (ℓ : Loc nD τ sig) → Buf (Elt F) ℓ) (c : Dev nD) :
    after ops (launchContents m c) (Proc.devRef .tc main_v130) = Cert.Spec.r_main_v130 (Cert.Spec.refArgs m c) := by
  rw [ssa_unary ops_writes _ 192 rfl (by decide) (by decide), R_main_cst_27 m c]; rfl

theorem R_main_v131 (m : (ℓ : Loc nD τ sig) → Buf (Elt F) ℓ) (c : Dev nD) :
    after ops (launchContents m c) (Proc.devRef .tc main_v131) = Cert.Spec.r_main_v131 (Cert.Spec.refArgs m c) := by
  rw [ssa_binary ops_writes _ 193 rfl (by decide) (by decide) (by decide), R_main_v126 m c, R_main_v130 m c]; rfl

theorem R_main_v132 (m : (ℓ : Loc nD τ sig) → Buf (Elt F) ℓ) (c : Dev nD) :
    after ops (launchContents m c) (Proc.devRef .tc main_v132) = Cert.Spec.r_main_v132 (Cert.Spec.refArgs m c) := by
  rw [ssa_unary ops_writes _ 194 rfl (by decide) (by decide), R_main_v131 m c]; rfl

theorem R_main_v133 (m : (ℓ : Loc nD τ sig) → Buf (Elt F) ℓ) (c : Dev nD) :
    after ops (launchContents m c) (Proc.devRef .tc main_v133) = Cert.Spec.r_main_v133 (Cert.Spec.refArgs m c) := by
  rw [ssa_unary ops_writes _ 195 rfl (by decide) (by decide), R_main_v132 m c]; rfl

theorem R_main_v134 (m : (ℓ : Loc nD τ sig) → Buf (Elt F) ℓ) (c : Dev nD) :
    after ops (launchContents m c) (Proc.devRef .tc main_v134) = Cert.Spec.r_main_v134 (Cert.Spec.refArgs m c) := by
  rw [ssa_binary ops_writes _ 196 rfl (by decide) (by decide) (by decide), R_main_v129 m c, R_main_v133 m c]; rfl

theorem R_main_cst_28 (m : (ℓ : Loc nD τ sig) → Buf (Elt F) ℓ) (c : Dev nD) :
    after ops (launchContents m c) (Proc.devRef .tc main_cst_28) = Cert.Spec.r_main_cst_28 (Cert.Spec.refArgs m c) := by
  rw [ssa_nullary ops_writes _ 197 rfl (by decide)]; rfl

theorem R_main_v135 (m : (ℓ : Loc nD τ sig) → Buf (Elt F) ℓ) (c : Dev nD) :
    after ops (launchContents m c) (Proc.devRef .tc main_v135) = Cert.Spec.r_main_v135 (Cert.Spec.refArgs m c) := by
  rw [ssa_unary ops_writes _ 198 rfl (by decide) (by decide), R_main_cst_28 m c]; rfl

theorem R_main_v136 (m : (ℓ : Loc nD τ sig) → Buf (Elt F) ℓ) (c : Dev nD) :
    after ops (launchContents m c) (Proc.devRef .tc main_v136) = Cert.Spec.r_main_v136 (Cert.Spec.refArgs m c) := by
  rw [ssa_binary ops_writes _ 199 rfl (by decide) (by decide) (by decide), R_main_v134 m c, R_main_v135 m c]; rfl

theorem R_main_v137 (m : (ℓ : Loc nD τ sig) → Buf (Elt F) ℓ) (c : Dev nD) :
    after ops (launchContents m c) (Proc.devRef .tc main_v137) = Cert.Spec.r_main_v137 (Cert.Spec.refArgs m c) := by
  rw [ssa_binary ops_writes _ 200 rfl (by decide) (by decide) (by decide), R_main_arg1 m c, R_main_v136 m c]; rfl

theorem R_main_cst_29 (m : (ℓ : Loc nD τ sig) → Buf (Elt F) ℓ) (c : Dev nD) :
    after ops (launchContents m c) (Proc.devRef .tc main_cst_29) = Cert.Spec.r_main_cst_29 (Cert.Spec.refArgs m c) := by
  rw [ssa_nullary ops_writes _ 201 rfl (by decide)]; rfl

theorem R_main_v138 (m : (ℓ : Loc nD τ sig) → Buf (Elt F) ℓ) (c : Dev nD) :
    after ops (launchContents m c) (Proc.devRef .tc main_v138) = Cert.Spec.r_main_v138 (Cert.Spec.refArgs m c) := by
  rw [ssa_unary ops_writes _ 202 rfl (by decide) (by decide), R_main_cst_29 m c]; rfl

theorem R_main_v139 (m : (ℓ : Loc nD τ sig) → Buf (Elt F) ℓ) (c : Dev nD) :
    after ops (launchContents m c) (Proc.devRef .tc main_v139) = Cert.Spec.r_main_v139 (Cert.Spec.refArgs m c) := by
  rw [ssa_unary ops_writes _ 203 rfl (by decide) (by decide), R_main_v1 m c]; rfl

theorem R_main_v140 (m : (ℓ : Loc nD τ sig) → Buf (Elt F) ℓ) (c : Dev nD) :
    after ops (launchContents m c) (Proc.devRef .tc main_v140) = Cert.Spec.r_main_v140 (Cert.Spec.refArgs m c) := by
  rw [ssa_ternary ops_writes _ 204 rfl (by decide) (by decide) (by decide) (by decide), R_main_v138 m c, R_main_v139 m c, R_main_v113 m c]; rfl

theorem R_main_v141 (m : (ℓ : Loc nD τ sig) → Buf (Elt F) ℓ) (c : Dev nD) :
    after ops (launchContents m c) (Proc.devRef .tc main_v141) = Cert.Spec.r_main_v141 (Cert.Spec.refArgs m c) := by
  rw [ssa_nary ops_writes _ 205 rfl (by decide) (by decide)]
  show concatenate S50000x152 1 [⟨S50000x72, after ops (launchContents m c) (Proc.devRef .tc main_arg0)⟩, ⟨S50000x72, after ops (launchContents m c) (Proc.devRef .tc main_v140)⟩, ⟨S50000x8, after ops (launchContents m c) (Proc.devRef .tc main_arg2)⟩] concatenates_S50000x72_S50000x72_S50000x8_S50000x152_d1 = _
  rw [R_main_arg0 m c, R_main_v140 m c, R_main_arg2 m c]; rfl

theorem R_main_v142 (m : (ℓ : Loc nD τ sig) → Buf (Elt F) ℓ) (c : Dev nD) :
    after ops (launchContents m c) (Proc.devRef .tc main_v142) = Cert.Spec.r_main_v142 (Cert.Spec.refArgs m c) := by
  rw [ssa_binary ops_writes _ 206 rfl (by decide) (by decide) (by decide), R_main_v141 m c, R_main_arg9 m c]; rfl

theorem R_main_v143 (m : (ℓ : Loc nD τ sig) → Buf (Elt F) ℓ) (c : Dev nD) :
    after ops (launchContents m c) (Proc.devRef .tc main_v143) = Cert.Spec.r_main_v143 (Cert.Spec.refArgs m c) := by
  rw [ssa_unary ops_writes _ 207 rfl (by decide) (by decide), R_main_arg10 m c]; rfl

theorem R_main_v144 (m : (ℓ : Loc nD τ sig) → Buf (Elt F) ℓ) (c : Dev nD) :
    after ops (launchContents m c) (Proc.devRef .tc main_v144) = Cert.Spec.r_main_v144 (Cert.Spec.refArgs m c) := by
  rw [ssa_unary ops_writes _ 208 rfl (by decide) (by decide), R_main_v143 m c]; rfl

theorem R_main_v145 (m : (ℓ : Loc nD τ sig) → Buf (Elt F) ℓ) (c : Dev nD) :
    after ops (launchContents m c) (Proc.devRef .tc main_v145) = Cert.Spec.r_main_v145 (Cert.Spec.refArgs m c) := by
  rw [ssa_binary ops_writes _ 209 rfl (by decide) (by decide) (by decide), R_main_v142 m c, R_main_v144 m c]; rfl

theorem R_main_cst_30 (m : (ℓ : Loc nD τ sig) → Buf (Elt F) ℓ) (c : Dev nD) :
    after ops (launchContents m c) (Proc.devRef .tc main_cst_30) = Cert.Spec.r_main_cst_30 (Cert.Spec.refArgs m c) := by
  rw [ssa_nullary ops_writes _ 210 rfl (by decide)]; rfl

theorem R_main_v146 (m : (ℓ : Loc nD τ sig) → Buf (Elt F) ℓ) (c : Dev nD) :
    after ops (launchContents m c) (Proc.devRef .tc main_v146) = Cert.Spec.r_main_v146 (Cert.Spec.refArgs m c) := by
  rw [ssa_binary ops_writes _ 211 rfl (by decide) (by decide) (by decide), R_main_v145 m c, R_main_cst_30 m c]; rfl

theorem R_main_cst_31 (m : (ℓ : Loc nD τ sig) → Buf (Elt F) ℓ) (c : Dev nD) :
    after ops (launchContents m c) (Proc.devRef .tc main_cst_31) = Cert.Spec.r_main_cst_31 (Cert.Spec.refArgs m c) := by
  rw [ssa_nullary ops_writes _ 212 rfl (by decide)]; rfl

theorem R_main_v147 (m : (ℓ : Loc nD τ sig) → Buf (Elt F) ℓ) (c : Dev nD) :
    after ops (launchContents m c) (Proc.devRef .tc main_v147) = Cert.Spec.r_main_v147 (Cert.Spec.refArgs m c) := by
  rw [ssa_unary ops_writes _ 213 rfl (by decide) (by decide), R_main_cst_31 m c]; rfl

theorem R_main_v148 (m : (ℓ : Loc nD τ sig) → Buf (Elt F) ℓ) (c : Dev nD) :
    after ops (launchContents m c) (Proc.devRef .tc main_v148) = Cert.Spec.r_main_v148 (Cert.Spec.refArgs m c) := by
  rw [ssa_binary ops_writes _ 214 rfl (by decide) (by decide) (by decide), R_main_v146 m c, R_main_v147 m c]; rfl

theorem R_main_c_32 (m : (ℓ : Loc nD τ sig) → Buf (Elt F) ℓ) (c : Dev nD) :
    after ops (launchContents m c) (Proc.devRef .tc main_c_32) = Cert.Spec.r_main_c_32 (Cert.Spec.refArgs m c) := by
  rw [ssa_nullary ops_writes _ 215 rfl (by decide)]; rfl

theorem R_main_call5_cst (m : (ℓ : Loc nD τ sig) → Buf (Elt F) ℓ) (c : Dev nD) :
    after ops (launchContents m c) (Proc.devRef .tc main_call5_cst) = Cert.Spec.r_main_call5_cst (Cert.Spec.refArgs m c) := by
  rw [ssa_nullary ops_writes _ 216 rfl (by decide)]; rfl

theorem R_main_call5_v0 (m : (ℓ : Loc nD τ sig) → Buf (Elt F) ℓ) (c : Dev nD) :
    after ops (launchContents m c) (Proc.devRef .tc main_call5_v0) = Cert.Spec.r_main_call5_v0 (Cert.Spec.refArgs m c) := by
  rw [ssa_binary ops_writes _ 217 rfl (by decide) (by decide) (by decide), R_main_v145 m c, R_main_call5_cst m c]; rfl

theorem R_main_call5_v1 (m : (ℓ : Loc nD τ sig) → Buf (Elt F) ℓ) (c : Dev nD) :
    after ops (launchContents m c) (Proc.devRef .tc main_call5_v1) = Cert.Spec.r_main_call5_v1 (Cert.Spec.refArgs m c) := by
  rw [ssa_unary ops_writes _ 218 rfl (by decide) (by decide), R_main_call5_v0 m c]; rfl

theorem R_main_call5_cst_0 (m : (ℓ : Loc nD τ sig) → Buf (Elt F) ℓ) (c : Dev nD) :
    after ops (launchContents m c) (Proc.devRef .tc main_call5_cst_0) = Cert.Spec.r_main_call5_cst_0 (Cert.Spec.refArgs m c) := by
  rw [ssa_nullary ops_writes _ 219 rfl (by decide)]; rfl

theorem R_main_call5_v2 (m : (ℓ : Loc nD τ sig) → Buf (Elt F) ℓ) (c : Dev nD) :
    after ops (launchContents m c) (Proc.devRef .tc main_call5_v2) = Cert.Spec.r_main_call5_v2 (Cert.Spec.refArgs m c) := by
  rw [ssa_unary ops_writes _ 220 rfl (by decide) (by decide), R_main_call5_cst_0 m c]; rfl

theorem R_main_call5_v3 (m : (ℓ : Loc nD τ sig) → Buf (Elt F) ℓ) (c : Dev nD) :
    after ops (launchContents m c) (Proc.devRef .tc main_call5_v3) = Cert.Spec.r_main_call5_v3 (Cert.Spec.refArgs m c) := by
  rw [ssa_binary ops_writes _ 221 rfl (by decide) (by decide) (by decide), R_main_call5_v1 m c, R_main_call5_v2 m c]; rfl

theorem R_main_call5_v4 (m : (ℓ : Loc nD τ sig) → Buf (Elt F) ℓ) (c : Dev nD) :
    after ops (launchContents m c) (Proc.devRef .tc main_call5_v4) = Cert.Spec.r_main_call5_v4 (Cert.Spec.refArgs m c) := by
  rw [ssa_unary ops_writes _ 222 rfl (by decide) (by decide), R_main_call5_v3 m c]; rfl

theorem R_main_call5_v5 (m : (ℓ : Loc nD τ sig) → Buf (Elt F) ℓ) (c : Dev nD) :
    after ops (launchContents m c) (Proc.devRef .tc main_call5_v5) = Cert.Spec.r_main_call5_v5 (Cert.Spec.refArgs m c) := by
  rw [ssa_binary ops_writes _ 223 rfl (by decide) (by decide) (by decide), R_main_v145 m c, R_main_call5_v4 m c]; rfl

theorem R_main_call5_v6 (m : (ℓ : Loc nD τ sig) → Buf (Elt F) ℓ) (c : Dev nD) :
    after ops (launchContents m c) (Proc.devRef .tc main_call5_v6) = Cert.Spec.r_main_call5_v6 (Cert.Spec.refArgs m c) := by
  rw [ssa_binary ops_writes _ 224 rfl (by decide) (by decide) (by decide), R_main_call5_v5 m c]; rfl

theorem R_main_call5_v7 (m : (ℓ : Loc nD τ sig) → Buf (Elt F) ℓ) (c : Dev nD) :
    after ops (launchContents m c) (Proc.devRef .tc main_call5_v7) = Cert.Spec.r_main_call5_v7 (Cert.Spec.refArgs m c) := by
  rw [ssa_unary ops_writes _ 225 rfl (by decide) (by decide), R_main_c_32 m c]; rfl

theorem R_main_call5_cst_1 (m : (ℓ : Loc nD τ sig) → Buf (Elt F) ℓ) (c : Dev nD) :
    after ops (launchContents m c) (Proc.devRef .tc main_call5_cst_1) = Cert.Spec.r_main_call5_cst_1 (Cert.Spec.refArgs m c) := by
  rw [ssa_nullary ops_writes _ 226 rfl (by decide)]; rfl

theorem R_main_call5_v8 (m : (ℓ : Loc nD τ sig) → Buf (Elt F) ℓ) (c : Dev nD) :
    after ops (launchContents m c) (Proc.devRef .tc main_call5_v8) = Cert.Spec.r_main_call5_v8 (Cert.Spec.refArgs m c) := by
  rw [ssa_binary ops_writes _ 227 rfl (by decide) (by decide) (by decide), R_main_call5_cst_1 m c, R_main_call5_v7 m c]; rfl

theorem R_main_call5_cst_2 (m : (ℓ : Loc nD τ sig) → Buf (Elt F) ℓ) (c : Dev nD) :
    after ops (launchContents m c) (Proc.devRef .tc main_call5_cst_2) = Cert.Spec.r_main_call5_cst_2 (Cert.Spec.refArgs m c) := by
  rw [ssa_nullary ops_writes _ 228 rfl (by decide)]; rfl

theorem R_main_call5_v9 (m : (ℓ : Loc nD τ sig) → Buf (Elt F) ℓ) (c : Dev nD) :
    after ops (launchContents m c) (Proc.devRef .tc main_call5_v9) = Cert.Spec.r_main_call5_v9 (Cert.Spec.refArgs m c) := by
  rw [ssa_binary ops_writes _ 229 rfl (by decide) (by decide) (by decide), R_main_call5_v6 m c, R_main_call5_cst_2 m c]; rfl

theorem R_main_call5_v10 (m : (ℓ : Loc nD τ sig) → Buf (Elt F) ℓ) (c : Dev nD) :
    after ops (launchContents m c) (Proc.devRef .tc main_call5_v10) = Cert.Spec.r_main_call5_v10 (Cert.Spec.refArgs m c) := by
  rw [ssa_unary ops_writes _ 230 rfl (by decide) (by decide), R_main_call5_v8 m c]; rfl

theorem R_main_call5_v11 (m : (ℓ : Loc nD τ sig) → Buf (Elt F) ℓ) (c : Dev nD) :
    after ops (launchContents m c) (Proc.devRef .tc main_call5_v11) = Cert.Spec.r_main_call5_v11 (Cert.Spec.refArgs m c) := by
  rw [ssa_binary ops_writes _ 231 rfl (by decide) (by decide) (by decide), R_main_call5_v9 m c, R_main_call5_v10 m c]; rfl

theorem R_main_call5_cst_3 (m : (ℓ : Loc nD τ sig) → Buf (Elt F) ℓ) (c : Dev nD) :
    after ops (launchContents m c) (Proc.devRef .tc main_call5_cst_3) = Cert.Spec.r_main_call5_cst_3 (Cert.Spec.refArgs m c) := by
  rw [ssa_nullary ops_writes _ 232 rfl (by decide)]; rfl

theorem R_main_call5_v12 (m : (ℓ : Loc nD τ sig) → Buf (Elt F) ℓ) (c : Dev nD) :
    after ops (launchContents m c) (Proc.devRef .tc main_call5_v12) = Cert.Spec.r_main_call5_v12 (Cert.Spec.refArgs m c) := by
  rw [ssa_binary ops_writes _ 233 rfl (by decide) (by decide) (by decide), R_main_call5_v8 m c, R_main_call5_cst_3 m c]; rfl

theorem R_main_call5_cst_4 (m : (ℓ : Loc nD τ sig) → Buf (Elt F) ℓ) (c : Dev nD) :
    after ops (launchContents m c) (Proc.devRef .tc main_call5_cst_4) = Cert.Spec.r_main_call5_cst_4 (Cert.Spec.refArgs m c) := by
  rw [ssa_nullary ops_writes _ 234 rfl (by decide)]; rfl

theorem R_main_call5_call0_v0 (m : (ℓ : Loc nD τ sig) → Buf (Elt F) ℓ) (c : Dev nD) :
    after ops (launchContents m c) (Proc.devRef .tc main_call5_call0_v0) = Cert.Spec.r_main_call5_call0_v0 (Cert.Spec.refArgs m c) := by
  rw [ssa_unary ops_writes _ 235 rfl (by decide) (by decide), R_main_call5_cst_4 m c]; rfl

theorem R_main_call5_call0_v1 (m : (ℓ : Loc nD τ sig) → Buf (Elt F) ℓ) (c : Dev nD) :
    after ops (launchContents m c) (Proc.devRef .tc main_call5_call0_v1) = Cert.Spec.r_main_call5_call0_v1 (Cert.Spec.refArgs m c) := by
  rw [ssa_unary ops_writes _ 236 rfl (by decide) (by decide), R_main_call5_call0_v0 m c]; rfl

theorem R_main_v149 (m : (ℓ : Loc nD τ sig) → Buf (Elt F) ℓ) (c : Dev nD) :
    after ops (launchContents m c) (Proc.devRef .tc main_v149) = Cert.Spec.r_main_v149 (Cert.Spec.refArgs m c) := by
  rw [ssa_ternary ops_writes _ 237 rfl (by decide) (by decide) (by decide) (by decide), R_main_call5_v12 m c, R_main_call5_v11 m c, R_main_call5_call0_v1 m c]; rfl

theorem R_main_v150 (m : (ℓ : Loc nD τ sig) → Buf (Elt F) ℓ) (c : Dev nD) :
    after ops (launchContents m c) (Proc.devRef .tc main_v150) = Cert.Spec.r_main_v150 (Cert.Spec.refArgs m c) := by
  rw [ssa_unary ops_writes _ 238 rfl (by decide) (by decide), R_main_v148 m c]; rfl

theorem R_main_v151 (m : (ℓ : Loc nD τ sig) → Buf (Elt F) ℓ) (c : Dev nD) :
    after ops (launchContents m c) (Proc.devRef .tc main_v151) = Cert.Spec.r_main_v151 (Cert.Spec.refArgs m c) := by
  rw [ssa_unary ops_writes _ 239 rfl (by decide) (by decide), R_main_v150 m c]; rfl

theorem R_main_v152 (m : (ℓ : Loc nD τ sig) → Buf (Elt F) ℓ) (c : Dev nD) :
    after ops (launchContents m c) (Proc.devRef .tc main_v152) = Cert.Spec.r_main_v152 (Cert.Spec.refArgs m c) := by
  rw [ssa_binary ops_writes _ 240 rfl (by decide) (by decide) (by decide), R_main_v145 m c, R_main_v151 m c]; rfl

theorem R_main_cst_33 (m : (ℓ : Loc nD τ sig) → Buf (Elt F) ℓ) (c : Dev nD) :
    after ops (launchContents m c) (Proc.devRef .tc main_cst_33) = Cert.Spec.r_main_cst_33 (Cert.Spec.refArgs m c) := by
  rw [ssa_nullary ops_writes _ 241 rfl (by decide)]; rfl

theorem R_main_v153 (m : (ℓ : Loc nD τ sig) → Buf (Elt F) ℓ) (c : Dev nD) :
    after ops (launchContents m c) (Proc.devRef .tc main_v153) = Cert.Spec.r_main_v153 (Cert.Spec.refArgs m c) := by
  rw [ssa_unary ops_writes _ 242 rfl (by decide) (by decide), R_main_cst_33 m c]; rfl

theorem R_main_v154 (m : (ℓ : Loc nD τ sig) → Buf (Elt F) ℓ) (c : Dev nD) :
    after ops (launchContents m c) (Proc.devRef .tc main_v154) = Cert.Spec.r_main_v154 (Cert.Spec.refArgs m c) := by
  rw [ssa_binary ops_writes _ 243 rfl (by decide) (by decide) (by decide), R_main_v149 m c, R_main_v153 m c]; rfl

theorem R_main_v155 (m : (ℓ : Loc nD τ sig) → Buf (Elt F) ℓ) (c : Dev nD) :
    after ops (launchContents m c) (Proc.devRef .tc main_v155) = Cert.Spec.r_main_v155 (Cert.Spec.refArgs m c) := by
  rw [ssa_unary ops_writes _ 244 rfl (by decide) (by decide), R_main_v154 m c]; rfl

theorem R_main_v156 (m : (ℓ : Loc nD τ sig) → Buf (Elt F) ℓ) (c : Dev nD) :
    after ops (launchContents m c) (Proc.devRef .tc main_v156) = Cert.Spec.r_main_v156 (Cert.Spec.refArgs m c) := by
  rw [ssa_unary ops_writes _ 245 rfl (by decide) (by decide), R_main_v155 m c]; rfl

theorem R_main_v157 (m : (ℓ : Loc nD τ sig) → Buf (Elt F) ℓ) (c : Dev nD) :
    after ops (launchContents m c) (Proc.devRef .tc main_v157) = Cert.Spec.r_main_v157 (Cert.Spec.refArgs m c) := by
  rw [ssa_unary ops_writes _ 246 rfl (by decide) (by decide), R_main_v156 m c]; rfl

theorem R_main_v158 (m : (ℓ : Loc nD τ sig) → Buf (Elt F) ℓ) (c : Dev nD) :
    after ops (launchContents m c) (Proc.devRef .tc main_v158) = Cert.Spec.r_main_v158 (Cert.Spec.refArgs m c) := by
  rw [ssa_binary ops_writes _ 247 rfl (by decide) (by decide) (by decide), R_main_v152 m c, R_main_v157 m c]; rfl

theorem R_main_v159 (m : (ℓ : Loc nD τ sig) → Buf (Elt F) ℓ) (c : Dev nD) :
    after ops (launchContents m c) (Proc.devRef .tc main_v159) = Cert.Spec.r_main_v159 (Cert.Spec.refArgs m c) := by
  rw [ssa_unary ops_writes _ 248 rfl (by decide) (by decide), R_main_arg11 m c]; rfl

theorem R_main_v160 (m : (ℓ : Loc nD τ sig) → Buf (Elt F) ℓ) (c : Dev nD) :
    after ops (launchContents m c) (Proc.devRef .tc main_v160) = Cert.Spec.r_main_v160 (Cert.Spec.refArgs m c) := by
  rw [ssa_unary ops_writes _ 249 rfl (by decide) (by decide), R_main_v159 m c]; rfl

theorem R_main_v161 (m : (ℓ : Loc nD τ sig) → Buf (Elt F) ℓ) (c : Dev nD) :
    after ops (launchContents m c) (Proc.devRef .tc main_v161) = Cert.Spec.r_main_v161 (Cert.Spec.refArgs m c) := by
  rw [ssa_binary ops_writes _ 250 rfl (by decide) (by decide) (by decide), R_main_v158 m c, R_main_v160 m c]; rfl

theorem R_main_v162 (m : (ℓ : Loc nD τ sig) → Buf (Elt F) ℓ) (c : Dev nD) :
    after ops (launchContents m c) (Proc.devRef .tc main_v162) = Cert.Spec.r_main_v162 (Cert.Spec.refArgs m c) := by
  rw [ssa_unary ops_writes _ 251 rfl (by decide) (by decide), R_main_arg12 m c]; rfl

theorem R_main_v163 (m : (ℓ : Loc nD τ sig) → Buf (Elt F) ℓ) (c : Dev nD) :
    after ops (launchContents m c) (Proc.devRef .tc main_v163) = Cert.Spec.r_main_v163 (Cert.Spec.refArgs m c) := by
  rw [ssa_unary ops_writes _ 252 rfl (by decide) (by decide), R_main_v162 m c]; rfl

theorem R_main_v164 (m : (ℓ : Loc nD τ sig) → Buf (Elt F) ℓ) (c : Dev nD) :
    after ops (launchContents m c) (Proc.devRef .tc main_v164) = Cert.Spec.r_main_v164 (Cert.Spec.refArgs m c) := by
  rw [ssa_binary ops_writes _ 253 rfl (by decide) (by decide) (by decide), R_main_v161 m c, R_main_v163 m c]; rfl

theorem R_main_call6_cst (m : (ℓ : Loc nD τ sig) → Buf (Elt F) ℓ) (c : Dev nD) :
    after ops (launchContents m c) (Proc.devRef .tc main_call6_cst) = Cert.Spec.r_main_call6_cst (Cert.Spec.refArgs m c) := by
  rw [ssa_nullary ops_writes _ 254 rfl (by decide)]; rfl

theorem R_main_call6_v0 (m : (ℓ : Loc nD τ sig) → Buf (Elt F) ℓ) (c : Dev nD) :
    after ops (launchContents m c) (Proc.devRef .tc main_call6_v0) = Cert.Spec.r_main_call6_v0 (Cert.Spec.refArgs m c) := by
  rw [ssa_unary ops_writes _ 255 rfl (by decide) (by decide), R_main_call6_cst m c]; rfl

theorem R_main_v165 (m : (ℓ : Loc nD τ sig) → Buf (Elt F) ℓ) (c : Dev nD) :
    after ops (launchContents m c) (Proc.devRef .tc main_v165) = Cert.Spec.r_main_v165 (Cert.Spec.refArgs m c) := by
  rw [ssa_binary ops_writes _ 256 rfl (by decide) (by decide) (by decide), R_main_v164 m c, R_main_call6_v0 m c]; rfl

theorem R_main_v166 (m : (ℓ : Loc nD τ sig) → Buf (Elt F) ℓ) (c : Dev nD) :
    after ops (launchContents m c) (Proc.devRef .tc main_v166) = Cert.Spec.r_main_v166 (Cert.Spec.refArgs m c) := by
  rw [ssa_binary ops_writes _ 257 rfl (by decide) (by decide) (by decide), R_main_v165 m c, R_main_arg13 m c]; rfl

theorem R_main_v167 (m : (ℓ : Loc nD τ sig) → Buf (Elt F) ℓ) (c : Dev nD) :
    after ops (launchContents m c) (Proc.devRef .tc main_v167) = Cert.Spec.r_main_v167 (Cert.Spec.refArgs m c) := by
  rw [ssa_binary ops_writes _ 258 rfl (by decide) (by decide) (by decide), R_main_arg0 m c, R_main_v166 m c]; rfl

theorem R_main_v168 (m : (ℓ : Loc nD τ sig) → Buf (Elt F) ℓ) (c : Dev nD) :
    after ops (launchContents m c) (Proc.devRef .tc main_v168) = Cert.Spec.r_main_v168 (Cert.Spec.refArgs m c) := by
  rw [ssa_unary ops_writes _ 259 rfl (by decide) (by decide), R_main_arg14 m c]; rfl

theorem R_main_v169 (m : (ℓ : Loc nD τ sig) → Buf (Elt F) ℓ) (c : Dev nD) :
    after ops (launchContents m c) (Proc.devRef .tc main_v169) = Cert.Spec.r_main_v169 (Cert.Spec.refArgs m c) := by
  rw [ssa_unary ops_writes _ 260 rfl (by decide) (by decide), R_main_v168 m c]; rfl

theorem R_main_v170 (m : (ℓ : Loc nD τ sig) → Buf (Elt F) ℓ) (c : Dev nD) :
    after ops (launchContents m c) (Proc.devRef .tc main_v170) = Cert.Spec.r_main_v170 (Cert.Spec.refArgs m c) := by
  rw [ssa_binary ops_writes _ 261 rfl (by decide) (by decide) (by decide), R_main_v167 m c, R_main_v169 m c]; rfl

end Cert.ReferenceIdeal.RefRun

end
-- ==== Proof.RefRun.lean ====
/-
  The reference program's run: its @main is a straight line of host operations (the bodies of the functions it calls
  written out at their call sites), so every weakly fair execution ends with each buffer at its operation applied to its
  operands' contents; read back buffer by buffer, the three results are the values Spec.lean names.
-/
import proofs.«152136_j87351044866445_1_alg».proof.Proof.Gen.ReferenceIdeal
import proofs.«152136_j87351044866445_1_alg».proof.Proof.Spec
import proofs.«152136_j87351044866445_1_alg».proof.Proof.RefRunRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- From any memory with zero counters every weakly fair execution of the reference's @main terminates; its three results end at
    the values of the launch contents of the arguments that Spec.lean names, and the arguments end as launched. -/
theorem run_spec (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v170) = Cert.Spec.r_main_v170 (Cert.Spec.refArgs m c)
      ∧ r.2.mem ((c.tc : Thread nD τ).loc main_v137) = Cert.Spec.r_main_v137 (Cert.Spec.refArgs m c)
      ∧ r.2.mem ((c.tc : Thread nD τ).loc main_v113) = Cert.Spec.r_main_v113 (Cert.Spec.refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v170).trans (R_main_v170 m c), (h c main_v137).trans (R_main_v137 m c), (h c main_v113).trans (R_main_v113 m c),
      (h c main_arg0).trans (A_main_arg0 m c), (h c main_arg1).trans (A_main_arg1 m c), (h c main_arg2).trans (A_main_arg2 m c),
      (h c main_arg3).trans (A_main_arg3 m c), (h c main_arg4).trans (A_main_arg4 m c), (h c main_arg5).trans (A_main_arg5 m c),
      (h c main_arg6).trans (A_main_arg6 m c), (h c main_arg7).trans (A_main_arg7 m c), (h c main_arg8).trans (A_main_arg8 m c),
      (h c main_arg9).trans (A_main_arg9 m c), (h c main_arg10).trans (A_main_arg10 m c), (h c main_arg11).trans (A_main_arg11 m c),
      (h c main_arg12).trans (A_main_arg12 m c), (h c main_arg13).trans (A_main_arg13 m c), (h c main_arg14).trans (A_main_arg14 m c),
      (h c main_arg15).trans (A_main_arg15 m c), (h c main_arg16).trans (A_main_arg16 m c), (h c main_arg17).trans (A_main_arg17 m c),
      (h c main_arg18).trans (A_main_arg18 m c), (h c main_arg19).trans (A_main_arg19 m c)⟩)
    (run_after m ρ)

end Cert.ReferenceIdeal.RefRun

end
-- ==== Proof.lean ====
/-
  The certificate of the graph message-passing layer against its jnp reference.
  Both programs gather h and x by the edge indices; the layer's four dense stages run as four pallas_calls in the kernel
  program and as whole-array host operations in the reference. At the ideal reading every stage is the same function of
  its inputs, entry by entry (Stage0 … Stage3 read the reference's operations, Region0 … Region3 the kernels' blocks):
  a matrix product of a concatenation is the sum of the products of its pieces, a row-shaped batch statistic is the
  vector-shaped one, 1 / (1 + exp(−x)) is the logistic function, and (h + Σ) + b is h + (Σ + b). The host glue between the
  stages (gathers, the batch statistics, the segment sums, the coordinate update) is the same in both programs. So the
  kernel program's run (the generated frame's run, with the three results read off its last boundary and followed back
  boundary by boundary) and the reference's run end at the same three arrays of the launch arguments.
  The two rewrites of the ideal reading are the sign-bit rule's statements.
-/
import proofs.«152136_j87351044866445_1_alg».proof.Defs
import proofs.«152136_j87351044866445_1_alg».proof.Proof.Gen.Kernel
import proofs.«152136_j87351044866445_1_alg».proof.Proof.Gen.Kernel.Frame
import proofs.«152136_j87351044866445_1_alg».proof.Proof.Gen.KernelIdeal
import proofs.«152136_j87351044866445_1_alg».proof.Proof.Gen.KernelIdeal.Frame
import proofs.«152136_j87351044866445_1_alg».proof.Proof.Gen.ReferenceIdeal
import proofs.«152136_j87351044866445_1_alg».proof.Proof.Gen.Pre_finite_inputs
import proofs.«152136_j87351044866445_1_alg».proof.Proof.KRun
import proofs.«152136_j87351044866445_1_alg».proof.Proof.Fold
import proofs.«152136_j87351044866445_1_alg».proof.Proof.Glue
import proofs.«152136_j87351044866445_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.RefRun.run_spec (F := Ideal) m ρ)

/-- The two sign-bit rewrites of the first kernel (the signs of the two Minkowski forms). -/
theorem preserves : Cert.preserves_Kernel_KernelIdeal :=
  ⟨IdealRules.sign_bit.statement _ _, IdealRules.sign_bit.statement _ _⟩

/-- Memories that agree on the arguments give the two programs the same twenty arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.Spec.refArgs m' c = Cert.KSpec.kerArgs m c := by
  obtain ⟨h0, h1, h2, h3, h4, h5, h6, h7, h8, h9, h10, h11, h12, h13, h14, h15, h16, h17, h18, h19⟩ := h
  unfold Cert.Spec.refArgs Cert.KSpec.kerArgs
  rw [h0, h1, h2, h3, h4, h5, h6, h7, h8, h9, h10, h11, h12, h13, h14, h15, h16, h17, h18, h19]

theorem algebraic : Cert.algebraic_KernelIdeal_ReferenceIdeal := by
  intro m ρ m' ρ' _ hagree
  refine ⟨fun c => Cert.KSpec.k_main_v79 (Cert.KSpec.kerArgs m c), fun c => Cert.KSpec.k_main_v65 (Cert.KSpec.kerArgs m c),
    fun c => Cert.KSpec.k_main_v47_0 (Cert.KSpec.kerArgs m c), ?_, ?_⟩
  · exact (θ_run Cert.KernelIdeal.defs _ _).mono
      (fun _ h c => ⟨(h c).1.trans (Cert.KernelIdeal.Fold.h_out m ρ c), (h c).2.1.trans (Cert.KernelIdeal.Fold.x_out m ρ c),
        (h c).2.2.1.trans (Cert.KernelIdeal.Fold.msg m ρ c), (h c).2.2.2⟩)
      (Cert.KernelIdeal.Gen.run_named (F := Ideal) m ρ)
  · refine (θ_run Cert.ReferenceIdeal.defs _ _).mono (fun _ h c => ⟨?_, ?_, ?_, (h c).2.2.2⟩)
      (Cert.ReferenceIdeal.RefRun.run_spec (F := Ideal) m' ρ')
    · rw [(h c).1, args_eq m m' c (hagree c)]; rfl
    · rw [(h c).2.1, args_eq m m' c (hagree c)]; exact (Cert.Glue.x_out_eq _).symm
    · rw [(h c).2.2.1, args_eq m m' c (hagree c)]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
